-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S33x2048 : Shape := ⟨2, ![33, 2048]⟩
abbrev S33 : Shape := ⟨1, ![33]⟩
abbrev S32x33x2048 : Shape := ⟨3, ![32, 33, 2048]⟩
abbrev S32x33 : Shape := ⟨2, ![32, 33]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S33x2048 : S_.BroadcastsInDim S33x2048 (![] : Fin 0 → Fin S33x2048.rank)
  reducesTo_S33x2048_S_d0_1 : S33x2048.ReducesTo [0, 1] S_
  bcast_S_S33 : S_.BroadcastsInDim S33 (![] : Fin 0 → Fin S33.rank)
  reducesTo_S33_S_d0 : S33.ReducesTo [0] S_
  bcast_S_S32x33x2048 : S_.BroadcastsInDim S32x33x2048 (![] : Fin 0 → Fin S32x33x2048.rank)
  reducesTo_S32x33x2048_S_d0_1_2 : S32x33x2048.ReducesTo [0, 1, 2] S_
  bcast_S_S32x33 : S_.BroadcastsInDim S32x33 (![] : Fin 0 → Fin S32x33.rank)
  reducesTo_S32x33_S_d0_1 : S32x33.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_arg5 : FVec F S32x33 .f32) (main_v13 : IVec S_ 1) (main_v16 : IVec S32x33x2048 1) : IVec S_ 1 :=
  let main_c_5 : IVec S_ 1 := constantI S_ 1 1#1
  let main_v17 : IVec S_ 1 := (fun x v => Host.reduce IntOp.andi x v reducesTo_S32x33x2048_S_d0_1_2 h_S_) main_v16 main_c_5
  let main_v18 : IVec S_ 1 := andi main_v13 main_v17
  let main_v19 : FVec F S32x33 .f32 := Host.absf main_arg5
  let main_cst_6 : FVec F S_ .f32 := constant S_ .f32 0x7F800000#32
  let main_v20 : FVec F S32x33 .f32 := broadcastInDim S32x33 ![] bcast_S_S32x33 main_cst_6
  let main_v21 : IVec S32x33 1 := cmpf .olt main_v19 main_v20
  let main_c_7 : IVec S_ 1 := constantI S_ 1 1#1
  let main_v22 : IVec S_ 1 := (fun x v => Host.reduce IntOp.andi x v reducesTo_S32x33_S_d0_1 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg1 main_v24
  let main_c_9 : IVec S_ 32 := constantI S_ 32 1024#32
  let main_v26 : IVec S16384 32 := broadcastInDim S16384 ![] bcast_S_S16384 main_c_9
  let main_v27 : IVec S16384 1 := cmpi .slt main_arg1 main_v26
  let main_v28 : IVec S16384 1 := andi main_v25 main_v27
  let main_c_10 : IVec S_ 1 := constantI S_ 1 1#1
  let main_v29 : IVec S_ 1 := (fun x v => Host.reduce IntOp.andi x v reducesTo_S16384_S_d0 h_S_) main_v28 main_c_10
  let main_v30 : IVec S_ 1 := andi main_v23 main_v29
  main_v30

def fn {F : FTy → Type} [FloatOps F] (main_arg0 : FVec F S16384x2048 .f32) (main_arg1 : IVec S16384 32) (main_arg2 : FVec F S33x2048 .f32) (main_arg3 : FVec F S33 .f32) (main_arg4 : FVec F S32x33x2048 .f32) (main_arg5 : FVec F S32x33 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S33x2048 .f32 := Host.absf main_arg2
  let main_cst_0 : FVec F S_ .f32 := constant S_ .f32 0x7F800000#32
  let main_v5 : FVec F S33x2048 .f32 := broadcastInDim S33x2048 ![] bcast_S_S33x2048 main_cst_0
  let main_v6 : IVec S33x2048 1 := cmpf .olt main_v4 main_v5
  let main_c_1 : IVec S_ 1 := constantI S_ 1 1#1
  let main_v7 : IVec S_ 1 := (fun x v => Host.reduce IntOp.andi x v reducesTo_S33x2048_S_d0_1 h_S_) main_v6 main_c_1
  let main_v8 : IVec S_ 1 := andi main_v3 main_v7
  let main_v9 : FVec F S33 .f32 := Host.absf main_arg3
  let main_cst_2 : FVec F S_ .f32 := constant S_ .f32 0x7F800000#32
  let main_v10 : FVec F S33 .f32 := broadcastInDim S33 ![] bcast_S_S33 main_cst_2
  let main_v11 : IVec S33 1 := cmpf .olt main_v9 main_v10
  let main_c_3 : IVec S_ 1 := constantI S_ 1 1#1
  let main_v12 : IVec S_ 1 := (fun x v => Host.reduce IntOp.andi x v reducesTo_S33_S_d0 h_S_) main_v11 main_c_3
  let main_v13 : IVec S_ 1 := andi main_v8 main_v12
  let main_v14 : FVec F S32x33x2048 .f32 := Host.absf main_arg4
  let main_cst_4 : FVec F S_ .f32 := constant S_ .f32 0x7F800000#32
  let main_v15 : FVec F S32x33x2048 .f32 := broadcastInDim S32x33x2048 ![] bcast_S_S32x33x2048 main_cst_4
  let main_v16 : IVec S32x33x2048 1 := cmpf .olt main_v14 main_v15
  fn_part1 (F := F) main_arg1 main_arg5 main_v13 main_v16
-- ==== Kernel.lean ====
abbrev S16384x2048 : Shape := ⟨2, ![16384, 2048]⟩
abbrev S16384 : Shape := ⟨1, ![16384]⟩
abbrev S33x2048 : Shape := ⟨2, ![33, 2048]⟩
abbrev S33 : Shape := ⟨1, ![33]⟩
abbrev S32x33x2048 : Shape := ⟨3, ![32, 33, 2048]⟩
abbrev S32x33 : Shape := ⟨2, ![32, 33]⟩
abbrev S_ : Shape := ⟨0, ![]⟩
abbrev S16384x1 : Shape := ⟨2, ![16384, 1]⟩
abbrev S2048x33 : Shape := ⟨2, ![2048, 33]⟩
abbrev S1x33 : Shape := ⟨2, ![1, 33]⟩
abbrev S1056x2048 : Shape := ⟨2, ![1056, 2048]⟩
abbrev S2048x1056 : Shape := ⟨2, ![2048, 1056]⟩
abbrev S1x1056 : Shape := ⟨2, ![1, 1056]⟩
abbrev S16384x1024 : Shape := ⟨2, ![16384, 1024]⟩
abbrev S1x1 : Shape := ⟨2, ![1, 1]⟩
abbrev S1024x2048 : Shape := ⟨2, ![1024, 2048]⟩
abbrev S1024x1 : Shape := ⟨2, ![1024, 1]⟩
abbrev S1024x1024 : Shape := ⟨2, ![1024, 1024]⟩
abbrev S1024x33 : Shape := ⟨2, ![1024, 33]⟩
abbrev S1024 : Shape := ⟨1, ![1024]⟩
abbrev S1 : Shape := ⟨1, ![1]⟩
abbrev S1024x1056 : Shape := ⟨2, ![1024, 1056]⟩
abbrev S1024x32 : Shape := ⟨2, ![1024, 32]⟩

abbrev nBuf : Space → Nat
  | .hbm => 58
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S33x2048, .f32⟩
  | .hbm, ⟨3, _⟩ => ⟨S33, .f32⟩
  | .hbm, ⟨4, _⟩ => ⟨S32x33x2048, .f32⟩
  | .hbm, ⟨5, _⟩ => ⟨S32x33, .f32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S_, .i1⟩
  | .hbm, ⟨41, _⟩ => ⟨S16384, .i1⟩
  | .hbm, ⟨42, _⟩ => ⟨S16384, .i1⟩
  | .hbm, ⟨43, _⟩ => ⟨S16384, .i1⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384x1, .i32⟩
  | .hbm, ⟨48, _⟩ => ⟨S2048x33, .f32⟩
  | .hbm, ⟨49, _⟩ => ⟨S2048x33, .bf16⟩
  | .hbm, ⟨50, _⟩ => ⟨S1x33, .f32⟩
  | .hbm, ⟨51, _⟩ => ⟨S1056x2048, .f32⟩
  | .hbm, ⟨52, _⟩ => ⟨S2048x1056, .f32⟩
  | .hbm, ⟨53, _⟩ => ⟨S2048x1056, .bf16⟩
  | .hbm, ⟨54, _⟩ => ⟨S1x1056, .f32⟩
  | .hbm, ⟨55, _⟩ => ⟨S16384x1024, .f32⟩
  | .hbm, ⟨56, _⟩ => ⟨S1x1, .f32⟩
  | .hbm, ⟨57, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x1, .i32⟩
  | .local _ .vmem, ⟨3, _⟩ => ⟨S1024x1, .i32⟩
  | .local _ .vmem, ⟨4, _⟩ => ⟨S1024x1, .i32⟩
  | .local _ .vmem, ⟨5, _⟩ => ⟨S1024x1, .i32⟩
  | .local _ .vmem, ⟨6, _⟩ => ⟨S2048x33, .bf16⟩
  | .local _ .vmem, ⟨7, _⟩ => ⟨S1x33, .f32⟩
  | .local _ .vmem, ⟨8, _⟩ => ⟨S2048x1056, .bf16⟩
  | .local _ .vmem, ⟨9, _⟩ => ⟨S1x1056, .f32⟩
  | .local _ .vmem, ⟨10, _⟩ => ⟨S1024x1024, .f32⟩
  | .local _ .vmem, ⟨11, _⟩ => ⟨S1024x1024, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11_0 : Ref sig .tc := ⟨.hbm, 55, rfl⟩
abbrev main_v11_1 : Ref sig .tc := ⟨.hbm, 56, rfl⟩
abbrev main_v12 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_321 : BitVec 32 := 15#32
  let v1149 : BitVec 1 := Scalar.cmpi .eq arg0 c15_i32_321
  let v1150 : BitVec 32 := Scalar.extui v1149
  let c0_i32_322 : BitVec 32 := 0#32
  let v1151 : BitVec 1 := Scalar.cmpi .ne v1150 c0_i32_322
  v1151

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x33 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x33 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1056 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1056 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  bcast_S_S16384 : S_.BroadcastsInDim S16384 (![] : Fin 0 → Fin S16384.rank)
  shapeCasts_S16384_S16384x1 : S16384.ShapeCasts S16384x1
  transposes_S33x2048_S2048x33_1_0 : S33x2048.Transposes [1, 0] S2048x33
  bitsLt_bf16_f32 : FTy.bits .bf16 < FTy.bits .f32
  shapeCasts_S33_S1x33 : S33.ShapeCasts S1x33
  shapeCasts_S32x33x2048_S1056x2048 : S32x33x2048.ShapeCasts S1056x2048
  transposes_S1056x2048_S2048x1056_1_0 : S1056x2048.Transposes [1, 0] S2048x1056
  shapeCasts_S32x33_S1x1056 : S32x33.ShapeCasts S1x1056
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1x33_d1_w32 : S1x33.Iotas .tc 32 [1]
  inb_S2048x33_S2048x33_0_0 : ∀ a, (![0, 0] : Fin 2 → Nat) a + S2048x33.size a ≤ S2048x33.size a
  h_S2048x33 : 0 < S2048x33.numel
  shapeCasts_S2048x33_S2048x33 : S2048x33.ShapeCasts S2048x33
  inb_S1x33_S1x33_0_0 : ∀ a, (![0, 0] : Fin 2 → Nat) a + S1x33.size a ≤ S1x33.size a
  h_S1x33 : 0 < S1x33.numel
  shapeCasts_S1x33_S1x33 : S1x33.ShapeCasts S1x33
  broadcasts_S1x33_S1024x33 : S1x33.Broadcasts S1024x33
  reduces_S1024x33_S1024 : S1024x33.Reduces [1] S1024
  shapeCasts_S1024_S1024x1 : S1024.ShapeCasts S1024x1
  broadcasts_S1024x1_S1024x33 : S1024x1.Broadcasts S1024x33
  natLt_1_32 : 1 < 32
  reduces_S1024x1_S1 : S1024x1.Reduces [0] S1
  shapeCasts_S1_S1x1 : S1.ShapeCasts S1x1
  inb_S2048x1056_S2048x1056_0_0 : ∀ a, (![0, 0] : Fin 2 → Nat) a + S2048x1056.size a ≤ S2048x1056.size a
  h_S2048x1056 : 0 < S2048x1056.numel
  shapeCasts_S2048x1056_S2048x1056 : S2048x1056.ShapeCasts S2048x1056
  inb_S1x1056_S1x1056_0_0 : ∀ a, (![0, 0] : Fin 2 → Nat) a + S1x1056.size a ≤ S1x1056.size a
  h_S1x1056 : 0 < S1x1056.numel
  shapeCasts_S1x1056_S1x1056 : S1x1056.ShapeCasts S1x1056
  broadcasts_S1x1056_S1024x1056 : S1x1056.Broadcasts S1024x1056
  slices_S1024x1056_o0_0_S1024x33 : S1024x1056.Slices ![0, 0] S1024x33
  slices_S1024x33_o0_1_S1024x32 : S1024x33.Slices ![0, 1] S1024x32
  inb_S1024x1024_S1024x32_0_0 : ∀ a, (![0, 0] : Fin 2 → Nat) a + S1024x32.size a ≤ S1024x1024.size a
  h_S1024x32 : 0 < S1024x32.numel
  slices_S1024x1056_o0_33_S1024x33 : S1024x1056.Slices ![0, 33] S1024x33
  inb_S1024x1024_S1024x32_0_32 : ∀ a, (![0, 32] : Fin 2 → Nat) a + S1024x32.size a ≤ S1024x1024.size a
  slices_S1024x1056_o0_66_S1024x33 : S1024x1056.Slices ![0, 66] S1024x33
  inb_S1024x1024_S1024x32_0_64 : ∀ a, (![0, 64] : Fin 2 → Nat) a + S1024x32.size a ≤ S1024x1024.size a
  slices_S1024x1056_o0_99_S1024x33 : S1024x1056.Slices ![0, 99] S1024x33
  inb_S1024x1024_S1024x32_0_96 : ∀ a, (![0, 96] : Fin 2 → Nat) a + S1024x32.size a ≤ S1024x1024.size a
  slices_S1024x1056_o0_132_S1024x33 : S1024x1056.Slices ![0, 132] S1024x33
  inb_S1024x1024_S1024x32_0_128 : ∀ a, (![0, 128] : Fin 2 → Nat) a + S1024x32.size a ≤ S1024x1024.size a
  slices_S1024x1056_o0_165_S1024x33 : S1024x1056.Slices ![0, 165] S1024x33
  inb_S1024x1024_S1024x32_0_160 : ∀ a, (![0, 160] : Fin 2 → Nat) a + S1024x32.size a ≤ S1024x1024.size a
  slices_S1024x1056_o0_198_S1024x33 : S1024x1056.Slices ![0, 198] S1024x33
  inb_S1024x1024_S1024x32_0_192 : ∀ a, (![0, 192] : Fin 2 → Nat) a + S1024x32.size a ≤ S1024x1024.size a
  slices_S1024x1056_o0_231_S1024x33 : S1024x1056.Slices ![0, 231] S1024x33
  inb_S1024x1024_S1024x32_0_224 : ∀ a, (![0, 224] : Fin 2 → Nat) a + S1024x32.size a ≤ S1024x1024.size a
  slices_S1024x1056_o0_264_S1024x33 : S1024x1056.Slices ![0, 264] S1024x33
  inb_S1024x1024_S1024x32_0_256 : ∀ a, (![0, 256] : Fin 2 → Nat) a + S1024x32.size a ≤ S1024x1024.size a
  slices_S1024x1056_o0_297_S1024x33 : S1024x1056.Slices ![0, 297] S1024x33
  inb_S1024x1024_S1024x32_0_288 : ∀ a, (![0, 288] : Fin 2 → Nat) a + S1024x32.size a ≤ S1024x1024.size a
  slices_S1024x1056_o0_330_S1024x33 : S1024x1056.Slices ![0, 330] S1024x33
  inb_S1024x1024_S1024x32_0_320 : ∀ a, (![0, 320] : Fin 2 → Nat) a + S1024x32.size a ≤ S1024x1024.size a
  slices_S1024x1056_o0_363_S1024x33 : S1024x1056.Slices ![0, 363] S1024x33
  inb_S1024x1024_S1024x32_0_352 : ∀ a, (![0, 352] : Fin 2 → Nat) a + S1024x32.size a ≤ S1024x1024.size a
  slices_S1024x1056_o0_396_S1024x33 : S1024x1056.Slices ![0, 396] S1024x33
  inb_S1024x1024_S1024x32_0_384 : ∀ a, (![0, 384] : Fin 2 → Nat) a + S1024x32.size a ≤ S1024x1024.size a
  slices_S1024x1056_o0_429_S1024x33 : S1024x1056.Slices ![0, 429] S1024x33
  inb_S1024x1024_S1024x32_0_416 : ∀ a, (![0, 416] : Fin 2 → Nat) a + S1024x32.size a ≤ S1024x1024.size a
  slices_S1024x1056_o0_462_S1024x33 : S1024x1056.Slices ![0, 462] S1024x33
  inb_S1024x1024_S1024x32_0_448 : ∀ a, (![0, 448] : Fin 2 → Nat) a + S1024x32.size a ≤ S1024x1024.size a
  slices_S1024x1056_o0_495_S1024x33 : S1024x1056.Slices ![0, 495] S1024x33
  inb_S1024x1024_S1024x32_0_480 : ∀ a, (![0, 480] : Fin 2 → Nat) a + S1024x32.size a ≤ S1024x1024.size a
  slices_S1024x1056_o0_528_S1024x33 : S1024x1056.Slices ![0, 528] S1024x33
  inb_S1024x1024_S1024x32_0_512 : ∀ a, (![0, 512] : Fin 2 → Nat) a + S1024x32.size a ≤ S1024x1024.size a
  slices_S1024x1056_o0_561_S1024x33 : S1024x1056.Slices ![0, 561] S1024x33
  inb_S1024x1024_S1024x32_0_544 : ∀ a, (![0, 544] : Fin 2 → Nat) a + S1024x32.size a ≤ S1024x1024.size a
  slices_S1024x1056_o0_594_S1024x33 : S1024x1056.Slices ![0, 594] S1024x33
  inb_S1024x1024_S1024x32_0_576 : ∀ a, (![0, 576] : Fin 2 → Nat) a + S1024x32.size a ≤ S1024x1024.size a
  slices_S1024x1056_o0_627_S1024x33 : S1024x1056.Slices ![0, 627] S1024x33
  inb_S1024x1024_S1024x32_0_608 : ∀ a, (![0, 608] : Fin 2 → Nat) a + S1024x32.size a ≤ S1024x1024.size a
  slices_S1024x1056_o0_660_S1024x33 : S1024x1056.Slices ![0, 660] S1024x33
  inb_S1024x1024_S1024x32_0_640 : ∀ a, (![0, 640] : Fin 2 → Nat) a + S1024x32.size a ≤ S1024x1024.size a
  slices_S1024x1056_o0_693_S1024x33 : S1024x1056.Slices ![0, 693] S1024x33
  inb_S1024x1024_S1024x32_0_672 : ∀ a, (![0, 672] : Fin 2 → Nat) a + S1024x32.size a ≤ S1024x1024.size a
  slices_S1024x1056_o0_726_S1024x33 : S1024x1056.Slices ![0, 726] S1024x33
  inb_S1024x1024_S1024x32_0_704 : ∀ a, (![0, 704] : Fin 2 → Nat) a + S1024x32.size a ≤ S1024x1024.size a
  slices_S1024x1056_o0_759_S1024x33 : S1024x1056.Slices ![0, 759] S1024x33
  inb_S1024x1024_S1024x32_0_736 : ∀ a, (![0, 736] : Fin 2 → Nat) a + S1024x32.size a ≤ S1024x1024.size a
  slices_S1024x1056_o0_792_S1024x33 : S1024x1056.Slices ![0, 792] S1024x33
  inb_S1024x1024_S1024x32_0_768 : ∀ a, (![0, 768] : Fin 2 → Nat) a + S1024x32.size a ≤ S1024x1024.size a
  slices_S1024x1056_o0_825_S1024x33 : S1024x1056.Slices ![0, 825] S1024x33
  inb_S1024x1024_S1024x32_0_800 : ∀ a, (![0, 800] : Fin 2 → Nat) a + S1024x32.size a ≤ S1024x1024.size a
  slices_S1024x1056_o0_858_S1024x33 : S1024x1056.Slices ![0, 858] S1024x33
  inb_S1024x1024_S1024x32_0_832 : ∀ a, (![0, 832] : Fin 2 → Nat) a + S1024x32.size a ≤ S1024x1024.size a
  slices_S1024x1056_o0_891_S1024x33 : S1024x1056.Slices ![0, 891] S1024x33
  inb_S1024x1024_S1024x32_0_864 : ∀ a, (![0, 864] : Fin 2 → Nat) a + S1024x32.size a ≤ S1024x1024.size a
  slices_S1024x1056_o0_924_S1024x33 : S1024x1056.Slices ![0, 924] S1024x33
  inb_S1024x1024_S1024x32_0_896 : ∀ a, (![0, 896] : Fin 2 → Nat) a + S1024x32.size a ≤ S1024x1024.size a
  slices_S1024x1056_o0_957_S1024x33 : S1024x1056.Slices ![0, 957] S1024x33
  inb_S1024x1024_S1024x32_0_928 : ∀ a, (![0, 928] : Fin 2 → Nat) a + S1024x32.size a ≤ S1024x1024.size a
  slices_S1024x1056_o0_990_S1024x33 : S1024x1056.Slices ![0, 990] S1024x33
  inb_S1024x1024_S1024x32_0_960 : ∀ a, (![0, 960] : Fin 2 → Nat) a + S1024x32.size a ≤ S1024x1024.size a
  slices_S1024x1056_o0_1023_S1024x33 : S1024x1056.Slices ![0, 1023] S1024x33
  inb_S1024x1024_S1024x32_0_992 : ∀ a, (![0, 992] : Fin 2 → Nat) a + S1024x32.size a ≤ S1024x1024.size a
  shapeCasts_S1x1_S_ : S1x1.ShapeCasts S_
  dot_S1024x2048_S2048x33_S1024x33_1_0_0_1_n_n_wf : DotDims.WF S1024x2048 S2048x33 S1024x33 [1] [0] [0] [1] [] []
  dot_S1024x2048_S2048x1056_S1024x1056_1_0_0_1_n_n_wf : DotDims.WF S1024x2048 S2048x1056 S1024x1056 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .i32 = 32 ∨ (Rect.block (s := S16384x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x33.size a ≤ S2048x33.size a
  hwx0_3 : ∀ i : grid0.Coords, EltTy.bits .bf16 = 32 ∨ (Rect.block (s := S2048x33) S2048x33.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x33.size a ≤ S1x33.size a
  hwx0_4 : ∀ i : grid0.Coords, EltTy.bits .f32 = 32 ∨ (Rect.block (s := S1x33) S1x33.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1056.size a ≤ S2048x1056.size a
  hwx0_5 : ∀ i : grid0.Coords, EltTy.bits .bf16 = 32 ∨ (Rect.block (s := S2048x1056) S2048x1056.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1056.size a ≤ S1x1056.size a
  hwx0_6 : ∀ i : grid0.Coords, EltTy.bits .f32 = 32 ∨ (Rect.block (s := S1x1056) S1x1056.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S16384x1024.size a
  hwx0_7 : ∀ i : grid0.Coords, EltTy.bits .f32 = 32 ∨ (Rect.block (s := S16384x1024) S1024x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)

variable [Facts₀]

def dot_S1024x2048_S2048x33_S1024x33_1_0_0_1_n_n : DotDims S1024x2048 S2048x33 S1024x33 where
  lhsContracting := [1]
  rhsContracting := [0]
  lhsNonContracting := [0]
  rhsNonContracting := [1]
  lhsBatch := []
  rhsBatch := []
  wf := dot_S1024x2048_S2048x33_S1024x33_1_0_0_1_n_n_wf
def dot_S1024x2048_S2048x1056_S1024x1056_1_0_0_1_n_n : DotDims S1024x2048 S2048x1056 S1024x1056 where
  lhsContracting := [1]
  rhsContracting := [0]
  lhsNonContracting := [0]
  rhsNonContracting := [1]
  lhsBatch := []
  rhsBatch := []
  wf := dot_S1024x2048_S2048x1056_S1024x1056_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x33.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x33.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2048x1056.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1056.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16384x2048 : Shape := ⟨2, ![16384, 2048]⟩
abbrev S16384 : Shape := ⟨1, ![16384]⟩
abbrev S33x2048 : Shape := ⟨2, ![33, 2048]⟩
abbrev S33 : Shape := ⟨1, ![33]⟩
abbrev S32x33x2048 : Shape := ⟨3, ![32, 33, 2048]⟩
abbrev S32x33 : Shape := ⟨2, ![32, 33]⟩
abbrev S_ : Shape := ⟨0, ![]⟩
abbrev S2048x33 : Shape := ⟨2, ![2048, 33]⟩
abbrev S16384x33 : Shape := ⟨2, ![16384, 33]⟩
abbrev S1x33 : Shape := ⟨2, ![1, 33]⟩
abbrev S16384x32x33 : Shape := ⟨3, ![16384, 32, 33]⟩
abbrev S1x32x33 : Shape := ⟨3, ![1, 32, 33]⟩
abbrev S16384x32x32 : Shape := ⟨3, ![16384, 32, 32]⟩
abbrev S16384x1024 : Shape := ⟨2, ![16384, 1024]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S32 : Shape := ⟨1, ![32]⟩
abbrev S1x32 : Shape := ⟨2, ![1, 32]⟩
abbrev S16384x32 : Shape := ⟨2, ![16384, 32]⟩
abbrev S16384x32x1 : Shape := ⟨3, ![16384, 32, 1]⟩
abbrev S16384x32x1x1 : Shape := ⟨4, ![16384, 32, 1, 1]⟩
abbrev S1x1x1x1 : Shape := ⟨4, ![1, 1, 1, 1]⟩

abbrev nBuf : Space → Nat
  | .hbm => 170
  | .vmem => 0
  | .smem => 0
  | _ => 0

abbrev hbmTy0_0 (i : Nat) : BufTy := match i % 128 with
  | 0 => ⟨S16384x2048, .f32⟩
  | 1 => ⟨S16384, .i32⟩
  | 2 => ⟨S33x2048, .f32⟩
  | 3 => ⟨S33, .f32⟩
  | 4 => ⟨S32x33x2048, .f32⟩
  | 5 => ⟨S32x33, .f32⟩
  | 6 => ⟨S_, .i32⟩
  | 7 => ⟨S_, .i32⟩
  | 8 => ⟨S16384, .i32⟩
  | 9 => ⟨S16384, .i32⟩
  | 10 => ⟨S16384, .i32⟩
  | 11 => ⟨S_, .i32⟩
  | 12 => ⟨S16384, .i32⟩
  | 13 => ⟨S16384, .i1⟩
  | 14 => ⟨S16384, .i32⟩
  | 15 => ⟨S16384, .i32⟩
  | 16 => ⟨S_, .i32⟩
  | 17 => ⟨S16384, .i32⟩
  | 18 => ⟨S16384, .i1⟩
  | 19 => ⟨S16384, .i1⟩
  | 20 => ⟨S_, .i32⟩
  | 21 => ⟨S16384, .i32⟩
  | 22 => ⟨S16384, .i32⟩
  | 23 => ⟨S16384, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S16384, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i1⟩
  | 38 => ⟨S_, .i32⟩
  | 39 => ⟨S_, .i1⟩
  | 40 => ⟨S16384, .i1⟩
  | 41 => ⟨S16384, .i1⟩
  | 42 => ⟨S16384, .i1⟩
  | 43 => ⟨S16384, .i32⟩
  | 44 => ⟨S16384, .i32⟩
  | 45 => ⟨S16384, .i32⟩
  | 46 => ⟨S2048x33, .f32⟩
  | 47 => ⟨S16384x33, .f32⟩
  | 48 => ⟨S1x33, .f32⟩
  | 49 => ⟨S16384x33, .f32⟩
  | 50 => ⟨S16384x33, .f32⟩
  | 51 => ⟨S16384x32x33, .f32⟩
  | 52 => ⟨S1x32x33, .f32⟩
  | 53 => ⟨S16384x32x33, .f32⟩
  | 54 => ⟨S16384x32x33, .f32⟩
  | 55 => ⟨S16384x32x32, .f32⟩
  | 56 => ⟨S16384x1024, .f32⟩
  | 57 => ⟨S_, .f32⟩
  | 58 => ⟨S16384, .f32⟩
  | 59 => ⟨S_, .f32⟩
  | 60 => ⟨S16384, .f32⟩
  | 61 => ⟨S16384, .f32⟩
  | 62 => ⟨S16384x1, .f32⟩
  | 63 => ⟨S16384x33, .f32⟩
  | 64 => ⟨S16384x33, .f32⟩
  | 65 => ⟨S16384x33, .f32⟩
  | 66 => ⟨S_, .f32⟩
  | 67 => ⟨S16384, .f32⟩
  | 68 => ⟨S16384x1, .f32⟩
  | 69 => ⟨S16384x1, .f32⟩
  | 70 => ⟨S16384x33, .f32⟩
  | 71 => ⟨S16384x33, .f32⟩
  | 72 => ⟨S_, .i32⟩
  | 73 => ⟨S16384, .i32⟩
  | 74 => ⟨S16384, .i32⟩
  | 75 => ⟨S16384x1, .i32⟩
  | 76 => ⟨S_, .i32⟩
  | 77 => ⟨S16384x1, .i32⟩
  | 78 => ⟨S16384x1, .i1⟩
  | 79 => ⟨S_, .i32⟩
  | 80 => ⟨S16384x1, .i32⟩
  | 81 => ⟨S16384x1, .i32⟩
  | 82 => ⟨S16384x1, .i32⟩
  | 83 => ⟨S16384x1x1, .i32⟩
  | 84 => ⟨S1, .i32⟩
  | 85 => ⟨S_, .i32⟩
  | 86 => ⟨S16384x1x1, .i32⟩
  | 87 => ⟨S16384x1x1, .i1⟩
  | 88 => ⟨S1x1x1, .i32⟩
  | 89 => ⟨S16384x1x1, .i32⟩
  | 90 => ⟨S16384x1x1, .i1⟩
  | 91 => ⟨S16384x1x1, .i1⟩
  | 92 => ⟨S_, .i1⟩
  | 93 => ⟨S16384x1, .i1⟩
  | 94 => ⟨S16384x1, .f32⟩
  | 95 => ⟨S_, .f32⟩
  | 96 => ⟨S16384x1, .f32⟩
  | 97 => ⟨S16384x1, .f32⟩
  | 98 => ⟨S_, .f32⟩
  | 99 => ⟨S_, .f32⟩
  | 100 => ⟨S_, .f32⟩
  | 101 => ⟨S_, .f32⟩
  | 102 => ⟨S_, .f32⟩
  | 103 => ⟨S16384x1, .i32⟩
  | 104 => ⟨S32, .i32⟩
  | 105 => ⟨S1x32, .i32⟩
  | 106 => ⟨S16384x32, .i32⟩
  | 107 => ⟨S16384x32, .i32⟩
  | 108 => ⟨S16384x32, .i1⟩
  | 109 => ⟨S_, .i32⟩
  | 110 => ⟨S16384, .i32⟩
  | 111 => ⟨S16384, .i32⟩
  | 112 => ⟨S16384x1, .i32⟩
  | 113 => ⟨S_, .i32⟩
  | 114 => ⟨S_, .i32⟩
  | 115 => ⟨S16384x32, .i32⟩
  | 116 => ⟨S16384x32, .i32⟩
  | 117 => ⟨S16384x32, .i32⟩
  | 118 => ⟨S_, .f32⟩
  | 119 => ⟨S16384x32, .f32⟩
  | 120 => ⟨S_, .f32⟩
  | 121 => ⟨S16384x32, .f32⟩
  | 122 => ⟨S16384x32, .f32⟩
  | 123 => ⟨S16384x32x1, .f32⟩
  | 124 => ⟨S16384x32x33, .f32⟩
  | 125 => ⟨S16384x32x33, .f32⟩
  | 126 => ⟨S16384x32x33, .f32⟩
  | 127 => ⟨S_, .f32⟩
  | _ => ⟨S16384x2048, .f32⟩

abbrev hbmTy0_1 (i : Nat) : BufTy := match i % 128 with
  | 0 => ⟨S16384x32, .f32⟩
  | 1 => ⟨S16384x32x1, .f32⟩
  | 2 => ⟨S16384x32x1, .f32⟩
  | 3 => ⟨S16384x32x33, .f32⟩
  | 4 => ⟨S16384x32x33, .f32⟩
  | 5 => ⟨S16384x32x1, .i32⟩
  | 6 => ⟨S_, .i32⟩
  | 7 => ⟨S16384x32x1, .i32⟩
  | 8 => ⟨S16384x32x1, .i1⟩
  | 9 => ⟨S_, .i32⟩
  | 10 => ⟨S16384x32x1, .i32⟩
  | 11 => ⟨S16384x32x1, .i32⟩
  | 12 => ⟨S16384x32x1, .i32⟩
  | 13 => ⟨S16384x32x1x1, .i32⟩
  | 14 => ⟨S1, .i32⟩
  | 15 => ⟨S_, .i32⟩
  | 16 => ⟨S16384x32x1x1, .i32⟩
  | 17 => ⟨S16384x32x1x1, .i1⟩
  | 18 => ⟨S1x1x1x1, .i32⟩
  | 19 => ⟨S16384x32x1x1, .i32⟩
  | 20 => ⟨S16384x32x1x1, .i1⟩
  | 21 => ⟨S16384x32x1x1, .i1⟩
  | 22 => ⟨S_, .i1⟩
  | 23 => ⟨S16384x32x1, .i1⟩
  | 24 => ⟨S16384x32x1, .f32⟩
  | 25 => ⟨S_, .f32⟩
  | 26 => ⟨S16384x32x1, .f32⟩
  | 27 => ⟨S16384x32x1, .f32⟩
  | 28 => ⟨S16384x32x1, .f32⟩
  | 29 => ⟨S16384x32, .f32⟩
  | 30 => ⟨S_, .f32⟩
  | 31 => ⟨S32, .f32⟩
  | 32 => ⟨S_, .f32⟩
  | 33 => ⟨S32, .f32⟩
  | 34 => ⟨S32, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_call2_cst : Ref sig .tc := ⟨.hbm, 57, rfl⟩
abbrev main_call2_v0 : Ref sig .tc := ⟨.hbm, 58, rfl⟩
abbrev main_call2_cst_0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_cst_1 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_v13 : Ref sig .tc := ⟨.hbm, 71, rfl⟩
abbrev main_c_1 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_cst : Ref sig .tc := ⟨.hbm, 95, rfl⟩
abbrev main_call3_v14 : Ref sig .tc := ⟨.hbm, 96, rfl⟩
abbrev main_v17 : Ref sig .tc := ⟨.hbm, 97, rfl⟩
abbrev main_cst : Ref sig .tc := ⟨.hbm, 98, rfl⟩
abbrev main_v18 : Ref sig .tc := ⟨.hbm, 99, rfl⟩
abbrev main_cst_2 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_c_3 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_c_4 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v30 : Ref sig .tc := ⟨.hbm, 117, rfl⟩
abbrev main_call5_cst : Ref sig .tc := ⟨.hbm, 118, rfl⟩
abbrev main_call5_v0 : Ref sig .tc := ⟨.hbm, 119, rfl⟩
abbrev main_call5_cst_0 : Ref sig .tc := ⟨.hbm, 120, rfl⟩
abbrev main_call5_v1 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_v5 : Ref sig .tc := ⟨.hbm, 125, rfl⟩
abbrev main_call5_v6 : Ref sig .tc := ⟨.hbm, 126, rfl⟩
abbrev main_call5_cst_1 : Ref sig .tc := ⟨.hbm, 127, rfl⟩
abbrev main_call5_v7 : Ref sig .tc := ⟨.hbm, 128, rfl⟩
abbrev main_call5_v8 : Ref sig .tc := ⟨.hbm, 129, rfl⟩
abbrev main_call5_v9 : Ref sig .tc := ⟨.hbm, 130, rfl⟩
abbrev main_call5_v10 : Ref sig .tc := ⟨.hbm, 131, rfl⟩
abbrev main_v31 : Ref sig .tc := ⟨.hbm, 132, rfl⟩
abbrev main_v32 : Ref sig .tc := ⟨.hbm, 133, rfl⟩
abbrev main_call6_c : Ref sig .tc := ⟨.hbm, 134, rfl⟩
abbrev main_call6_v0 : Ref sig .tc := ⟨.hbm, 135, rfl⟩
abbrev main_call6_v1 : Ref sig .tc := ⟨.hbm, 136, rfl⟩
abbrev main_call6_c_0 : Ref sig .tc := ⟨.hbm, 137, rfl⟩
abbrev main_call6_v2 : Ref sig .tc := ⟨.hbm, 138, rfl⟩
abbrev main_call6_v3 : Ref sig .tc := ⟨.hbm, 139, rfl⟩
abbrev main_call6_v4 : Ref sig .tc := ⟨.hbm, 140, rfl⟩
abbrev main_call6_v5 : Ref sig .tc := ⟨.hbm, 141, rfl⟩
abbrev main_call6_c_1 : Ref sig .tc := ⟨.hbm, 142, rfl⟩
abbrev main_call6_c_2 : Ref sig .tc := ⟨.hbm, 143, rfl⟩
abbrev main_call6_v6 : Ref sig .tc := ⟨.hbm, 144, rfl⟩
abbrev main_call6_v7 : Ref sig .tc := ⟨.hbm, 145, rfl⟩
abbrev main_call6_v8 : Ref sig .tc := ⟨.hbm, 146, rfl⟩
abbrev main_call6_v9 : Ref sig .tc := ⟨.hbm, 147, rfl⟩
abbrev main_call6_v10 : Ref sig .tc := ⟨.hbm, 148, rfl⟩
abbrev main_call6_v11 : Ref sig .tc := ⟨.hbm, 149, rfl⟩
abbrev main_call6_c_3 : Ref sig .tc := ⟨.hbm, 150, rfl⟩
abbrev main_call6_v12 : Ref sig .tc := ⟨.hbm, 151, rfl⟩
abbrev main_call6_v13 : Ref sig .tc := ⟨.hbm, 152, rfl⟩
abbrev main_call6_cst : Ref sig .tc := ⟨.hbm, 153, rfl⟩
abbrev main_call6_v14 : Ref sig .tc := ⟨.hbm, 154, rfl⟩
abbrev main_v33 : Ref sig .tc := ⟨.hbm, 155, rfl⟩
abbrev main_v34 : Ref sig .tc := ⟨.hbm, 156, rfl⟩
abbrev main_v35 : Ref sig .tc := ⟨.hbm, 157, rfl⟩
abbrev main_cst_5 : Ref sig .tc := ⟨.hbm, 158, rfl⟩
abbrev main_v36 : Ref sig .tc := ⟨.hbm, 159, rfl⟩
abbrev main_cst_6 : Ref sig .tc := ⟨.hbm, 160, rfl⟩
abbrev main_v37 : Ref sig .tc := ⟨.hbm, 161, rfl⟩
abbrev main_v38 : Ref sig .tc := ⟨.hbm, 162, rfl⟩
abbrev main_cst_7 : Ref sig .tc := ⟨.hbm, 163, rfl⟩
abbrev main_v39 : Ref sig .tc := ⟨.hbm, 164, rfl⟩
abbrev main_cst_8 : Ref sig .tc := ⟨.hbm, 165, rfl⟩
abbrev main_v40 : Ref sig .tc := ⟨.hbm, 166, rfl⟩
abbrev main_cst_9 : Ref sig .tc := ⟨.hbm, 167, rfl⟩
abbrev main_v41 : Ref sig .tc := ⟨.hbm, 168, rfl⟩
abbrev main_v42 : Ref sig .tc := ⟨.hbm, 169, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  transposes_S33x2048_S2048x33_1_0 : S33x2048.Transposes [1, 0] S2048x33
  bcast_S33_S1x33_1 : S33.BroadcastsInDim S1x33 (![1] : Fin 1 → Fin S1x33.rank)
  bcast_S1x33_S16384x33_0_1 : S1x33.BroadcastsInDim S16384x33 (![0, 1] : Fin 2 → Fin S16384x33.rank)
  bcast_S32x33_S1x32x33_1_2 : S32x33.BroadcastsInDim S1x32x33 (![1, 2] : Fin 2 → Fin S1x32x33.rank)
  bcast_S1x32x33_S16384x32x33_0_1_2 : S1x32x33.BroadcastsInDim S16384x32x33 (![0, 1, 2] : Fin 3 → Fin S16384x32x33.rank)
  slices_S16384x32x33_S16384x32x32_0_0_1 : S16384x32x33.Slices ![0, 0, 1] S16384x32x32
  shapeCasts_S16384x32x32_S16384x1024 : S16384x32x32.ShapeCasts S16384x1024
  reducesTo_S16384x33_S16384_d1 : S16384x33.ReducesTo [1] S16384
  h_S_ : 0 < S_.numel
  bcast_S16384_S16384x1_0 : S16384.BroadcastsInDim S16384x1 (![0] : Fin 1 → Fin S16384x1.rank)
  bcast_S16384x1_S16384x33_0_1 : S16384x1.BroadcastsInDim S16384x33 (![0, 1] : Fin 2 → Fin S16384x33.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  reducesTo_S16384x1_S_d0_1 : S16384x1.ReducesTo [0, 1] S_
  bcast_S32_S1x32_1 : S32.BroadcastsInDim S1x32 (![1] : Fin 1 → Fin S1x32.rank)
  bcast_S16384x1_S16384x32_0_1 : S16384x1.BroadcastsInDim S16384x32 (![0, 1] : Fin 2 → Fin S16384x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  reducesTo_S16384x32x33_S16384x32_d2 : S16384x32x33.ReducesTo [2] S16384x32
  bcast_S16384x32_S16384x32x1_0_1 : S16384x32.BroadcastsInDim S16384x32x1 (![0, 1] : Fin 2 → Fin S16384x32x1.rank)
  bcast_S16384x32x1_S16384x32x33_0_1_2 : S16384x32x1.BroadcastsInDim S16384x32x33 (![0, 1, 2] : Fin 3 → Fin S16384x32x33.rank)
  bcast_S_S16384x32x1 : S_.BroadcastsInDim S16384x32x1 (![] : Fin 0 → Fin S16384x32x1.rank)
  shapeCasts_S16384x32x1_S16384x32x1x1 : S16384x32x1.ShapeCasts S16384x32x1x1
  bcast_S_S16384x32x1x1 : S_.BroadcastsInDim S16384x32x1x1 (![] : Fin 0 → Fin S16384x32x1x1.rank)
  bcast_S1_S1x1x1x1_3 : S1.BroadcastsInDim S1x1x1x1 (![3] : Fin 1 → Fin S1x1x1x1.rank)
  bcast_S1x1x1x1_S16384x32x1x1_0_1_2_3 : S1x1x1x1.BroadcastsInDim S16384x32x1x1 (![0, 1, 2, 3] : Fin 4 → Fin S16384x32x1x1.rank)
  reducesTo_S16384x32x1x1_S16384x32x1_d3 : S16384x32x1x1.ReducesTo [3] S16384x32x1
  shapeCasts_S16384x32x1_S16384x32 : S16384x32x1.ShapeCasts S16384x32
  reducesTo_S16384x32_S32_d0 : S16384x32.ReducesTo [0] S32
  bcast_S_S32 : S_.BroadcastsInDim S32 (![] : Fin 0 → Fin S32.rank)
  reducesTo_S32_S_d0 : S32.ReducesTo [0] S_
  dot_S16384x2048_S2048x33_S16384x33_1_0_0_1_n_n_wf : DotDims.WF S16384x2048 S2048x33 S16384x33 [1] [0] [0] [1] [] []
  dot_S16384x2048_S32x33x2048_S16384x32x33_1_2_0_01_n_n_wf : DotDims.WF S16384x2048 S32x33x2048 S16384x32x33 [1] [2] [0] [0, 1] [] []
  gather_S16384x33_S16384x1x1_S16384x1_n_1_0_0_1_2_11_wf : GatherDims.WF S16384x33 S16384x1x1 S16384x1 [] [1] [0] [1] [0] 2 ![1, 1]
  gather_S16384x32x33_S16384x32x1x1_S16384x32x1_n_2_01_01_2_3_111_wf : GatherDims.WF S16384x32x33 S16384x32x1x1 S16384x32x1 [] [2] [0, 1] [2] [0, 1] 3 ![1, 1, 1]

variable [Facts₀]

def dot_S16384x2048_S2048x33_S16384x33_1_0_0_1_n_n : DotDims S16384x2048 S2048x33 S16384x33 where
  lhsContracting := [1]
  rhsContracting := [0]
  lhsNonContracting := [0]
  rhsNonContracting := [1]
  lhsBatch := []
  rhsBatch := []
  wf := dot_S16384x2048_S2048x33_S16384x33_1_0_0_1_n_n_wf
def dot_S16384x2048_S32x33x2048_S16384x32x33_1_2_0_01_n_n : DotDims S16384x2048 S32x33x2048 S16384x32x33 where
  lhsContracting := [1]
  rhsContracting := [2]
  lhsNonContracting := [0]
  rhsNonContracting := [0, 1]
  lhsBatch := []
  rhsBatch := []
  wf := dot_S16384x2048_S32x33x2048_S16384x32x33_1_2_0_01_n_n_wf
def gather_S16384x33_S16384x1x1_S16384x1_n_1_0_0_1_2_11 : GatherDims S16384x33 S16384x1x1 S16384x1 where
  offsetDims := []
  collapsedSliceDims := [1]
  operandBatchingDims := [0]
  startIndicesBatchingDims := [0]
  startIndexMap := [1]
  indexVectorDim := 2
  sliceSizes := ![1, 1]
  wf := gather_S16384x33_S16384x1x1_S16384x1_n_1_0_0_1_2_11_wf
def gather_S16384x32x33_S16384x32x1x1_S16384x32x1_n_2_01_01_2_3_111 : GatherDims S16384x32x33 S16384x32x1x1 S16384x32x1 where
  offsetDims := []
  collapsedSliceDims := [2]
  operandBatchingDims := [0, 1]
  startIndicesBatchingDims := [0, 1]
  startIndexMap := [2]
  indexVectorDim := 3
  sliceSizes := ![1, 1, 1]
  wf := gather_S16384x32x33_S16384x32x1x1_S16384x32x1_n_2_01_01_2_3_111_wf

class Facts : Prop extends Facts₀ where

variable [Facts]
-- ==== Proof.Spec.lean ====
/-
  The mathematics of a two-layer hierarchical softmax over 16384 samples of dimension 2048, with 32 inner nodes of
  32 leaves each (1024 classes): a root classifier of 33 slots per sample, 32 inner-node classifiers of 33 slots
  each, slot 0 of a classifier meaning "the label path ends here".

  The first result is the raw leaf logits: entry (b, 32 j + k) is inner node j's logit for slot k + 1 on sample b.
  The second is a penalty: the mean over the samples of the root cross-entropy, plus half of the sum over the
  inner nodes of the mean cross-entropy of that node. With g = label / 32 the inner node on a sample's path and
  w = label mod 32 its leaf, the root target is slot g + 1, and node j's target is slot w + 1 when j = g and slot 0
  otherwise. A cross-entropy is minus the log-softmax of the classifier's 33 logits at the target slot.

  Everything is stated on the extended reals, index by index, over the six argument arrays. Two arrangements of the
  penalty are written down: one that sums 16 blocks of 1024 samples and scales the totals by 2^-14 and by 1/2, and one
  that divides the totals by 16384, by 1 and by 2. They are equal when every selected log-probability is a real number.
-/
import Idealize.ShloMosaic.PureOps
import Idealize.ShloMosaic.PureOps.Ideal
import Idealize.ShloMosaic.Lib.ValueIdx

noncomputable section

namespace Cert.HSoft

open Idealize.ShloMosaic Idealize.ShloMosaic.ValueIdx
open scoped BigOperators

/-- The samples, 16384 rows of 2048 features. -/
abbrev SX : Shape := ⟨2, ![16384, 2048]⟩
/-- One class label per sample. -/
abbrev SLab : Shape := ⟨1, ![16384]⟩
/-- The root classifier's weights, 33 slots. -/
abbrev SW1 : Shape := ⟨2, ![33, 2048]⟩
/-- The root classifier's biases. -/
abbrev SB1 : Shape := ⟨1, ![33]⟩
/-- The 32 inner-node classifiers' weights, 33 slots each. -/
abbrev SW2 : Shape := ⟨3, ![32, 33, 2048]⟩
/-- Their biases. -/
abbrev SB2 : Shape := ⟨2, ![32, 33]⟩
/-- The leaf logits, 1024 classes per sample. -/
abbrev SOut : Shape := ⟨2, ![16384, 1024]⟩
/-- A scalar. -/
abbrev S0 : Shape := ⟨0, ![]⟩

/-! ## The logits -/

/-- The root classifier's logit of slot `k` on sample `b`: the sample against weight row `k`, plus the bias. -/
def logit1 (x : FVec Ideal SX .f32) (W1 : FVec Ideal SW1 .f32) (b1 : FVec Ideal SB1 .f32) (b : Fin 16384) (k : Fin 33) : EReal :=
  (∑ d : Fin 2048, x (ix2 b d) * W1 (ix2 k d)) + b1 (ix1 k)

/-- Inner node `j`'s logit of slot `k` on sample `b`. -/
def logit2 (x : FVec Ideal SX .f32) (W2 : FVec Ideal SW2 .f32) (b2 : FVec Ideal SB2 .f32) (b : Fin 16384) (j : Fin 32) (k : Fin 33) : EReal :=
  (∑ d : Fin 2048, x (ix2 b d) * W2 (ix3 j k d)) + b2 (ix2 j k)

/-- THE FIRST RESULT: entry `(b, c)` is inner node `c / 32`'s logit of slot `c mod 32 + 1` on sample `b`. -/
def outSpec (x : FVec Ideal SX .f32) (W2 : FVec Ideal SW2 .f32) (b2 : FVec Ideal SB2 .f32) (i : SOut.Idx) : EReal :=
  logit2 x W2 b2 ⟨(i 0).val, idx2_lt0 i⟩ ⟨(i 1).val / 32, Nat.div_lt_of_lt_mul (idx2_lt1 i)⟩
    ⟨(i 1).val % 32 + 1, Nat.succ_lt_succ (Nat.mod_lt _ (by decide))⟩

/-! ## The log-softmax of a row of 33 logits -/

/-- Minus infinity, the value a running maximum starts from. -/
def negInf : EReal := Ideal.ofBits .f32 0xFF800000#32

/-- The largest of a row's 33 entries, folded from minus infinity (and compared with it once more). -/
def rowMax (v : Fin 33 → EReal) : EReal := max negInf ((Finset.univ : Finset (Fin 33)).fold max negInf v)

/-- The log-softmax of a row at slot `k`: the entry shifted by the row's maximum, minus the logarithm of the sum of the
    exponentials of the shifted entries. -/
def lsm (v : Fin 33 → EReal) (k : Fin 33) : EReal :=
  (v k - rowMax v) - Ideal.log (∑ k' : Fin 33, Ideal.exp (v k' - rowMax v))

/-- The log-softmax at the slot a 32-bit word names, and zero when the word names no slot. -/
def lsmAt (v : Fin 33 → EReal) (idx : BitVec 32) : EReal :=
  if h : idx.toNat < 33 then lsm v ⟨idx.toNat, h⟩ else 0

/-! ## The target slots -/

/-- Node `j`'s target slot for a sample whose path goes through node `g` to leaf `w`: `w + 1` when `g = j`, else 0. -/
def subLabel (g w : BitVec 32) (j : Fin 32) : BitVec 32 :=
  Scalar.select (IntOp.cmpi .eq g (BitVec.ofNat 32 j.val)) (w + 1#32) 0#32

/-- The root classifier's log-probability of sample `b`'s target slot `g b + 1`. -/
def sel1 (x : FVec Ideal SX .f32) (W1 : FVec Ideal SW1 .f32) (b1 : FVec Ideal SB1 .f32) (g : Fin 16384 → BitVec 32) (b : Fin 16384) : EReal :=
  lsmAt (logit1 x W1 b1 b) (g b + 1#32)

/-- Inner node `j`'s log-probability of its target slot for sample `b`. -/
def sel2 (x : FVec Ideal SX .f32) (W2 : FVec Ideal SW2 .f32) (b2 : FVec Ideal SB2 .f32) (g w : Fin 16384 → BitVec 32) (b : Fin 16384) (j : Fin 32) : EReal :=
  lsmAt (logit2 x W2 b2 b j) (subLabel (g b) (w b) j)

/-! ## The penalty, in two arrangements -/

/-- 2^-14, the reciprocal of the number of samples. -/
def c14 : EReal := Ideal.ofBits .f32 0x38800000#32
/-- One half. -/
def half : EReal := Ideal.ofBits .f32 0x3F000000#32
/-- The number of samples. -/
def c16384 : EReal := Ideal.ofBits .f32 0x46800000#32
/-- One. -/
def one : EReal := Ideal.ofBits .f32 0x3F800000#32
/-- Two. -/
def two : EReal := Ideal.ofBits .f32 0x40000000#32

/-- Sample `r` of block `t` among 16 blocks of 1024 consecutive samples. -/
abbrev row (t : Fin 16) (r : Fin 1024) : Fin 16384 := ⟨1024 * t.val + r.val, by omega⟩

/-- The penalty summed block by block: each block's negated log-probabilities are summed, the 16 block totals added,
    the totals scaled by 2^-14, the inner-node total also by one half. -/
def penBlocks (s1 : Fin 16384 → EReal) (s2 : Fin 16384 → Fin 32 → EReal) : EReal :=
  (∑ t : Fin 16, ∑ r : Fin 1024, (0 - s1 (row t r))) * c14
    + ((∑ t : Fin 16, ∑ j : Fin 32, ∑ r : Fin 1024, (0 - s2 (row t r) j)) * c14) * half

/-- The penalty by means: minus the mean root log-probability, over one, plus the sum over the inner nodes of the mean
    negated log-probability, over two. -/
def penMeans (s1 : Fin 16384 → EReal) (s2 : Fin 16384 → Fin 32 → EReal) : EReal :=
  Ideal.div (-(Ideal.div (∑ b : Fin 16384, s1 b) c16384)) one
    + Ideal.div (∑ j : Fin 32, Ideal.div (∑ b : Fin 16384, -(s2 b j)) c16384) two

end Cert.HSoft

end
-- ==== Proof.LabelWords.lean ====
/-
  The two words the host derives from a class label, sample by sample: the inner node `label / 32` (rounded towards
  minus infinity) and the leaf `label mod 32` (with the sign of the divisor). Both are written exactly as the host
  computes them — a truncating quotient corrected by one where the signs differ and the remainder is not zero; a
  truncating remainder corrected by the divisor where it is not zero and its sign differs from the divisor's —,
  so that the two programs, which both compute them this way, share one term.
-/
import proofs.«419181_j50646254354828_1_alg».proof.Proof.Spec

noncomputable section

namespace Cert.HSoft

open Idealize.ShloMosaic Idealize.ShloMosaic.ValueIdx

/-- A scalar spreads over the labels' shape. -/
theorem hbLab : S0.BroadcastsInDim SLab (![] : Fin 0 → Fin SLab.rank) := by decide

/-- A scalar word spread over all samples. -/
abbrev spread {w : Nat} (a : IVec S0 w) : IVec SLab w := broadcastInDim SLab ![] hbLab a

/-- The divisor, 32. -/
abbrev div32 : IVec S0 32 := id (constantI S0 32 32#32)

/-- `label / 32` rounded towards minus infinity, for every sample. -/
def gVec (lab : IVec SLab 32) : IVec SLab 32 :=
  let q : IVec SLab 32 := Host.divsi lab (spread div32)
  let signsDiffer : IVec SLab 1 := cmpi .ne (signi lab) (spread (signi div32))
  let r : IVec SLab 32 := Host.remsi lab (spread div32)
  let remNonzero : IVec SLab 1 := cmpi .ne r (spread (constantI S0 32 0#32))
  select (andi signsDiffer remNonzero) (subi q (spread (constantI S0 32 1#32))) q

/-- The divisor guarded against zero (it is 32, so the guard changes nothing). -/
abbrev div32' : IVec S0 32 :=
  select (cmpi .eq div32 (constantI S0 32 0#32)) (constantI S0 32 1#32) div32

/-- `label mod 32` with the sign of the divisor, for every sample. -/
def wVec (lab : IVec SLab 32) : IVec SLab 32 :=
  let r : IVec SLab 32 := Host.remsi lab (spread div32')
  let remNonzero : IVec SLab 1 := cmpi .ne r (spread (constantI S0 32 0#32))
  let remNegative : IVec SLab 1 := cmpi .slt r (spread (constantI S0 32 0#32))
  let divNegative : IVec S0 1 := cmpi .slt div32' (constantI S0 32 0#32)
  let signsDiffer : IVec SLab 1 := cmpi .ne remNegative (spread divNegative)
  select (andi signsDiffer remNonzero) (addi r (spread div32')) r

/-- Sample `b`'s inner-node word. -/
def gW (lab : IVec SLab 32) (b : Fin 16384) : BitVec 32 := gVec lab (ix1 b)
/-- Sample `b`'s leaf word. -/
def wW (lab : IVec SLab 32) (b : Fin 16384) : BitVec 32 := wVec lab (ix1 b)

/-- The labels for which every target slot exists: the root target `g + 1` and each node's target are among the 33 slots. -/
structure InRange (lab : IVec SLab 32) : Prop where
  root : ∀ b : Fin 16384, ∃ n : Fin 33, gW lab b + 1#32 = BitVec.ofNat 32 n.val
  node : ∀ (b : Fin 16384) (j : Fin 32), ∃ n : Fin 33, subLabel (gW lab b) (wW lab b) j = BitVec.ofNat 32 n.val

end Cert.HSoft

end
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.Bridge.lean ====
/-
  The real-number side of the hierarchical-softmax penalty. When every argument entry is a real number, every logit
  is a real number; the log-softmax of a row of 33 real logits at any slot is a real number (the row's maximum,
  folded from minus infinity, is a real because the row is not empty; the exponentials are positive reals, so their
  sum is positive and its logarithm is a real). On real log-probabilities the two arrangements of the penalty
  agree: 16 blocks of 1024 samples are the 16384 samples, 2^-14 is 1/16384, and all the algebra is done in the reals
  after every extended-real expression has been rewritten as a coerced real.
-/
import proofs.«419181_j50646254354828_1_alg».proof.Proof.Spec
import proofs.«419181_j50646254354828_1_alg».proof.Proof.LibIdealReal
import proofs.«419181_j50646254354828_1_alg».proof.Proof.LibBlockSum
import Mathlib.Analysis.SpecialFunctions.Log.Basic
import Mathlib.Analysis.SpecialFunctions.Exp
import Mathlib.Algebra.BigOperators.Ring.Finset
import Mathlib.Algebra.BigOperators.Field
import Mathlib.Algebra.Order.BigOperators.Group.Finset
import Mathlib.Tactic.Ring
import Mathlib.Tactic.NormNum

noncomputable section

namespace Cert.HSoft

open Idealize.ShloMosaic Idealize.ShloMosaic.ValueIdx
open Cert.LibIdealReal
open scoped BigOperators

/-! ## The logits are reals -/

/-- A sum of products of reals plus a real, written on the extended reals, is the coerced real expression. -/
theorem dot_add_real {n : ℕ} (a c : Fin n → EReal) (e : EReal) (fa fc : Fin n → ℝ) (fe : ℝ)
    (ha : ∀ d, a d = ((fa d : ℝ) : EReal)) (hc : ∀ d, c d = ((fc d : ℝ) : EReal)) (he : e = ((fe : ℝ) : EReal)) :
    (∑ d : Fin n, a d * c d) + e = (((∑ d : Fin n, fa d * fc d) + fe : ℝ) : EReal) := by
  rw [he, EReal.coe_add, ← sum_univ_coe]
  congr 1
  refine Finset.sum_congr rfl fun d _ => ?_
  rw [ha, hc, mul_coe]

/-- The root classifier's logits are reals when the sample, the weights and the biases are. -/
theorem logit1_real (x : FVec Ideal SX .f32) (W1 : FVec Ideal SW1 .f32) (b1 : FVec Ideal SB1 .f32)
    (hx : ∀ i, ∃ r : ℝ, x i = (r : EReal)) (hW : ∀ i, ∃ r : ℝ, W1 i = (r : EReal))
    (hb : ∀ i, ∃ r : ℝ, b1 i = (r : EReal)) (b : Fin 16384) (k : Fin 33) :
    ∃ r : ℝ, logit1 x W1 b1 b k = (r : EReal) := by
  choose xr hxr using hx
  choose wr hwr using hW
  choose br hbr using hb
  exact ⟨_, dot_add_real (fun d : Fin 2048 => x (ix2 b d)) (fun d => W1 (ix2 k d)) (b1 (ix1 k))
    (fun d => xr (ix2 b d)) (fun d => wr (ix2 k d)) (br (ix1 k)) (fun d => hxr _) (fun d => hwr _) (hbr _)⟩

/-- The inner-node classifiers' logits are reals when the sample, the weights and the biases are. -/
theorem logit2_real (x : FVec Ideal SX .f32) (W2 : FVec Ideal SW2 .f32) (b2 : FVec Ideal SB2 .f32)
    (hx : ∀ i, ∃ r : ℝ, x i = (r : EReal)) (hW : ∀ i, ∃ r : ℝ, W2 i = (r : EReal))
    (hb : ∀ i, ∃ r : ℝ, b2 i = (r : EReal)) (b : Fin 16384) (j : Fin 32) (k : Fin 33) :
    ∃ r : ℝ, logit2 x W2 b2 b j k = (r : EReal) := by
  choose xr hxr using hx
  choose wr hwr using hW
  choose br hbr using hb
  exact ⟨_, dot_add_real (fun d : Fin 2048 => x (ix2 b d)) (fun d => W2 (ix3 j k d)) (b2 (ix2 j k))
    (fun d => xr (ix2 b d)) (fun d => wr (ix3 j k d)) (br (ix2 j k)) (fun d => hxr _) (fun d => hwr _) (hbr _)⟩

/-! ## The log-softmax of a real row is real -/

/-- The maximum of a row of 33 reals, folded from minus infinity, is the coerced largest entry. -/
theorem rowMax_coe (f : Fin 33 → ℝ) :
    rowMax (fun k => ((f k : ℝ) : EReal)) = ((Finset.univ.sup' Finset.univ_nonempty f : ℝ) : EReal) := by
  unfold rowMax negInf
  rw [ofBits_neg_inf, fold_max_bot_coe Finset.univ Finset.univ_nonempty f]
  exact max_eq_right bot_le

/-- The log-softmax of a row of 33 reals at a slot is a real. -/
theorem lsm_coe (f : Fin 33 → ℝ) (k : Fin 33) :
    ∃ r : ℝ, lsm (fun k => ((f k : ℝ) : EReal)) k = (r : EReal) := by
  set m : ℝ := Finset.univ.sup' Finset.univ_nonempty f with hm
  have hsum : (∑ k' : Fin 33, Ideal.exp (((f k' : ℝ) : EReal) - ((m : ℝ) : EReal)))
      = ((∑ k' : Fin 33, Real.exp (f k' - m) : ℝ) : EReal) := by
    rw [← sum_univ_coe]
    refine Finset.sum_congr rfl fun k' _ => ?_
    rw [sub_coe, exp_coe]
  have hpos : 0 < ∑ k' : Fin 33, Real.exp (f k' - m) :=
    Finset.sum_pos (fun k' _ => Real.exp_pos _) Finset.univ_nonempty
  refine ⟨(f k - m) - Real.log (∑ k' : Fin 33, Real.exp (f k' - m)), ?_⟩
  unfold lsm
  rw [rowMax_coe f, ← hm, hsum, log_coe hpos, sub_coe, sub_coe]

/-- The log-softmax of a row of 33 reals at the slot a word names, or zero when it names none, is a real. -/
theorem lsmAt_real (v : Fin 33 → EReal) (hv : ∀ k, ∃ r : ℝ, v k = (r : EReal)) (idx : BitVec 32) :
    ∃ r : ℝ, lsmAt v idx = (r : EReal) := by
  choose f hf using hv
  obtain rfl : v = fun k => ((f k : ℝ) : EReal) := funext hf
  unfold lsmAt
  split
  · exact lsm_coe f _
  · exact ⟨0, zero_coe⟩

/-! ## The constants of the penalty -/

/-- The pattern of 2^-14 denotes the coerced real 1/16384. -/
theorem c14_coe : c14 = ((1 / 16384 : ℝ) : EReal) := by
  unfold c14
  simp [Ideal.ofBits, Ideal.ieee, -EReal.coe_mul]; norm_num

/-- The pattern of one half denotes the coerced real 1/2. -/
theorem half_coe : half = ((1 / 2 : ℝ) : EReal) := ofBits_half

/-- The pattern of 16384 denotes the coerced real 16384. -/
theorem c16384_coe : c16384 = ((16384 : ℝ) : EReal) := by
  unfold c16384
  simp [Ideal.ofBits, Ideal.ieee, -EReal.coe_mul]; norm_num

/-- The pattern of one denotes the coerced real one. -/
theorem one_coe' : one = ((1 : ℝ) : EReal) := ofBits_one_coe

/-- The pattern of two denotes the coerced real two. -/
theorem two_coe : two = ((2 : ℝ) : EReal) := by
  unfold two
  simp [Ideal.ofBits, Ideal.ieee, -EReal.coe_mul]; norm_num

/-! ## The two arrangements in the reals -/

/-- Zero minus a coerced real is the coerced negation. -/
theorem zero_sub_coe (a : ℝ) : (0 : EReal) - (a : EReal) = ((-a : ℝ) : EReal) := by
  rw [zero_coe, sub_coe, zero_sub]

/-- Sixteen blocks of 1024 consecutive samples make up the 16384 samples. -/
theorem sum_rows {M : Type*} [AddCommMonoid M] (f : Fin 16384 → M) :
    ∑ t : Fin 16, ∑ r : Fin 1024, f (row t r) = ∑ n : Fin 16384, f n :=
  Cert.BlockSum.sum_blocks 16 1024 f

/-- The block-by-block penalty of real log-probabilities, as a coerced real. -/
theorem penBlocks_coe (r1 : Fin 16384 → ℝ) (r2 : Fin 16384 → Fin 32 → ℝ) :
    penBlocks (fun b => ((r1 b : ℝ) : EReal)) (fun b j => ((r2 b j : ℝ) : EReal))
      = (((∑ n : Fin 16384, -(r1 n)) * (1 / 16384)
          + ((∑ n : Fin 16384, ∑ j : Fin 32, -(r2 n j)) * (1 / 16384)) * (1 / 2) : ℝ) : EReal) := by
  have e1 : (∑ t : Fin 16, ∑ r : Fin 1024, ((0 : EReal) - ((r1 (row t r) : ℝ) : EReal)))
      = ((∑ n : Fin 16384, -(r1 n) : ℝ) : EReal) := by
    rw [← sum_univ_coe, ← sum_rows (fun n => ((-(r1 n) : ℝ) : EReal))]
    refine Finset.sum_congr rfl fun t _ => Finset.sum_congr rfl fun r _ => ?_
    exact zero_sub_coe _
  have e2 : (∑ t : Fin 16, ∑ j : Fin 32, ∑ r : Fin 1024, ((0 : EReal) - ((r2 (row t r) j : ℝ) : EReal)))
      = ((∑ n : Fin 16384, ∑ j : Fin 32, -(r2 n j) : ℝ) : EReal) := by
    rw [← sum_univ_coe, ← sum_rows (fun n => ((∑ j : Fin 32, -(r2 n j) : ℝ) : EReal))]
    refine Finset.sum_congr rfl fun t _ => ?_
    rw [Finset.sum_comm]
    refine Finset.sum_congr rfl fun r _ => ?_
    rw [← sum_univ_coe]
    refine Finset.sum_congr rfl fun j _ => ?_
    exact zero_sub_coe _
  unfold penBlocks
  rw [e1, e2, c14_coe, half_coe, mul_coe, mul_coe, mul_coe, add_coe]

/-- The penalty by means of real log-probabilities, as a coerced real. -/
theorem penMeans_coe (r1 : Fin 16384 → ℝ) (r2 : Fin 16384 → Fin 32 → ℝ) :
    penMeans (fun b => ((r1 b : ℝ) : EReal)) (fun b j => ((r2 b j : ℝ) : EReal))
      = (((-((∑ b : Fin 16384, r1 b) / 16384)) / 1
          + (∑ j : Fin 32, (∑ b : Fin 16384, -(r2 b j)) / 16384) / 2 : ℝ) : EReal) := by
  have e2 : (∑ j : Fin 32, Ideal.div (∑ b : Fin 16384, -((r2 b j : ℝ) : EReal)) (((16384 : ℝ) : EReal)))
      = ((∑ j : Fin 32, (∑ b : Fin 16384, -(r2 b j)) / 16384 : ℝ) : EReal) := by
    rw [← sum_univ_coe]
    refine Finset.sum_congr rfl fun j _ => ?_
    have : (∑ b : Fin 16384, -((r2 b j : ℝ) : EReal)) = ((∑ b : Fin 16384, -(r2 b j) : ℝ) : EReal) := by
      rw [← sum_univ_coe]
      exact Finset.sum_congr rfl fun b _ => neg_coe _
    rw [this, div_coe _ (by norm_num)]
  unfold penMeans
  rw [c16384_coe, one_coe', two_coe, e2, sum_univ_coe, div_coe _ (by norm_num), neg_coe,
    div_coe _ (by norm_num), div_coe _ (by norm_num), add_coe]

/-- The two arrangements of the penalty agree on real log-probabilities. -/
theorem pen_eq (s1 : Fin 16384 → EReal) (s2 : Fin 16384 → Fin 32 → EReal)
    (h1 : ∀ b, ∃ r : ℝ, s1 b = (r : EReal)) (h2 : ∀ b j, ∃ r : ℝ, s2 b j = (r : EReal)) :
    penBlocks s1 s2 = penMeans s1 s2 := by
  choose r1 hr1 using h1
  choose r2 hr2 using h2
  obtain rfl : s1 = fun b => ((r1 b : ℝ) : EReal) := funext hr1
  obtain rfl : s2 = fun b j => ((r2 b j : ℝ) : EReal) := funext fun b => funext fun j => hr2 b j
  rw [penBlocks_coe, penMeans_coe]
  refine congrArg Real.toEReal ?_
  have hswap : (∑ n : Fin 16384, ∑ j : Fin 32, -(r2 n j)) = ∑ j : Fin 32, ∑ b : Fin 16384, -(r2 b j) :=
    Finset.sum_comm
  rw [hswap, ← Finset.sum_div, Finset.sum_neg_distrib]
  ring

/-- The two arrangements agree on the selected log-probabilities of real arguments. -/
theorem penalty_eq (x : FVec Ideal SX .f32) (W1 : FVec Ideal SW1 .f32) (b1 : FVec Ideal SB1 .f32)
    (W2 : FVec Ideal SW2 .f32) (b2 : FVec Ideal SB2 .f32) (g w : Fin 16384 → BitVec 32)
    (hx : ∀ i, ∃ r : ℝ, x i = (r : EReal)) (hW1 : ∀ i, ∃ r : ℝ, W1 i = (r : EReal))
    (hb1 : ∀ i, ∃ r : ℝ, b1 i = (r : EReal)) (hW2 : ∀ i, ∃ r : ℝ, W2 i = (r : EReal))
    (hb2 : ∀ i, ∃ r : ℝ, b2 i = (r : EReal)) :
    penBlocks (sel1 x W1 b1 g) (sel2 x W2 b2 g w) = penMeans (sel1 x W1 b1 g) (sel2 x W2 b2 g w) :=
  pen_eq _ _
    (fun b => lsmAt_real _ (fun k => logit1_real x W1 b1 hx hW1 hb1 b k) _)
    (fun b j => lsmAt_real _ (fun k => logit2_real x W2 b2 hx hW2 hb2 b j k) _)

end Cert.HSoft

end
-- ==== Proof.PreFacts.lean ====
/-
  What the precondition says of the six argument arrays. The precondition is one bit: the conjunction of "every entry
  has absolute value below plus infinity", for each of the five float arrays, and "every label is at least 0 and below
  1024". When that bit is 1, each conjunct is 1 at every index (a conjunction over all entries that comes out 1 met only
  ones). An extended real whose absolute value is below plus infinity is neither infinity, so it is a real number; a
  32-bit word that tests at least 0 and below 1024, both signed, has its signed value in [0, 1024).

  For such a label l the two words the host derives are plain: the truncating quotient by 32 needs no correction (the
  signs of l and 32 differ only when l = 0, whose remainder is zero), so the inner-node word is l / 32, in [0, 31], and
  the root target l / 32 + 1 is among the 33 slots; the truncating remainder by 32 is l mod 32, not negative like the
  divisor, so it needs no correction either, and a node's target, l mod 32 + 1 or 0, is among the 33 slots.
-/
import proofs.«419181_j50646254354828_1_alg».proof.Pre_finite_inputs
import proofs.«419181_j50646254354828_1_alg».proof.Proof.Gen.Pre_finite_inputs
import proofs.«419181_j50646254354828_1_alg».proof.Proof.LabelWords
import Idealize.ShloMosaic.Lib.ReduceAll
import Idealize.ShloMosaic.Lib.StableHlo.Predicate
import Mathlib.Data.EReal.Basic

noncomputable section

namespace Cert.HSoft

open Idealize.ShloMosaic Idealize.ShloMosaic.ValueIdx

/-- A scalar has one index. -/
instance subsingleton_scalar_idx : Subsingleton Cert.Pre_finite_inputs.S_.Idx := ⟨fun a b => funext fun d => d.elim0⟩

/-- The pattern 0x7F800000 is plus infinity. -/
theorem top_bits : Ideal.ofBits .f32 0x7F800000#32 = ⊤ := by simp [Ideal.ofBits, Ideal.ieee]

/-- An extended real whose absolute value is below plus infinity is a real number. -/
theorem real_of_abs_lt_top (v : EReal)
    (h : FloatOps.cmpf (F := Ideal) (φ := .f32) .olt (FloatOps.hostAbsf (F := Ideal) (φ := .f32) v) (FloatOps.ofBits (F := Ideal) .f32 0x7F800000#32) = 1#1) :
    ∃ r : ℝ, v = (r : EReal) := by
  have h' : Ideal.cmp .olt (max v (-v)) (Ideal.ofBits .f32 0x7F800000#32) = 1#1 := h
  rw [top_bits] at h'
  induction v using EReal.rec with
  | bot => exact absurd h' (by simp [Ideal.cmp])
  | top => exact absurd h' (by simp [Ideal.cmp])
  | coe r => exact ⟨r, rfl⟩

/-- The precondition's six conjuncts, each read at every index. -/
theorem pre_split [Cert.Pre_finite_inputs.Facts] (x : FVec Ideal SX .f32) (lab : IVec SLab 32) (W1 : FVec Ideal SW1 .f32) (b1 : FVec Ideal SB1 .f32) (W2 : FVec Ideal SW2 .f32) (b2 : FVec Ideal SB2 .f32) (h : Cert.Pre_finite_inputs.fn (F := Ideal) x lab W1 b1 W2 b2 = (fun _ => 1#1)) :
    ((∀ i, ∃ r : ℝ, x i = (r : EReal)) ∧ (∀ i, ∃ r : ℝ, W1 i = (r : EReal)) ∧ (∀ i, ∃ r : ℝ, b1 i = (r : EReal)) ∧ (∀ i, ∃ r : ℝ, W2 i = (r : EReal)) ∧ (∀ i, ∃ r : ℝ, b2 i = (r : EReal)))
      ∧ ∀ i, IntOp.cmpi .sge (lab i) 0#32 = 1#1 ∧ IntOp.cmpi .slt (lab i) 1024#32 = 1#1 := by
  have h0 := congrFun h ValueIdx.ix0
  dsimp only [Cert.Pre_finite_inputs.fn, Cert.Pre_finite_inputs.fn_part1] at h0
  obtain ⟨h5, hl⟩ := IntOp.andi_eq_one.1 h0
  obtain ⟨h4, hb2⟩ := IntOp.andi_eq_one.1 h5
  obtain ⟨h3, hW2⟩ := IntOp.andi_eq_one.1 h4
  obtain ⟨h2, hb1⟩ := IntOp.andi_eq_one.1 h3
  obtain ⟨hx, hW1⟩ := IntOp.andi_eq_one.1 h2
  refine ⟨⟨fun i => ?_, fun i => ?_, fun i => ?_, fun i => ?_, fun i => ?_⟩, fun i => ?_⟩
  · exact real_of_abs_lt_top _ (Host.reduce_andi_all _ _ _ _ _ hx i)
  · exact real_of_abs_lt_top _ (Host.reduce_andi_all _ _ _ _ _ hW1 i)
  · exact real_of_abs_lt_top _ (Host.reduce_andi_all _ _ _ _ _ hb1 i)
  · exact real_of_abs_lt_top _ (Host.reduce_andi_all _ _ _ _ _ hW2 i)
  · exact real_of_abs_lt_top _ (Host.reduce_andi_all _ _ _ _ _ hb2 i)
  · exact IntOp.andi_eq_one.1 (Host.reduce_andi_all _ _ _ _ _ hl i)

/-- Under the precondition every entry of the five float arrays is a real number. -/
theorem reals_of_pre [Cert.Pre_finite_inputs.Facts] (x : FVec Ideal SX .f32) (lab : IVec SLab 32) (W1 : FVec Ideal SW1 .f32) (b1 : FVec Ideal SB1 .f32) (W2 : FVec Ideal SW2 .f32) (b2 : FVec Ideal SB2 .f32) (h : Cert.Pre_finite_inputs.fn (F := Ideal) x lab W1 b1 W2 b2 = (fun _ => 1#1)) :
    (∀ i, ∃ r : ℝ, x i = (r : EReal)) ∧ (∀ i, ∃ r : ℝ, W1 i = (r : EReal)) ∧ (∀ i, ∃ r : ℝ, b1 i = (r : EReal)) ∧ (∀ i, ∃ r : ℝ, W2 i = (r : EReal)) ∧ (∀ i, ∃ r : ℝ, b2 i = (r : EReal)) :=
  (pre_split x lab W1 b1 W2 b2 h).1

/-- Under the precondition every label, read signed, is in [0, 1024). -/
theorem labels_of_pre [Cert.Pre_finite_inputs.Facts] (x : FVec Ideal SX .f32) (lab : IVec SLab 32) (W1 : FVec Ideal SW1 .f32) (b1 : FVec Ideal SB1 .f32) (W2 : FVec Ideal SW2 .f32) (b2 : FVec Ideal SB2 .f32) (h : Cert.Pre_finite_inputs.fn (F := Ideal) x lab W1 b1 W2 b2 = (fun _ => 1#1)) :
    ∀ i, 0 ≤ (lab i).toInt ∧ (lab i).toInt < 1024 := by
  intro i
  obtain ⟨h0, h1⟩ := (pre_split x lab W1 b1 W2 b2 h).2 i
  rw [IntOp.cmpi_sge] at h0
  rw [IntOp.cmpi_slt] at h1
  exact ⟨by simpa using h0, by simpa using h1⟩

/-! ## The two label words, one sample at a time -/

/-- The divisor 32 after its guard against zero: still 32. -/
def d32 : BitVec 32 := Scalar.select (IntOp.cmpi .eq (32#32) (0#32)) (1#32) (32#32)

theorem d32_eq : d32 = 32#32 := by decide

/-- The sign of a word: 0, minus one or one. -/
def sgnW (l : BitVec 32) : BitVec 32 := if l = 0 then 0 else if l.msb then -1 else 1

/-- The inner-node word of one label: the truncating quotient by 32, less one where the signs differ and the remainder is not zero. -/
def gS (l : BitVec 32) : BitVec 32 :=
  Scalar.select
    (IntOp.andi (IntOp.cmpi .ne (sgnW l) (sgnW (32#32))) (IntOp.cmpi .ne (IntOp.remsi .host l (32#32)) (0#32)))
    (IntOp.subi (IntOp.divsi .host l (32#32)) (1#32)) (IntOp.divsi .host l (32#32))

/-- The leaf word of one label: the truncating remainder by 32, plus 32 where it is not zero and its sign is not the divisor's. -/
def wS (l : BitVec 32) : BitVec 32 :=
  Scalar.select
    (IntOp.andi (IntOp.cmpi .ne (IntOp.cmpi .slt (IntOp.remsi .host l d32) (0#32)) (IntOp.cmpi .slt d32 (0#32)))
      (IntOp.cmpi .ne (IntOp.remsi .host l d32) (0#32)))
    (IntOp.addi (IntOp.remsi .host l d32) d32) (IntOp.remsi .host l d32)

theorem gW_eq_gS (lab : IVec SLab 32) (b : Fin 16384) : gW lab b = gS (lab (ix1 b)) := rfl

theorem wW_eq_wS (lab : IVec SLab 32) (b : Fin 16384) : wW lab b = wS (lab (ix1 b)) := rfl

/-- A word between 0 and 1023 read signed is below 1024 read unsigned. -/
theorem toNat_lt_of_range (l : BitVec 32) (h0 : 0 ≤ l.toInt) (h1 : l.toInt < 1024) : l.toNat < 1024 := by
  have hlt := l.isLt
  rw [BitVec.toInt_eq_toNat_cond] at h0 h1
  split_ifs at h0 h1 <;> omega

/-- A selection on a clear bit takes the second value. -/
theorem select_zero {α : Type} (a b : α) : Scalar.select (0#1) a b = b := by
  unfold Scalar.select; exact if_neg (by decide)

/-- A conjunction with a clear bit is clear. -/
theorem andi_zero_left (c : BitVec 1) : IntOp.andi (0#1) c = 0#1 := by revert c; decide

/-- For a label in [0, 1024) the inner-node word is the quotient by 32: the signs of the label and of 32 differ only
    for the label 0, whose remainder is zero, so the quotient is never corrected. -/
theorem gS_eq (l : BitVec 32) (hl : l.toNat < 1024) : gS l = BitVec.ofNat 32 (l.toNat / 32) := by
  have hm : l.msb = false := BitVec.msb_eq_false_iff_two_mul_lt.mpr (by omega)
  have hq : IntOp.divsi .host l (32#32) = BitVec.ofNat 32 (l.toNat / 32) := by
    have hc : ¬ IntOp.SDivCorner l (32#32) := IntOp.not_corner_of_pos (by decide)
    unfold IntOp.divsi
    rw [if_neg hc, BitVec.sdiv_eq, hm, show (32#32 : BitVec 32).msb = false from by decide]
    apply BitVec.eq_of_toNat_eq
    simp only [BitVec.udiv_eq, BitVec.toNat_udiv, BitVec.toNat_ofNat, Nat.reducePow, Nat.reduceMod]
    omega
  have hc0 : IntOp.andi (IntOp.cmpi .ne (sgnW l) (sgnW (32#32))) (IntOp.cmpi .ne (IntOp.remsi .host l (32#32)) (0#32)) = 0#1 := by
    by_cases hz : l = 0
    · subst hz; decide
    · have hs : sgnW l = 1 := by unfold sgnW; rw [if_neg hz, hm]; rfl
      rw [hs, show IntOp.cmpi .ne (1 : BitVec 32) (sgnW (32#32)) = 0#1 from by decide]
      exact andi_zero_left _
  unfold gS
  rw [hc0, select_zero, hq]

/-- For a label in [0, 1024) the leaf word is the remainder by 32: it is not negative, like the divisor, so it is never
    corrected. -/
theorem wS_eq (l : BitVec 32) (hl : l.toNat < 1024) : wS l = BitVec.ofNat 32 (l.toNat % 32) := by
  have hr : IntOp.remsi .host l d32 = BitVec.ofNat 32 (l.toNat % 32) := by
    rw [d32_eq]
    apply BitVec.eq_of_toNat_eq
    rw [show (32#32 : BitVec 32) = BitVec.ofNat 32 32 from rfl, IntOp.toNat_remsi .host (by omega) 32 (by decide) (by decide),
      BitVec.toNat_ofNat]
    omega
  have hneg : IntOp.cmpi .slt (BitVec.ofNat 32 (l.toNat % 32)) (0#32) = 0#1 := by
    rcases BitVec.eq_zero_or_eq_one (IntOp.cmpi .slt (BitVec.ofNat 32 (l.toNat % 32)) (0#32)) with h | h
    · exact h
    · rw [IntOp.cmpi_slt, StableHlo.Predicate.toInt_ofNat_small _ (by omega)] at h
      simp at h
      omega
  unfold wS
  rw [hr, hneg, show IntOp.cmpi .slt d32 (0#32) = 0#1 from by decide,
    show IntOp.cmpi .ne (0#1 : BitVec 1) (0#1) = 0#1 from by decide, andi_zero_left, select_zero]

/-- Labels in [0, 1024) name existing slots: the root target is the quotient by 32 plus one, at most 32, and a node's
    target is the remainder by 32 plus one, at most 32, or 0. -/
theorem inRange_of_labels (lab : IVec SLab 32) (h : ∀ i, 0 ≤ (lab i).toInt ∧ (lab i).toInt < 1024) : InRange lab := by
  have hl : ∀ b : Fin 16384, (lab (ix1 b)).toNat < 1024 := fun b => toNat_lt_of_range _ (h _).1 (h _).2
  refine ⟨fun b => ?_, fun b j => ?_⟩
  · have hb := hl b
    refine ⟨⟨(lab (ix1 b)).toNat / 32 + 1, by omega⟩, ?_⟩
    rw [gW_eq_gS, gS_eq _ hb]
    apply BitVec.eq_of_toNat_eq
    simp only [BitVec.toNat_add, BitVec.toNat_ofNat]
    omega
  · have hb := hl b
    rw [gW_eq_gS, wW_eq_wS, gS_eq _ hb, wS_eq _ hb]
    unfold subLabel Scalar.select
    split
    · refine ⟨⟨(lab (ix1 b)).toNat % 32 + 1, by omega⟩, ?_⟩
      apply BitVec.eq_of_toNat_eq
      simp only [BitVec.toNat_add, BitVec.toNat_ofNat]
      omega
    · exact ⟨⟨0, by decide⟩, rfl⟩

/-- Under the precondition every target slot exists. -/
theorem inRange_of_pre [Cert.Pre_finite_inputs.Facts] (x : FVec Ideal SX .f32) (lab : IVec SLab 32) (W1 : FVec Ideal SW1 .f32) (b1 : FVec Ideal SB1 .f32) (W2 : FVec Ideal SW2 .f32) (b2 : FVec Ideal SB2 .f32) (h : Cert.Pre_finite_inputs.fn (F := Ideal) x lab W1 b1 W2 b2 = (fun _ => 1#1)) :
    InRange lab :=
  inRange_of_labels lab (labels_of_pre x lab W1 b1 W2 b2 h)

end Cert.HSoft

end
-- ==== Proof.KBlock.lean ====
/-
  What one grid point of the kernel adds, in terms of the blocks it is handed: a block of 1024 samples `x0`, their
  inner-node and leaf words `x1`, `x2` (columns), the root weights transposed `x3` (2048 × 33) and biases `x4`
  (a row of 33), the 32 inner-node classifiers' weights transposed and laid side by side `x5` (2048 × 1056, classifier
  j in columns 33 j … 33 j + 32) and their biases `x6` (a row of 1056).
-/
import proofs.«419181_j50646254354828_1_alg».proof.Proof.Spec

noncomputable section

namespace Cert.HSoft

open Idealize.ShloMosaic Idealize.ShloMosaic.ValueIdx
open scoped BigOperators

abbrev SBx : Shape := ⟨2, ![1024, 2048]⟩
abbrev SBcol : Shape := ⟨2, ![1024, 1]⟩
abbrev SBw1 : Shape := ⟨2, ![2048, 33]⟩
abbrev SBb1 : Shape := ⟨2, ![1, 33]⟩
abbrev SBw2 : Shape := ⟨2, ![2048, 1056]⟩
abbrev SBb2 : Shape := ⟨2, ![1, 1056]⟩

/-- The block's root logit of slot `k` on its row `r`. -/
def blkLogit1 (x0 : FVec Ideal SBx .f32) (x3 : FVec Ideal SBw1 .bf16) (x4 : FVec Ideal SBb1 .f32) (r : Fin 1024) (k : Fin 33) : EReal :=
  (∑ d : Fin 2048, x0 (ix2 r d) * x3 (ix2 d k)) + x4 (ix2 (0 : Fin 1) k)

/-- The block's inner-node logits laid side by side: column `n` of row `r`. -/
def blkLogit2 (x0 : FVec Ideal SBx .f32) (x5 : FVec Ideal SBw2 .bf16) (x6 : FVec Ideal SBb2 .f32) (r : Fin 1024) (n : Fin 1056) : EReal :=
  (∑ d : Fin 2048, x0 (ix2 r d) * x5 (ix2 d n)) + x6 (ix2 (0 : Fin 1) n)

/-- Column `33 j + k` of the side-by-side layout: classifier `j`'s slot `k`. -/
abbrev col (j : Fin 32) (k : Fin 33) : Fin 1056 := ⟨33 * j.val + k.val, by omega⟩

/-- The block of leaf logits a grid point writes: entry `(r, c)` is classifier `c / 32`'s slot `c mod 32 + 1`. -/
def blkOut (x0 : FVec Ideal SBx .f32) (x5 : FVec Ideal SBw2 .bf16) (x6 : FVec Ideal SBb2 .f32) (r : Fin 1024) (c : Fin 1024) : EReal :=
  blkLogit2 x0 x5 x6 r ⟨33 * (c.val / 32) + (c.val % 32 + 1), by omega⟩

/-- The block's total of negated root log-probabilities at the targets `g + 1`. -/
def blkRoot (x0 : FVec Ideal SBx .f32) (x1 : IVec SBcol 32) (x3 : FVec Ideal SBw1 .bf16) (x4 : FVec Ideal SBb1 .f32) : EReal :=
  ∑ r : Fin 1024, (0 - lsmAt (blkLogit1 x0 x3 x4 r) (x1 (ix2 r (0 : Fin 1)) + 1#32))

/-- The block's total, over the 32 inner nodes, of negated log-probabilities at each node's target. -/
def blkNodes (x0 : FVec Ideal SBx .f32) (x1 x2 : IVec SBcol 32) (x5 : FVec Ideal SBw2 .bf16) (x6 : FVec Ideal SBb2 .f32) : EReal :=
  ∑ j : Fin 32, ∑ r : Fin 1024,
    (0 - lsmAt (fun k => blkLogit2 x0 x5 x6 r (col j k)) (subLabel (x1 (ix2 r (0 : Fin 1))) (x2 (ix2 r (0 : Fin 1))) j))

/-- What the last grid point writes from the two running totals: the root total scaled by 2^-14, plus the node total
    scaled by 2^-14 and by one half. -/
def blkPenalty (a1 a2 : EReal) : EReal := a1 * c14 + (a2 * c14) * half

end Cert.HSoft

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.KChunk.lean ====
/-
  The pieces of arithmetic the kernel's body repeats, as functions of whole blocks, and what they hold entry by entry
  on the extended reals: the log-softmax of every row of a block of 33-slot logits; the block's total of negated
  entries picked by a column of target slots (a product with a one-hot row, summed along the row, negated, summed over
  the rows); the column of target slots of one inner node; and the two matrix products with their bias rows.
-/
import proofs.«419181_j50646254354828_1_alg».proof.KernelIdeal
import proofs.«419181_j50646254354828_1_alg».proof.Proof.Gen.KernelIdeal
import proofs.«419181_j50646254354828_1_alg».proof.Proof.KBlock
import proofs.«419181_j50646254354828_1_alg».proof.Proof.LibPlainDot
import proofs.«419181_j50646254354828_1_alg».proof.Proof.LibColumn
import proofs.«419181_j50646254354828_1_alg».proof.Proof.LibIdealReal
import Idealize.ShloMosaic.Lib.ValueLayout
import Idealize.ShloMosaic.Lib.Pipeline.Value

noncomputable section

namespace Cert.KernelIdeal.KC

open Idealize.ShloMosaic Idealize.ShloMosaic.TcCoe Idealize.ShloMosaic.ValueIdx
open Cert.KernelIdeal Cert.KernelIdeal.Facts₀ Cert.KernelIdeal.Facts Cert.HSoft

variable {F : FTy → Type} [FloatOps F]

/-- The index of a one-by-one array. -/
abbrev o11 : (⟨2, ![1, 1]⟩ : Shape).Idx := ix2 (0 : Fin 1) (0 : Fin 1)

/-- The slot numbers 0 … 32 as a row of words. -/
def iotaV : IVec S1x33 32 := iota .tc S1x33 32 [1] iota_S1x33_d1_w32

/-- The log-softmax of every row of a block: the row's maximum (from minus infinity) is subtracted, the exponentials
    are summed along the row, and the logarithm of the sum is subtracted. -/
def lsmVec (v : FVec F S1024x33 .f32) : FVec F S1024x33 .f32 :=
  have v93 : FVec F S1024 .f32 := multiReduction .maximumf [1] S1024 v 0xFF800000#32 reduces_S1024x33_S1024 (.inl rfl) rfl
  have cst_39 : F .f32 := Scalar.ofBits .f32 0xFF800000#32
  have v94 : FVec F S1024 .f32 := broadcast S1024 cst_39
  have v95 : FVec F S1024 .f32 := maximumf v94 v93
  have v96 : FVec F S1024x1 .f32 := shapeCast S1024x1 v95 shapeCasts_S1024_S1024x1
  have v97 : FVec F S1024x33 .f32 := broadcastTo S1024x33 v96 broadcasts_S1024x1_S1024x33
  have v98 : FVec F S1024x33 .f32 := subf v v97
  have v99 : FVec F S1024x33 .f32 := exp v98
  have v100 : FVec F S1024 .f32 := multiReduction .add [1] S1024 v99 0x00000000#32 reduces_S1024x33_S1024 (.inl rfl) rfl
  have v101 : FVec F S1024x1 .f32 := shapeCast S1024x1 v100 shapeCasts_S1024_S1024x1
  have v102 : FVec F S1024x1 .f32 := log v101
  have v103 : FVec F S1024x33 .f32 := broadcastTo S1024x33 v102 broadcasts_S1024x1_S1024x33
  subf v98 v103

/-- The block's total of negated picked entries: each row of `l` is multiplied by the one-hot row of its target slot
    (slot numbers `v9` compared with the target), summed along the row, subtracted from zero, and the 1024 results summed. -/
def negPick (l : FVec F S1024x33 .f32) (v9 : IVec S1x33 32) (target : IVec S1024x1 32) : FVec F S1x1 .f32 :=
  have v111 : IVec S1024x33 32 := broadcastTo S1024x33 v9 broadcasts_S1x33_S1024x33
  have v112 : IVec S1024x33 32 := broadcastTo S1024x33 target broadcasts_S1024x1_S1024x33
  have v113 : IVec S1024x33 1 := cmpi .eq v111 v112
  have v114 : IVec S1024x33 32 := extui 32 v113 natLt_1_32
  have v115 : FVec F S1024x33 .f32 := sitofp .f32 v114
  have v116 : FVec F S1024x33 .f32 := mulf l v115
  have v117 : FVec F S1024 .f32 := multiReduction .add [1] S1024 v116 0x00000000#32 reduces_S1024x33_S1024 (.inl rfl) rfl
  have v118 : FVec F S1024x1 .f32 := shapeCast S1024x1 v117 shapeCasts_S1024_S1024x1
  have cst_45 : F .f32 := Scalar.ofBits .f32 0x00000000#32
  have v119 : FVec F S1024x1 .f32 := broadcast S1024x1 cst_45
  have v120 : FVec F S1024x1 .f32 := subf v119 v118
  have v121 : FVec F S1 .f32 := multiReduction .add [0] S1 v120 0x00000000#32 reduces_S1024x1_S1 (.inl rfl) rfl
  shapeCast S1x1 v121 shapeCasts_S1_S1x1

/-- The root classifier's target slots: the inner-node words plus one. -/
def rootTarget (v6 : IVec S1024x1 32) : IVec S1024x1 32 :=
  addi v6 (broadcast S1024x1 (1#32))

/-- Inner node `jw`'s target slots: the leaf word plus one where the inner-node word is `jw`, zero elsewhere. -/
def nodeTarget (jw : BitVec 32) (v6 v8 : IVec S1024x1 32) : IVec S1024x1 32 :=
  have v105 : IVec S1024x1 32 := broadcast S1024x1 jw
  have v106 : IVec S1024x1 1 := cmpi .eq v6 v105
  have v107 : IVec S1024x1 32 := broadcast S1024x1 (1#32)
  have v108 : IVec S1024x1 32 := addi v8 v107
  have v109 : IVec S1024x1 32 := broadcast S1024x1 (0#32)
  select v106 v108 v109

/-- One inner node's contribution: its 33 columns of the side-by-side logits (from column `off`), their log-softmax,
    the negated total at the node's target slots. -/
def nodeCe (off : ℕ) (hs : S1024x1056.Slices ![0, off] S1024x33) (jw : BitVec 32) (v6 v8 : IVec S1024x1 32) (v9 : IVec S1x33 32)
    (v54 : FVec F S1024x1056 .f32) : FVec F S1x1 .f32 :=
  negPick (lsmVec (extractStridedSlice S1024x33 ![0, off] v54 hs)) v9 (nodeTarget jw v6 v8)

/-- The root logits of a block: the rows (rounded to the narrow format) against the transposed root weights, from
    zero, plus the bias row. -/
def rootLogits (x0 : Vec F S1024x2048 .f32) (x3 : Vec F S2048x33 .bf16) (x4 : Vec F S1x33 .f32) : FVec F S1024x33 .f32 :=
  addf (matmul dot_S1024x2048_S2048x33_S1024x33_1_0_0_1_n_n none (truncf .bf16 x0 bitsLt_bf16_f32) (shapeCast S2048x33 x3 shapeCasts_S2048x33_S2048x33) (constant S1024x33 .f32 0x00000000#32))
    (broadcastTo S1024x33 (shapeCast S1x33 x4 shapeCasts_S1x33_S1x33) broadcasts_S1x33_S1024x33)

/-- The inner-node logits of a block, the 32 classifiers side by side. -/
def nodeLogits (x0 : Vec F S1024x2048 .f32) (x5 : Vec F S2048x1056 .bf16) (x6 : Vec F S1x1056 .f32) : FVec F S1024x1056 .f32 :=
  addf (matmul dot_S1024x2048_S2048x1056_S1024x1056_1_0_0_1_n_n none (truncf .bf16 x0 bitsLt_bf16_f32) (shapeCast S2048x1056 x5 shapeCasts_S2048x1056_S2048x1056) (constant S1024x1056 .f32 0x00000000#32))
    (broadcastTo S1024x1056 (shapeCast S1x1056 x6 shapeCasts_S1x1056_S1x1056) broadcasts_S1x1056_S1024x1056)

/-! ## Entry by entry, on the extended reals -/

/-- The inserted index: row `r` with slot `k` put on the reduced axis is `(r, k)`. -/
theorem lift_row (r : Fin 1024) (k : Fin 33) :
    reduces_S1024x33_S1024.lift (ix1 r) k = ix2 r k := by
  funext a
  match a with
  | ⟨0, _⟩ => rfl
  | ⟨1, _⟩ => rfl

/-- A row's sum: the add-reduction along the rows, at row `r`, is the sum of the row's 33 entries. -/
theorem rowSum_apply (x : FVec Ideal S1024x33 .f32) (r : Fin 1024) :
    multiReduction .add [1] S1024 x 0x00000000#32 reduces_S1024x33_S1024 (.inl rfl) rfl (ix1 r) = ∑ k : Fin 33, x (ix2 r k) := by
  refine (Ideal.multiReduction_add_single x 0x00000000#32 reduces_S1024x33_S1024 (.inl rfl) rfl (ix1 r)).trans ?_
  exact Finset.sum_congr rfl fun k _ => congrArg x (lift_row r k)

/-- A row's maximum: the max-reduction along the rows, at row `r`, is the fold of `max` from minus infinity over the
    row's 33 entries. -/
theorem rowMaxRed_apply (x : FVec Ideal S1024x33 .f32) (r : Fin 1024) :
    multiReduction .maximumf [1] S1024 x 0xFF800000#32 reduces_S1024x33_S1024 (.inl rfl) rfl (ix1 r)
      = (Finset.univ : Finset (Fin 33)).fold max negInf (fun k => x (ix2 r k)) := by
  refine (Ideal.multiReduction_maximumf_single x 0xFF800000#32 reduces_S1024x33_S1024 (.inl rfl) rfl (ix1 r)).trans ?_
  have e : (x ∘ reduces_S1024x33_S1024.lift (ix1 r)) = fun k : Fin 33 => x (ix2 r k) :=
    funext fun k => congrArg x (lift_row r k)
  exact congrArg (fun f : Fin 33 → EReal => (Finset.univ : Finset (Fin 33)).fold max negInf f) e

/-- The column of row maxima (each compared once more with minus infinity), spread over the 33 slots. -/
def shiftV (v : FVec F S1024x33 .f32) : FVec F S1024x33 .f32 :=
  broadcastTo S1024x33 (shapeCast S1024x1 (maximumf (broadcast S1024 (Scalar.ofBits .f32 0xFF800000#32))
    (multiReduction .maximumf [1] S1024 v 0xFF800000#32 reduces_S1024x33_S1024 (.inl rfl) rfl)) shapeCasts_S1024_S1024x1) broadcasts_S1024x1_S1024x33

/-- Every slot of row `r` of the spread column holds the row's maximum. -/
theorem shiftV_apply (v : FVec Ideal S1024x33 .f32) (r : Fin 1024) (k : Fin 33) :
    shiftV v (ix2 r k) = rowMax (fun k' => v (ix2 r k')) := by
  unfold shiftV
  refine (Cert.LibColumn.broadcastTo_a1_ab_apply _ broadcasts_S1024x1_S1024x33 r k).trans ?_
  refine (Cert.LibColumn.shapeCast_a_a1_apply _ shapeCasts_S1024_S1024x1 r 0).trans ?_
  refine (maximumf_apply _ _ (ix1 r)).trans ?_
  unfold rowMax
  exact congrArg (max negInf) (rowMaxRed_apply v r)

/-- The log-softmax of a block in terms of the spread column of maxima. -/
theorem lsmVec_eq (v : FVec F S1024x33 .f32) :
    lsmVec v = subf (subf v (shiftV v)) (broadcastTo S1024x33 (log (shapeCast S1024x1
      (multiReduction .add [1] S1024 (exp (subf v (shiftV v))) 0x00000000#32 reduces_S1024x33_S1024 (.inl rfl) rfl)
      shapeCasts_S1024_S1024x1)) broadcasts_S1024x1_S1024x33) := rfl

/-- The log-softmax of a block's rows is, row by row, the log-softmax of 33 numbers. -/
theorem lsmVec_apply (v : FVec Ideal S1024x33 .f32) (r : Fin 1024) (k : Fin 33) :
    lsmVec v (ix2 r k) = lsm (fun k' => v (ix2 r k')) k := by
  rw [lsmVec_eq]
  unfold lsm
  refine (subf_apply _ _ (ix2 r k)).trans ?_
  refine congrArg₂ (· - ·) ?_ ?_
  · refine (subf_apply _ _ (ix2 r k)).trans ?_
    exact congrArg (v (ix2 r k) - ·) (shiftV_apply v r k)
  · refine (Cert.LibColumn.broadcastTo_a1_ab_apply _ broadcasts_S1024x1_S1024x33 r k).trans ?_
    show Ideal.log (shapeCast S1024x1 _ shapeCasts_S1024_S1024x1 (ix2 r (0 : Fin 1))) = _
    refine congrArg Ideal.log ?_
    refine (Cert.LibColumn.shapeCast_a_a1_apply _ shapeCasts_S1024_S1024x1 r 0).trans ?_
    refine (rowSum_apply _ r).trans ?_
    refine Finset.sum_congr rfl fun k' _ => ?_
    show Ideal.exp (v (ix2 r k') - shiftV v (ix2 r k')) = _
    rw [shiftV_apply]

/-- The slot numbers: entry `k` of the row is the word `k`. -/
theorem iotaV_apply (k : Fin 33) : iotaV (ix2 (0 : Fin 1) k) = BitVec.ofNat 32 k.val := by
  show BitVec.ofNat 32 (0 * 33 + k.val) = _
  rw [Nat.zero_mul, Nat.zero_add]

/-- The equality comparison of two words is the one-bit word one exactly when they are equal. -/
theorem cmpi_eq_one (x y : BitVec 32) : IntOp.cmpi .eq x y = 1#1 ↔ x = y := by
  show BitVec.ofBool (x == y) = 1#1 ↔ x = y
  by_cases h : x = y
  · subst h
    rw [beq_self_eq_true]
    exact ⟨fun _ => rfl, fun _ => rfl⟩
  · rw [beq_eq_false_iff_ne.mpr h]
    exact ⟨fun hc => absurd hc (by decide), fun hc => absurd hc h⟩

/-- The one-hot rows: entry `(r, k)` is one when slot number `k` is row `r`'s target word, zero otherwise. -/
def oneHot (v9 : IVec S1x33 32) (target : IVec S1024x1 32) : FVec F S1024x33 .f32 :=
  sitofp .f32 (extui 32 (cmpi .eq (broadcastTo S1024x33 v9 broadcasts_S1x33_S1024x33)
    (broadcastTo S1024x33 target broadcasts_S1024x1_S1024x33)) natLt_1_32)

/-- An entry of the one-hot rows, on the extended reals. -/
theorem oneHot_apply (target : IVec S1024x1 32) (r : Fin 1024) (k : Fin 33) :
    oneHot (F := Ideal) iotaV target (ix2 r k)
      = ((if BitVec.ofNat 32 k.val = target (ix2 r (0 : Fin 1)) then (1 : ℝ) else 0 : ℝ) : EReal) := by
  have e1 : broadcastTo S1024x33 iotaV broadcasts_S1x33_S1024x33 (ix2 r k) = BitVec.ofNat 32 k.val :=
    (broadcastTo_1b_ab_apply iotaV broadcasts_S1x33_S1024x33 r k).trans (iotaV_apply k)
  have e2 : broadcastTo S1024x33 target broadcasts_S1024x1_S1024x33 (ix2 r k) = target (ix2 r (0 : Fin 1)) :=
    Cert.LibColumn.broadcastTo_a1_ab_apply target broadcasts_S1024x1_S1024x33 r k
  show FloatOps.sitofp (F := Ideal) .f32 ((IntOp.cmpi .eq (broadcastTo S1024x33 iotaV broadcasts_S1x33_S1024x33 (ix2 r k))
    (broadcastTo S1024x33 target broadcasts_S1024x1_S1024x33 (ix2 r k))).setWidth 32) = _
  rw [e1, e2, Cert.LibIdealReal.sitofp_extui_bit]
  by_cases h : BitVec.ofNat 32 k.val = target (ix2 r (0 : Fin 1))
  · rw [if_pos h, if_pos ((cmpi_eq_one _ _).mpr h)]
  · rw [if_neg h, if_neg (fun hc => h ((cmpi_eq_one _ _).mp hc))]

/-- A row against a one-hot row, summed: every product is zero except the one at the slot the word names, which is the
    entry itself; when the word names no slot every product is zero. On the extended reals `x * 0 = 0` and `x * 1 = x`
    hold for every `x`. -/
theorem pickRow (f : Fin 33 → EReal) (t : BitVec 32) :
    ∑ k : Fin 33, f k * ((if BitVec.ofNat 32 k.val = t then (1 : ℝ) else 0 : ℝ) : EReal)
      = if h : t.toNat < 33 then f ⟨t.toNat, h⟩ else 0 := by
  have key : ∀ k : Fin 33, BitVec.ofNat 32 k.val = t ↔ k.val = t.toNat := fun k => by
    constructor
    · intro h
      rw [← h, BitVec.toNat_ofNat, Nat.mod_eq_of_lt (by have := k.isLt; omega)]
    · intro h
      rw [h, BitVec.ofNat_toNat, BitVec.setWidth_eq]
  by_cases h : t.toNat < 33
  · rw [dif_pos h, Finset.sum_eq_single (⟨t.toNat, h⟩ : Fin 33)]
    · rw [if_pos ((key _).mpr rfl), EReal.coe_one, mul_one]
    · intro k _ hk
      rw [if_neg (fun hc => hk (Fin.ext ((key k).mp hc))), EReal.coe_zero, mul_zero]
    · intro hn
      exact absurd (Finset.mem_univ _) hn
  · rw [dif_neg h]
    refine Finset.sum_eq_zero fun k _ => ?_
    rw [if_neg (fun hc => h (by rw [← (key k).mp hc]; exact k.isLt)), EReal.coe_zero, mul_zero]

/-- The inserted index: the one column with row `r` put on the reduced axis is `(r, 0)`. -/
theorem lift_col (r : Fin 1024) :
    reduces_S1024x1_S1.lift (ix1 (0 : Fin 1)) r = ix2 r (0 : Fin 1) := by
  funext a
  match a with
  | ⟨0, _⟩ => rfl
  | ⟨1, _⟩ => rfl

/-- A column's sum: the add-reduction along the column is the sum of its 1024 entries. -/
theorem colSum_apply (x : FVec Ideal S1024x1 .f32) :
    multiReduction .add [0] S1 x 0x00000000#32 reduces_S1024x1_S1 (.inl rfl) rfl (ix1 (0 : Fin 1)) = ∑ r : Fin 1024, x (ix2 r (0 : Fin 1)) := by
  refine (Ideal.multiReduction_add_single x 0x00000000#32 reduces_S1024x1_S1 (.inl rfl) rfl (ix1 (0 : Fin 1))).trans ?_
  exact Finset.sum_congr rfl fun r _ => congrArg x (lift_col r)

/-- The negated picked total in terms of the one-hot rows. -/
theorem negPick_eq (l : FVec F S1024x33 .f32) (v9 : IVec S1x33 32) (target : IVec S1024x1 32) :
    negPick l v9 target = shapeCast S1x1 (multiReduction .add [0] S1
      (subf (broadcast S1024x1 (Scalar.ofBits .f32 0x00000000#32))
        (shapeCast S1024x1 (multiReduction .add [1] S1024 (mulf l (oneHot v9 target)) 0x00000000#32 reduces_S1024x33_S1024 (.inl rfl) rfl)
          shapeCasts_S1024_S1024x1))
      0x00000000#32 reduces_S1024x1_S1 (.inl rfl) rfl) shapeCasts_S1_S1x1 := rfl

/-- The negated picked total: row `r` contributes zero minus the entry at the slot its target word names (zero when
    the word names no slot). -/
theorem negPick_apply (l : FVec Ideal S1024x33 .f32) (target : IVec S1024x1 32) :
    negPick l iotaV target o11
      = ∑ r : Fin 1024, (0 - (if h : (target (ix2 r (0 : Fin 1))).toNat < 33 then l (ix2 r ⟨(target (ix2 r (0 : Fin 1))).toNat, h⟩) else 0)) := by
  rw [negPick_eq]
  refine (Cert.LibColumn.shapeCast_a_a1_apply _ shapeCasts_S1_S1x1 (0 : Fin 1) (0 : Fin 1)).trans ?_
  refine (colSum_apply _).trans ?_
  refine Finset.sum_congr rfl fun r _ => ?_
  refine (subf_apply _ _ (ix2 r (0 : Fin 1))).trans ?_
  refine congrArg₂ (· - ·) Cert.LibIdealReal.ofBits_zero ?_
  refine (Cert.LibColumn.shapeCast_a_a1_apply _ shapeCasts_S1024_S1024x1 r (0 : Fin 1)).trans ?_
  refine (rowSum_apply _ r).trans ?_
  refine (Finset.sum_congr rfl fun k _ => ?_).trans (pickRow (fun k => l (ix2 r k)) (target (ix2 r (0 : Fin 1))))
  show l (ix2 r k) * oneHot iotaV target (ix2 r k) = _
  rw [oneHot_apply]

/-- Together: the negated total of log-probabilities at the target slots. -/
theorem negPick_lsmVec (v : FVec Ideal S1024x33 .f32) (target : IVec S1024x1 32) :
    negPick (lsmVec v) iotaV target o11 = ∑ r : Fin 1024, (0 - lsmAt (fun k => v (ix2 r k)) (target (ix2 r (0 : Fin 1)))) := by
  refine (negPick_apply (lsmVec v) target).trans ?_
  refine Finset.sum_congr rfl fun r _ => congrArg (0 - ·) ?_
  unfold lsmAt
  by_cases h : (target (ix2 r (0 : Fin 1))).toNat < 33
  · rw [dif_pos h, dif_pos h]
    exact lsmVec_apply v r _
  · rw [dif_neg h, dif_neg h]

/-- The root targets, entry by entry. -/
theorem rootTarget_apply (v6 : IVec S1024x1 32) (r : Fin 1024) : rootTarget v6 (ix2 r (0 : Fin 1)) = v6 (ix2 r (0 : Fin 1)) + 1#32 := rfl

/-- A node's targets, entry by entry. -/
theorem nodeTarget_apply (j : Fin 32) (v6 v8 : IVec S1024x1 32) (r : Fin 1024) :
    nodeTarget (BitVec.ofNat 32 j.val) v6 v8 (ix2 r (0 : Fin 1)) = subLabel (v6 (ix2 r (0 : Fin 1))) (v8 (ix2 r (0 : Fin 1))) j := rfl

/-- The root logits, entry by entry. -/
theorem rootLogits_apply (x0 : Vec Ideal S1024x2048 .f32) (x3 : Vec Ideal S2048x33 .bf16) (x4 : Vec Ideal S1x33 .f32) (r : Fin 1024) (k : Fin 33) :
    rootLogits x0 x3 x4 (ix2 r k) = blkLogit1 x0 x3 x4 r k := by
  unfold rootLogits blkLogit1
  refine (addf_apply _ _ (ix2 r k)).trans ?_
  refine congrArg₂ (· + ·) ?_ ?_
  · rw [shapeCast_self]
    exact Cert.LibPlainDot.matmul_zero_apply (A := 1024) (K := 2048) (B := 33)
      dot_S1024x2048_S2048x33_S1024x33_1_0_0_1_n_n rfl rfl rfl rfl rfl rfl none _ _ r k
  · rw [shapeCast_self]
    exact broadcastTo_1b_ab_apply x4 broadcasts_S1x33_S1024x33 r k

/-- The inner-node logits, entry by entry. -/
theorem nodeLogits_apply (x0 : Vec Ideal S1024x2048 .f32) (x5 : Vec Ideal S2048x1056 .bf16) (x6 : Vec Ideal S1x1056 .f32) (r : Fin 1024) (n : Fin 1056) :
    nodeLogits x0 x5 x6 (ix2 r n) = blkLogit2 x0 x5 x6 r n := by
  unfold nodeLogits blkLogit2
  refine (addf_apply _ _ (ix2 r n)).trans ?_
  refine congrArg₂ (· + ·) ?_ ?_
  · rw [shapeCast_self]
    exact Cert.LibPlainDot.matmul_zero_apply (A := 1024) (K := 2048) (B := 1056)
      dot_S1024x2048_S2048x1056_S1024x1056_1_0_0_1_n_n rfl rfl rfl rfl rfl rfl none _ _ r n
  · rw [shapeCast_self]
    exact broadcastTo_1b_ab_apply x6 broadcasts_S1x1056_S1024x1056 r n

/-- A slice of 33 columns, entry by entry. -/
theorem slice33_apply (off : ℕ) (hoff : off + 33 ≤ 1056) (hs : S1024x1056.Slices ![0, off] S1024x33) (v54 : FVec Ideal S1024x1056 .f32) (r : Fin 1024) (k : Fin 33) :
    extractStridedSlice S1024x33 ![0, off] v54 hs (ix2 r k) = v54 (ix2 r ⟨off + k.val, by omega⟩) :=
  slice2_axis1_apply off v54 hs r k ⟨off + k.val, by omega⟩ rfl

/-- One inner node's contribution, on the extended reals. -/
theorem nodeCe_apply (j : Fin 32) (hs : S1024x1056.Slices ![0, 33 * j.val] S1024x33) (v6 v8 : IVec S1024x1 32) (v54 : FVec Ideal S1024x1056 .f32) :
    nodeCe (33 * j.val) hs (BitVec.ofNat 32 j.val) v6 v8 iotaV v54 o11
      = ∑ r : Fin 1024, (0 - lsmAt (fun k => v54 (ix2 r (col j k))) (subLabel (v6 (ix2 r (0 : Fin 1))) (v8 (ix2 r (0 : Fin 1))) j)) := by
  unfold nodeCe
  refine (negPick_lsmVec _ _).trans ?_
  refine Finset.sum_congr rfl fun r _ => congrArg (0 - ·) ?_
  rw [nodeTarget_apply]
  refine congrArg (fun f : Fin 33 → EReal => lsmAt f (subLabel (v6 (ix2 r (0 : Fin 1))) (v8 (ix2 r (0 : Fin 1))) j)) (funext fun k => ?_)
  exact slice33_apply (33 * j.val) (by have := j.isLt; omega) hs v54 r k

end Cert.KernelIdeal.KC

end
-- ==== Proof.KOut.lean ====
/-
  The block of leaf logits a grid point leaves in the first output's buffer, entry by entry: the same in all three cases of the body.
-/
import Idealize.ShloMosaic.Lib.ValueLayout
import proofs.«419181_j50646254354828_1_alg».proof.Proof.Gen.KernelIdeal.Frame
import proofs.«419181_j50646254354828_1_alg».proof.Proof.KBlock
import proofs.«419181_j50646254354828_1_alg».proof.Proof.KChunk

noncomputable section

namespace Cert.KernelIdeal.KOut

open Idealize.ShloMosaic Idealize.ShloMosaic.TcCoe Idealize.ShloMosaic.ValueIdx
open Cert.KernelIdeal Cert.KernelIdeal.Gen Cert.HSoft Cert.KernelIdeal.KC

variable (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S2048x33 .bf16) (harg4 : arg4.IsWhole) (arg5 : Memref sig .tc .vmem S1x33 .f32) (harg5 : arg5.IsWhole) (arg6 : Memref sig .tc .vmem S2048x1056 .bf16) (harg6 : arg6.IsWhole) (arg7 : Memref sig .tc .vmem S1x1056 .f32) (harg7 : arg7.IsWhole) (arg8 : Memref sig .tc .vmem S1024x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole)
  (x0 : Vec Ideal S1024x2048 .f32) (x1 : Vec Ideal S1024x1 .i32) (x2 : Vec Ideal S1024x1 .i32) (x3 : Vec Ideal S2048x33 .bf16) (x4 : Vec Ideal S1x33 .f32) (x5 : Vec Ideal S2048x1056 .bf16) (x6 : Vec Ideal S1x1056 .f32) (xs0 : Vec Ideal S1x1 .f32) (xs1 : Vec Ideal S1x1 .f32)

/-- The block a grid point writes, as ONE function of the buffer's index: entry `(r, q)` is the side-by-side logits'
    entry `(r, 33 (q / 32) + q mod 32 + 1)`. -/
def blkG (v54 : FVec Ideal S1024x1056 .f32) : S1024x1024.Idx → Elt Ideal .f32 := fun y =>
  v54 (ix2 (⟨(y 0).val, idx2_lt0 y⟩ : Fin 1024)
    (⟨33 * ((y 1).val / 32) + ((y 1).val % 32 + 1), by have := idx2_lt1 y; omega⟩ : Fin 1056))

/-- One stored rectangle: columns `oA … oA + 31` of the buffer (`oA` a multiple of 32) receive slots 1 … 32 of the
    33 columns from `33 (oA / 32)` of the side-by-side logits, which is the one function above under the rectangle. -/
theorem piece_eq (v54 : FVec Ideal S1024x1056 .f32) (oA : ℕ) (hA : oA % 32 = 0)
    (hs1 : S1024x1056.Slices ![0, 33 * (oA / 32)] S1024x33) (hs2 : S1024x33.Slices ![0, 1] S1024x32)
    (inb : ∀ a, (![0, oA] : Fin 2 → ℕ) a + (![1024, 32] : Fin 2 → ℕ) a ≤ S1024x1024.size a)
    (w : FVec Ideal S1024x32 .f32)
    (hw : w = extractStridedSlice S1024x32 ![0, 1] (extractStridedSlice S1024x33 ![0, 33 * (oA / 32)] v54 hs1) hs2)
    (x : S1024x32.Idx) :
    w x = blkG v54 ((Rect.unit (s := S1024x1024) ![0, oA] ![1024, 32] inb).emb x) := by
  subst hw
  obtain ⟨a, b, rfl⟩ : ∃ (a : Fin 1024) (b : Fin 32), x = ix2 a b := ⟨x 0, x 1, eq_ix2 x⟩
  have hoA : oA + 32 ≤ 1024 := inb 1
  have hb := b.isLt
  refine (slice2_axis1_apply 1 _ hs2 a b ⟨1 + b.val, by omega⟩ rfl).trans ?_
  refine (slice2_axis1_apply (33 * (oA / 32)) v54 hs1 a ⟨1 + b.val, by omega⟩ ⟨33 * (oA / 32) + (1 + b.val), by omega⟩ rfl).trans ?_
  unfold blkG
  refine congrArg v54 (congrArg₂ ix2 (Fin.ext ?_) (Fin.ext ?_))
  · show a.val = 0 + 1 * a.val
    omega
  · show 33 * (oA / 32) + (1 + b.val) = 33 * ((oA + 1 * b.val) / 32) + ((oA + 1 * b.val) % 32 + 1)
    omega

/-- The zero offsets of a whole-block load, as a function. -/
theorem hz : (![0, 0] : Fin 2 → Nat) = fun _ => 0 := funext fun a => by fin_cases a <;> rfl

theorem out7_A (hc0 : cond0_0 i) (hc1 : ¬cond0_1 i) (r q : Fin 1024) :
    out0_A_7 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 (ix2 r q) = blkOut x0 x5 x6 r q := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 hc1 x0 x1 x2 x3 x4 x5 x6)]
  refine (View.canon_apply_of_pieces (blkG (KC.nodeLogits x0 x5 x6)) _ ?_ (ix2 r q) (cover0_A_7 c i arg1 harg1 arg2 harg2 arg3 harg3 arg4 harg4 arg5 harg5 arg6 harg6 arg7 harg7 arg8 harg8 arg9 harg9 arg10 harg10 arg11 harg11 hc0 hc1 x0 x1 x2 x3 x4 x5 x6 (ix2 r q))).trans ?_
  · unfold kernelRun0_A
    dsimp only
    sl_unfold_words
    simp only [View.readAt_eq_ld, harg1.read_unread, harg6.read_unread, harg7.read_unread,
      View.ld_unit_zero (S := S1024x2048) hz, View.ld_unit_zero (S := S2048x1056) hz, View.ld_unit_zero (S := S1x1056) hz]
    repeat (refine List.forall_mem_cons.mpr ⟨fun x => piece_eq (KC.nodeLogits x0 x5 x6) _ (by decide) (by decide) (by decide) (by decide) _ (by exact rfl) x, ?_⟩)
    exact fun p hp => absurd hp List.not_mem_nil
  · unfold blkG blkOut
    exact KC.nodeLogits_apply x0 x5 x6 _ _

theorem out7_B (hc0 : ¬cond0_0 i) (hc1 : ¬cond0_1 i) (r q : Fin 1024) :
    out0_B_7 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 (ix2 r q) = blkOut x0 x5 x6 r q := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  refine (View.canon_apply_of_pieces (blkG (KC.nodeLogits x0 x5 x6)) _ ?_ (ix2 r q) (cover0_B_7 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 (ix2 r q))).trans ?_
  · unfold kernelRun0_B
    dsimp only
    sl_unfold_words
    simp only [View.readAt_eq_ld, harg1.read_unread, harg6.read_unread, harg7.read_unread,
      View.ld_unit_zero (S := S1024x2048) hz, View.ld_unit_zero (S := S2048x1056) hz, View.ld_unit_zero (S := S1x1056) hz]
    repeat (refine List.forall_mem_cons.mpr ⟨fun x => piece_eq (KC.nodeLogits x0 x5 x6) _ (by decide) (by decide) (by decide) (by decide) _ (by exact rfl) x, ?_⟩)
    exact fun p hp => absurd hp List.not_mem_nil
  · unfold blkG blkOut
    exact KC.nodeLogits_apply x0 x5 x6 _ _

theorem out7_C (hc0 : ¬cond0_0 i) (hc1 : cond0_1 i) (r q : Fin 1024) :
    out0_C_7 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 (ix2 r q) = blkOut x0 x5 x6 r q := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  refine (View.canon_apply_of_pieces (blkG (KC.nodeLogits x0 x5 x6)) _ ?_ (ix2 r q) (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 (ix2 r q))).trans ?_
  · unfold kernelRun0_C
    dsimp only
    sl_unfold_words
    simp only [View.readAt_eq_ld, harg1.read_unread, harg6.read_unread, harg7.read_unread,
      View.ld_unit_zero (S := S1024x2048) hz, View.ld_unit_zero (S := S2048x1056) hz, View.ld_unit_zero (S := S1x1056) hz]
    repeat (refine List.forall_mem_cons.mpr ⟨fun x => piece_eq (KC.nodeLogits x0 x5 x6) _ (by decide) (by decide) (by decide) (by decide) _ (by exact rfl) x, ?_⟩)
    exact fun p hp => absurd hp List.not_mem_nil
  · unfold blkG blkOut
    exact KC.nodeLogits_apply x0 x5 x6 _ _

end Cert.KernelIdeal.KOut

end
-- ==== Proof.KRoot.lean ====
/-
  The running total of negated root log-probabilities after a grid point: the point's block total added to what the point before left (to zero at the first point).
-/
import proofs.«419181_j50646254354828_1_alg».proof.Proof.Gen.KernelIdeal.Frame
import proofs.«419181_j50646254354828_1_alg».proof.Proof.KBlock
import proofs.«419181_j50646254354828_1_alg».proof.Proof.KChunk
import Idealize.ShloMosaic.Lib.Pipeline.Value
import Idealize.ShloMosaic.Lib.Tactic
import Idealize.ShloMosaic.PureOps.Ideal.Laws

noncomputable section

namespace Cert.KernelIdeal.KRoot

open Idealize.ShloMosaic Idealize.ShloMosaic.TcCoe Idealize.ShloMosaic.ValueIdx
open Cert.KernelIdeal Cert.KernelIdeal.Gen Cert.HSoft Cert.KernelIdeal.KC

variable (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S2048x33 .bf16) (harg4 : arg4.IsWhole) (arg5 : Memref sig .tc .vmem S1x33 .f32) (harg5 : arg5.IsWhole) (arg6 : Memref sig .tc .vmem S2048x1056 .bf16) (harg6 : arg6.IsWhole) (arg7 : Memref sig .tc .vmem S1x1056 .f32) (harg7 : arg7.IsWhole) (arg8 : Memref sig .tc .vmem S1024x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole)
  (x0 : Vec Ideal S1024x2048 .f32) (x1 : Vec Ideal S1024x1 .i32) (x2 : Vec Ideal S1024x1 .i32) (x3 : Vec Ideal S2048x33 .bf16) (x4 : Vec Ideal S1x33 .f32) (x5 : Vec Ideal S2048x1056 .bf16) (x6 : Vec Ideal S1x1056 .f32) (xs0 : Vec Ideal S1x1 .f32) (xs1 : Vec Ideal S1x1 .f32)

/-- The two zero offsets of a one-by-one array, as a constant function. -/
theorem hz : (![0, 0] : Fin 2 → Nat) = fun _ => 0 := funext fun a => by fin_cases a <;> rfl

section gen
variable {F : FTy → Type} [FloatOps F]

/-- The update payload of the root total, in the block functions. -/
theorem pay9_eq (y0 : Vec F S1024x2048 .f32) (y1 : Vec F S1024x1 .i32) (y3 : Vec F S2048x33 .bf16) (y4 : Vec F S1x33 .f32) (y : Vec F S1x1 .f32) :
    k0_pay9 (k0_pay8 y0 y1 y3 y4) (Scalar.ofBits .f32 0x00000000#32) y
      = shapeCast S1x1 (addf y (KC.negPick (KC.lsmVec (KC.rootLogits y0 y3 y4)) KC.iotaV (KC.rootTarget (k0_pay6 y1)))) shapeCasts_S1x1_S1x1 := by
  unfold k0_pay9 k0_pay8 KC.negPick KC.lsmVec KC.rootLogits KC.rootTarget KC.iotaV k0_pay5
  rfl

/-- At a middle point the root total's buffer ends holding the update payload of the point's blocks and of what the
    point before left. -/
theorem pieceB (hc0 : ¬cond0_0 i) (hc1 : ¬cond0_1 i) (y0 : Vec F S1024x2048 .f32) (y1 : Vec F S1024x1 .i32) (y2 : Vec F S1024x1 .i32) (y3 : Vec F S2048x33 .bf16) (y4 : Vec F S1x33 .f32) (y5 : Vec F S2048x1056 .bf16) (y6 : Vec F S1x1056 .f32) (ys0 : Vec F S1x1 .f32) (ys1 : Vec F S1x1 .f32) :
    sout0_B_0 (F := F) c i arg1 harg1 arg2 harg2 arg3 harg3 arg4 harg4 arg5 harg5 arg6 harg6 arg7 harg7 arg8 harg8 arg9 harg9 arg10 harg10 arg11 harg11 hc0 hc1 y0 y1 y2 y3 y4 y5 y6 ys0 ys1 = k0_pay9 (k0_pay8 y0 y1 y3 y4) (Scalar.ofBits .f32 0x00000000#32) ys0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 y0 y1 y2 y3 y4 y5 y6 ys0 ys1)]
  unfold kernelRun0_B
  dsimp only
  sl_unfold_words
  rw [View.canon_unit_zero (S := S1x1) hz]
  simp only [View.readAt_eq_ld, harg1.read_unread, harg2.read_unread, harg4.read_unread, harg5.read_unread, harg10.read_unread, harg11.read_unread, View.ld_unit_zero (S := S1024x2048) hz, View.ld_unit_zero (S := S1024x1) hz, View.ld_unit_zero (S := S2048x33) hz, View.ld_unit_zero (S := S1x33) hz, View.ld_unit_zero (S := S1x1) hz]

/-- At the last point likewise. -/
theorem pieceC (hc0 : ¬cond0_0 i) (hc1 : cond0_1 i) (y0 : Vec F S1024x2048 .f32) (y1 : Vec F S1024x1 .i32) (y2 : Vec F S1024x1 .i32) (y3 : Vec F S2048x33 .bf16) (y4 : Vec F S1x33 .f32) (y5 : Vec F S2048x1056 .bf16) (y6 : Vec F S1x1056 .f32) (ys0 : Vec F S1x1 .f32) (ys1 : Vec F S1x1 .f32) :
    sout0_C_0 (F := F) c i arg1 harg1 arg2 harg2 arg3 harg3 arg4 harg4 arg5 harg5 arg6 harg6 arg7 harg7 arg8 harg8 arg9 harg9 arg10 harg10 arg11 harg11 hc0 hc1 y0 y1 y2 y3 y4 y5 y6 ys0 ys1 = k0_pay9 (k0_pay8 y0 y1 y3 y4) (Scalar.ofBits .f32 0x00000000#32) ys0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 y0 y1 y2 y3 y4 y5 y6 ys0 ys1)]
  unfold kernelRun0_C
  dsimp only
  sl_unfold_words
  rw [View.canon_unit_zero (S := S1x1) hz]
  simp only [View.readAt_eq_ld, harg1.read_unread, harg2.read_unread, harg4.read_unread, harg5.read_unread, harg10.read_unread, harg11.read_unread, View.ld_unit_zero (S := S1024x2048) hz, View.ld_unit_zero (S := S1024x1) hz, View.ld_unit_zero (S := S2048x33) hz, View.ld_unit_zero (S := S1x33) hz, View.ld_unit_zero (S := S1x1) hz]

/-- At the first point the buffer is zeroed first, and the update payload reads that zero. -/
theorem pieceA (hc0 : cond0_0 i) (hc1 : ¬cond0_1 i) (y0 : Vec F S1024x2048 .f32) (y1 : Vec F S1024x1 .i32) (y2 : Vec F S1024x1 .i32) (y3 : Vec F S2048x33 .bf16) (y4 : Vec F S1x33 .f32) (y5 : Vec F S2048x1056 .bf16) (y6 : Vec F S1x1056 .f32) :
    sout0_A_0 (F := F) c i arg1 harg1 arg2 harg2 arg3 harg3 arg4 harg4 arg5 harg5 arg6 harg6 arg7 harg7 arg8 harg8 arg9 harg9 arg10 harg10 arg11 harg11 hc0 hc1 y0 y1 y2 y3 y4 y5 y6 = k0_pay9 (k0_pay8 y0 y1 y3 y4) (Scalar.ofBits .f32 0x00000000#32) k0_pay3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 y0 y1 y2 y3 y4 y5 y6)]
  unfold kernelRun0_A
  dsimp only
  sl_unfold_words
  rw [View.canon_cons_unit_zero (S := S1x1) hz, View.readCov_unit_zero (S := S1x1) _ hz]
  simp only [View.readAt_eq_ld, harg1.read_unread, harg2.read_unread, harg4.read_unread, harg5.read_unread, harg10.read_unread, harg11.read_unread, View.ld_unit_zero (S := S1024x2048) hz, View.ld_unit_zero (S := S1024x1) hz, View.ld_unit_zero (S := S2048x33) hz, View.ld_unit_zero (S := S1x33) hz, View.ld_unit_zero (S := S1x1) hz]

end gen

/-- The update payload at the one index, on the extended reals: what was there plus the block's root total. -/
theorem upd_apply (y0 : Vec Ideal S1024x2048 .f32) (y1 : Vec Ideal S1024x1 .i32) (y3 : Vec Ideal S2048x33 .bf16) (y4 : Vec Ideal S1x33 .f32) (y : Vec Ideal S1x1 .f32) :
    k0_pay9 (k0_pay8 y0 y1 y3 y4) (Scalar.ofBits .f32 0x00000000#32) y o11 = y o11 + blkRoot y0 y1 y3 y4 := by
  rw [pay9_eq, shapeCast_self]
  refine (addf_apply _ _ _).trans ?_
  congr 1
  rw [KC.negPick_lsmVec]
  unfold blkRoot
  refine Finset.sum_congr rfl fun r _ => ?_
  rw [KC.rootTarget_apply]
  have e1 : (fun k => KC.rootLogits y0 y3 y4 (ix2 r k)) = blkLogit1 y0 y3 y4 r := funext fun k => KC.rootLogits_apply y0 y3 y4 r k
  have e2 : k0_pay6 (F := Ideal) y1 = y1 := shapeCast_self _ _
  rw [e1, e2]

/-- The reset payload is zero. -/
theorem pay3_apply : k0_pay3 (F := Ideal) o11 = 0 := by
  unfold k0_pay3
  rw [shapeCast_self]
  exact Ideal.ofBits_zero_f32

/-- After the first point the root total is zero plus the block's total. -/
theorem root_A (hc0 : cond0_0 i) (hc1 : ¬cond0_1 i) :
    sout0_A_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 o11 = 0 + blkRoot x0 x1 x3 x4 := by
  refine (congrFun (pieceA (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6) o11).trans ?_
  rw [upd_apply, pay3_apply]

/-- After a middle point it is what the point before left plus the block's total. -/
theorem root_B (hc0 : ¬cond0_0 i) (hc1 : ¬cond0_1 i) :
    sout0_B_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 o11 = xs0 o11 + blkRoot x0 x1 x3 x4 :=
  (congrFun (pieceB (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1) o11).trans (upd_apply x0 x1 x3 x4 xs0)

/-- After the last point likewise. -/
theorem root_C (hc0 : ¬cond0_0 i) (hc1 : cond0_1 i) :
    sout0_C_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 o11 = xs0 o11 + blkRoot x0 x1 x3 x4 :=
  (congrFun (pieceC (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1) o11).trans (upd_apply x0 x1 x3 x4 xs0)

end Cert.KernelIdeal.KRoot

end
-- ==== Proof.KNodes.lean ====
/-
  The running total, over the 32 inner nodes, of negated log-probabilities after a grid point: the point's block total
  added to what the point before left (to zero at the first point).

  The body computes the 32 nodes one after the other: node j takes columns 33 j … 33 j + 32 of the side-by-side logits,
  their log-softmax, the negated total at the node's target slots, and adds it to the total so far, which starts at
  zero. Each stretch of the body's arithmetic is, by unfolding, "the total so far plus one (or two) nodes'
  contributions"; chained, the stored value is what the point was handed plus the 32 contributions added one after
  the other to zero. On the extended reals that is what it was handed plus the sum over the nodes of their totals
  (addition there is associative and zero is neutral: no finiteness is needed).
-/
import proofs.«419181_j50646254354828_1_alg».proof.Proof.Gen.KernelIdeal.Frame
import proofs.«419181_j50646254354828_1_alg».proof.Proof.KBlock
import proofs.«419181_j50646254354828_1_alg».proof.Proof.KChunk
import proofs.«419181_j50646254354828_1_alg».proof.Proof.LibIdealReal

noncomputable section

namespace Cert.KernelIdeal.KNodes

open Idealize.ShloMosaic Idealize.ShloMosaic.TcCoe Idealize.ShloMosaic.ValueIdx
open Cert.KernelIdeal Cert.KernelIdeal.Gen Cert.HSoft Cert.KernelIdeal.KC

/-! ## The regular form of the stored total -/

section Regular
variable {F : FTy → Type} [FloatOps F]

/-- Thirty-three columns from column `33 j` lie inside the 1056 side-by-side columns. -/
theorem hsl (j : ℕ) (hj : j < 32) : S1024x1056.Slices ![0, 33 * j] S1024x33 := by
  refine ⟨rfl, fun a => ?_⟩
  fin_cases a
  · show 0 + 1024 ≤ 1024; omega
  · show 33 * j + 33 ≤ 1056; omega

/-- Inner node `j`'s contribution to the block's total. -/
def nodeAt (j : ℕ) (hj : j < 32) (v6 v8 : IVec S1024x1 32) (v9 : IVec S1x33 32) (v54 : FVec F S1024x1056 .f32) : FVec F S1x1 .f32 :=
  nodeCe (33 * j) (hsl j hj) (BitVec.ofNat 32 j) v6 v8 v9 v54

/-- The total of the first `n` inner nodes' contributions, added one after the other to zero. -/
def chain (v6 v8 : IVec S1024x1 32) (v9 : IVec S1x33 32) (v54 : FVec F S1024x1056 .f32) : (n : ℕ) → n ≤ 32 → FVec F S1x1 .f32
  | 0, _ => broadcast S1x1 (Scalar.ofBits .f32 0x00000000#32)
  | n + 1, h => addf (chain v6 v8 v9 v54 n (Nat.le_of_succ_le h)) (nodeAt n h v6 v8 v9 v54)

variable (v6 v8 : IVec S1024x1 32) (v9 : IVec S1x33 32) (v54 : FVec F S1024x1056 .f32) (a : FVec F S1x1 .f32)
  (v4 : FVec F S1024x2048 .bf16) (v48 : Vec F S2048x1056 .bf16) (v51 : Vec F S1x1056 .f32)

theorem step3 : k0_pay17 a (k0_pay14 v4 v48 v51) (k0_pay15 v6 v8) (k0_pay16 v9)
    = addf a (nodeAt 0 (by omega) v6 v8 v9 (k0_pay10 v4 v48 v51)) := rfl

theorem step4 : k0_pay23 v6 v8 v9 v54 a (k0_pay20 v6 v8 v9 v54)
    = addf (addf a (nodeAt 1 (by omega) v6 v8 v9 v54)) (nodeAt 2 (by omega) v6 v8 v9 v54) := rfl

theorem step5 : k0_pay27 v6 v8 v9 a (k0_pay24 v54) (k0_pay26 v54)
    = addf a (nodeAt 3 (by omega) v6 v8 v9 v54) := rfl

theorem step6 : k0_pay33 v9 a (k0_pay30 v54) (k0_pay31 v6) (k0_pay32 v8)
    = addf a (nodeAt 4 (by omega) v6 v8 v9 v54) := rfl

theorem step7 : k0_pay40 v6 v8 v9 v54 a (k0_pay36 v6 v8 v9 v54) k0_pay37
    = addf (addf a (nodeAt 5 (by omega) v6 v8 v9 v54)) (nodeAt 6 (by omega) v6 v8 v9 v54) := rfl

theorem step8 : k0_pay44 v6 v8 v9 a (k0_pay41 v54) (k0_pay43 v54) (Scalar.ofBits .f32 0xFF800000#32)
    = addf a (nodeAt 7 (by omega) v6 v8 v9 v54) := rfl

theorem step9 : k0_pay49 v6 v8 v9 a (k0_pay47 v54) k0_pay48
    = addf a (nodeAt 8 (by omega) v6 v8 v9 v54) := rfl

theorem step10 : k0_pay55 v6 v8 v9 v54 a (k0_pay52 v6 v8 v9 v54)
    = addf (addf a (nodeAt 9 (by omega) v6 v8 v9 v54)) (nodeAt 10 (by omega) v6 v8 v9 v54) := rfl

theorem step11 : k0_pay58 v6 v8 v9 a (k0_pay56 v54)
    = addf a (nodeAt 11 (by omega) v6 v8 v9 v54) := rfl

theorem step12 : k0_pay63 v6 v8 v9 a (k0_pay61 v54) (k0_pay62 v54)
    = addf a (nodeAt 12 (by omega) v6 v8 v9 v54) := rfl

theorem step13 : k0_pay70 v6 v8 v9 v54 a (k0_pay66 v54) (k0_pay67 v6 v8 v9)
    = addf (addf a (nodeAt 13 (by omega) v6 v8 v9 v54)) (nodeAt 14 (by omega) v6 v8 v9 v54) := rfl

theorem step14 : k0_pay73 v6 v8 v9 a (k0_pay71 v54)
    = addf a (nodeAt 15 (by omega) v6 v8 v9 v54) := rfl

theorem step15 : k0_pay78 v6 v8 v9 a (k0_pay76 v54) (k0_pay77 v54)
    = addf a (nodeAt 16 (by omega) v6 v8 v9 v54) := rfl

theorem step16 : k0_pay85 v9 a (k0_pay81 v54) (k0_pay82 v6) (k0_pay83 v8) k0_pay84
    = addf a (nodeAt 17 (by omega) v6 v8 v9 v54) := rfl

theorem step17 : k0_pay91 v6 v8 v9 v54 a (k0_pay88 v6 v8 v9 v54)
    = addf (addf a (nodeAt 18 (by omega) v6 v8 v9 v54)) (nodeAt 19 (by omega) v6 v8 v9 v54) := rfl

theorem step18 : k0_pay95 v6 v8 v9 a (k0_pay92 v54) (k0_pay94 v54)
    = addf a (nodeAt 20 (by omega) v6 v8 v9 v54) := rfl

theorem step19 : k0_pay100 v8 v9 a (k0_pay98 v54) (k0_pay99 v6) 1#32
    = addf a (nodeAt 21 (by omega) v6 v8 v9 v54) := rfl

theorem step20 : k0_pay106 v6 v8 v9 v54 a (k0_pay103 v6 v8 v9 v54)
    = addf (addf a (nodeAt 22 (by omega) v6 v8 v9 v54)) (nodeAt 23 (by omega) v6 v8 v9 v54) := rfl

theorem step21 : k0_pay109 v6 v8 v9 a (k0_pay107 v54)
    = addf a (nodeAt 24 (by omega) v6 v8 v9 v54) := rfl

theorem step22 : k0_pay113 v6 v8 v9 a (k0_pay112 v54)
    = addf a (nodeAt 25 (by omega) v6 v8 v9 v54) := rfl

theorem step23 : k0_pay120 v6 v8 v9 v54 a (k0_pay116 v54) (k0_pay117 v6 v8 v9)
    = addf (addf a (nodeAt 26 (by omega) v6 v8 v9 v54)) (nodeAt 27 (by omega) v6 v8 v9 v54) := rfl

theorem step24 : k0_pay123 v6 v8 v9 a (k0_pay121 v54)
    = addf a (nodeAt 28 (by omega) v6 v8 v9 v54) := rfl

theorem step25 : k0_pay128 v6 v8 v9 a (k0_pay126 v54) (k0_pay127 v54)
    = addf a (nodeAt 29 (by omega) v6 v8 v9 v54) := rfl

theorem step26 : k0_pay134 a (k0_pay131 v54) (k0_pay132 v6 v8) (k0_pay133 v9)
    = addf a (nodeAt 30 (by omega) v6 v8 v9 v54) := rfl

theorem stepLast (y : Vec F S1x1 .f32) : k0_pay1 a (k0_pay137 v6 v8 v9 v54) y
    = shapeCast S1x1 (addf y (addf a (nodeAt 31 (by omega) v6 v8 v9 v54))) shapeCasts_S1x1_S1x1 := rfl

end Regular

/-! ## What each case leaves in the carried total -/

section Piece
variable {F : FTy → Type} [FloatOps F]

/-- What a grid point stores: the total it was handed plus the 32 nodes' contributions. -/
def nodesStored (x0 : Vec F S1024x2048 .f32) (x1 x2 : Vec F S1024x1 .i32) (x5 : Vec F S2048x1056 .bf16) (x6 : Vec F S1x1056 .f32)
    (y : Vec F S1x1 .f32) : FVec F S1x1 .f32 :=
  shapeCast S1x1 (addf y (chain (k0_pay6 x1) (k0_pay7 x2) iotaV (k0_pay10 (k0_pay5 x0) x5 x6) 32 (Nat.le_refl 32))) shapeCasts_S1x1_S1x1

theorem hz2 : (![0, 0] : Fin 2 → Nat) = fun _ => 0 := by
  funext a; fin_cases a <;> rfl

variable (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S2048x33 .bf16) (harg4 : arg4.IsWhole) (arg5 : Memref sig .tc .vmem S1x33 .f32) (harg5 : arg5.IsWhole) (arg6 : Memref sig .tc .vmem S2048x1056 .bf16) (harg6 : arg6.IsWhole) (arg7 : Memref sig .tc .vmem S1x1056 .f32) (harg7 : arg7.IsWhole) (arg8 : Memref sig .tc .vmem S1024x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole)
  (x0 : Vec F S1024x2048 .f32) (x1 : Vec F S1024x1 .i32) (x2 : Vec F S1024x1 .i32) (x3 : Vec F S2048x33 .bf16) (x4 : Vec F S1x33 .f32) (x5 : Vec F S2048x1056 .bf16) (x6 : Vec F S1x1056 .f32) (xs0 : Vec F S1x1 .f32) (xs1 : Vec F S1x1 .f32)

theorem piece_A (hc0 : cond0_0 i) (hc1 : ¬cond0_1 i) :
    sout0_A_1 (F := F) c i arg1 harg1 arg2 harg2 arg3 harg3 arg4 harg4 arg5 harg5 arg6 harg6 arg7 harg7 arg8 harg8 arg9 harg9 arg10 harg10 arg11 harg11 hc0 hc1 x0 x1 x2 x3 x4 x5 x6 = nodesStored x0 x1 x2 x5 x6 k0_pay4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1x1) hz2]
  simp only [View.readAt_eq_ld, harg1.read_unread, harg2.read_unread, harg3.read_unread, harg6.read_unread, harg7.read_unread, harg11.read_unread,
    View.ld_unit_zero (S := S1024x2048) hz2, View.ld_unit_zero (S := S1024x1) hz2, View.ld_unit_zero (S := S2048x1056) hz2, View.ld_unit_zero (S := S1x1056) hz2, View.ld_unit_zero (S := S1x1) hz2,
    View.readCov_unit_zero (S := S1x1) _ hz2]
  simp only [step3, step4, step5, step6, step7, step8, step9, step10, step11, step12, step13, step14, step15, step16, step17, step18, step19, step20, step21, step22, step23, step24, step25, step26, stepLast]
  rfl

theorem piece_B (hc0 : ¬cond0_0 i) (hc1 : ¬cond0_1 i) :
    sout0_B_1 (F := F) c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 = nodesStored x0 x1 x2 x5 x6 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero (S := S1x1) hz2]
  simp only [View.readAt_eq_ld, harg1.read_unread, harg2.read_unread, harg3.read_unread, harg6.read_unread, harg7.read_unread, harg11.read_unread,
    View.ld_unit_zero (S := S1024x2048) hz2, View.ld_unit_zero (S := S1024x1) hz2, View.ld_unit_zero (S := S2048x1056) hz2, View.ld_unit_zero (S := S1x1056) hz2, View.ld_unit_zero (S := S1x1) hz2]
  simp only [step3, step4, step5, step6, step7, step8, step9, step10, step11, step12, step13, step14, step15, step16, step17, step18, step19, step20, step21, step22, step23, step24, step25, step26, stepLast]
  rfl

theorem piece_C (hc0 : ¬cond0_0 i) (hc1 : cond0_1 i) :
    sout0_C_1 (F := F) c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 = nodesStored x0 x1 x2 x5 x6 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero (S := S1x1) hz2]
  simp only [View.readAt_eq_ld, harg1.read_unread, harg2.read_unread, harg3.read_unread, harg6.read_unread, harg7.read_unread, harg11.read_unread,
    View.ld_unit_zero (S := S1024x2048) hz2, View.ld_unit_zero (S := S1024x1) hz2, View.ld_unit_zero (S := S2048x1056) hz2, View.ld_unit_zero (S := S1x1056) hz2, View.ld_unit_zero (S := S1x1) hz2]
  simp only [step3, step4, step5, step6, step7, step8, step9, step10, step11, step12, step13, step14, step15, step16, step17, step18, step19, step20, step21, step22, step23, step24, step25, step26, stepLast]
  rfl
end Piece

/-! ## On the extended reals -/

section Reading
open scoped BigOperators

variable (x0 : Vec Ideal S1024x2048 .f32) (x1 x2 : Vec Ideal S1024x1 .i32) (x5 : Vec Ideal S2048x1056 .bf16) (x6 : Vec Ideal S1x1056 .f32)

/-- Inner node `j`'s total of negated log-probabilities at its targets (zero beyond the 32 nodes). -/
def nodeTerm (j : ℕ) : EReal :=
  if h : j < 32 then
    ∑ r : Fin 1024, (0 - lsmAt (fun k => blkLogit2 x0 x5 x6 r (col ⟨j, h⟩ k)) (subLabel (x1 (ix2 r (0 : Fin 1))) (x2 (ix2 r (0 : Fin 1))) ⟨j, h⟩))
  else 0

/-- One node's contribution is its total. -/
theorem nodeAt_apply (j : ℕ) (hj : j < 32) :
    nodeAt j hj (k0_pay6 x1) (k0_pay7 x2) iotaV (k0_pay10 (k0_pay5 x0) x5 x6) o11 = nodeTerm x0 x1 x2 x5 x6 j := by
  unfold nodeTerm; rw [dif_pos hj]
  have h6 : k0_pay6 (F := Ideal) x1 = x1 := shapeCast_self _ _
  have h7 : k0_pay7 (F := Ideal) x2 = x2 := shapeCast_self _ _
  rw [h6, h7]
  refine (nodeCe_apply ⟨j, hj⟩ (hsl j hj) x1 x2 (nodeLogits x0 x5 x6)).trans ?_
  refine Finset.sum_congr rfl fun r _ => ?_
  have e1 : (fun k => nodeLogits x0 x5 x6 (ix2 r (col ⟨j, hj⟩ k))) = fun k => blkLogit2 x0 x5 x6 r (col ⟨j, hj⟩ k) :=
    funext fun k => nodeLogits_apply x0 x5 x6 r _
  rw [e1]

/-- The first `n` nodes' contributions, added one after the other to zero, are the sum of their totals. -/
theorem chain_apply (n : ℕ) (h : n ≤ 32) :
    chain (k0_pay6 x1) (k0_pay7 x2) iotaV (k0_pay10 (k0_pay5 x0) x5 x6) n h o11 = ∑ j ∈ Finset.range n, nodeTerm x0 x1 x2 x5 x6 j := by
  induction n with
  | zero =>
    rw [Finset.range_zero, Finset.sum_empty]
    exact Cert.LibIdealReal.ofBits_zero
  | succ n ih =>
    rw [Finset.sum_range_succ, ← ih (Nat.le_of_succ_le h), ← nodeAt_apply x0 x1 x2 x5 x6 n h]
    rfl

/-- The block's total over the 32 nodes, as a sum over the node numbers. -/
theorem blkNodes_eq : blkNodes x0 x1 x2 x5 x6 = ∑ j ∈ Finset.range 32, nodeTerm x0 x1 x2 x5 x6 j := by
  rw [← Fin.sum_univ_eq_sum_range (fun j => nodeTerm x0 x1 x2 x5 x6 j) 32]
  unfold blkNodes
  refine Finset.sum_congr rfl fun j _ => ?_
  unfold nodeTerm; rw [dif_pos j.isLt]

/-- What a grid point stores, read on the extended reals: what it was handed plus the block's total. -/
theorem nodesPayload_apply (y : Vec Ideal S1x1 .f32) :
    nodesStored x0 x1 x2 x5 x6 y o11 = y o11 + blkNodes x0 x1 x2 x5 x6 := by
  rw [blkNodes_eq, ← chain_apply x0 x1 x2 x5 x6 32 (Nat.le_refl 32)]
  unfold nodesStored
  rw [shapeCast_self]
  rfl

end Reading

/-! ## The three cases -/

variable (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S2048x33 .bf16) (harg4 : arg4.IsWhole) (arg5 : Memref sig .tc .vmem S1x33 .f32) (harg5 : arg5.IsWhole) (arg6 : Memref sig .tc .vmem S2048x1056 .bf16) (harg6 : arg6.IsWhole) (arg7 : Memref sig .tc .vmem S1x1056 .f32) (harg7 : arg7.IsWhole) (arg8 : Memref sig .tc .vmem S1024x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole)
  (x0 : Vec Ideal S1024x2048 .f32) (x1 : Vec Ideal S1024x1 .i32) (x2 : Vec Ideal S1024x1 .i32) (x3 : Vec Ideal S2048x33 .bf16) (x4 : Vec Ideal S1x33 .f32) (x5 : Vec Ideal S2048x1056 .bf16) (x6 : Vec Ideal S1x1056 .f32) (xs0 : Vec Ideal S1x1 .f32) (xs1 : Vec Ideal S1x1 .f32)

theorem nodes_A (hc0 : cond0_0 i) (hc1 : ¬cond0_1 i) :
    sout0_A_1 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 o11 = 0 + blkNodes x0 x1 x2 x5 x6 := by
  rw [piece_A (F := Ideal) c i arg1 harg1 arg2 harg2 arg3 harg3 arg4 harg4 arg5 harg5 arg6 harg6 arg7 harg7 arg8 harg8 arg9 harg9 arg10 harg10 arg11 harg11 x0 x1 x2 x3 x4 x5 x6 hc0 hc1]
  refine (nodesPayload_apply x0 x1 x2 x5 x6 (k0_pay4 (F := Ideal))).trans ?_
  refine congrArg (· + blkNodes x0 x1 x2 x5 x6) ?_
  unfold k0_pay4
  rw [shapeCast_self]
  exact Cert.LibIdealReal.ofBits_zero

theorem nodes_B (hc0 : ¬cond0_0 i) (hc1 : ¬cond0_1 i) :
    sout0_B_1 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 o11 = xs1 o11 + blkNodes x0 x1 x2 x5 x6 := by
  rw [piece_B (F := Ideal) c i arg1 harg1 arg2 harg2 arg3 harg3 arg4 harg4 arg5 harg5 arg6 harg6 arg7 harg7 arg8 harg8 arg9 harg9 arg10 harg10 arg11 harg11 x0 x1 x2 x3 x4 x5 x6 xs0 xs1 hc0 hc1]
  exact nodesPayload_apply x0 x1 x2 x5 x6 xs1

theorem nodes_C (hc0 : ¬cond0_0 i) (hc1 : cond0_1 i) :
    sout0_C_1 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 o11 = xs1 o11 + blkNodes x0 x1 x2 x5 x6 := by
  rw [piece_C (F := Ideal) c i arg1 harg1 arg2 harg2 arg3 harg3 arg4 harg4 arg5 harg5 arg6 harg6 arg7 harg7 arg8 harg8 arg9 harg9 arg10 harg10 arg11 harg11 x0 x1 x2 x3 x4 x5 x6 xs0 xs1 hc0 hc1]
  exact nodesPayload_apply x0 x1 x2 x5 x6 xs1

end Cert.KernelIdeal.KNodes

end
-- ==== Proof.KPen.lean ====
/-
  What the last grid point writes into the second output: the two running totals, each scaled by 2^-14, the node total also by one half, added.
-/
import proofs.«419181_j50646254354828_1_alg».proof.Proof.Gen.KernelIdeal.Frame
import proofs.«419181_j50646254354828_1_alg».proof.Proof.KBlock
import proofs.«419181_j50646254354828_1_alg».proof.Proof.KChunk
import proofs.«419181_j50646254354828_1_alg».proof.Proof.KRoot
import proofs.«419181_j50646254354828_1_alg».proof.Proof.KNodes
import Idealize.ShloMosaic.Lib.Pipeline.Value
import Idealize.ShloMosaic.Lib.Tactic

noncomputable section

namespace Cert.KernelIdeal.KPen

open Idealize.ShloMosaic Idealize.ShloMosaic.TcCoe Idealize.ShloMosaic.ValueIdx
open Cert.KernelIdeal Cert.KernelIdeal.Gen Cert.HSoft Cert.KernelIdeal.KC

variable (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S2048x33 .bf16) (harg4 : arg4.IsWhole) (arg5 : Memref sig .tc .vmem S1x33 .f32) (harg5 : arg5.IsWhole) (arg6 : Memref sig .tc .vmem S2048x1056 .bf16) (harg6 : arg6.IsWhole) (arg7 : Memref sig .tc .vmem S1x1056 .f32) (harg7 : arg7.IsWhole) (arg8 : Memref sig .tc .vmem S1024x1024 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole)
  (x0 : Vec Ideal S1024x2048 .f32) (x1 : Vec Ideal S1024x1 .i32) (x2 : Vec Ideal S1024x1 .i32) (x3 : Vec Ideal S2048x33 .bf16) (x4 : Vec Ideal S1x33 .f32) (x5 : Vec Ideal S2048x1056 .bf16) (x6 : Vec Ideal S1x1056 .f32) (xs0 : Vec Ideal S1x1 .f32) (xs1 : Vec Ideal S1x1 .f32)

/-- The two zero offsets of a one-by-one array, as a constant function. -/
theorem hz : (![0, 0] : Fin 2 → Nat) = fun _ => 0 := funext fun a => by fin_cases a <;> rfl

section gen
variable {F : FTy → Type} [FloatOps F]

/-- What the last point leaves in the second output's buffer: the combination payload of what the same point leaves
    in the two running totals' buffers (its loads of them come after their updates). -/
theorem piecePen (hc0 : ¬cond0_0 i) (hc1 : cond0_1 i) (y0 : Vec F S1024x2048 .f32) (y1 : Vec F S1024x1 .i32) (y2 : Vec F S1024x1 .i32) (y3 : Vec F S2048x33 .bf16) (y4 : Vec F S1x33 .f32) (y5 : Vec F S2048x1056 .bf16) (y6 : Vec F S1x1056 .f32) (ys0 : Vec F S1x1 .f32) (ys1 : Vec F S1x1 .f32) :
    out0_C_8 (F := F) c i arg1 harg1 arg2 harg2 arg3 harg3 arg4 harg4 arg5 harg5 arg6 harg6 arg7 harg7 arg8 harg8 arg9 harg9 arg10 harg10 arg11 harg11 hc0 hc1 y0 y1 y2 y3 y4 y5 y6 ys0 ys1
      = k0_pay2 (sout0_C_0 (F := F) c i arg1 harg1 arg2 harg2 arg3 harg3 arg4 harg4 arg5 harg5 arg6 harg6 arg7 harg7 arg8 harg8 arg9 harg9 arg10 harg10 arg11 harg11 hc0 hc1 y0 y1 y2 y3 y4 y5 y6 ys0 ys1) (sout0_C_1 (F := F) c i arg1 harg1 arg2 harg2 arg3 harg3 arg4 harg4 arg5 harg5 arg6 harg6 arg7 harg7 arg8 harg8 arg9 harg9 arg10 harg10 arg11 harg11 hc0 hc1 y0 y1 y2 y3 y4 y5 y6 ys0 ys1) := by
  unfold out0_C_8 sout0_C_0 sout0_C_1
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 y0 y1 y2 y3 y4 y5 y6 ys0 ys1),
    View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 y0 y1 y2 y3 y4 y5 y6 ys0 ys1),
    View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 y0 y1 y2 y3 y4 y5 y6 ys0 ys1)]
  unfold kernelRun0_C
  dsimp only
  sl_unfold_words
  simp only [View.canon_unit_zero (S := S1x1) hz, View.readCov_unit_zero (S := S1x1) _ hz]

end gen

/-- The last point's combination of two one-by-one totals, on the extended reals. -/
theorem pay2_apply (a b : Vec Ideal S1x1 .f32) : k0_pay2 a b o11 = blkPenalty (a o11) (b o11) := by
  unfold k0_pay2 blkPenalty c14 half
  rfl

/-- The second output after the last point: the penalty of the two finished totals. -/
theorem penalty_C (hc0 : ¬cond0_0 i) (hc1 : cond0_1 i) :
    out0_C_8 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 o11
      = blkPenalty (xs0 o11 + blkRoot x0 x1 x3 x4) (xs1 o11 + blkNodes x0 x1 x2 x5 x6) := by
  refine (congrFun (piecePen (F := Ideal) c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1) o11).trans ?_
  rw [pay2_apply, KRoot.root_C c i arg1 harg1 arg2 harg2 arg3 harg3 arg4 harg4 arg5 harg5 arg6 harg6 arg7 harg7 arg8 harg8 arg9 harg9 arg10 harg10 arg11 harg11 x0 x1 x2 x3 x4 x5 x6 xs0 xs1 hc0 hc1, KNodes.nodes_C c i arg1 harg1 arg2 harg2 arg3 harg3 arg4 harg4 arg5 harg5 arg6 harg6 arg7 harg7 arg8 harg8 arg9 harg9 arg10 harg10 arg11 harg11 x0 x1 x2 x3 x4 x5 x6 xs0 xs1 hc0 hc1]

end Cert.KernelIdeal.KPen

end
-- ==== Proof.KHost.lean ====
/-
  The arrays the kernel's windows are cut from, as the host operations before the launch leave them, entry by entry:
  the samples as given; the inner-node and leaf words as columns; the root weights transposed (and narrowed, which
  changes no value on the extended reals) and the root biases as a row; the 32 inner-node classifiers' weights
  flattened to 1056 rows, transposed and narrowed, and their biases flattened to a row of 1056.
-/
import proofs.«419181_j50646254354828_1_alg».proof.Proof.Gen.KernelIdeal.Frame
import proofs.«419181_j50646254354828_1_alg».proof.Proof.LabelWords
import proofs.«419181_j50646254354828_1_alg».proof.Proof.KBlock
import Idealize.ShloMosaic.Lib.Pipeline.Value

noncomputable section

namespace Cert.KernelIdeal.KHost

open Idealize.ShloMosaic Idealize.ShloMosaic.TcCoe Idealize.ShloMosaic.ValueIdx Idealize.SL.Sem
open Cert.KernelIdeal Cert.KernelIdeal.Gen Cert.HSoft

variable (m : (ℓ : Loc nD τ sig) → Buf (Elt Ideal) ℓ) (c : Dev nD)

set_option maxHeartbeats 4000000 in
/-- The inner-node words, a column. -/
theorem V_g (b : Fin 16384) : V m c main_v1 (ix2 b (0 : Fin 1)) = gW (m ((c : Thread nD τ).loc main_arg1)) b := by
  have e : (V m c main_v1 : S16384x1.Idx → _)
      = fun i => shapeCast S16384x1 (gVec (m ((c : Thread nD τ).loc main_arg1))) shapeCasts_S16384_S16384x1 i := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    simp only [StableHlo.TRef.ofBuf, StableHlo.TRef.toBuf, cast_eq]
    rfl
  refine (congrFun e _).trans ?_
  refine (shapeCast_apply _ _ _ (ix1 b) ?_).trans rfl
  show (S16384.rowMajor (ix1 b)).val = (S16384x1.rowMajor (ix2 b (0 : Fin 1))).val
  rw [Shape.rowMajor_val_one, Shape.rowMajor_val_two]
  show b.val = b.val * 1 + 0
  omega

set_option maxHeartbeats 4000000 in
/-- The leaf words, a column. -/
theorem V_w (b : Fin 16384) : V m c main_v3 (ix2 b (0 : Fin 1)) = wW (m ((c : Thread nD τ).loc main_arg1)) b := by
  have e : (V m c main_v3 : S16384x1.Idx → _)
      = fun i => shapeCast S16384x1 (wVec (m ((c : Thread nD τ).loc main_arg1))) shapeCasts_S16384_S16384x1 i := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    simp only [StableHlo.TRef.ofBuf, StableHlo.TRef.toBuf, cast_eq]
    rfl
  refine (congrFun e _).trans ?_
  refine (shapeCast_apply _ _ _ (ix1 b) ?_).trans rfl
  show (S16384.rowMajor (ix1 b)).val = (S16384x1.rowMajor (ix2 b (0 : Fin 1))).val
  rw [Shape.rowMajor_val_one, Shape.rowMajor_val_two]
  show b.val = b.val * 1 + 0
  omega

/-- The root weights, transposed. -/
theorem V_w1t (d : Fin 2048) (k : Fin 33) : V m c main_v5 (ix2 d k) = m ((c : Thread nD τ).loc main_arg2) (ix2 k d) := by
  have e : (V m c main_v5 : S2048x33.Idx → _)
      = fun i => transpose S2048x33 [1, 0] (m ((c : Thread nD τ).loc main_arg2)) transposes_S33x2048_S2048x33_1_0 i := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  refine (congrFun e _).trans ?_
  refine transpose_apply _ _ _ _ _ (fun a => ?_)
  match a with
  | ⟨0, _⟩ => rfl
  | ⟨1, _⟩ => rfl

/-- The root biases, a row. -/
theorem V_b1 (k : Fin 33) : V m c main_v6 (ix2 (0 : Fin 1) k) = m ((c : Thread nD τ).loc main_arg3) (ix1 k) := by
  have e : (V m c main_v6 : S1x33.Idx → _)
      = fun i => shapeCast S1x33 (m ((c : Thread nD τ).loc main_arg3)) shapeCasts_S33_S1x33 i := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  refine (congrFun e _).trans ?_
  refine shapeCast_apply _ _ _ _ ?_
  show (S33.rowMajor (ix1 k)).val = (S1x33.rowMajor (ix2 (0 : Fin 1) k)).val
  rw [Shape.rowMajor_val_one, Shape.rowMajor_val_two]
  show k.val = 0 * 33 + k.val
  omega

/-- The inner-node weights: classifier `j`'s slot `k` is column `33 j + k`. -/
theorem V_w2t (d : Fin 2048) (j : Fin 32) (k : Fin 33) : V m c main_v9 (ix2 d (col j k)) = m ((c : Thread nD τ).loc main_arg4) (ix3 j k d) := by
  have e : (V m c main_v9 : S2048x1056.Idx → _)
      = fun i => transpose S2048x1056 [1, 0]
          (shapeCast S1056x2048 (m ((c : Thread nD τ).loc main_arg4)) shapeCasts_S32x33x2048_S1056x2048)
          transposes_S1056x2048_S2048x1056_1_0 i := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  refine (congrFun e _).trans ?_
  refine (transpose_apply _ _ _ _ (ix2 (col j k) d) (fun a => ?_)).trans ?_
  · match a with
    | ⟨0, _⟩ => rfl
    | ⟨1, _⟩ => rfl
  refine shapeCast_apply _ _ _ _ ?_
  show (S32x33x2048.rowMajor (ix3 j k d)).val = (S1056x2048.rowMajor (ix2 (col j k) d)).val
  rw [Shape.rowMajor_val_three, Shape.rowMajor_val_two]
  show (j.val * 33 + k.val) * 2048 + d.val = (33 * j.val + k.val) * 2048 + d.val
  omega

/-- The inner-node biases: classifier `j`'s slot `k` is column `33 j + k`. -/
theorem V_b2 (j : Fin 32) (k : Fin 33) : V m c main_v10 (ix2 (0 : Fin 1) (col j k)) = m ((c : Thread nD τ).loc main_arg5) (ix2 j k) := by
  have e : (V m c main_v10 : S1x1056.Idx → _)
      = fun i => shapeCast S1x1056 (m ((c : Thread nD τ).loc main_arg5)) shapeCasts_S32x33_S1x1056 i := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  refine (congrFun e _).trans ?_
  refine shapeCast_apply _ _ _ _ ?_
  show (S32x33.rowMajor (ix2 j k)).val = (S1x1056.rowMajor (ix2 (0 : Fin 1) (col j k))).val
  rw [Shape.rowMajor_val_two, Shape.rowMajor_val_two]
  show j.val * 33 + k.val = 0 * 1056 + (33 * j.val + k.val)
  omega

end Cert.KernelIdeal.KHost

end
-- ==== Proof.KGlue.lean ====
/-
  From a grid point's blocks to the whole arrays: block `t` of the samples is rows 1024 t … 1024 t + 1023, the words'
  columns likewise, and the weight and bias windows are the whole (transposed, flattened) arrays at every point. So
  what a point adds, stated over its blocks, is a sum over the point's 1024 samples of the quantities of the
  specification, and the block of leaf logits it writes is the specification's entries on those rows.
-/
import proofs.«419181_j50646254354828_1_alg».proof.Proof.Gen.KernelIdeal.Frame
import proofs.«419181_j50646254354828_1_alg».proof.Proof.LabelWords
import proofs.«419181_j50646254354828_1_alg».proof.Proof.KBlock
import proofs.«419181_j50646254354828_1_alg».proof.Proof.KHost

noncomputable section

namespace Cert.KernelIdeal.KGlue

open Idealize.ShloMosaic Idealize.ShloMosaic.TcCoe Idealize.ShloMosaic.ValueIdx Idealize.SL.Sem
open Cert.KernelIdeal Cert.KernelIdeal.Gen Cert.HSoft
open scoped BigOperators

variable (m : (ℓ : Loc nD τ sig) → Buf (Elt Ideal) ℓ) (c : Dev nD)

/-- The point's block of samples. -/
abbrev bx (t : Fin cfg0.N) : Vec Ideal S1024x2048 .f32 := iblk m c 0 t
/-- The point's inner-node words. -/
abbrev bg (t : Fin cfg0.N) : Vec Ideal S1024x1 .i32 := iblk m c 1 t
/-- The point's leaf words. -/
abbrev bw (t : Fin cfg0.N) : Vec Ideal S1024x1 .i32 := iblk m c 2 t
/-- The root weights' window. -/
abbrev bw1 (t : Fin cfg0.N) : Vec Ideal S2048x33 .bf16 := iblk m c 3 t
/-- The root biases' window. -/
abbrev bb1 (t : Fin cfg0.N) : Vec Ideal S1x33 .f32 := iblk m c 4 t
/-- The inner-node weights' window. -/
abbrev bw2 (t : Fin cfg0.N) : Vec Ideal S2048x1056 .bf16 := iblk m c 5 t
/-- The inner-node biases' window. -/
abbrev bb2 (t : Fin cfg0.N) : Vec Ideal S1x1056 .f32 := iblk m c 6 t

/-- A grid point as one of the 16 blocks of samples. -/
abbrev blk (t : Fin cfg0.N) : Fin 16 := ⟨t.val, lt_of_lt_of_eq t.isLt N_0⟩

/-- The six argument arrays. -/
abbrev aX : FVec Ideal SX .f32 := m ((c : Thread nD τ).loc main_arg0)
abbrev aL : IVec SLab 32 := m ((c : Thread nD τ).loc main_arg1)
abbrev aW1 : FVec Ideal SW1 .f32 := m ((c : Thread nD τ).loc main_arg2)
abbrev aB1 : FVec Ideal SB1 .f32 := m ((c : Thread nD τ).loc main_arg3)
abbrev aW2 : FVec Ideal SW2 .f32 := m ((c : Thread nD τ).loc main_arg4)
abbrev aB2 : FVec Ideal SB2 .f32 := m ((c : Thread nD τ).loc main_arg5)

/-! ## Where a point's blocks sit in their arrays -/

/-- The windows' block indices at every grid point: the samples' and the words' blocks move down the rows with the point
    and stay at column block 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The weights' and biases' windows stay at block (0, 0): each is its whole array at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `r` of point `t`'s block of samples is row `1024 t + r` of the samples. -/
theorem bx_apply (t : Fin cfg0.N) (r : Fin 1024) (d : Fin 2048) :
    bx m c t (ix2 r d) = V m c main_arg0 (ix2 (row (blk t) r) d) := by
  show V m c main_arg0 (((cfg0.win 0).blk t).view.emb (ix2 r d)) = V m c main_arg0 (ix2 (row (blk t) r) d)
  refine congrArg (V m c main_arg0) ?_
  obtain ⟨e0, e1, -⟩ := idx_rows t
  funext a; apply Fin.ext
  match a with
  | ⟨0, _⟩ => show win0_0.index t (0 : Fin 2) * 1024 + 1 * r.val = 1024 * t.val + r.val; omega
  | ⟨1, _⟩ => show win0_0.index t (1 : Fin 2) * 2048 + 1 * d.val = d.val; omega

/-- Row `r` of point `t`'s block of inner-node words is row `1024 t + r` of the column of inner-node words. -/
theorem bg_apply (t : Fin cfg0.N) (r : Fin 1024) :
    bg m c t (ix2 r (0 : Fin 1)) = V m c main_v1 (ix2 (row (blk t) r) (0 : Fin 1)) := by
  show V m c main_v1 (((cfg0.win 1).blk t).view.emb (ix2 r (0 : Fin 1))) = V m c main_v1 (ix2 (row (blk t) r) (0 : Fin 1))
  refine congrArg (V m c main_v1) ?_
  obtain ⟨-, -, e0, e1, -⟩ := idx_rows t
  funext a; apply Fin.ext
  match a with
  | ⟨0, _⟩ => show win0_1.index t (0 : Fin 2) * 1024 + 1 * r.val = 1024 * t.val + r.val; omega
  | ⟨1, _⟩ => show win0_1.index t (1 : Fin 2) * 1 + 1 * 0 = 0; omega

/-- Row `r` of point `t`'s block of leaf words is row `1024 t + r` of the column of leaf words. -/
theorem bw_apply (t : Fin cfg0.N) (r : Fin 1024) :
    bw m c t (ix2 r (0 : Fin 1)) = V m c main_v3 (ix2 (row (blk t) r) (0 : Fin 1)) := by
  show V m c main_v3 (((cfg0.win 2).blk t).view.emb (ix2 r (0 : Fin 1))) = V m c main_v3 (ix2 (row (blk t) r) (0 : Fin 1))
  refine congrArg (V m c main_v3) ?_
  obtain ⟨-, -, -, -, e0, e1⟩ := idx_rows t
  funext a; apply Fin.ext
  match a with
  | ⟨0, _⟩ => show win0_2.index t (0 : Fin 2) * 1024 + 1 * r.val = 1024 * t.val + r.val; omega
  | ⟨1, _⟩ => show win0_2.index t (1 : Fin 2) * 1 + 1 * 0 = 0; omega

/-- The root weights' window is the whole transposed array. -/
theorem bw1_apply (t : Fin cfg0.N) (d : Fin 2048) (k : Fin 33) :
    bw1 m c t (ix2 d k) = V m c main_v5 (ix2 d k) := by
  show V m c main_v5 (((cfg0.win 3).blk t).view.emb (ix2 d k)) = V m c main_v5 (ix2 d k)
  refine congrArg (V m c main_v5) ?_
  obtain ⟨e0, e1, -⟩ := idx_whole t
  funext a; apply Fin.ext
  match a with
  | ⟨0, _⟩ => show win0_3.index t (0 : Fin 2) * 2048 + 1 * d.val = d.val; omega
  | ⟨1, _⟩ => show win0_3.index t (1 : Fin 2) * 33 + 1 * k.val = k.val; omega

/-- The root biases' window is the whole row. -/
theorem bb1_apply (t : Fin cfg0.N) (k : Fin 33) :
    bb1 m c t (ix2 (0 : Fin 1) k) = V m c main_v6 (ix2 (0 : Fin 1) k) := by
  show V m c main_v6 (((cfg0.win 4).blk t).view.emb (ix2 (0 : Fin 1) k)) = V m c main_v6 (ix2 (0 : Fin 1) k)
  refine congrArg (V m c main_v6) ?_
  obtain ⟨-, -, e0, e1, -⟩ := idx_whole t
  funext a; apply Fin.ext
  match a with
  | ⟨0, _⟩ => show win0_4.index t (0 : Fin 2) * 1 + 1 * 0 = 0; omega
  | ⟨1, _⟩ => show win0_4.index t (1 : Fin 2) * 33 + 1 * k.val = k.val; omega

/-- The inner-node weights' window is the whole transposed, side-by-side array. -/
theorem bw2_apply (t : Fin cfg0.N) (d : Fin 2048) (n : Fin 1056) :
    bw2 m c t (ix2 d n) = V m c main_v9 (ix2 d n) := by
  show V m c main_v9 (((cfg0.win 5).blk t).view.emb (ix2 d n)) = V m c main_v9 (ix2 d n)
  refine congrArg (V m c main_v9) ?_
  obtain ⟨-, -, -, -, e0, e1, -⟩ := idx_whole t
  funext a; apply Fin.ext
  match a with
  | ⟨0, _⟩ => show win0_5.index t (0 : Fin 2) * 2048 + 1 * d.val = d.val; omega
  | ⟨1, _⟩ => show win0_5.index t (1 : Fin 2) * 1056 + 1 * n.val = n.val; omega

/-- The inner-node biases' window is the whole row. -/
theorem bb2_apply (t : Fin cfg0.N) (n : Fin 1056) :
    bb2 m c t (ix2 (0 : Fin 1) n) = V m c main_v10 (ix2 (0 : Fin 1) n) := by
  show V m c main_v10 (((cfg0.win 6).blk t).view.emb (ix2 (0 : Fin 1) n)) = V m c main_v10 (ix2 (0 : Fin 1) n)
  refine congrArg (V m c main_v10) ?_
  obtain ⟨-, -, -, -, -, -, e0, e1⟩ := idx_whole t
  funext a; apply Fin.ext
  match a with
  | ⟨0, _⟩ => show win0_6.index t (0 : Fin 2) * 1 + 1 * 0 = 0; omega
  | ⟨1, _⟩ => show win0_6.index t (1 : Fin 2) * 1056 + 1 * n.val = n.val; omega

/-! ## The blocks' logits and words are the specification's on the point's rows -/

/-- The sample block's entries are the samples' on the point's rows. -/
theorem bx_eq (t : Fin cfg0.N) (r : Fin 1024) (d : Fin 2048) :
    bx m c t (ix2 r d) = aX m c (ix2 (row (blk t) r) d) :=
  (bx_apply m c t r d).trans (congrFun (V_main_arg0 m c) (ix2 (row (blk t) r) d))

/-- The block's inner-node word of its row `r` is that of sample `1024 t + r`. -/
theorem bg_eq (t : Fin cfg0.N) (r : Fin 1024) :
    bg m c t (ix2 r (0 : Fin 1)) = gW (aL m c) (row (blk t) r) :=
  (bg_apply m c t r).trans (KHost.V_g m c (row (blk t) r))

/-- The block's leaf word of its row `r` is that of sample `1024 t + r`. -/
theorem bw_eq (t : Fin cfg0.N) (r : Fin 1024) :
    bw m c t (ix2 r (0 : Fin 1)) = wW (aL m c) (row (blk t) r) :=
  (bw_apply m c t r).trans (KHost.V_w m c (row (blk t) r))

/-- The block's root logits are the root classifier's on the point's rows: the same sum over the features, the
    weights read transposed. -/
theorem logit1_eq (t : Fin cfg0.N) (r : Fin 1024) (k : Fin 33) :
    blkLogit1 (bx m c t) (bw1 m c t) (bb1 m c t) r k = logit1 (aX m c) (aW1 m c) (aB1 m c) (row (blk t) r) k := by
  unfold blkLogit1 logit1
  refine congrArg₂ (· + ·) (Finset.sum_congr rfl fun d _ => ?_) ((bb1_apply m c t k).trans (KHost.V_b1 m c k))
  exact congrArg₂ (· * ·) (bx_eq m c t r d) ((bw1_apply m c t d k).trans (KHost.V_w1t m c d k))

/-- The block's side-by-side logits at column `33 j + k` are inner node `j`'s logit of slot `k` on the point's rows. -/
theorem logit2_eq (t : Fin cfg0.N) (r : Fin 1024) (j : Fin 32) (k : Fin 33) :
    blkLogit2 (bx m c t) (bw2 m c t) (bb2 m c t) r (col j k) = logit2 (aX m c) (aW2 m c) (aB2 m c) (row (blk t) r) j k := by
  unfold blkLogit2 logit2
  refine congrArg₂ (· + ·) (Finset.sum_congr rfl fun d _ => ?_) ((bb2_apply m c t (col j k)).trans (KHost.V_b2 m c j k))
  exact congrArg₂ (· * ·) (bx_eq m c t r d) ((bw2_apply m c t d (col j k)).trans (KHost.V_w2t m c d j k))

/-! ## What a point writes and adds -/

/-- The block of leaf logits a point writes is the specification's entries on the point's rows. -/
theorem blkOut_eq (t : Fin cfg0.N) (r q : Fin 1024) :
    blkOut (bx m c t) (bw2 m c t) (bb2 m c t) r q = outSpec (aX m c) (aW2 m c) (aB2 m c) (ix2 (row (blk t) r) q) := by
  have hq : q.val < 1024 := q.isLt
  unfold blkOut outSpec
  exact logit2_eq m c t r ⟨q.val / 32, by omega⟩ ⟨q.val % 32 + 1, by omega⟩

/-- The point's root total is the sum over its samples of the negated root log-probabilities. -/
theorem blkRoot_eq (t : Fin cfg0.N) :
    blkRoot (bx m c t) (bg m c t) (bw1 m c t) (bb1 m c t)
      = ∑ r : Fin 1024, (0 - sel1 (aX m c) (aW1 m c) (aB1 m c) (gW (aL m c)) (row (blk t) r)) := by
  unfold blkRoot
  refine Finset.sum_congr rfl fun r _ => ?_
  unfold sel1
  have e : blkLogit1 (bx m c t) (bw1 m c t) (bb1 m c t) r = logit1 (aX m c) (aW1 m c) (aB1 m c) (row (blk t) r) :=
    funext fun k => logit1_eq m c t r k
  rw [e, bg_eq]

/-- The point's inner-node total is the sum over the nodes and its samples of the negated log-probabilities. -/
theorem blkNodes_eq (t : Fin cfg0.N) :
    blkNodes (bx m c t) (bg m c t) (bw m c t) (bw2 m c t) (bb2 m c t)
      = ∑ j : Fin 32, ∑ r : Fin 1024, (0 - sel2 (aX m c) (aW2 m c) (aB2 m c) (gW (aL m c)) (wW (aL m c)) (row (blk t) r) j) := by
  unfold blkNodes
  refine Finset.sum_congr rfl fun j _ => Finset.sum_congr rfl fun r _ => ?_
  unfold sel2
  have e : (fun k => blkLogit2 (bx m c t) (bw2 m c t) (bb2 m c t) r (col j k)) = logit2 (aX m c) (aW2 m c) (aB2 m c) (row (blk t) r) j :=
    funext fun k => logit2_eq m c t r j k
  rw [e, bg_eq, bw_eq]

end Cert.KernelIdeal.KGlue

end
-- ==== Proof.KValue.lean ====
/-
  The idealized kernel's run, with both results named: the leaf logits are the specification's, and the penalty is
  the specification's block-by-block arrangement. The first output is covered by the 16 blocks of rows the grid
  points write; the two running totals are followed point by point (zero at the start, one block total more after
  each point); the last point writes the penalty, and the host reads that one-by-one array as a scalar.
-/
import proofs.«419181_j50646254354828_1_alg».proof.Proof.Gen.KernelIdeal.Frame
import proofs.«419181_j50646254354828_1_alg».proof.Proof.LabelWords
import proofs.«419181_j50646254354828_1_alg».proof.Proof.KBlock
import proofs.«419181_j50646254354828_1_alg».proof.Proof.KOut
import proofs.«419181_j50646254354828_1_alg».proof.Proof.KRoot
import proofs.«419181_j50646254354828_1_alg».proof.Proof.KNodes
import proofs.«419181_j50646254354828_1_alg».proof.Proof.KPen
import proofs.«419181_j50646254354828_1_alg».proof.Proof.KGlue
import Idealize.ShloMosaic.Lib.Pipeline.Value
import Idealize.ShloMosaic.Lib.StableHlo.Run

noncomputable section

namespace Cert.KernelIdeal.KV

open Idealize.ShloMosaic Idealize.ShloMosaic.TcCoe Idealize.ShloMosaic.ValueIdx Idealize.SL.Sem
open Cert.KernelIdeal Cert.KernelIdeal.Gen Cert.HSoft Cert.KernelIdeal.KC Cert.KernelIdeal.KGlue
open Idealize.ShloMosaic.Pipeline (Dat)
open scoped BigOperators

section Main

variable (m : (ℓ : Loc nD τ sig) → Buf (Elt Ideal) ℓ) (c : Dev nD)

/-! ## The two running totals, point by point -/

/-- The root total grid point `s` adds (nothing beyond the grid). -/
def rootAt (s : ℕ) : EReal :=
  if h : s < cfg0.N then blkRoot (bx m c ⟨s, h⟩) (bg m c ⟨s, h⟩) (bw1 m c ⟨s, h⟩) (bb1 m c ⟨s, h⟩) else 0

/-- The inner-node total grid point `s` adds (nothing beyond the grid). -/
def nodesAt (s : ℕ) : EReal :=
  if h : s < cfg0.N then blkNodes (bx m c ⟨s, h⟩) (bg m c ⟨s, h⟩) (bw m c ⟨s, h⟩) (bw2 m c ⟨s, h⟩) (bb2 m c ⟨s, h⟩) else 0

theorem rootAt_eq (t : Fin cfg0.N) : rootAt m c t.val = blkRoot (bx m c t) (bg m c t) (bw1 m c t) (bb1 m c t) :=
  dif_pos t.isLt

theorem nodesAt_eq (t : Fin cfg0.N) : nodesAt m c t.val = blkNodes (bx m c t) (bg m c t) (bw m c t) (bw2 m c t) (bb2 m c t) :=
  dif_pos t.isLt

/-- After grid point `n` the first carried total is the sum of the root totals of the points up to `n`, and the second
    that of the inner-node totals: zero plus the first point's at the start, one more term after each later point. -/
theorem totals : ∀ (n : ℕ) (h : n < cfg0.N),
    ((outsAt0 m c n h).2.2.1 o11 : EReal) = ∑ s ∈ Finset.range (n + 1), rootAt m c s
    ∧ ((outsAt0 m c n h).2.2.2 o11 : EReal) = ∑ s ∈ Finset.range (n + 1), nodesAt m c s
  | 0, h => by
    have h0 : (⟨0, h⟩ : Fin cfg0.N).val % 16 = 0 := rfl
    have h1 : ¬(⟨0, h⟩ : Fin cfg0.N).val % 16 = 15 := by dsimp only; omega
    rw [outsAt0_A m c ⟨0, h⟩ h0 h1]
    dsimp only
    rw [Finset.sum_range_one, Finset.sum_range_one]
    constructor
    · refine (KRoot.root_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) ((hcond0_0 ⟨0, h⟩).mpr h0) (fun hh => h1 ((hcond0_1 ⟨0, h⟩).mp hh))).trans ?_
      rw [zero_add]; exact (rootAt_eq m c ⟨0, h⟩).symm
    · refine (KNodes.nodes_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) ((hcond0_0 ⟨0, h⟩).mpr h0) (fun hh => h1 ((hcond0_1 ⟨0, h⟩).mp hh))).trans ?_
      rw [zero_add]; exact (nodesAt_eq m c ⟨0, h⟩).symm
  | n + 1, h => by
    have hN : n + 1 < 16 := lt_of_lt_of_eq h N_0
    have ih := totals n (Nat.lt_of_succ_lt h)
    have h0 : ¬(⟨n + 1, h⟩ : Fin cfg0.N).val % 16 = 0 := by dsimp only; omega
    rw [Finset.sum_range_succ _ (n + 1), Finset.sum_range_succ _ (n + 1), ← ih.1, ← ih.2]
    by_cases h1 : (⟨n + 1, h⟩ : Fin cfg0.N).val % 16 = 15
    · rw [outsAt0_C m c ⟨n + 1, h⟩ h0 h1]
      dsimp only
      constructor
      · refine (KRoot.root_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2.2.1 (outsAt0 m c n (Nat.lt_of_succ_lt h)).2.2.2 (fun hh => h0 ((hcond0_0 ⟨n + 1, h⟩).mp hh)) ((hcond0_1 ⟨n + 1, h⟩).mpr h1)).trans ?_
        exact congrArg (fun z : EReal => ((outsAt0 m c n (Nat.lt_of_succ_lt h)).2.2.1 o11 : EReal) + z) (rootAt_eq m c ⟨n + 1, h⟩).symm
      · refine (KNodes.nodes_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2.2.1 (outsAt0 m c n (Nat.lt_of_succ_lt h)).2.2.2 (fun hh => h0 ((hcond0_0 ⟨n + 1, h⟩).mp hh)) ((hcond0_1 ⟨n + 1, h⟩).mpr h1)).trans ?_
        exact congrArg (fun z : EReal => ((outsAt0 m c n (Nat.lt_of_succ_lt h)).2.2.2 o11 : EReal) + z) (nodesAt_eq m c ⟨n + 1, h⟩).symm
    · rw [outsAt0_B m c ⟨n + 1, h⟩ h0 h1]
      dsimp only
      constructor
      · refine (KRoot.root_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2.2.1 (outsAt0 m c n (Nat.lt_of_succ_lt h)).2.2.2 (fun hh => h0 ((hcond0_0 ⟨n + 1, h⟩).mp hh)) (fun hh => h1 ((hcond0_1 ⟨n + 1, h⟩).mp hh))).trans ?_
        exact congrArg (fun z : EReal => ((outsAt0 m c n (Nat.lt_of_succ_lt h)).2.2.1 o11 : EReal) + z) (rootAt_eq m c ⟨n + 1, h⟩).symm
      · refine (KNodes.nodes_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2.2.1 (outsAt0 m c n (Nat.lt_of_succ_lt h)).2.2.2 (fun hh => h0 ((hcond0_0 ⟨n + 1, h⟩).mp hh)) (fun hh => h1 ((hcond0_1 ⟨n + 1, h⟩).mp hh))).trans ?_
        exact congrArg (fun z : EReal => ((outsAt0 m c n (Nat.lt_of_succ_lt h)).2.2.2 o11 : EReal) + z) (nodesAt_eq m c ⟨n + 1, h⟩).symm

/-! ## The leaf logits: 16 blocks of 1024 rows cover the array -/

/-- What the first result array ends holding: the specification's leaf logits. -/
abbrev G7 : Buf (Elt Ideal) ((c.tc : Thread nD τ).loc main_v11_0) :=
  fun i => outSpec (m ((c.tc : Thread nD τ).loc main_arg0)) (m ((c.tc : Thread nD τ).loc main_arg4)) (m ((c.tc : Thread nD τ).loc main_arg5)) i

/-- Grid point `t` writes row block `t`, all 1024 columns. -/
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Entry `(r, q)` of point `t`'s block is entry `(1024 t + r, q)` of the array. -/
theorem emb7 (t : Fin cfg0.N) (j : S1024x1024.Idx) :
    ((cfg0.win 7).blk t).view.emb j = ix2 (row (blk t) (j 0)) (j 1) := by
  obtain ⟨e0, e1⟩ := idx7 t
  funext a; apply Fin.ext
  match a with
  | ⟨0, _⟩ => show win0_7.index t (0 : Fin 2) * 1024 + 1 * (j 0).val = 1024 * t.val + (j 0).val; rw [e0]; omega
  | ⟨1, _⟩ => show win0_7.index t (1 : Fin 2) * 1024 + 1 * (j 1).val = (j 1).val; rw [e1]; omega

/-- What grid point `t` writes back is block `t` of the specification's leaf logits. -/
theorem flushed7_eq (t : Fin cfg0.N) :
    (dats m 0 c).flushed 7 t = ((cfg0.win 7).blk t).view.read (Elt Ideal) (G7 m c) := by
  show (cfg0.win 7).cut (grid0.coords t) ((dats m 0 c).after 7 t) = _
  rw [after0_7]
  have hN : t.val < 16 := lt_of_lt_of_eq t.isLt N_0
  refine funext fun (j : S1024x1024.Idx) => ?_
  show (outsAt0 m c t.val t.isLt).1 j = outSpec (m ((c.tc : Thread nD τ).loc main_arg0)) (m ((c.tc : Thread nD τ).loc main_arg4)) (m ((c.tc : Thread nD τ).loc main_arg5)) (((cfg0.win 7).blk t).view.emb j)
  rw [emb7 t j]
  refine Eq.trans ?_ (blkOut_eq m c t (j 0) (j 1))
  rw [eq_ix2 j]
  by_cases h0 : t.val % 16 = 0
  · have h1 : ¬t.val % 16 = 15 := by omega
    rw [outsAt0_A m c t h0 h1]
    dsimp only
    exact KOut.out7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) ((hcond0_0 t).mpr h0) (fun hh => h1 ((hcond0_1 t).mp hh)) (j 0) (j 1)
  · by_cases h1 : t.val % 16 = 15
    · rw [outsAt0_C m c t h0 h1]
      dsimp only
      exact KOut.out7_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 (fun hh => h0 ((hcond0_0 t).mp hh)) ((hcond0_1 t).mpr h1) (j 0) (j 1)
    · rw [outsAt0_B m c t h0 h1]
      dsimp only
      exact KOut.out7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 (fun hh => h0 ((hcond0_0 t).mp hh)) (fun hh => h1 ((hcond0_1 t).mp hh)) (j 0) (j 1)

/-- An index of the array is in point `t`'s block iff each coordinate is in the block's range on its axis. -/
theorem mem_blk7 (t : Fin cfg0.N) (i : S16384x1024.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v11_0).slice (win0_7.rect t)).set ↔ _
  rw [View.set_slice_whole, Rect.mem_set_unit]
  exact Iff.rfl

/-- Row `i` is in block `i / 1024`. -/
theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 16 := N_0
  let t : Fin cfg0.N := ⟨(i 0).val / 1024, by rw [hN]; omega⟩
  obtain ⟨e0, e1⟩ := idx7 t
  have ht : t.val = (i 0).val / 1024 := rfl
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; rw [e0, ht]; omega
  | ⟨1, _⟩ => show win0_7.index t (1 : Fin 2) * 1024 ≤ (i 1).val ∧ (i 1).val < win0_7.index t (1 : Fin 2) * 1024 + 1024; rw [e1]; omega

/-- So the first result array ends holding the specification's leaf logits. -/
theorem final7 : (dats m 0 c).arrAt 7 cfg0.N = G7 m c :=
  (dats m 0 c).arrAt_eq_of_cover 7 (G7 m c) (fun t _ => flushed7_eq m c t) (cover7)

/-! ## The penalty: written once, by the last grid point, from the two totals -/

/-- The specification's penalty, summed block by block. -/
abbrev pen : EReal := penBlocks (sel1 (m ((c.tc : Thread nD τ).loc main_arg0)) (m ((c.tc : Thread nD τ).loc main_arg2)) (m ((c.tc : Thread nD τ).loc main_arg3)) (gW (m ((c.tc : Thread nD τ).loc main_arg1)))) (sel2 (m ((c.tc : Thread nD τ).loc main_arg0)) (m ((c.tc : Thread nD τ).loc main_arg4)) (m ((c.tc : Thread nD τ).loc main_arg5)) (gW (m ((c.tc : Thread nD τ).loc main_arg1))) (wW (m ((c.tc : Thread nD τ).loc main_arg1))))

/-- What the second result array ends holding. -/
abbrev G8 : Buf (Elt Ideal) ((c.tc : Thread nD τ).loc main_v11_1) := fun _ => pen m c

/-- The 16 root totals are the specification's block-by-block sum. -/
theorem sum_root : ∑ s ∈ Finset.range 16, rootAt m c s
    = ∑ t : Fin 16, ∑ r : Fin 1024, (0 - sel1 (m ((c.tc : Thread nD τ).loc main_arg0)) (m ((c.tc : Thread nD τ).loc main_arg2)) (m ((c.tc : Thread nD τ).loc main_arg3)) (gW (m ((c.tc : Thread nD τ).loc main_arg1))) (row t r)) := by
  rw [Finset.sum_range]
  refine Finset.sum_congr rfl fun t _ => ?_
  have ht : t.val < cfg0.N := lt_of_lt_of_eq t.isLt N_0.symm
  exact (rootAt_eq m c ⟨t.val, ht⟩).trans (blkRoot_eq m c ⟨t.val, ht⟩)

/-- The 16 inner-node totals likewise. -/
theorem sum_nodes : ∑ s ∈ Finset.range 16, nodesAt m c s
    = ∑ t : Fin 16, ∑ j : Fin 32, ∑ r : Fin 1024, (0 - sel2 (m ((c.tc : Thread nD τ).loc main_arg0)) (m ((c.tc : Thread nD τ).loc main_arg4)) (m ((c.tc : Thread nD τ).loc main_arg5)) (gW (m ((c.tc : Thread nD τ).loc main_arg1))) (wW (m ((c.tc : Thread nD τ).loc main_arg1))) (row t r) j) := by
  rw [Finset.sum_range]
  refine Finset.sum_congr rfl fun t _ => ?_
  have ht : t.val < cfg0.N := lt_of_lt_of_eq t.isLt N_0.symm
  exact (nodesAt_eq m c ⟨t.val, ht⟩).trans (blkNodes_eq m c ⟨t.val, ht⟩)

/-- The two full totals, scaled as the last point scales them, are the penalty. -/
theorem pen_eq : blkPenalty (∑ s ∈ Finset.range 16, rootAt m c s) (∑ s ∈ Finset.range 16, nodesAt m c s) = pen m c := by
  unfold blkPenalty pen penBlocks
  rw [sum_root m c, sum_nodes m c]

/-- The one-by-one window sits at the array's only entry at every point. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- The one write-back, at the last point, writes the penalty. -/
theorem flushed8_eq (t : Fin cfg0.N) (hf : (cfg0.win 8).flush t = true) :
    (dats m 0 c).flushed 8 t = ((cfg0.win 8).blk t).view.read (Elt Ideal) (G8 m c) := by
  have h1 : t.val % 16 = 15 := (flush0_8 t).mp hf
  have hN : t.val < 16 := lt_of_lt_of_eq t.isLt N_0
  have h0 : ¬t.val % 16 = 0 := by omega
  have h15 : t.val = 15 := by omega
  show (cfg0.win 8).cut (grid0.coords t) ((dats m 0 c).after 8 t) = _
  rw [after0_8]
  refine funext fun (j : S1x1.Idx) => ?_
  show (outsAt0 m c t.val t.isLt).2.1 j = pen m c
  have hj : j = o11 := (eq_ix2 j).trans (by rw [Fin.fin_one_eq_zero (j 0), Fin.fin_one_eq_zero (j 1)]; rfl)
  rw [hj, outsAt0_C m c t h0 h1]
  dsimp only
  refine (KPen.penalty_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 (fun hh => h0 ((hcond0_0 t).mp hh)) ((hcond0_1 t).mpr h1)).trans ?_
  have ih := totals m c (t.val - 1) (Nat.lt_of_le_of_lt (Nat.sub_le _ _) t.isLt)
  have e : t.val - 1 + 1 = t.val := by omega
  rw [ih.1, ih.2, ← rootAt_eq m c t, ← nodesAt_eq m c t, e, ← Finset.sum_range_succ, ← Finset.sum_range_succ, h15]
  exact pen_eq m c

/-- The array's only entry is in the last point's block. -/
theorem cover8 (i : S1x1.Idx) : ∃ t : Fin cfg0.N, (cfg0.win 8).flush t = true ∧ i ∈ ((cfg0.win 8).blk t).view.set := by
  have hN : cfg0.N = 16 := N_0
  let t : Fin cfg0.N := ⟨15, by rw [hN]; decide⟩
  obtain ⟨e0, e1⟩ := idx8 t
  have hi0 : (i 0).val < 1 := (i 0).isLt
  have hi1 : (i 1).val < 1 := (i 1).isLt
  refine ⟨t, (flush0_8 t).mpr rfl, ?_⟩
  show i ∈ ((View.whole main_v11_1).slice (win0_8.rect t)).set
  rw [View.set_slice_whole, Rect.mem_set_unit]
  intro a
  match a with
  | ⟨0, _⟩ => show win0_8.index t (0 : Fin 2) * 1 ≤ (i 0).val ∧ (i 0).val < win0_8.index t (0 : Fin 2) * 1 + 1; rw [e0]; omega
  | ⟨1, _⟩ => show win0_8.index t (1 : Fin 2) * 1 ≤ (i 1).val ∧ (i 1).val < win0_8.index t (1 : Fin 2) * 1 + 1; rw [e1]; omega

/-- So the second result array ends holding the penalty. -/
theorem final8 : (dats m 0 c).arrAt 8 cfg0.N = G8 m c :=
  (dats m 0 c).arrAt_eq_of_cover 8 (G8 m c) (flushed8_eq m c) cover8

/-! ## The host reads the one-by-one array as a scalar -/

/-- After the region the host's reshape of the one-by-one array to a scalar holds the penalty. -/
theorem tail12 : Pipeline.afterTail₀ cfgs (dats m) 0 (V0 m) [hostOps1] c main_v12 = fun _ => pen m c := by
  unfold Pipeline.afterTail₀
  show StableHlo.after hostOps1 _ (Proc.devRef .tc main_v12) = _
  after_results
  have hW : Pipeline.withArrays (cfgs 0).spec c (V0 m c) (fun w => (dats m 0 c).arrAt w (cfgs 0).N) (Proc.devRef .tc main_v11_1) = G8 m c :=
    (Pipeline.withArrays_arr spec0 launch0.win.arr_inj c _ _ 8).trans (final8 m c)
  rw [hW]
  funext i
  show shapeCast main_v12.ty.shape (G8 m c) shapeCasts_S1x1_S_ i = pen m c
  unfold shapeCast
  rfl

end Main

/-- Every weakly fair execution of the idealized kernel program ends with the leaf logits and the penalty of the
    specification (the penalty summed block by block) and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11_0)
        = (fun i => outSpec (m ((c.tc : Thread nD τ).loc main_arg0)) (m ((c.tc : Thread nD τ).loc main_arg4)) (m ((c.tc : Thread nD τ).loc main_arg5)) i)
      ∧ r.2.mem ((c.tc : Thread nD τ).loc main_v12)
        = (fun _ => penBlocks
            (sel1 (m ((c.tc : Thread nD τ).loc main_arg0)) (m ((c.tc : Thread nD τ).loc main_arg2)) (m ((c.tc : Thread nD τ).loc main_arg3)) (gW (m ((c.tc : Thread nD τ).loc main_arg1))))
            (sel2 (m ((c.tc : Thread nD τ).loc main_arg0)) (m ((c.tc : Thread nD τ).loc main_arg4)) (m ((c.tc : Thread nD τ).loc main_arg5)) (gW (m ((c.tc : Thread nD τ).loc main_arg1))) (wW (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 7).trans (final7 m c),
      ((h c).2 main_v12 (Pipeline.mem_restRefs_of main_v12 (by decide) (by decide))).trans (tail12 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KV

end
-- ==== Proof.LibStage.lean ====
/-
  Stage equations of a straight line of host operations in single-assignment form.

  A line of operations is STAGED along a ranking `rk` of the device's buffers when its k-th operation writes
  only buffers of rank `lo + k`, touches besides them only buffers of smaller rank, and computes what it writes
  from the buffers it does not write. Then no operation overwrites a buffer an earlier one wrote or read, so in
  the contents `after ops V` the line ends at, EVERY operation's equation holds at once:
  `after ops V b = op.result (after ops V) b` for each written `b` (`Staged.after_eq`), and a buffer ranked
  below the first stage keeps what it held (`Staged.after_of_lt`). The builders of Lib/StableHlo.lean are
  stages as soon as their operands rank below their result (`unary_stageAt` …); with the builder's
  `‹kind›_result` the equation reads `after ops V y = f (after ops V x)`.
-/
import Idealize.ShloMosaic.Lib.StableHlo.Run

namespace Idealize.ShloMosaic.StableHlo

variable {τ : Topo} {sig : RefSig} {Val : EltTy → Type}

/-- `op` is a stage at rank `lo`: every buffer it writes has rank `lo`, every buffer it touches without writing
    has a smaller rank, and what it writes is decided by the contents of the buffers it does not write. -/
structure StageAt (rk : DevRef τ sig → ℕ) (lo : ℕ) (op : HloOp τ sig Val) : Prop where
  reads_lt : ∀ b ∈ op.bufs, b ∉ op.writes → rk b < lo
  writes_eq : ∀ b ∈ op.writes, rk b = lo
  indep : ∀ F G : Valuation τ sig Val, (∀ b ∈ op.bufs, b ∉ op.writes → F b = G b) →
    ∀ b ∈ op.writes, op.result F b = op.result G b

/-- A line of operations staged from rank `lo` up to `hi`: the first a stage at `lo`, the next at `lo + 1`, …,
    and `hi` the rank after the last. -/
def Staged (rk : DevRef τ sig → ℕ) : ℕ → List (HloOp τ sig Val) → ℕ → Prop
  | lo, [], hi => lo = hi
  | lo, op :: post, hi => StageAt rk lo op ∧ Staged rk (lo + 1) post hi

namespace Staged

variable {rk : DevRef τ sig → ℕ}

theorem nil (lo : ℕ) : Staged rk lo ([] : List (HloOp τ sig Val)) lo := rfl

theorem cons {lo hi : ℕ} {op : HloOp τ sig Val} {post : List (HloOp τ sig Val)} (h : StageAt rk lo op)
    (hp : Staged rk (lo + 1) post hi) : Staged rk lo (op :: post) hi := ⟨h, hp⟩

/-- Two staged lines, the second from where the first ends, are one staged line. -/
theorem append {l₁ l₂ : List (HloOp τ sig Val)} {hi : ℕ} :
    ∀ {lo mid : ℕ}, Staged rk lo l₁ mid → Staged rk mid l₂ hi → Staged rk lo (l₁ ++ l₂) hi := by
  induction l₁ with
  | nil => intro lo mid h₁ h₂; cases (show lo = mid from h₁); exact h₂
  | cons op l ih => intro lo mid h₁ h₂; exact ⟨h₁.1, ih h₁.2 h₂⟩

/-- Every buffer a staged line writes has rank at least the line's first. -/
theorem le_rk_of_mem {l : List (HloOp τ sig Val)} {hi : ℕ} :
    ∀ {lo : ℕ}, Staged rk lo l hi → ∀ op ∈ l, ∀ b ∈ op.writes, lo ≤ rk b := by
  induction l with
  | nil => intro lo _ op hop; exact absurd hop List.not_mem_nil
  | cons o post ih =>
    intro lo h op hop b hb
    rcases List.mem_cons.mp hop with e | hop
    · exact Nat.le_of_eq ((e ▸ h.1).writes_eq b hb).symm
    · exact Nat.le_of_succ_le (ih h.2 op hop b hb)

/-- A buffer ranked below a staged line's first stage keeps its contents. -/
theorem after_of_lt {l : List (HloOp τ sig Val)} {lo hi : ℕ} (h : Staged rk lo l hi) (V : Valuation τ sig Val)
    {b : DevRef τ sig} (hb : rk b < lo) : after l V b = V b :=
  after_of_forall_not_mem l V fun op hop hw => absurd (h.le_rk_of_mem op hop b hw) (Nat.not_le.mpr hb)

/-- In the contents a staged line ends at, every operation's written buffers hold the operation's value AT THOSE
    CONTENTS: nothing after it rewrites what it wrote or what it read. -/
theorem after_eq {l : List (HloOp τ sig Val)} {hi : ℕ} :
    ∀ {lo : ℕ}, Staged rk lo l hi → ∀ (V : Valuation τ sig Val) (op : HloOp τ sig Val), op ∈ l →
      ∀ b ∈ op.writes, after l V b = op.result (after l V) b := by
  induction l with
  | nil => intro lo _ V op hop; exact absurd hop List.not_mem_nil
  | cons o post ih =>
    intro lo h V op hop b hb
    rw [after_cons]
    rcases List.mem_cons.mp hop with e | hop
    · subst e
      have ho := h.1
      have hpost := h.2
      have hlt : rk b < lo + 1 := Nat.lt_succ_of_le (Nat.le_of_eq (ho.writes_eq b hb))
      rw [hpost.after_of_lt _ hlt]
      refine ho.indep _ _ (fun c hc hcw => ?_) b hb
      rw [hpost.after_of_lt _ (Nat.lt_succ_of_lt (ho.reads_lt c hc hcw)), HloOp.result_of_not_mem _ V hcw]
    · exact ih h.2 _ op hop b hb

end Staged

/-! ## The builders as stages -/

section Builders

variable {rk : DevRef τ sig → ℕ} {lo : ℕ}

private theorem not_mem_single {x y : Ref sig .tc} (h1 : rk (Proc.devRef (τ := τ) .tc x) < lo)
    (h2 : rk (Proc.devRef (τ := τ) .tc y) = lo) :
    (Proc.devRef (τ := τ) .tc x) ∉ ({Proc.devRef (τ := τ) .tc y} : Finset (DevRef τ sig)) := fun hm => by
  rw [Finset.mem_singleton.mp hm, h2] at h1; exact Nat.lt_irrefl _ h1

theorem nullary_stageAt (y : Ref sig .tc) (v : y.ty.Contents Val) (hy)
    (h : rk (Proc.devRef (τ := τ) .tc y) = lo) : StageAt rk lo (nullary (τ := τ) y v hy) where
  reads_lt b hb hw := absurd hb hw
  writes_eq b hb := by obtain rfl := Finset.mem_singleton.mp hb; exact h
  indep F G _ b hb := by
    obtain rfl := Finset.mem_singleton.mp hb
    exact (nullary_result y v hy F).trans (nullary_result y v hy G).symm

theorem unary_stageAt (x y : Ref sig .tc) (f : x.ty.Contents Val → y.ty.Contents Val) (hx hy)
    (h1 : rk (Proc.devRef (τ := τ) .tc x) < lo) (h2 : rk (Proc.devRef (τ := τ) .tc y) = lo) :
    StageAt rk lo (unary (τ := τ) x y f hx hy) where
  reads_lt b hb hw := by
    rcases Finset.mem_insert.mp hb with rfl | hb
    · exact h1
    · exact absurd hb hw
  writes_eq b hb := by obtain rfl := Finset.mem_singleton.mp hb; exact h2
  indep F G h b hb := by
    obtain rfl := Finset.mem_singleton.mp hb
    rw [unary_result, unary_result, h _ (Finset.mem_insert_self _ _) (not_mem_single h1 h2)]

theorem reshape_stageAt (x y : Ref sig .tc) (he hn hx hy)
    (h1 : rk (Proc.devRef (τ := τ) .tc x) < lo) (h2 : rk (Proc.devRef (τ := τ) .tc y) = lo) :
    StageAt rk lo (reshape (τ := τ) (Val := Val) x y he hn hx hy) where
  reads_lt b hb hw := by
    rcases Finset.mem_insert.mp hb with rfl | hb
    · exact h1
    · exact absurd hb hw
  writes_eq b hb := by obtain rfl := Finset.mem_singleton.mp hb; exact h2
  indep F G h b hb := by
    obtain rfl := Finset.mem_singleton.mp hb
    rw [reshape_result, reshape_result, h _ (Finset.mem_insert_self _ _) (not_mem_single h1 h2)]

theorem binary_stageAt (a b y : Ref sig .tc) (f : a.ty.Contents Val → b.ty.Contents Val → y.ty.Contents Val) (ha hb hy)
    (h1 : rk (Proc.devRef (τ := τ) .tc a) < lo) (h2 : rk (Proc.devRef (τ := τ) .tc b) < lo)
    (h3 : rk (Proc.devRef (τ := τ) .tc y) = lo) : StageAt rk lo (binary (τ := τ) a b y f ha hb hy) where
  reads_lt c hc hw := by
    rcases Finset.mem_insert.mp hc with rfl | hc
    · exact h1
    rcases Finset.mem_insert.mp hc with rfl | hc
    · exact h2
    · exact absurd hc hw
  writes_eq c hc := by obtain rfl := Finset.mem_singleton.mp hc; exact h3
  indep F G h c hc := by
    obtain rfl := Finset.mem_singleton.mp hc
    have ea := h _ (Finset.mem_insert_self _ _) (not_mem_single h1 h3)
    have eb := h _ (Finset.mem_insert_of_mem (Finset.mem_insert_self _ _)) (not_mem_single h2 h3)
    exact (binary_result a b y f ha hb hy F).trans
      ((congrArg₂ f ea eb).trans (binary_result a b y f ha hb hy G).symm)

theorem ternary_stageAt (c a b y : Ref sig .tc)
    (f : c.ty.Contents Val → a.ty.Contents Val → b.ty.Contents Val → y.ty.Contents Val) (hc ha hb hy)
    (h0 : rk (Proc.devRef (τ := τ) .tc c) < lo) (h1 : rk (Proc.devRef (τ := τ) .tc a) < lo)
    (h2 : rk (Proc.devRef (τ := τ) .tc b) < lo) (h3 : rk (Proc.devRef (τ := τ) .tc y) = lo) :
    StageAt rk lo (ternary (τ := τ) c a b y f hc ha hb hy) where
  reads_lt d hd hw := by
    rcases Finset.mem_insert.mp hd with rfl | hd
    · exact h0
    rcases Finset.mem_insert.mp hd with rfl | hd
    · exact h1
    rcases Finset.mem_insert.mp hd with rfl | hd
    · exact h2
    · exact absurd hd hw
  writes_eq d hd := by obtain rfl := Finset.mem_singleton.mp hd; exact h3
  indep F G h d hd := by
    obtain rfl := Finset.mem_singleton.mp hd
    have ec := h _ (Finset.mem_insert_self _ _) (not_mem_single h0 h3)
    have ea := h _ (Finset.mem_insert_of_mem (Finset.mem_insert_self _ _)) (not_mem_single h1 h3)
    have eb := h _ (Finset.mem_insert_of_mem (Finset.mem_insert_of_mem (Finset.mem_insert_self _ _))) (not_mem_single h2 h3)
    refine (ternary_result c a b y f hc ha hb hy F).trans (Eq.trans ?_ (ternary_result c a b y f hc ha hb hy G).symm)
    rw [ec, ea, eb]

end Builders

end Idealize.ShloMosaic.StableHlo
-- ==== Proof.RefOps.lean ====
/-
  The reference program's host operations as one straight line, in four stretches: the operations of @main in
  order, each call of a module-local function replaced by that function's operations over the buffers the call
  names (the callee's arguments are the caller's operands; a nested call is unfolded the same way). Operation k
  of the line (from 0) writes the buffer of index 6 + k of the signature and reads only buffers of smaller index:
  the six arguments have indices 0 to 5 and no operation writes them.

  Beside each stretch, one entry per operation, in the same order: every buffer the operation touches is one of
  the TensorCore's references; the operation leaves no buffer undetermined; the operation is a stage at its rank,
  the rank of a buffer being its index (its operands rank below its result, and its result has the stage's rank).
-/
import proofs.«419181_j50646254354828_1_alg».proof.Proof.Gen.ReferenceIdeal
import proofs.«419181_j50646254354828_1_alg».proof.Proof.LibStage
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 40 of the line. -/
abbrev ops1 : List (HloOp τ sig (Elt F)) :=
  [ nullary main_c (constantI S_ 32 32#32),
    TRef.unary (.of main_c : TRef sig ⟨S_, .i32⟩) main_call0.v0 id,
    TRef.unary main_call0.v0 main_call0.v1 (broadcastInDim S16384 ![] bcast_S_S16384),
    TRef.binary (.of main_arg1 : TRef sig ⟨S16384, .i32⟩) main_call0.v1 main_call0.v2 Host.divsi,
    TRef.unary (.of main_arg1 : TRef sig ⟨S16384, .i32⟩) main_call0.v3 signi,
    TRef.unary main_call0.v0 main_call0.v4 signi,
    TRef.unary main_call0.v4 main_call0.v5 (broadcastInDim S16384 ![] bcast_S_S16384),
    TRef.binary main_call0.v3 main_call0.v5 main_call0.v6 (cmpi .ne),
    TRef.unary main_call0.v0 main_call0.v7 (broadcastInDim S16384 ![] bcast_S_S16384),
    TRef.binary (.of main_arg1 : TRef sig ⟨S16384, .i32⟩) main_call0.v7 main_call0.v8 Host.remsi,
    TRef.nullary main_call0.c (constantI S_ 32 0#32),
    TRef.unary main_call0.c main_call0.v9 (broadcastInDim S16384 ![] bcast_S_S16384),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16384 ![] bcast_S_S16384),
    TRef.binary main_call0.v2 main_call0.v12 main_call0.v13 subi,
    TRef.ternary main_call0.v11 main_call0.v13 main_call0.v2 main_call0.call0.v0 select,
    nullary main_c_0 (constantI S_ 32 32#32),
    TRef.unary (.of main_c_0 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S16384 ![] bcast_S_S16384),
    TRef.binary (.of main_arg1 : TRef sig ⟨S16384, .i32⟩) main_call1.v3 main_call1.v4 Host.remsi,
    TRef.nullary main_call1.c_1 (constantI S_ 32 0#32),
    TRef.unary main_call1.c_1 main_call1.v5 (broadcastInDim S16384 ![] bcast_S_S16384),
    TRef.binary main_call1.v4 main_call1.v5 main_call1.v6 (cmpi .ne),
    TRef.nullary main_call1.c_2 (constantI S_ 32 0#32),
    TRef.unary main_call1.c_2 main_call1.v7 (broadcastInDim S16384 ![] bcast_S_S16384),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S16384 ![] bcast_S_S16384),
    TRef.binary main_call1.v8 main_call1.v10 main_call1.v11 (cmpi .ne),
    TRef.binary main_call1.v11 main_call1.v6 main_call1.v12 andi,
    TRef.unary main_call1.call0.v0 main_call1.v13 (broadcastInDim S16384 ![] bcast_S_S16384),
    TRef.binary main_call1.v4 main_call1.v13 main_call1.v14 addi,
    TRef.ternary main_call1.v12 main_call1.v14 main_call1.v4 main_call1.v15 select,
    unary main_arg2 main_v2 ((transpose S2048x33 [1, 0] · transposes_S33x2048_S2048x33_1_0) : (⟨S33x2048, .f32⟩ : BufTy).Contents (Elt F) → (⟨S2048x33, .f32⟩ : BufTy).Contents (Elt F)) ]

theorem ops1_sub : (ops1 : List (HloOp τ sig (Elt F))).Forall fun op => op.bufs ⊆ tcRefs τ sig :=
  ⟨nullary_bufs_sub .., unary_bufs_sub .., unary_bufs_sub .., binary_bufs_sub ..,
    unary_bufs_sub .., unary_bufs_sub .., unary_bufs_sub .., binary_bufs_sub ..,
    unary_bufs_sub .., binary_bufs_sub .., nullary_bufs_sub .., unary_bufs_sub ..,
    binary_bufs_sub .., binary_bufs_sub .., nullary_bufs_sub .., unary_bufs_sub ..,
    binary_bufs_sub .., ternary_bufs_sub .., nullary_bufs_sub .., unary_bufs_sub ..,
    nullary_bufs_sub .., binary_bufs_sub .., nullary_bufs_sub .., ternary_bufs_sub ..,
    unary_bufs_sub .., binary_bufs_sub .., nullary_bufs_sub .., unary_bufs_sub ..,
    binary_bufs_sub .., nullary_bufs_sub .., unary_bufs_sub .., binary_bufs_sub ..,
    nullary_bufs_sub .., binary_bufs_sub .., unary_bufs_sub .., binary_bufs_sub ..,
    binary_bufs_sub .., unary_bufs_sub .., binary_bufs_sub .., ternary_bufs_sub ..,
    unary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl⟩

theorem ops1_staged : Staged (fun b : DevRef τ sig => b.idx.val) 6 (ops1 : List (HloOp τ sig (Elt F))) 47 :=
  ⟨nullary_stageAt _ _ _ rfl, unary_stageAt _ _ _ _ _ (by decide) rfl,
    unary_stageAt _ _ _ _ _ (by decide) rfl, binary_stageAt _ _ _ _ _ _ _ (by decide) (by decide) rfl,
    unary_stageAt _ _ _ _ _ (by decide) rfl, unary_stageAt _ _ _ _ _ (by decide) rfl,
    unary_stageAt _ _ _ _ _ (by decide) rfl, binary_stageAt _ _ _ _ _ _ _ (by decide) (by decide) rfl,
    unary_stageAt _ _ _ _ _ (by decide) rfl, binary_stageAt _ _ _ _ _ _ _ (by decide) (by decide) rfl,
    nullary_stageAt _ _ _ rfl, unary_stageAt _ _ _ _ _ (by decide) rfl,
    binary_stageAt _ _ _ _ _ _ _ (by decide) (by decide) rfl, binary_stageAt _ _ _ _ _ _ _ (by decide) (by decide) rfl,
    nullary_stageAt _ _ _ rfl, unary_stageAt _ _ _ _ _ (by decide) rfl,
    binary_stageAt _ _ _ _ _ _ _ (by decide) (by decide) rfl, ternary_stageAt _ _ _ _ _ _ _ _ _ (by decide) (by decide) (by decide) rfl,
    nullary_stageAt _ _ _ rfl, unary_stageAt _ _ _ _ _ (by decide) rfl,
    nullary_stageAt _ _ _ rfl, binary_stageAt _ _ _ _ _ _ _ (by decide) (by decide) rfl,
    nullary_stageAt _ _ _ rfl, ternary_stageAt _ _ _ _ _ _ _ _ _ (by decide) (by decide) (by decide) rfl,
    unary_stageAt _ _ _ _ _ (by decide) rfl, binary_stageAt _ _ _ _ _ _ _ (by decide) (by decide) rfl,
    nullary_stageAt _ _ _ rfl, unary_stageAt _ _ _ _ _ (by decide) rfl,
    binary_stageAt _ _ _ _ _ _ _ (by decide) (by decide) rfl, nullary_stageAt _ _ _ rfl,
    unary_stageAt _ _ _ _ _ (by decide) rfl, binary_stageAt _ _ _ _ _ _ _ (by decide) (by decide) rfl,
    nullary_stageAt _ _ _ rfl, binary_stageAt _ _ _ _ _ _ _ (by decide) (by decide) rfl,
    unary_stageAt _ _ _ _ _ (by decide) rfl, binary_stageAt _ _ _ _ _ _ _ (by decide) (by decide) rfl,
    binary_stageAt _ _ _ _ _ _ _ (by decide) (by decide) rfl, unary_stageAt _ _ _ _ _ (by decide) rfl,
    binary_stageAt _ _ _ _ _ _ _ (by decide) (by decide) rfl, ternary_stageAt _ _ _ _ _ _ _ _ _ (by decide) (by decide) (by decide) rfl,
    unary_stageAt _ _ _ _ _ (by decide) rfl, rfl⟩

/-- Operations 41 to 81 of the line. -/
abbrev ops2 : List (HloOp τ sig (Elt F)) :=
  [ binary main_arg0 main_v2 main_v3 ((fun l r => Host.dotGeneral dot_S16384x2048_S2048x33_S16384x33_1_0_0_1_n_n none l r) : (⟨S16384x2048, .f32⟩ : BufTy).Contents (Elt F) → (⟨S2048x33, .f32⟩ : BufTy).Contents (Elt F) → (⟨S16384x33, .f32⟩ : BufTy).Contents (Elt F)),
    unary main_arg3 main_v4 (broadcastInDim S1x33 ![1] bcast_S33_S1x33_1 : (⟨S33, .f32⟩ : BufTy).Contents (Elt F) → (⟨S1x33, .f32⟩ : BufTy).Contents (Elt F)),
    unary main_v4 main_v5 (broadcastInDim S16384x33 ![0, 1] bcast_S1x33_S16384x33_0_1 : (⟨S1x33, .f32⟩ : BufTy).Contents (Elt F) → (⟨S16384x33, .f32⟩ : BufTy).Contents (Elt F)),
    binary main_v3 main_v5 main_v6 (addf : (⟨S16384x33, .f32⟩ : BufTy).Contents (Elt F) → (⟨S16384x33, .f32⟩ : BufTy).Contents (Elt F) → (⟨S16384x33, .f32⟩ : BufTy).Contents (Elt F)),
    binary main_arg0 main_arg4 main_v7 ((fun l r => Host.dotGeneral dot_S16384x2048_S32x33x2048_S16384x32x33_1_2_0_01_n_n none l r) : (⟨S16384x2048, .f32⟩ : BufTy).Contents (Elt F) → (⟨S32x33x2048, .f32⟩ : BufTy).Contents (Elt F) → (⟨S16384x32x33, .f32⟩ : BufTy).Contents (Elt F)),
    unary main_arg5 main_v8 (broadcastInDim S1x32x33 ![1, 2] bcast_S32x33_S1x32x33_1_2 : (⟨S32x33, .f32⟩ : BufTy).Contents (Elt F) → (⟨S1x32x33, .f32⟩ : BufTy).Contents (Elt F)),
    unary main_v8 main_v9 (broadcastInDim S16384x32x33 ![0, 1, 2] bcast_S1x32x33_S16384x32x33_0_1_2 : (⟨S1x32x33, .f32⟩ : BufTy).Contents (Elt F) → (⟨S16384x32x33, .f32⟩ : BufTy).Contents (Elt F)),
    binary main_v7 main_v9 main_v10 (addf : (⟨S16384x32x33, .f32⟩ : BufTy).Contents (Elt F) → (⟨S16384x32x33, .f32⟩ : BufTy).Contents (Elt F) → (⟨S16384x32x33, .f32⟩ : BufTy).Contents (Elt F)),
    unary main_v10 main_v11 ((extractStridedSlice S16384x32x32 ![0, 0, 1] · slices_S16384x32x33_S16384x32x32_0_0_1) : (⟨S16384x32x33, .f32⟩ : BufTy).Contents (Elt F) → (⟨S16384x32x32, .f32⟩ : BufTy).Contents (Elt F)),
    reshape main_v11 main_v12 rfl shapeCasts_S16384x32x32_S16384x1024,
    TRef.nullary main_call2.cst (constant S_ .f32 0xFF800000#32),
    TRef.binary (.of main_v6 : TRef sig ⟨S16384x33, .f32⟩) main_call2.cst main_call2.v0 (fun x v => Host.reduce FloatOps.maximumf x v reducesTo_S16384x33_S16384_d1 h_S_),
    TRef.nullary main_call2.cst_0 (constant S_ .f32 0xFF800000#32),
    TRef.unary main_call2.cst_0 main_call2.v1 (broadcastInDim S16384 ![] bcast_S_S16384),
    TRef.binary main_call2.v1 main_call2.v0 main_call2.v2 maximumf,
    TRef.unary main_call2.v2 main_call2.v3 (broadcastInDim S16384x1 ![0] bcast_S16384_S16384x1_0),
    TRef.unary main_call2.v3 main_call2.v4 (broadcastInDim S16384x33 ![0, 1] bcast_S16384x1_S16384x33_0_1),
    TRef.binary (.of main_v6 : TRef sig ⟨S16384x33, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S16384x33_S16384_d1 h_S_),
    TRef.unary main_call2.v7 main_call2.v8 (broadcastInDim S16384x1 ![0] bcast_S16384_S16384x1_0),
    TRef.unary main_call2.v8 main_call2.v9 Host.log,
    TRef.unary main_call2.v9 main_call2.v10 (broadcastInDim S16384x33 ![0, 1] bcast_S16384x1_S16384x33_0_1),
    TRef.binary main_call2.v5 main_call2.v10 main_call2.v11 subf,
    nullary main_c_1 (constantI S_ 32 1#32),
    unary main_c_1 main_v14 (broadcastInDim S16384 ![] bcast_S_S16384 : (⟨S_, .i32⟩ : BufTy).Contents (Elt F) → (⟨S16384, .i32⟩ : BufTy).Contents (Elt F)),
    binary main_v0 main_v14 main_v15 (addi : (⟨S16384, .i32⟩ : BufTy).Contents (Elt F) → (⟨S16384, .i32⟩ : BufTy).Contents (Elt F) → (⟨S16384, .i32⟩ : BufTy).Contents (Elt F)),
    unary main_v15 main_v16 (broadcastInDim S16384x1 ![0] bcast_S16384_S16384x1_0 : (⟨S16384, .i32⟩ : BufTy).Contents (Elt F) → (⟨S16384x1, .i32⟩ : BufTy).Contents (Elt F)),
    TRef.nullary main_call3.c (constantI S_ 32 0#32),
    TRef.unary main_call3.c main_call3.v0 (broadcastInDim S16384x1 ![] bcast_S_S16384x1),
    TRef.binary (.of main_v16 : TRef sig ⟨S16384x1, .i32⟩) main_call3.v0 main_call3.v1 (cmpi .slt),
    TRef.nullary main_call3.c_0 (constantI S_ 32 33#32),
    TRef.unary main_call3.c_0 main_call3.v2 (broadcastInDim S16384x1 ![] bcast_S_S16384x1),
    TRef.binary (.of main_v16 : TRef sig ⟨S16384x1, .i32⟩) main_call3.v2 main_call3.v3 addi,
    TRef.ternary main_call3.v1 main_call3.v3 (.of main_v16 : TRef sig ⟨S16384x1, .i32⟩) main_call3.v4 select,
    TRef.reshape main_call3.v4 main_call3.v5 rfl shapeCasts_S16384x1_S16384x1x1,
    TRef.nullary main_call3.c_1 (constantI S1 32 32#32),
    TRef.nullary main_call3.c_2 (constantI S_ 32 0#32),
    TRef.unary main_call3.c_2 main_call3.v6 (broadcastInDim S16384x1x1 ![] bcast_S_S16384x1x1),
    TRef.binary main_call3.v5 main_call3.v6 main_call3.v7 (cmpi .sge) ]

theorem ops2_sub : (ops2 : List (HloOp τ sig (Elt F))).Forall fun op => op.bufs ⊆ tcRefs τ sig :=
  ⟨binary_bufs_sub .., unary_bufs_sub .., unary_bufs_sub .., binary_bufs_sub ..,
    binary_bufs_sub .., unary_bufs_sub .., unary_bufs_sub .., binary_bufs_sub ..,
    unary_bufs_sub .., reshape_bufs_sub .., nullary_bufs_sub .., binary_bufs_sub ..,
    nullary_bufs_sub .., unary_bufs_sub .., binary_bufs_sub .., unary_bufs_sub ..,
    unary_bufs_sub .., binary_bufs_sub .., unary_bufs_sub .., nullary_bufs_sub ..,
    binary_bufs_sub .., unary_bufs_sub .., unary_bufs_sub .., unary_bufs_sub ..,
    binary_bufs_sub .., nullary_bufs_sub .., unary_bufs_sub .., binary_bufs_sub ..,
    unary_bufs_sub .., nullary_bufs_sub .., unary_bufs_sub .., binary_bufs_sub ..,
    nullary_bufs_sub .., unary_bufs_sub .., binary_bufs_sub .., ternary_bufs_sub ..,
    reshape_bufs_sub .., nullary_bufs_sub .., nullary_bufs_sub .., unary_bufs_sub ..,
    binary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl⟩

theorem ops2_staged : Staged (fun b : DevRef τ sig => b.idx.val) 47 (ops2 : List (HloOp τ sig (Elt F))) 88 :=
  ⟨binary_stageAt _ _ _ _ _ _ _ (by decide) (by decide) rfl, unary_stageAt _ _ _ _ _ (by decide) rfl,
    unary_stageAt _ _ _ _ _ (by decide) rfl, binary_stageAt _ _ _ _ _ _ _ (by decide) (by decide) rfl,
    binary_stageAt _ _ _ _ _ _ _ (by decide) (by decide) rfl, unary_stageAt _ _ _ _ _ (by decide) rfl,
    unary_stageAt _ _ _ _ _ (by decide) rfl, binary_stageAt _ _ _ _ _ _ _ (by decide) (by decide) rfl,
    unary_stageAt _ _ _ _ _ (by decide) rfl, reshape_stageAt _ _ _ _ _ _ (by decide) rfl,
    nullary_stageAt _ _ _ rfl, binary_stageAt _ _ _ _ _ _ _ (by decide) (by decide) rfl,
    nullary_stageAt _ _ _ rfl, unary_stageAt _ _ _ _ _ (by decide) rfl,
    binary_stageAt _ _ _ _ _ _ _ (by decide) (by decide) rfl, unary_stageAt _ _ _ _ _ (by decide) rfl,
    unary_stageAt _ _ _ _ _ (by decide) rfl, binary_stageAt _ _ _ _ _ _ _ (by decide) (by decide) rfl,
    unary_stageAt _ _ _ _ _ (by decide) rfl, nullary_stageAt _ _ _ rfl,
    binary_stageAt _ _ _ _ _ _ _ (by decide) (by decide) rfl, unary_stageAt _ _ _ _ _ (by decide) rfl,
    unary_stageAt _ _ _ _ _ (by decide) rfl, unary_stageAt _ _ _ _ _ (by decide) rfl,
    binary_stageAt _ _ _ _ _ _ _ (by decide) (by decide) rfl, nullary_stageAt _ _ _ rfl,
    unary_stageAt _ _ _ _ _ (by decide) rfl, binary_stageAt _ _ _ _ _ _ _ (by decide) (by decide) rfl,
    unary_stageAt _ _ _ _ _ (by decide) rfl, nullary_stageAt _ _ _ rfl,
    unary_stageAt _ _ _ _ _ (by decide) rfl, binary_stageAt _ _ _ _ _ _ _ (by decide) (by decide) rfl,
    nullary_stageAt _ _ _ rfl, unary_stageAt _ _ _ _ _ (by decide) rfl,
    binary_stageAt _ _ _ _ _ _ _ (by decide) (by decide) rfl, ternary_stageAt _ _ _ _ _ _ _ _ _ (by decide) (by decide) (by decide) rfl,
    reshape_stageAt _ _ _ _ _ _ (by decide) rfl, nullary_stageAt _ _ _ rfl,
    nullary_stageAt _ _ _ rfl, unary_stageAt _ _ _ _ _ (by decide) rfl,
    binary_stageAt _ _ _ _ _ _ _ (by decide) (by decide) rfl, rfl⟩

/-- Operations 82 to 122 of the line. -/
abbrev ops3 : List (HloOp τ sig (Elt F)) :=
  [ TRef.unary main_call3.c_1 main_call3.v8 (broadcastInDim S1x1x1 ![2] bcast_S1_S1x1x1_2),
    TRef.unary main_call3.v8 main_call3.v9 (broadcastInDim S16384x1x1 ![0, 1, 2] bcast_S1x1x1_S16384x1x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1x1_S16384x1_d2 h_S_),
    TRef.binary (.of main_v13 : TRef sig ⟨S16384x33, .f32⟩) main_call3.v5 main_call3.v13 (fun x i => Host.gather gather_S16384x33_S16384x1x1_S16384x1_n_1_0_0_1_2_11 x i),
    TRef.nullary main_call3.cst (constant S_ .f32 0x7FC00000#32),
    TRef.unary main_call3.cst main_call3.v14 (broadcastInDim S16384x1 ![] bcast_S_S16384x1),
    TRef.ternary main_call3.v12 main_call3.v13 main_call3.v14 main_call3.v15 select,
    nullary main_cst (constant S_ .f32 0x00000000#32),
    binary main_v17 main_cst main_v18 ((fun x v => Host.reduceAdd x v reducesTo_S16384x1_S_d0_1 h_S_) : (⟨S16384x1, .f32⟩ : BufTy).Contents (Elt F) → (⟨S_, .f32⟩ : BufTy).Contents (Elt F) → (⟨S_, .f32⟩ : BufTy).Contents (Elt F)),
    nullary main_cst_2 (constant S_ .f32 0x46800000#32),
    binary main_v18 main_cst_2 main_v19 (Host.divf : (⟨S_, .f32⟩ : BufTy).Contents (Elt F) → (⟨S_, .f32⟩ : BufTy).Contents (Elt F) → (⟨S_, .f32⟩ : BufTy).Contents (Elt F)),
    unary main_v19 main_v20 (Host.negf : (⟨S_, .f32⟩ : BufTy).Contents (Elt F) → (⟨S_, .f32⟩ : BufTy).Contents (Elt F)),
    unary main_v0 main_v21 (broadcastInDim S16384x1 ![0] bcast_S16384_S16384x1_0 : (⟨S16384, .i32⟩ : BufTy).Contents (Elt F) → (⟨S16384x1, .i32⟩ : BufTy).Contents (Elt F)),
    nullary main_v22 (iotaInDim S32 32 0),
    unary main_v22 main_v23 (broadcastInDim S1x32 ![1] bcast_S32_S1x32_1 : (⟨S32, .i32⟩ : BufTy).Contents (Elt F) → (⟨S1x32, .i32⟩ : BufTy).Contents (Elt F)),
    unary main_v21 main_v24 (broadcastInDim S16384x32 ![0, 1] bcast_S16384x1_S16384x32_0_1 : (⟨S16384x1, .i32⟩ : BufTy).Contents (Elt F) → (⟨S16384x32, .i32⟩ : BufTy).Contents (Elt F)),
    unary main_v23 main_v25 (broadcastInDim S16384x32 ![0, 1] bcast_S1x32_S16384x32_0_1 : (⟨S1x32, .i32⟩ : BufTy).Contents (Elt F) → (⟨S16384x32, .i32⟩ : BufTy).Contents (Elt F)),
    binary main_v24 main_v25 main_v26 (cmpi .eq : (⟨S16384x32, .i32⟩ : BufTy).Contents (Elt F) → (⟨S16384x32, .i32⟩ : BufTy).Contents (Elt F) → (⟨S16384x32, .i1⟩ : BufTy).Contents (Elt F)),
    nullary main_c_3 (constantI S_ 32 1#32),
    unary main_c_3 main_v27 (broadcastInDim S16384 ![] bcast_S_S16384 : (⟨S_, .i32⟩ : BufTy).Contents (Elt F) → (⟨S16384, .i32⟩ : BufTy).Contents (Elt F)),
    binary main_v1 main_v27 main_v28 (addi : (⟨S16384, .i32⟩ : BufTy).Contents (Elt F) → (⟨S16384, .i32⟩ : BufTy).Contents (Elt F) → (⟨S16384, .i32⟩ : BufTy).Contents (Elt F)),
    unary main_v28 main_v29 (broadcastInDim S16384x1 ![0] bcast_S16384_S16384x1_0 : (⟨S16384, .i32⟩ : BufTy).Contents (Elt F) → (⟨S16384x1, .i32⟩ : BufTy).Contents (Elt F)),
    nullary main_c_4 (constantI S_ 32 0#32),
    TRef.unary (.of main_c_4 : TRef sig ⟨S_, .i32⟩) main_call4.v0 id,
    TRef.unary (.of main_v29 : TRef sig ⟨S16384x1, .i32⟩) main_call4.v1 (broadcastInDim S16384x32 ![0, 1] bcast_S16384x1_S16384x32_0_1),
    TRef.unary main_call4.v0 main_call4.v2 (broadcastInDim S16384x32 ![] bcast_S_S16384x32),
    TRef.ternary (.of main_v26 : TRef sig ⟨S16384x32, .i1⟩) main_call4.v1 main_call4.v2 main_call4.v3 select,
    TRef.nullary main_call5.cst (constant S_ .f32 0xFF800000#32),
    TRef.binary (.of main_v10 : TRef sig ⟨S16384x32x33, .f32⟩) main_call5.cst main_call5.v0 (fun x v => Host.reduce FloatOps.maximumf x v reducesTo_S16384x32x33_S16384x32_d2 h_S_),
    TRef.nullary main_call5.cst_0 (constant S_ .f32 0xFF800000#32),
    TRef.unary main_call5.cst_0 main_call5.v1 (broadcastInDim S16384x32 ![] bcast_S_S16384x32),
    TRef.binary main_call5.v1 main_call5.v0 main_call5.v2 maximumf,
    TRef.unary main_call5.v2 main_call5.v3 (broadcastInDim S16384x32x1 ![0, 1] bcast_S16384x32_S16384x32x1_0_1),
    TRef.unary main_call5.v3 main_call5.v4 (broadcastInDim S16384x32x33 ![0, 1, 2] bcast_S16384x32x1_S16384x32x33_0_1_2),
    TRef.binary (.of main_v10 : TRef sig ⟨S16384x32x33, .f32⟩) main_call5.v4 main_call5.v5 subf,
    TRef.unary main_call5.v5 main_call5.v6 Host.exp,
    TRef.nullary main_call5.cst_1 (constant S_ .f32 0x00000000#32),
    TRef.binary main_call5.v6 main_call5.cst_1 main_call5.v7 (fun x v => Host.reduceAdd x v reducesTo_S16384x32x33_S16384x32_d2 h_S_) ]

theorem ops3_sub : (ops3 : List (HloOp τ sig (Elt F))).Forall fun op => op.bufs ⊆ tcRefs τ sig :=
  ⟨unary_bufs_sub .., unary_bufs_sub .., binary_bufs_sub .., binary_bufs_sub ..,
    nullary_bufs_sub .., binary_bufs_sub .., binary_bufs_sub .., nullary_bufs_sub ..,
    unary_bufs_sub .., ternary_bufs_sub .., nullary_bufs_sub .., binary_bufs_sub ..,
    nullary_bufs_sub .., binary_bufs_sub .., unary_bufs_sub .., unary_bufs_sub ..,
    nullary_bufs_sub .., unary_bufs_sub .., unary_bufs_sub .., unary_bufs_sub ..,
    binary_bufs_sub .., nullary_bufs_sub .., unary_bufs_sub .., binary_bufs_sub ..,
    unary_bufs_sub .., nullary_bufs_sub .., unary_bufs_sub .., unary_bufs_sub ..,
    unary_bufs_sub .., ternary_bufs_sub .., nullary_bufs_sub .., binary_bufs_sub ..,
    nullary_bufs_sub .., unary_bufs_sub .., binary_bufs_sub .., unary_bufs_sub ..,
    unary_bufs_sub .., binary_bufs_sub .., unary_bufs_sub .., nullary_bufs_sub ..,
    binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl⟩

theorem ops3_staged : Staged (fun b : DevRef τ sig => b.idx.val) 88 (ops3 : List (HloOp τ sig (Elt F))) 129 :=
  ⟨unary_stageAt _ _ _ _ _ (by decide) rfl, unary_stageAt _ _ _ _ _ (by decide) rfl,
    binary_stageAt _ _ _ _ _ _ _ (by decide) (by decide) rfl, binary_stageAt _ _ _ _ _ _ _ (by decide) (by decide) rfl,
    nullary_stageAt _ _ _ rfl, binary_stageAt _ _ _ _ _ _ _ (by decide) (by decide) rfl,
    binary_stageAt _ _ _ _ _ _ _ (by decide) (by decide) rfl, nullary_stageAt _ _ _ rfl,
    unary_stageAt _ _ _ _ _ (by decide) rfl, ternary_stageAt _ _ _ _ _ _ _ _ _ (by decide) (by decide) (by decide) rfl,
    nullary_stageAt _ _ _ rfl, binary_stageAt _ _ _ _ _ _ _ (by decide) (by decide) rfl,
    nullary_stageAt _ _ _ rfl, binary_stageAt _ _ _ _ _ _ _ (by decide) (by decide) rfl,
    unary_stageAt _ _ _ _ _ (by decide) rfl, unary_stageAt _ _ _ _ _ (by decide) rfl,
    nullary_stageAt _ _ _ rfl, unary_stageAt _ _ _ _ _ (by decide) rfl,
    unary_stageAt _ _ _ _ _ (by decide) rfl, unary_stageAt _ _ _ _ _ (by decide) rfl,
    binary_stageAt _ _ _ _ _ _ _ (by decide) (by decide) rfl, nullary_stageAt _ _ _ rfl,
    unary_stageAt _ _ _ _ _ (by decide) rfl, binary_stageAt _ _ _ _ _ _ _ (by decide) (by decide) rfl,
    unary_stageAt _ _ _ _ _ (by decide) rfl, nullary_stageAt _ _ _ rfl,
    unary_stageAt _ _ _ _ _ (by decide) rfl, unary_stageAt _ _ _ _ _ (by decide) rfl,
    unary_stageAt _ _ _ _ _ (by decide) rfl, ternary_stageAt _ _ _ _ _ _ _ _ _ (by decide) (by decide) (by decide) rfl,
    nullary_stageAt _ _ _ rfl, binary_stageAt _ _ _ _ _ _ _ (by decide) (by decide) rfl,
    nullary_stageAt _ _ _ rfl, unary_stageAt _ _ _ _ _ (by decide) rfl,
    binary_stageAt _ _ _ _ _ _ _ (by decide) (by decide) rfl, unary_stageAt _ _ _ _ _ (by decide) rfl,
    unary_stageAt _ _ _ _ _ (by decide) rfl, binary_stageAt _ _ _ _ _ _ _ (by decide) (by decide) rfl,
    unary_stageAt _ _ _ _ _ (by decide) rfl, nullary_stageAt _ _ _ rfl,
    binary_stageAt _ _ _ _ _ _ _ (by decide) (by decide) rfl, rfl⟩

/-- Operations 123 to 163 of the line. -/
abbrev ops4 : List (HloOp τ sig (Elt F)) :=
  [ TRef.unary main_call5.v7 main_call5.v8 (broadcastInDim S16384x32x1 ![0, 1] bcast_S16384x32_S16384x32x1_0_1),
    TRef.unary main_call5.v8 main_call5.v9 Host.log,
    TRef.unary main_call5.v9 main_call5.v10 (broadcastInDim S16384x32x33 ![0, 1, 2] bcast_S16384x32x1_S16384x32x33_0_1_2),
    TRef.binary main_call5.v5 main_call5.v10 main_call5.v11 subf,
    unary main_v30 main_v32 (broadcastInDim S16384x32x1 ![0, 1] bcast_S16384x32_S16384x32x1_0_1 : (⟨S16384x32, .i32⟩ : BufTy).Contents (Elt F) → (⟨S16384x32x1, .i32⟩ : BufTy).Contents (Elt F)),
    TRef.nullary main_call6.c (constantI S_ 32 0#32),
    TRef.unary main_call6.c main_call6.v0 (broadcastInDim S16384x32x1 ![] bcast_S_S16384x32x1),
    TRef.binary (.of main_v32 : TRef sig ⟨S16384x32x1, .i32⟩) main_call6.v0 main_call6.v1 (cmpi .slt),
    TRef.nullary main_call6.c_0 (constantI S_ 32 33#32),
    TRef.unary main_call6.c_0 main_call6.v2 (broadcastInDim S16384x32x1 ![] bcast_S_S16384x32x1),
    TRef.binary (.of main_v32 : TRef sig ⟨S16384x32x1, .i32⟩) main_call6.v2 main_call6.v3 addi,
    TRef.ternary main_call6.v1 main_call6.v3 (.of main_v32 : TRef sig ⟨S16384x32x1, .i32⟩) main_call6.v4 select,
    TRef.reshape main_call6.v4 main_call6.v5 rfl shapeCasts_S16384x32x1_S16384x32x1x1,
    TRef.nullary main_call6.c_1 (constantI S1 32 32#32),
    TRef.nullary main_call6.c_2 (constantI S_ 32 0#32),
    TRef.unary main_call6.c_2 main_call6.v6 (broadcastInDim S16384x32x1x1 ![] bcast_S_S16384x32x1x1),
    TRef.binary main_call6.v5 main_call6.v6 main_call6.v7 (cmpi .sge),
    TRef.unary main_call6.c_1 main_call6.v8 (broadcastInDim S1x1x1x1 ![3] bcast_S1_S1x1x1x1_3),
    TRef.unary main_call6.v8 main_call6.v9 (broadcastInDim S16384x32x1x1 ![0, 1, 2, 3] bcast_S1x1x1x1_S16384x32x1x1_0_1_2_3),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S16384x32x1x1_S16384x32x1_d3 h_S_),
    TRef.binary (.of main_v31 : TRef sig ⟨S16384x32x33, .f32⟩) main_call6.v5 main_call6.v13 (fun x i => Host.gather gather_S16384x32x33_S16384x32x1x1_S16384x32x1_n_2_01_01_2_3_111 x i),
    TRef.nullary main_call6.cst (constant S_ .f32 0x7FC00000#32),
    TRef.unary main_call6.cst main_call6.v14 (broadcastInDim S16384x32x1 ![] bcast_S_S16384x32x1),
    TRef.ternary main_call6.v12 main_call6.v13 main_call6.v14 main_call6.v15 select,
    unary main_v33 main_v34 (Host.negf : (⟨S16384x32x1, .f32⟩ : BufTy).Contents (Elt F) → (⟨S16384x32x1, .f32⟩ : BufTy).Contents (Elt F)),
    reshape main_v34 main_v35 rfl shapeCasts_S16384x32x1_S16384x32,
    nullary main_cst_5 (constant S_ .f32 0x00000000#32),
    binary main_v35 main_cst_5 main_v36 ((fun x v => Host.reduceAdd x v reducesTo_S16384x32_S32_d0 h_S_) : (⟨S16384x32, .f32⟩ : BufTy).Contents (Elt F) → (⟨S_, .f32⟩ : BufTy).Contents (Elt F) → (⟨S32, .f32⟩ : BufTy).Contents (Elt F)),
    nullary main_cst_6 (constant S_ .f32 0x46800000#32),
    unary main_cst_6 main_v37 (broadcastInDim S32 ![] bcast_S_S32 : (⟨S_, .f32⟩ : BufTy).Contents (Elt F) → (⟨S32, .f32⟩ : BufTy).Contents (Elt F)),
    binary main_v36 main_v37 main_v38 (Host.divf : (⟨S32, .f32⟩ : BufTy).Contents (Elt F) → (⟨S32, .f32⟩ : BufTy).Contents (Elt F) → (⟨S32, .f32⟩ : BufTy).Contents (Elt F)),
    nullary main_cst_7 (constant S_ .f32 0x00000000#32),
    binary main_v38 main_cst_7 main_v39 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_8 (constant S_ .f32 0x3F800000#32),
    binary main_v20 main_cst_8 main_v40 (Host.divf : (⟨S_, .f32⟩ : BufTy).Contents (Elt F) → (⟨S_, .f32⟩ : BufTy).Contents (Elt F) → (⟨S_, .f32⟩ : BufTy).Contents (Elt F)),
    nullary main_cst_9 (constant S_ .f32 0x40000000#32),
    binary main_v39 main_cst_9 main_v41 (Host.divf : (⟨S_, .f32⟩ : BufTy).Contents (Elt F) → (⟨S_, .f32⟩ : BufTy).Contents (Elt F) → (⟨S_, .f32⟩ : BufTy).Contents (Elt F)),
    binary main_v40 main_v41 main_v42 (addf : (⟨S_, .f32⟩ : BufTy).Contents (Elt F) → (⟨S_, .f32⟩ : BufTy).Contents (Elt F) → (⟨S_, .f32⟩ : BufTy).Contents (Elt F)) ]

theorem ops4_sub : (ops4 : List (HloOp τ sig (Elt F))).Forall fun op => op.bufs ⊆ tcRefs τ sig :=
  ⟨unary_bufs_sub .., unary_bufs_sub .., unary_bufs_sub .., binary_bufs_sub ..,
    unary_bufs_sub .., nullary_bufs_sub .., unary_bufs_sub .., binary_bufs_sub ..,
    nullary_bufs_sub .., unary_bufs_sub .., binary_bufs_sub .., ternary_bufs_sub ..,
    reshape_bufs_sub .., nullary_bufs_sub .., nullary_bufs_sub .., unary_bufs_sub ..,
    binary_bufs_sub .., unary_bufs_sub .., unary_bufs_sub .., binary_bufs_sub ..,
    binary_bufs_sub .., nullary_bufs_sub .., binary_bufs_sub .., binary_bufs_sub ..,
    nullary_bufs_sub .., unary_bufs_sub .., ternary_bufs_sub .., unary_bufs_sub ..,
    reshape_bufs_sub .., nullary_bufs_sub .., binary_bufs_sub .., nullary_bufs_sub ..,
    unary_bufs_sub .., binary_bufs_sub .., nullary_bufs_sub .., binary_bufs_sub ..,
    nullary_bufs_sub .., binary_bufs_sub .., nullary_bufs_sub .., binary_bufs_sub ..,
    binary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl⟩

theorem ops4_staged : Staged (fun b : DevRef τ sig => b.idx.val) 129 (ops4 : List (HloOp τ sig (Elt F))) 170 :=
  ⟨unary_stageAt _ _ _ _ _ (by decide) rfl, unary_stageAt _ _ _ _ _ (by decide) rfl,
    unary_stageAt _ _ _ _ _ (by decide) rfl, binary_stageAt _ _ _ _ _ _ _ (by decide) (by decide) rfl,
    unary_stageAt _ _ _ _ _ (by decide) rfl, nullary_stageAt _ _ _ rfl,
    unary_stageAt _ _ _ _ _ (by decide) rfl, binary_stageAt _ _ _ _ _ _ _ (by decide) (by decide) rfl,
    nullary_stageAt _ _ _ rfl, unary_stageAt _ _ _ _ _ (by decide) rfl,
    binary_stageAt _ _ _ _ _ _ _ (by decide) (by decide) rfl, ternary_stageAt _ _ _ _ _ _ _ _ _ (by decide) (by decide) (by decide) rfl,
    reshape_stageAt _ _ _ _ _ _ (by decide) rfl, nullary_stageAt _ _ _ rfl,
    nullary_stageAt _ _ _ rfl, unary_stageAt _ _ _ _ _ (by decide) rfl,
    binary_stageAt _ _ _ _ _ _ _ (by decide) (by decide) rfl, unary_stageAt _ _ _ _ _ (by decide) rfl,
    unary_stageAt _ _ _ _ _ (by decide) rfl, binary_stageAt _ _ _ _ _ _ _ (by decide) (by decide) rfl,
    binary_stageAt _ _ _ _ _ _ _ (by decide) (by decide) rfl, nullary_stageAt _ _ _ rfl,
    binary_stageAt _ _ _ _ _ _ _ (by decide) (by decide) rfl, binary_stageAt _ _ _ _ _ _ _ (by decide) (by decide) rfl,
    nullary_stageAt _ _ _ rfl, unary_stageAt _ _ _ _ _ (by decide) rfl,
    ternary_stageAt _ _ _ _ _ _ _ _ _ (by decide) (by decide) (by decide) rfl, unary_stageAt _ _ _ _ _ (by decide) rfl,
    reshape_stageAt _ _ _ _ _ _ (by decide) rfl, nullary_stageAt _ _ _ rfl,
    binary_stageAt _ _ _ _ _ _ _ (by decide) (by decide) rfl, nullary_stageAt _ _ _ rfl,
    unary_stageAt _ _ _ _ _ (by decide) rfl, binary_stageAt _ _ _ _ _ _ _ (by decide) (by decide) rfl,
    nullary_stageAt _ _ _ rfl, binary_stageAt _ _ _ _ _ _ _ (by decide) (by decide) rfl,
    nullary_stageAt _ _ _ rfl, binary_stageAt _ _ _ _ _ _ _ (by decide) (by decide) rfl,
    nullary_stageAt _ _ _ rfl, binary_stageAt _ _ _ _ _ _ _ (by decide) (by decide) rfl,
    binary_stageAt _ _ _ _ _ _ _ (by decide) (by decide) rfl, rfl⟩

end Cert.ReferenceIdeal.RefRun

end
-- ==== Proof.RefRunBase.lean ====
/-
  The run of the reference program, read as one straight line of host operations.

  The reference is a host program with no kernel: its @main is a sequence of operations, seven of them calls of
  module-local functions (two of which call a function themselves). A call executes the callee's body on the
  caller's operands, so with every call unfolded the program is ONE straight line of 164 operations, each writing
  a buffer of its own. Three things are shown here.

  * The program IS that line: unfolding the functions at their calls and re-associating the sequencing leaves,
    on both sides, the same chain of steps.
  * Hence every weakly fair execution terminates with each buffer at the fold of the line's operations over the
    launch contents.
  * The line is in single-assignment form along the buffers' indices: operation k writes buffer 6 + k and reads
    only buffers of smaller index. So in the contents the line ends at, EVERY operation's equation holds at once
    (the written buffer holds the operation's function of the final contents of the buffers it reads), and the
    six argument buffers, which nothing writes, hold what they held at launch.
-/
import proofs.«419181_j50646254354828_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line and its three facts -/

/-- The whole line: the four stretches, in order. -/
abbrev ops : List (HloOp τ sig (Elt F)) := ops1 ++ (ops2 ++ (ops3 ++ ops4))

/-- The rank of a buffer: its index in its table. Every tensor value of this program is in the one table. -/
abbrev rk : DevRef τ sig → ℕ := fun b => b.idx.val

/-- Every buffer an operation of the line touches is one of the TensorCore's references. -/
theorem ops_sub : (ops : List (HloOp τ sig (Elt F))).Forall fun op => op.bufs ⊆ tcRefs τ sig :=
  List.forall_append.2 ⟨ops1_sub, List.forall_append.2 ⟨ops2_sub, List.forall_append.2 ⟨ops3_sub, ops4_sub⟩⟩⟩

/-- No operation of the line leaves a buffer undetermined. -/
theorem ops_fresh : ∀ op ∈ (ops : List (HloOp τ sig (Elt F))), op.fresh = ∅ :=
  List.forall_iff_forall_mem.1
    (List.forall_append.2 ⟨ops1_fresh, List.forall_append.2 ⟨ops2_fresh, List.forall_append.2 ⟨ops3_fresh, ops4_fresh⟩⟩⟩)

/-- The line is staged along the buffers' indices, from the first buffer after the six arguments to the last:
    each stretch begins at the rank the one before it ends at. -/
theorem ops_staged : Staged rk 6 (ops : List (HloOp τ sig (Elt F))) 170 :=
  ops1_staged.append (ops2_staged.append (ops3_staged.append ops4_staged))

/-! ## The program is the line -/

/-- The signature scopes no buffer and no semaphore: there is no kernel. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 2000000 in
/-- @main is the line. Each function's definition is unfolded at its call (a nested call inside it likewise) and
    the call's record at its fields; a callee's body ends in a return, which sequencing absorbs, and sequencing is
    associative: both sides become the same right-nested chain of steps. -/
theorem main_eq (c : Dev nD) : main (F := F) c = seq (ops (F := F)) := by
  simp only [main, fn_floor_divide.body, fn_where.body, fn_remainder.body, fn_where_0.body, fn_log_softmax.body,
    fn_take_along_axis.body, fn_where_1.body, fn_log_softmax_2.body, fn_take_along_axis_3.body,
    List.cons_append, List.nil_append, seq, bind_assoc, pure_bind]

/-- For any float values, from any memory with zero counters: every weakly fair execution of @main terminates, and
    every final state has each TensorCore buffer at the fold of the line's operations over the launch contents. -/
theorem run_raw (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## Every operation's equation, between the final contents -/

/-- The contents of a buffer when the whole line has run from the contents `V`. -/
def Vf (V : Valuation τ sig (Elt F)) (r : Ref sig .tc) : r.ty.Contents (Elt F) := after ops V (Proc.devRef .tc r)

/-- Operation `i` of the line, at the end of the line: each buffer it writes holds its value at the FINAL
    contents. No later operation rewrites what it wrote (later ranks are larger) nor what it read (smaller ranks
    are written earlier, or never). -/
theorem stage (V : Valuation τ sig (Elt F)) {op : HloOp τ sig (Elt F)} (i : ℕ) (h : (ops (F := F))[i]? = some op) :
    ∀ b ∈ op.writes, after ops V b = op.result (after ops V) b :=
  ops_staged.after_eq V op (List.mem_of_getElem? h)

/-- A buffer ranked below the first stage — an argument — holds at the end what it held at the start. -/
theorem arg_eq (V : Valuation τ sig (Elt F)) (r : Ref sig .tc) (h : rk (Proc.devRef (τ := τ) .tc r) < 6) :
    Vf V r = V (Proc.devRef .tc r) :=
  ops_staged.after_of_lt V h

/-- The equation of operation `k`, which writes one buffer: the stage equation at the written buffer, then the
    result lemma `lem` of the operation's kind. An operation of an unfolded call carries its function between the
    callee's declared tensor types and the buffers' own; at a literal buffer the two types are one and the
    transport between them is the identity, which is rewritten away before the two sides are compared. -/
macro "stage_row " k:num ", " lem:ident : tactic =>
  `(tactic| (refine (stage _ $k rfl _ (Finset.mem_singleton_self _)).trans (($lem ..).trans ?_)
             (try simp only [TRef.toBuf, TRef.ofBuf, cast_eq])
             (try rfl)))

end Cert.ReferenceIdeal.RefRun

end
-- ==== Proof.RefOpsEqs1.lean ====
/-
  One equation per operation of the reference program's straight line, operations 0 to 81, between the contents
  Vf V of the buffers when the whole line has run from the contents V: the buffer the operation writes holds the
  operation's function of the contents of the buffers it reads. Each is the stage equation of the operation at
  its place in the line, read through the result lemma of its kind; and the six argument buffers, which no operation writes, hold at the end what V holds.
-/
import proofs.«419181_j50646254354828_1_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem st_main_arg0 (V : Valuation τ sig (Elt F)) : Vf V main_arg0 = V (Proc.devRef .tc main_arg0) := arg_eq V _ (by decide)
theorem st_main_arg1 (V : Valuation τ sig (Elt F)) : Vf V main_arg1 = V (Proc.devRef .tc main_arg1) := arg_eq V _ (by decide)
theorem st_main_arg2 (V : Valuation τ sig (Elt F)) : Vf V main_arg2 = V (Proc.devRef .tc main_arg2) := arg_eq V _ (by decide)
theorem st_main_arg3 (V : Valuation τ sig (Elt F)) : Vf V main_arg3 = V (Proc.devRef .tc main_arg3) := arg_eq V _ (by decide)
theorem st_main_arg4 (V : Valuation τ sig (Elt F)) : Vf V main_arg4 = V (Proc.devRef .tc main_arg4) := arg_eq V _ (by decide)
theorem st_main_arg5 (V : Valuation τ sig (Elt F)) : Vf V main_arg5 = V (Proc.devRef .tc main_arg5) := arg_eq V _ (by decide)

theorem st_main_c (V : Valuation τ sig (Elt F)) :
    Vf V main_c = (constantI S_ 32 32#32) := by
  stage_row 0, nullary_result

theorem st_main_call0_v0 (V : Valuation τ sig (Elt F)) :
    Vf V main_call0_v0 = (id : (⟨S_, .i32⟩ : BufTy).Contents (Elt F) → (⟨S_, .i32⟩ : BufTy).Contents (Elt F)) (Vf V main_c) := by
  stage_row 1, unary_result

theorem st_main_call0_v1 (V : Valuation τ sig (Elt F)) :
    Vf V main_call0_v1 = ((broadcastInDim S16384 ![] bcast_S_S16384) : (⟨S_, .i32⟩ : BufTy).Contents (Elt F) → (⟨S16384, .i32⟩ : BufTy).Contents (Elt F)) (Vf V main_call0_v0) := by
  stage_row 2, unary_result

theorem st_main_call0_v2 (V : Valuation τ sig (Elt F)) :
    Vf V main_call0_v2 = (Host.divsi : (⟨S16384, .i32⟩ : BufTy).Contents (Elt F) → (⟨S16384, .i32⟩ : BufTy).Contents (Elt F) → (⟨S16384, .i32⟩ : BufTy).Contents (Elt F)) (Vf V main_arg1) (Vf V main_call0_v1) := by
  stage_row 3, binary_result

theorem st_main_call0_v3 (V : Valuation τ sig (Elt F)) :
    Vf V main_call0_v3 = (signi : (⟨S16384, .i32⟩ : BufTy).Contents (Elt F) → (⟨S16384, .i32⟩ : BufTy).Contents (Elt F)) (Vf V main_arg1) := by
  stage_row 4, unary_result

theorem st_main_call0_v4 (V : Valuation τ sig (Elt F)) :
    Vf V main_call0_v4 = (signi : (⟨S_, .i32⟩ : BufTy).Contents (Elt F) → (⟨S_, .i32⟩ : BufTy).Contents (Elt F)) (Vf V main_call0_v0) := by
  stage_row 5, unary_result

theorem st_main_call0_v5 (V : Valuation τ sig (Elt F)) :
    Vf V main_call0_v5 = ((broadcastInDim S16384 ![] bcast_S_S16384) : (⟨S_, .i32⟩ : BufTy).Contents (Elt F) → (⟨S16384, .i32⟩ : BufTy).Contents (Elt F)) (Vf V main_call0_v4) := by
  stage_row 6, unary_result

theorem st_main_call0_v6 (V : Valuation τ sig (Elt F)) :
    Vf V main_call0_v6 = ((cmpi .ne) : (⟨S16384, .i32⟩ : BufTy).Contents (Elt F) → (⟨S16384, .i32⟩ : BufTy).Contents (Elt F) → (⟨S16384, .i1⟩ : BufTy).Contents (Elt F)) (Vf V main_call0_v3) (Vf V main_call0_v5) := by
  stage_row 7, binary_result

theorem st_main_call0_v7 (V : Valuation τ sig (Elt F)) :
    Vf V main_call0_v7 = ((broadcastInDim S16384 ![] bcast_S_S16384) : (⟨S_, .i32⟩ : BufTy).Contents (Elt F) → (⟨S16384, .i32⟩ : BufTy).Contents (Elt F)) (Vf V main_call0_v0) := by
  stage_row 8, unary_result

theorem st_main_call0_v8 (V : Valuation τ sig (Elt F)) :
    Vf V main_call0_v8 = (Host.remsi : (⟨S16384, .i32⟩ : BufTy).Contents (Elt F) → (⟨S16384, .i32⟩ : BufTy).Contents (Elt F) → (⟨S16384, .i32⟩ : BufTy).Contents (Elt F)) (Vf V main_arg1) (Vf V main_call0_v7) := by
  stage_row 9, binary_result

theorem st_main_call0_c (V : Valuation τ sig (Elt F)) :
    Vf V main_call0_c = (constantI S_ 32 0#32) := by
  stage_row 10, nullary_result

theorem st_main_call0_v9 (V : Valuation τ sig (Elt F)) :
    Vf V main_call0_v9 = ((broadcastInDim S16384 ![] bcast_S_S16384) : (⟨S_, .i32⟩ : BufTy).Contents (Elt F) → (⟨S16384, .i32⟩ : BufTy).Contents (Elt F)) (Vf V main_call0_c) := by
  stage_row 11, unary_result

theorem st_main_call0_v10 (V : Valuation τ sig (Elt F)) :
    Vf V main_call0_v10 = ((cmpi .ne) : (⟨S16384, .i32⟩ : BufTy).Contents (Elt F) → (⟨S16384, .i32⟩ : BufTy).Contents (Elt F) → (⟨S16384, .i1⟩ : BufTy).Contents (Elt F)) (Vf V main_call0_v8) (Vf V main_call0_v9) := by
  stage_row 12, binary_result

theorem st_main_call0_v11 (V : Valuation τ sig (Elt F)) :
    Vf V main_call0_v11 = (andi : (⟨S16384, .i1⟩ : BufTy).Contents (Elt F) → (⟨S16384, .i1⟩ : BufTy).Contents (Elt F) → (⟨S16384, .i1⟩ : BufTy).Contents (Elt F)) (Vf V main_call0_v6) (Vf V main_call0_v10) := by
  stage_row 13, binary_result

theorem st_main_call0_c_0 (V : Valuation τ sig (Elt F)) :
    Vf V main_call0_c_0 = (constantI S_ 32 1#32) := by
  stage_row 14, nullary_result

theorem st_main_call0_v12 (V : Valuation τ sig (Elt F)) :
    Vf V main_call0_v12 = ((broadcastInDim S16384 ![] bcast_S_S16384) : (⟨S_, .i32⟩ : BufTy).Contents (Elt F) → (⟨S16384, .i32⟩ : BufTy).Contents (Elt F)) (Vf V main_call0_c_0) := by
  stage_row 15, unary_result

theorem st_main_call0_v13 (V : Valuation τ sig (Elt F)) :
    Vf V main_call0_v13 = (subi : (⟨S16384, .i32⟩ : BufTy).Contents (Elt F) → (⟨S16384, .i32⟩ : BufTy).Contents (Elt F) → (⟨S16384, .i32⟩ : BufTy).Contents (Elt F)) (Vf V main_call0_v2) (Vf V main_call0_v12) := by
  stage_row 16, binary_result

theorem st_main_v0 (V : Valuation τ sig (Elt F)) :
    Vf V main_v0 = (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (Vf V main_call0_v11) (Vf V main_call0_v13) (Vf V main_call0_v2) := by
  stage_row 17, ternary_result

theorem st_main_c_0 (V : Valuation τ sig (Elt F)) :
    Vf V main_c_0 = (constantI S_ 32 32#32) := by
  stage_row 18, nullary_result

theorem st_main_call1_v0 (V : Valuation τ sig (Elt F)) :
    Vf V main_call1_v0 = (id : (⟨S_, .i32⟩ : BufTy).Contents (Elt F) → (⟨S_, .i32⟩ : BufTy).Contents (Elt F)) (Vf V main_c_0) := by
  stage_row 19, unary_result

theorem st_main_call1_c (V : Valuation τ sig (Elt F)) :
    Vf V main_call1_c = (constantI S_ 32 0#32) := by
  stage_row 20, nullary_result

theorem st_main_call1_v1 (V : Valuation τ sig (Elt F)) :
    Vf V main_call1_v1 = ((cmpi .eq) : (⟨S_, .i32⟩ : BufTy).Contents (Elt F) → (⟨S_, .i32⟩ : BufTy).Contents (Elt F) → (⟨S_, .i1⟩ : BufTy).Contents (Elt F)) (Vf V main_call1_v0) (Vf V main_call1_c) := by
  stage_row 21, binary_result

theorem st_main_call1_c_0 (V : Valuation τ sig (Elt F)) :
    Vf V main_call1_c_0 = (constantI S_ 32 1#32) := by
  stage_row 22, nullary_result

theorem st_main_call1_v2 (V : Valuation τ sig (Elt F)) :
    Vf V main_call1_v2 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (Vf V main_call1_v1) (Vf V main_call1_c_0) (Vf V main_call1_v0) := by
  stage_row 23, ternary_result

theorem st_main_call1_v3 (V : Valuation τ sig (Elt F)) :
    Vf V main_call1_v3 = ((broadcastInDim S16384 ![] bcast_S_S16384) : (⟨S_, .i32⟩ : BufTy).Contents (Elt F) → (⟨S16384, .i32⟩ : BufTy).Contents (Elt F)) (Vf V main_call1_v2) := by
  stage_row 24, unary_result

theorem st_main_call1_v4 (V : Valuation τ sig (Elt F)) :
    Vf V main_call1_v4 = (Host.remsi : (⟨S16384, .i32⟩ : BufTy).Contents (Elt F) → (⟨S16384, .i32⟩ : BufTy).Contents (Elt F) → (⟨S16384, .i32⟩ : BufTy).Contents (Elt F)) (Vf V main_arg1) (Vf V main_call1_v3) := by
  stage_row 25, binary_result

theorem st_main_call1_c_1 (V : Valuation τ sig (Elt F)) :
    Vf V main_call1_c_1 = (constantI S_ 32 0#32) := by
  stage_row 26, nullary_result

theorem st_main_call1_v5 (V : Valuation τ sig (Elt F)) :
    Vf V main_call1_v5 = ((broadcastInDim S16384 ![] bcast_S_S16384) : (⟨S_, .i32⟩ : BufTy).Contents (Elt F) → (⟨S16384, .i32⟩ : BufTy).Contents (Elt F)) (Vf V main_call1_c_1) := by
  stage_row 27, unary_result

theorem st_main_call1_v6 (V : Valuation τ sig (Elt F)) :
    Vf V main_call1_v6 = ((cmpi .ne) : (⟨S16384, .i32⟩ : BufTy).Contents (Elt F) → (⟨S16384, .i32⟩ : BufTy).Contents (Elt F) → (⟨S16384, .i1⟩ : BufTy).Contents (Elt F)) (Vf V main_call1_v4) (Vf V main_call1_v5) := by
  stage_row 28, binary_result

theorem st_main_call1_c_2 (V : Valuation τ sig (Elt F)) :
    Vf V main_call1_c_2 = (constantI S_ 32 0#32) := by
  stage_row 29, nullary_result

theorem st_main_call1_v7 (V : Valuation τ sig (Elt F)) :
    Vf V main_call1_v7 = ((broadcastInDim S16384 ![] bcast_S_S16384) : (⟨S_, .i32⟩ : BufTy).Contents (Elt F) → (⟨S16384, .i32⟩ : BufTy).Contents (Elt F)) (Vf V main_call1_c_2) := by
  stage_row 30, unary_result

theorem st_main_call1_v8 (V : Valuation τ sig (Elt F)) :
    Vf V main_call1_v8 = ((cmpi .slt) : (⟨S16384, .i32⟩ : BufTy).Contents (Elt F) → (⟨S16384, .i32⟩ : BufTy).Contents (Elt F) → (⟨S16384, .i1⟩ : BufTy).Contents (Elt F)) (Vf V main_call1_v4) (Vf V main_call1_v7) := by
  stage_row 31, binary_result

theorem st_main_call1_c_3 (V : Valuation τ sig (Elt F)) :
    Vf V main_call1_c_3 = (constantI S_ 32 0#32) := by
  stage_row 32, nullary_result

theorem st_main_call1_v9 (V : Valuation τ sig (Elt F)) :
    Vf V main_call1_v9 = ((cmpi .slt) : (⟨S_, .i32⟩ : BufTy).Contents (Elt F) → (⟨S_, .i32⟩ : BufTy).Contents (Elt F) → (⟨S_, .i1⟩ : BufTy).Contents (Elt F)) (Vf V main_call1_v2) (Vf V main_call1_c_3) := by
  stage_row 33, binary_result

theorem st_main_call1_v10 (V : Valuation τ sig (Elt F)) :
    Vf V main_call1_v10 = ((broadcastInDim S16384 ![] bcast_S_S16384) : (⟨S_, .i1⟩ : BufTy).Contents (Elt F) → (⟨S16384, .i1⟩ : BufTy).Contents (Elt F)) (Vf V main_call1_v9) := by
  stage_row 34, unary_result

theorem st_main_call1_v11 (V : Valuation τ sig (Elt F)) :
    Vf V main_call1_v11 = ((cmpi .ne) : (⟨S16384, .i1⟩ : BufTy).Contents (Elt F) → (⟨S16384, .i1⟩ : BufTy).Contents (Elt F) → (⟨S16384, .i1⟩ : BufTy).Contents (Elt F)) (Vf V main_call1_v8) (Vf V main_call1_v10) := by
  stage_row 35, binary_result

theorem st_main_call1_v12 (V : Valuation τ sig (Elt F)) :
    Vf V main_call1_v12 = (andi : (⟨S16384, .i1⟩ : BufTy).Contents (Elt F) → (⟨S16384, .i1⟩ : BufTy).Contents (Elt F) → (⟨S16384, .i1⟩ : BufTy).Contents (Elt F)) (Vf V main_call1_v11) (Vf V main_call1_v6) := by
  stage_row 36, binary_result

theorem st_main_call1_v13 (V : Valuation τ sig (Elt F)) :
    Vf V main_call1_v13 = ((broadcastInDim S16384 ![] bcast_S_S16384) : (⟨S_, .i32⟩ : BufTy).Contents (Elt F) → (⟨S16384, .i32⟩ : BufTy).Contents (Elt F)) (Vf V main_call1_v2) := by
  stage_row 37, unary_result

theorem st_main_call1_v14 (V : Valuation τ sig (Elt F)) :
    Vf V main_call1_v14 = (addi : (⟨S16384, .i32⟩ : BufTy).Contents (Elt F) → (⟨S16384, .i32⟩ : BufTy).Contents (Elt F) → (⟨S16384, .i32⟩ : BufTy).Contents (Elt F)) (Vf V main_call1_v4) (Vf V main_call1_v13) := by
  stage_row 38, binary_result

theorem st_main_v1 (V : Valuation τ sig (Elt F)) :
    Vf V main_v1 = (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (Vf V main_call1_v12) (Vf V main_call1_v14) (Vf V main_call1_v4) := by
  stage_row 39, ternary_result

theorem st_main_v2 (V : Valuation τ sig (Elt F)) :
    Vf V main_v2 = ((transpose S2048x33 [1, 0] · transposes_S33x2048_S2048x33_1_0) : (⟨S33x2048, .f32⟩ : BufTy).Contents (Elt F) → (⟨S2048x33, .f32⟩ : BufTy).Contents (Elt F)) (Vf V main_arg2) := by
  stage_row 40, unary_result

theorem st_main_v3 (V : Valuation τ sig (Elt F)) :
    Vf V main_v3 = ((fun l r => Host.dotGeneral dot_S16384x2048_S2048x33_S16384x33_1_0_0_1_n_n none l r) : (⟨S16384x2048, .f32⟩ : BufTy).Contents (Elt F) → (⟨S2048x33, .f32⟩ : BufTy).Contents (Elt F) → (⟨S16384x33, .f32⟩ : BufTy).Contents (Elt F)) (Vf V main_arg0) (Vf V main_v2) := by
  stage_row 41, binary_result

theorem st_main_v4 (V : Valuation τ sig (Elt F)) :
    Vf V main_v4 = (broadcastInDim S1x33 ![1] bcast_S33_S1x33_1 : (⟨S33, .f32⟩ : BufTy).Contents (Elt F) → (⟨S1x33, .f32⟩ : BufTy).Contents (Elt F)) (Vf V main_arg3) := by
  stage_row 42, unary_result

theorem st_main_v5 (V : Valuation τ sig (Elt F)) :
    Vf V main_v5 = (broadcastInDim S16384x33 ![0, 1] bcast_S1x33_S16384x33_0_1 : (⟨S1x33, .f32⟩ : BufTy).Contents (Elt F) → (⟨S16384x33, .f32⟩ : BufTy).Contents (Elt F)) (Vf V main_v4) := by
  stage_row 43, unary_result

theorem st_main_v6 (V : Valuation τ sig (Elt F)) :
    Vf V main_v6 = (addf : (⟨S16384x33, .f32⟩ : BufTy).Contents (Elt F) → (⟨S16384x33, .f32⟩ : BufTy).Contents (Elt F) → (⟨S16384x33, .f32⟩ : BufTy).Contents (Elt F)) (Vf V main_v3) (Vf V main_v5) := by
  stage_row 44, binary_result

theorem st_main_v7 (V : Valuation τ sig (Elt F)) :
    Vf V main_v7 = ((fun l r => Host.dotGeneral dot_S16384x2048_S32x33x2048_S16384x32x33_1_2_0_01_n_n none l r) : (⟨S16384x2048, .f32⟩ : BufTy).Contents (Elt F) → (⟨S32x33x2048, .f32⟩ : BufTy).Contents (Elt F) → (⟨S16384x32x33, .f32⟩ : BufTy).Contents (Elt F)) (Vf V main_arg0) (Vf V main_arg4) := by
  stage_row 45, binary_result

theorem st_main_v8 (V : Valuation τ sig (Elt F)) :
    Vf V main_v8 = (broadcastInDim S1x32x33 ![1, 2] bcast_S32x33_S1x32x33_1_2 : (⟨S32x33, .f32⟩ : BufTy).Contents (Elt F) → (⟨S1x32x33, .f32⟩ : BufTy).Contents (Elt F)) (Vf V main_arg5) := by
  stage_row 46, unary_result

theorem st_main_v9 (V : Valuation τ sig (Elt F)) :
    Vf V main_v9 = (broadcastInDim S16384x32x33 ![0, 1, 2] bcast_S1x32x33_S16384x32x33_0_1_2 : (⟨S1x32x33, .f32⟩ : BufTy).Contents (Elt F) → (⟨S16384x32x33, .f32⟩ : BufTy).Contents (Elt F)) (Vf V main_v8) := by
  stage_row 47, unary_result

theorem st_main_v10 (V : Valuation τ sig (Elt F)) :
    Vf V main_v10 = (addf : (⟨S16384x32x33, .f32⟩ : BufTy).Contents (Elt F) → (⟨S16384x32x33, .f32⟩ : BufTy).Contents (Elt F) → (⟨S16384x32x33, .f32⟩ : BufTy).Contents (Elt F)) (Vf V main_v7) (Vf V main_v9) := by
  stage_row 48, binary_result

theorem st_main_v11 (V : Valuation τ sig (Elt F)) :
    Vf V main_v11 = ((extractStridedSlice S16384x32x32 ![0, 0, 1] · slices_S16384x32x33_S16384x32x32_0_0_1) : (⟨S16384x32x33, .f32⟩ : BufTy).Contents (Elt F) → (⟨S16384x32x32, .f32⟩ : BufTy).Contents (Elt F)) (Vf V main_v10) := by
  stage_row 49, unary_result

theorem st_main_v12 (V : Valuation τ sig (Elt F)) :
    Vf V main_v12 = shapeCast S16384x1024 (Vf V main_v11) shapeCasts_S16384x32x32_S16384x1024 := by
  stage_row 50, reshape_result

theorem st_main_call2_cst (V : Valuation τ sig (Elt F)) :
    Vf V main_call2_cst = (constant S_ .f32 0xFF800000#32) := by
  stage_row 51, nullary_result

theorem st_main_call2_v0 (V : Valuation τ sig (Elt F)) :
    Vf V main_call2_v0 = ((fun x v => Host.reduce FloatOps.maximumf x v reducesTo_S16384x33_S16384_d1 h_S_) : (⟨S16384x33, .f32⟩ : BufTy).Contents (Elt F) → (⟨S_, .f32⟩ : BufTy).Contents (Elt F) → (⟨S16384, .f32⟩ : BufTy).Contents (Elt F)) (Vf V main_v6) (Vf V main_call2_cst) := by
  stage_row 52, binary_result

theorem st_main_call2_cst_0 (V : Valuation τ sig (Elt F)) :
    Vf V main_call2_cst_0 = (constant S_ .f32 0xFF800000#32) := by
  stage_row 53, nullary_result

theorem st_main_call2_v1 (V : Valuation τ sig (Elt F)) :
    Vf V main_call2_v1 = ((broadcastInDim S16384 ![] bcast_S_S16384) : (⟨S_, .f32⟩ : BufTy).Contents (Elt F) → (⟨S16384, .f32⟩ : BufTy).Contents (Elt F)) (Vf V main_call2_cst_0) := by
  stage_row 54, unary_result

theorem st_main_call2_v2 (V : Valuation τ sig (Elt F)) :
    Vf V main_call2_v2 = (maximumf : (⟨S16384, .f32⟩ : BufTy).Contents (Elt F) → (⟨S16384, .f32⟩ : BufTy).Contents (Elt F) → (⟨S16384, .f32⟩ : BufTy).Contents (Elt F)) (Vf V main_call2_v1) (Vf V main_call2_v0) := by
  stage_row 55, binary_result

theorem st_main_call2_v3 (V : Valuation τ sig (Elt F)) :
    Vf V main_call2_v3 = ((broadcastInDim S16384x1 ![0] bcast_S16384_S16384x1_0) : (⟨S16384, .f32⟩ : BufTy).Contents (Elt F) → (⟨S16384x1, .f32⟩ : BufTy).Contents (Elt F)) (Vf V main_call2_v2) := by
  stage_row 56, unary_result

theorem st_main_call2_v4 (V : Valuation τ sig (Elt F)) :
    Vf V main_call2_v4 = ((broadcastInDim S16384x33 ![0, 1] bcast_S16384x1_S16384x33_0_1) : (⟨S16384x1, .f32⟩ : BufTy).Contents (Elt F) → (⟨S16384x33, .f32⟩ : BufTy).Contents (Elt F)) (Vf V main_call2_v3) := by
  stage_row 57, unary_result

theorem st_main_call2_v5 (V : Valuation τ sig (Elt F)) :
    Vf V main_call2_v5 = (subf : (⟨S16384x33, .f32⟩ : BufTy).Contents (Elt F) → (⟨S16384x33, .f32⟩ : BufTy).Contents (Elt F) → (⟨S16384x33, .f32⟩ : BufTy).Contents (Elt F)) (Vf V main_v6) (Vf V main_call2_v4) := by
  stage_row 58, binary_result

theorem st_main_call2_v6 (V : Valuation τ sig (Elt F)) :
    Vf V main_call2_v6 = (Host.exp : (⟨S16384x33, .f32⟩ : BufTy).Contents (Elt F) → (⟨S16384x33, .f32⟩ : BufTy).Contents (Elt F)) (Vf V main_call2_v5) := by
  stage_row 59, unary_result

theorem st_main_call2_cst_1 (V : Valuation τ sig (Elt F)) :
    Vf V main_call2_cst_1 = (constant S_ .f32 0x00000000#32) := by
  stage_row 60, nullary_result

theorem st_main_call2_v7 (V : Valuation τ sig (Elt F)) :
    Vf V main_call2_v7 = ((fun x v => Host.reduceAdd x v reducesTo_S16384x33_S16384_d1 h_S_) : (⟨S16384x33, .f32⟩ : BufTy).Contents (Elt F) → (⟨S_, .f32⟩ : BufTy).Contents (Elt F) → (⟨S16384, .f32⟩ : BufTy).Contents (Elt F)) (Vf V main_call2_v6) (Vf V main_call2_cst_1) := by
  stage_row 61, binary_result

theorem st_main_call2_v8 (V : Valuation τ sig (Elt F)) :
    Vf V main_call2_v8 = ((broadcastInDim S16384x1 ![0] bcast_S16384_S16384x1_0) : (⟨S16384, .f32⟩ : BufTy).Contents (Elt F) → (⟨S16384x1, .f32⟩ : BufTy).Contents (Elt F)) (Vf V main_call2_v7) := by
  stage_row 62, unary_result

theorem st_main_call2_v9 (V : Valuation τ sig (Elt F)) :
    Vf V main_call2_v9 = (Host.log : (⟨S16384x1, .f32⟩ : BufTy).Contents (Elt F) → (⟨S16384x1, .f32⟩ : BufTy).Contents (Elt F)) (Vf V main_call2_v8) := by
  stage_row 63, unary_result

theorem st_main_call2_v10 (V : Valuation τ sig (Elt F)) :
    Vf V main_call2_v10 = ((broadcastInDim S16384x33 ![0, 1] bcast_S16384x1_S16384x33_0_1) : (⟨S16384x1, .f32⟩ : BufTy).Contents (Elt F) → (⟨S16384x33, .f32⟩ : BufTy).Contents (Elt F)) (Vf V main_call2_v9) := by
  stage_row 64, unary_result

theorem st_main_v13 (V : Valuation τ sig (Elt F)) :
    Vf V main_v13 = (subf : (⟨S16384x33, .f32⟩ : BufTy).Contents (Elt F) → (⟨S16384x33, .f32⟩ : BufTy).Contents (Elt F) → (⟨S16384x33, .f32⟩ : BufTy).Contents (Elt F)) (Vf V main_call2_v5) (Vf V main_call2_v10) := by
  stage_row 65, binary_result

theorem st_main_c_1 (V : Valuation τ sig (Elt F)) :
    Vf V main_c_1 = (constantI S_ 32 1#32) := by
  stage_row 66, nullary_result

theorem st_main_v14 (V : Valuation τ sig (Elt F)) :
    Vf V main_v14 = (broadcastInDim S16384 ![] bcast_S_S16384 : (⟨S_, .i32⟩ : BufTy).Contents (Elt F) → (⟨S16384, .i32⟩ : BufTy).Contents (Elt F)) (Vf V main_c_1) := by
  stage_row 67, unary_result

theorem st_main_v15 (V : Valuation τ sig (Elt F)) :
    Vf V main_v15 = (addi : (⟨S16384, .i32⟩ : BufTy).Contents (Elt F) → (⟨S16384, .i32⟩ : BufTy).Contents (Elt F) → (⟨S16384, .i32⟩ : BufTy).Contents (Elt F)) (Vf V main_v0) (Vf V main_v14) := by
  stage_row 68, binary_result

theorem st_main_v16 (V : Valuation τ sig (Elt F)) :
    Vf V main_v16 = (broadcastInDim S16384x1 ![0] bcast_S16384_S16384x1_0 : (⟨S16384, .i32⟩ : BufTy).Contents (Elt F) → (⟨S16384x1, .i32⟩ : BufTy).Contents (Elt F)) (Vf V main_v15) := by
  stage_row 69, unary_result

theorem st_main_call3_c (V : Valuation τ sig (Elt F)) :
    Vf V main_call3_c = (constantI S_ 32 0#32) := by
  stage_row 70, nullary_result

theorem st_main_call3_v0 (V : Valuation τ sig (Elt F)) :
    Vf V main_call3_v0 = ((broadcastInDim S16384x1 ![] bcast_S_S16384x1) : (⟨S_, .i32⟩ : BufTy).Contents (Elt F) → (⟨S16384x1, .i32⟩ : BufTy).Contents (Elt F)) (Vf V main_call3_c) := by
  stage_row 71, unary_result

theorem st_main_call3_v1 (V : Valuation τ sig (Elt F)) :
    Vf V main_call3_v1 = ((cmpi .slt) : (⟨S16384x1, .i32⟩ : BufTy).Contents (Elt F) → (⟨S16384x1, .i32⟩ : BufTy).Contents (Elt F) → (⟨S16384x1, .i1⟩ : BufTy).Contents (Elt F)) (Vf V main_v16) (Vf V main_call3_v0) := by
  stage_row 72, binary_result

theorem st_main_call3_c_0 (V : Valuation τ sig (Elt F)) :
    Vf V main_call3_c_0 = (constantI S_ 32 33#32) := by
  stage_row 73, nullary_result

theorem st_main_call3_v2 (V : Valuation τ sig (Elt F)) :
    Vf V main_call3_v2 = ((broadcastInDim S16384x1 ![] bcast_S_S16384x1) : (⟨S_, .i32⟩ : BufTy).Contents (Elt F) → (⟨S16384x1, .i32⟩ : BufTy).Contents (Elt F)) (Vf V main_call3_c_0) := by
  stage_row 74, unary_result

theorem st_main_call3_v3 (V : Valuation τ sig (Elt F)) :
    Vf V main_call3_v3 = (addi : (⟨S16384x1, .i32⟩ : BufTy).Contents (Elt F) → (⟨S16384x1, .i32⟩ : BufTy).Contents (Elt F) → (⟨S16384x1, .i32⟩ : BufTy).Contents (Elt F)) (Vf V main_v16) (Vf V main_call3_v2) := by
  stage_row 75, binary_result

theorem st_main_call3_v4 (V : Valuation τ sig (Elt F)) :
    Vf V main_call3_v4 = (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)) (Vf V main_call3_v1) (Vf V main_call3_v3) (Vf V main_v16) := by
  stage_row 76, ternary_result

theorem st_main_call3_v5 (V : Valuation τ sig (Elt F)) :
    Vf V main_call3_v5 = shapeCast S16384x1x1 (Vf V main_call3_v4) shapeCasts_S16384x1_S16384x1x1 := by
  stage_row 77, reshape_result

theorem st_main_call3_c_1 (V : Valuation τ sig (Elt F)) :
    Vf V main_call3_c_1 = (constantI S1 32 32#32) := by
  stage_row 78, nullary_result

theorem st_main_call3_c_2 (V : Valuation τ sig (Elt F)) :
    Vf V main_call3_c_2 = (constantI S_ 32 0#32) := by
  stage_row 79, nullary_result

theorem st_main_call3_v6 (V : Valuation τ sig (Elt F)) :
    Vf V main_call3_v6 = ((broadcastInDim S16384x1x1 ![] bcast_S_S16384x1x1) : (⟨S_, .i32⟩ : BufTy).Contents (Elt F) → (⟨S16384x1x1, .i32⟩ : BufTy).Contents (Elt F)) (Vf V main_call3_c_2) := by
  stage_row 80, unary_result

theorem st_main_call3_v7 (V : Valuation τ sig (Elt F)) :
    Vf V main_call3_v7 = ((cmpi .sge) : (⟨S16384x1x1, .i32⟩ : BufTy).Contents (Elt F) → (⟨S16384x1x1, .i32⟩ : BufTy).Contents (Elt F) → (⟨S16384x1x1, .i1⟩ : BufTy).Contents (Elt F)) (Vf V main_call3_v5) (Vf V main_call3_v6) := by
  stage_row 81, binary_result

end Cert.ReferenceIdeal.RefRun

end
-- ==== Proof.RefOpsEqs2.lean ====
/-
  One equation per operation of the reference program's straight line, operations 82 to 163, between the contents
  Vf V of the buffers when the whole line has run from the contents V: the buffer the operation writes holds the
  operation's function of the contents of the buffers it reads. Each is the stage equation of the operation at
  its place in the line, read through the result lemma of its kind.
-/
import proofs.«419181_j50646254354828_1_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem st_main_call3_v8 (V : Valuation τ sig (Elt F)) :
    Vf V main_call3_v8 = ((broadcastInDim S1x1x1 ![2] bcast_S1_S1x1x1_2) : (⟨S1, .i32⟩ : BufTy).Contents (Elt F) → (⟨S1x1x1, .i32⟩ : BufTy).Contents (Elt F)) (Vf V main_call3_c_1) := by
  stage_row 82, unary_result

theorem st_main_call3_v9 (V : Valuation τ sig (Elt F)) :
    Vf V main_call3_v9 = ((broadcastInDim S16384x1x1 ![0, 1, 2] bcast_S1x1x1_S16384x1x1_0_1_2) : (⟨S1x1x1, .i32⟩ : BufTy).Contents (Elt F) → (⟨S16384x1x1, .i32⟩ : BufTy).Contents (Elt F)) (Vf V main_call3_v8) := by
  stage_row 83, unary_result

theorem st_main_call3_v10 (V : Valuation τ sig (Elt F)) :
    Vf V main_call3_v10 = ((cmpi .sle) : (⟨S16384x1x1, .i32⟩ : BufTy).Contents (Elt F) → (⟨S16384x1x1, .i32⟩ : BufTy).Contents (Elt F) → (⟨S16384x1x1, .i1⟩ : BufTy).Contents (Elt F)) (Vf V main_call3_v5) (Vf V main_call3_v9) := by
  stage_row 84, binary_result

theorem st_main_call3_v11 (V : Valuation τ sig (Elt F)) :
    Vf V main_call3_v11 = (andi : (⟨S16384x1x1, .i1⟩ : BufTy).Contents (Elt F) → (⟨S16384x1x1, .i1⟩ : BufTy).Contents (Elt F) → (⟨S16384x1x1, .i1⟩ : BufTy).Contents (Elt F)) (Vf V main_call3_v7) (Vf V main_call3_v10) := by
  stage_row 85, binary_result

theorem st_main_call3_c_3 (V : Valuation τ sig (Elt F)) :
    Vf V main_call3_c_3 = (constantI S_ 1 1#1) := by
  stage_row 86, nullary_result

theorem st_main_call3_v12 (V : Valuation τ sig (Elt F)) :
    Vf V main_call3_v12 = ((fun x v => Host.reduce IntOp.andi x v reducesTo_S16384x1x1_S16384x1_d2 h_S_) : (⟨S16384x1x1, .i1⟩ : BufTy).Contents (Elt F) → (⟨S_, .i1⟩ : BufTy).Contents (Elt F) → (⟨S16384x1, .i1⟩ : BufTy).Contents (Elt F)) (Vf V main_call3_v11) (Vf V main_call3_c_3) := by
  stage_row 87, binary_result

theorem st_main_call3_v13 (V : Valuation τ sig (Elt F)) :
    Vf V main_call3_v13 = ((fun x i => Host.gather gather_S16384x33_S16384x1x1_S16384x1_n_1_0_0_1_2_11 x i) : (⟨S16384x33, .f32⟩ : BufTy).Contents (Elt F) → (⟨S16384x1x1, .i32⟩ : BufTy).Contents (Elt F) → (⟨S16384x1, .f32⟩ : BufTy).Contents (Elt F)) (Vf V main_v13) (Vf V main_call3_v5) := by
  stage_row 88, binary_result

theorem st_main_call3_cst (V : Valuation τ sig (Elt F)) :
    Vf V main_call3_cst = (constant S_ .f32 0x7FC00000#32) := by
  stage_row 89, nullary_result

theorem st_main_call3_v14 (V : Valuation τ sig (Elt F)) :
    Vf V main_call3_v14 = ((broadcastInDim S16384x1 ![] bcast_S_S16384x1) : (⟨S_, .f32⟩ : BufTy).Contents (Elt F) → (⟨S16384x1, .f32⟩ : BufTy).Contents (Elt F)) (Vf V main_call3_cst) := by
  stage_row 90, unary_result

theorem st_main_v17 (V : Valuation τ sig (Elt F)) :
    Vf V main_v17 = (select : (⟨S16384x1, .i1⟩ : BufTy).Contents (Elt F) → (⟨S16384x1, .f32⟩ : BufTy).Contents (Elt F) → (⟨S16384x1, .f32⟩ : BufTy).Contents (Elt F) → (⟨S16384x1, .f32⟩ : BufTy).Contents (Elt F)) (Vf V main_call3_v12) (Vf V main_call3_v13) (Vf V main_call3_v14) := by
  stage_row 91, ternary_result

theorem st_main_cst (V : Valuation τ sig (Elt F)) :
    Vf V main_cst = (constant S_ .f32 0x00000000#32) := by
  stage_row 92, nullary_result

theorem st_main_v18 (V : Valuation τ sig (Elt F)) :
    Vf V main_v18 = ((fun x v => Host.reduceAdd x v reducesTo_S16384x1_S_d0_1 h_S_) : (⟨S16384x1, .f32⟩ : BufTy).Contents (Elt F) → (⟨S_, .f32⟩ : BufTy).Contents (Elt F) → (⟨S_, .f32⟩ : BufTy).Contents (Elt F)) (Vf V main_v17) (Vf V main_cst) := by
  stage_row 93, binary_result

theorem st_main_cst_2 (V : Valuation τ sig (Elt F)) :
    Vf V main_cst_2 = (constant S_ .f32 0x46800000#32) := by
  stage_row 94, nullary_result

theorem st_main_v19 (V : Valuation τ sig (Elt F)) :
    Vf V main_v19 = (Host.divf : (⟨S_, .f32⟩ : BufTy).Contents (Elt F) → (⟨S_, .f32⟩ : BufTy).Contents (Elt F) → (⟨S_, .f32⟩ : BufTy).Contents (Elt F)) (Vf V main_v18) (Vf V main_cst_2) := by
  stage_row 95, binary_result

theorem st_main_v20 (V : Valuation τ sig (Elt F)) :
    Vf V main_v20 = (Host.negf : (⟨S_, .f32⟩ : BufTy).Contents (Elt F) → (⟨S_, .f32⟩ : BufTy).Contents (Elt F)) (Vf V main_v19) := by
  stage_row 96, unary_result

theorem st_main_v21 (V : Valuation τ sig (Elt F)) :
    Vf V main_v21 = (broadcastInDim S16384x1 ![0] bcast_S16384_S16384x1_0 : (⟨S16384, .i32⟩ : BufTy).Contents (Elt F) → (⟨S16384x1, .i32⟩ : BufTy).Contents (Elt F)) (Vf V main_v0) := by
  stage_row 97, unary_result

theorem st_main_v22 (V : Valuation τ sig (Elt F)) :
    Vf V main_v22 = (iotaInDim S32 32 0) := by
  stage_row 98, nullary_result

theorem st_main_v23 (V : Valuation τ sig (Elt F)) :
    Vf V main_v23 = (broadcastInDim S1x32 ![1] bcast_S32_S1x32_1 : (⟨S32, .i32⟩ : BufTy).Contents (Elt F) → (⟨S1x32, .i32⟩ : BufTy).Contents (Elt F)) (Vf V main_v22) := by
  stage_row 99, unary_result

theorem st_main_v24 (V : Valuation τ sig (Elt F)) :
    Vf V main_v24 = (broadcastInDim S16384x32 ![0, 1] bcast_S16384x1_S16384x32_0_1 : (⟨S16384x1, .i32⟩ : BufTy).Contents (Elt F) → (⟨S16384x32, .i32⟩ : BufTy).Contents (Elt F)) (Vf V main_v21) := by
  stage_row 100, unary_result

theorem st_main_v25 (V : Valuation τ sig (Elt F)) :
    Vf V main_v25 = (broadcastInDim S16384x32 ![0, 1] bcast_S1x32_S16384x32_0_1 : (⟨S1x32, .i32⟩ : BufTy).Contents (Elt F) → (⟨S16384x32, .i32⟩ : BufTy).Contents (Elt F)) (Vf V main_v23) := by
  stage_row 101, unary_result

theorem st_main_v26 (V : Valuation τ sig (Elt F)) :
    Vf V main_v26 = (cmpi .eq : (⟨S16384x32, .i32⟩ : BufTy).Contents (Elt F) → (⟨S16384x32, .i32⟩ : BufTy).Contents (Elt F) → (⟨S16384x32, .i1⟩ : BufTy).Contents (Elt F)) (Vf V main_v24) (Vf V main_v25) := by
  stage_row 102, binary_result

theorem st_main_c_3 (V : Valuation τ sig (Elt F)) :
    Vf V main_c_3 = (constantI S_ 32 1#32) := by
  stage_row 103, nullary_result

theorem st_main_v27 (V : Valuation τ sig (Elt F)) :
    Vf V main_v27 = (broadcastInDim S16384 ![] bcast_S_S16384 : (⟨S_, .i32⟩ : BufTy).Contents (Elt F) → (⟨S16384, .i32⟩ : BufTy).Contents (Elt F)) (Vf V main_c_3) := by
  stage_row 104, unary_result

theorem st_main_v28 (V : Valuation τ sig (Elt F)) :
    Vf V main_v28 = (addi : (⟨S16384, .i32⟩ : BufTy).Contents (Elt F) → (⟨S16384, .i32⟩ : BufTy).Contents (Elt F) → (⟨S16384, .i32⟩ : BufTy).Contents (Elt F)) (Vf V main_v1) (Vf V main_v27) := by
  stage_row 105, binary_result

theorem st_main_v29 (V : Valuation τ sig (Elt F)) :
    Vf V main_v29 = (broadcastInDim S16384x1 ![0] bcast_S16384_S16384x1_0 : (⟨S16384, .i32⟩ : BufTy).Contents (Elt F) → (⟨S16384x1, .i32⟩ : BufTy).Contents (Elt F)) (Vf V main_v28) := by
  stage_row 106, unary_result

theorem st_main_c_4 (V : Valuation τ sig (Elt F)) :
    Vf V main_c_4 = (constantI S_ 32 0#32) := by
  stage_row 107, nullary_result

theorem st_main_call4_v0 (V : Valuation τ sig (Elt F)) :
    Vf V main_call4_v0 = (id : (⟨S_, .i32⟩ : BufTy).Contents (Elt F) → (⟨S_, .i32⟩ : BufTy).Contents (Elt F)) (Vf V main_c_4) := by
  stage_row 108, unary_result

theorem st_main_call4_v1 (V : Valuation τ sig (Elt F)) :
    Vf V main_call4_v1 = ((broadcastInDim S16384x32 ![0, 1] bcast_S16384x1_S16384x32_0_1) : (⟨S16384x1, .i32⟩ : BufTy).Contents (Elt F) → (⟨S16384x32, .i32⟩ : BufTy).Contents (Elt F)) (Vf V main_v29) := by
  stage_row 109, unary_result

theorem st_main_call4_v2 (V : Valuation τ sig (Elt F)) :
    Vf V main_call4_v2 = ((broadcastInDim S16384x32 ![] bcast_S_S16384x32) : (⟨S_, .i32⟩ : BufTy).Contents (Elt F) → (⟨S16384x32, .i32⟩ : BufTy).Contents (Elt F)) (Vf V main_call4_v0) := by
  stage_row 110, unary_result

theorem st_main_v30 (V : Valuation τ sig (Elt F)) :
    Vf V main_v30 = (select : (⟨S16384x32, .i1⟩ : BufTy).Contents (Elt F) → (⟨S16384x32, .i32⟩ : BufTy).Contents (Elt F) → (⟨S16384x32, .i32⟩ : BufTy).Contents (Elt F) → (⟨S16384x32, .i32⟩ : BufTy).Contents (Elt F)) (Vf V main_v26) (Vf V main_call4_v1) (Vf V main_call4_v2) := by
  stage_row 111, ternary_result

theorem st_main_call5_cst (V : Valuation τ sig (Elt F)) :
    Vf V main_call5_cst = (constant S_ .f32 0xFF800000#32) := by
  stage_row 112, nullary_result

theorem st_main_call5_v0 (V : Valuation τ sig (Elt F)) :
    Vf V main_call5_v0 = ((fun x v => Host.reduce FloatOps.maximumf x v reducesTo_S16384x32x33_S16384x32_d2 h_S_) : (⟨S16384x32x33, .f32⟩ : BufTy).Contents (Elt F) → (⟨S_, .f32⟩ : BufTy).Contents (Elt F) → (⟨S16384x32, .f32⟩ : BufTy).Contents (Elt F)) (Vf V main_v10) (Vf V main_call5_cst) := by
  stage_row 113, binary_result

theorem st_main_call5_cst_0 (V : Valuation τ sig (Elt F)) :
    Vf V main_call5_cst_0 = (constant S_ .f32 0xFF800000#32) := by
  stage_row 114, nullary_result

theorem st_main_call5_v1 (V : Valuation τ sig (Elt F)) :
    Vf V main_call5_v1 = ((broadcastInDim S16384x32 ![] bcast_S_S16384x32) : (⟨S_, .f32⟩ : BufTy).Contents (Elt F) → (⟨S16384x32, .f32⟩ : BufTy).Contents (Elt F)) (Vf V main_call5_cst_0) := by
  stage_row 115, unary_result

theorem st_main_call5_v2 (V : Valuation τ sig (Elt F)) :
    Vf V main_call5_v2 = (maximumf : (⟨S16384x32, .f32⟩ : BufTy).Contents (Elt F) → (⟨S16384x32, .f32⟩ : BufTy).Contents (Elt F) → (⟨S16384x32, .f32⟩ : BufTy).Contents (Elt F)) (Vf V main_call5_v1) (Vf V main_call5_v0) := by
  stage_row 116, binary_result

theorem st_main_call5_v3 (V : Valuation τ sig (Elt F)) :
    Vf V main_call5_v3 = ((broadcastInDim S16384x32x1 ![0, 1] bcast_S16384x32_S16384x32x1_0_1) : (⟨S16384x32, .f32⟩ : BufTy).Contents (Elt F) → (⟨S16384x32x1, .f32⟩ : BufTy).Contents (Elt F)) (Vf V main_call5_v2) := by
  stage_row 117, unary_result

theorem st_main_call5_v4 (V : Valuation τ sig (Elt F)) :
    Vf V main_call5_v4 = ((broadcastInDim S16384x32x33 ![0, 1, 2] bcast_S16384x32x1_S16384x32x33_0_1_2) : (⟨S16384x32x1, .f32⟩ : BufTy).Contents (Elt F) → (⟨S16384x32x33, .f32⟩ : BufTy).Contents (Elt F)) (Vf V main_call5_v3) := by
  stage_row 118, unary_result

theorem st_main_call5_v5 (V : Valuation τ sig (Elt F)) :
    Vf V main_call5_v5 = (subf : (⟨S16384x32x33, .f32⟩ : BufTy).Contents (Elt F) → (⟨S16384x32x33, .f32⟩ : BufTy).Contents (Elt F) → (⟨S16384x32x33, .f32⟩ : BufTy).Contents (Elt F)) (Vf V main_v10) (Vf V main_call5_v4) := by
  stage_row 119, binary_result

theorem st_main_call5_v6 (V : Valuation τ sig (Elt F)) :
    Vf V main_call5_v6 = (Host.exp : (⟨S16384x32x33, .f32⟩ : BufTy).Contents (Elt F) → (⟨S16384x32x33, .f32⟩ : BufTy).Contents (Elt F)) (Vf V main_call5_v5) := by
  stage_row 120, unary_result

theorem st_main_call5_cst_1 (V : Valuation τ sig (Elt F)) :
    Vf V main_call5_cst_1 = (constant S_ .f32 0x00000000#32) := by
  stage_row 121, nullary_result

theorem st_main_call5_v7 (V : Valuation τ sig (Elt F)) :
    Vf V main_call5_v7 = ((fun x v => Host.reduceAdd x v reducesTo_S16384x32x33_S16384x32_d2 h_S_) : (⟨S16384x32x33, .f32⟩ : BufTy).Contents (Elt F) → (⟨S_, .f32⟩ : BufTy).Contents (Elt F) → (⟨S16384x32, .f32⟩ : BufTy).Contents (Elt F)) (Vf V main_call5_v6) (Vf V main_call5_cst_1) := by
  stage_row 122, binary_result

theorem st_main_call5_v8 (V : Valuation τ sig (Elt F)) :
    Vf V main_call5_v8 = ((broadcastInDim S16384x32x1 ![0, 1] bcast_S16384x32_S16384x32x1_0_1) : (⟨S16384x32, .f32⟩ : BufTy).Contents (Elt F) → (⟨S16384x32x1, .f32⟩ : BufTy).Contents (Elt F)) (Vf V main_call5_v7) := by
  stage_row 123, unary_result

theorem st_main_call5_v9 (V : Valuation τ sig (Elt F)) :
    Vf V main_call5_v9 = (Host.log : (⟨S16384x32x1, .f32⟩ : BufTy).Contents (Elt F) → (⟨S16384x32x1, .f32⟩ : BufTy).Contents (Elt F)) (Vf V main_call5_v8) := by
  stage_row 124, unary_result

theorem st_main_call5_v10 (V : Valuation τ sig (Elt F)) :
    Vf V main_call5_v10 = ((broadcastInDim S16384x32x33 ![0, 1, 2] bcast_S16384x32x1_S16384x32x33_0_1_2) : (⟨S16384x32x1, .f32⟩ : BufTy).Contents (Elt F) → (⟨S16384x32x33, .f32⟩ : BufTy).Contents (Elt F)) (Vf V main_call5_v9) := by
  stage_row 125, unary_result

theorem st_main_v31 (V : Valuation τ sig (Elt F)) :
    Vf V main_v31 = (subf : (⟨S16384x32x33, .f32⟩ : BufTy).Contents (Elt F) → (⟨S16384x32x33, .f32⟩ : BufTy).Contents (Elt F) → (⟨S16384x32x33, .f32⟩ : BufTy).Contents (Elt F)) (Vf V main_call5_v5) (Vf V main_call5_v10) := by
  stage_row 126, binary_result

theorem st_main_v32 (V : Valuation τ sig (Elt F)) :
    Vf V main_v32 = (broadcastInDim S16384x32x1 ![0, 1] bcast_S16384x32_S16384x32x1_0_1 : (⟨S16384x32, .i32⟩ : BufTy).Contents (Elt F) → (⟨S16384x32x1, .i32⟩ : BufTy).Contents (Elt F)) (Vf V main_v30) := by
  stage_row 127, unary_result

theorem st_main_call6_c (V : Valuation τ sig (Elt F)) :
    Vf V main_call6_c = (constantI S_ 32 0#32) := by
  stage_row 128, nullary_result

theorem st_main_call6_v0 (V : Valuation τ sig (Elt F)) :
    Vf V main_call6_v0 = ((broadcastInDim S16384x32x1 ![] bcast_S_S16384x32x1) : (⟨S_, .i32⟩ : BufTy).Contents (Elt F) → (⟨S16384x32x1, .i32⟩ : BufTy).Contents (Elt F)) (Vf V main_call6_c) := by
  stage_row 129, unary_result

theorem st_main_call6_v1 (V : Valuation τ sig (Elt F)) :
    Vf V main_call6_v1 = ((cmpi .slt) : (⟨S16384x32x1, .i32⟩ : BufTy).Contents (Elt F) → (⟨S16384x32x1, .i32⟩ : BufTy).Contents (Elt F) → (⟨S16384x32x1, .i1⟩ : BufTy).Contents (Elt F)) (Vf V main_v32) (Vf V main_call6_v0) := by
  stage_row 130, binary_result

theorem st_main_call6_c_0 (V : Valuation τ sig (Elt F)) :
    Vf V main_call6_c_0 = (constantI S_ 32 33#32) := by
  stage_row 131, nullary_result

theorem st_main_call6_v2 (V : Valuation τ sig (Elt F)) :
    Vf V main_call6_v2 = ((broadcastInDim S16384x32x1 ![] bcast_S_S16384x32x1) : (⟨S_, .i32⟩ : BufTy).Contents (Elt F) → (⟨S16384x32x1, .i32⟩ : BufTy).Contents (Elt F)) (Vf V main_call6_c_0) := by
  stage_row 132, unary_result

theorem st_main_call6_v3 (V : Valuation τ sig (Elt F)) :
    Vf V main_call6_v3 = (addi : (⟨S16384x32x1, .i32⟩ : BufTy).Contents (Elt F) → (⟨S16384x32x1, .i32⟩ : BufTy).Contents (Elt F) → (⟨S16384x32x1, .i32⟩ : BufTy).Contents (Elt F)) (Vf V main_v32) (Vf V main_call6_v2) := by
  stage_row 133, binary_result

theorem st_main_call6_v4 (V : Valuation τ sig (Elt F)) :
    Vf V main_call6_v4 = (select : (⟨S16384x32x1, .i1⟩ : BufTy).Contents (Elt F) → (⟨S16384x32x1, .i32⟩ : BufTy).Contents (Elt F) → (⟨S16384x32x1, .i32⟩ : BufTy).Contents (Elt F) → (⟨S16384x32x1, .i32⟩ : BufTy).Contents (Elt F)) (Vf V main_call6_v1) (Vf V main_call6_v3) (Vf V main_v32) := by
  stage_row 134, ternary_result

theorem st_main_call6_v5 (V : Valuation τ sig (Elt F)) :
    Vf V main_call6_v5 = shapeCast S16384x32x1x1 (Vf V main_call6_v4) shapeCasts_S16384x32x1_S16384x32x1x1 := by
  stage_row 135, reshape_result

theorem st_main_call6_c_1 (V : Valuation τ sig (Elt F)) :
    Vf V main_call6_c_1 = (constantI S1 32 32#32) := by
  stage_row 136, nullary_result

theorem st_main_call6_c_2 (V : Valuation τ sig (Elt F)) :
    Vf V main_call6_c_2 = (constantI S_ 32 0#32) := by
  stage_row 137, nullary_result

theorem st_main_call6_v6 (V : Valuation τ sig (Elt F)) :
    Vf V main_call6_v6 = ((broadcastInDim S16384x32x1x1 ![] bcast_S_S16384x32x1x1) : (⟨S_, .i32⟩ : BufTy).Contents (Elt F) → (⟨S16384x32x1x1, .i32⟩ : BufTy).Contents (Elt F)) (Vf V main_call6_c_2) := by
  stage_row 138, unary_result

theorem st_main_call6_v7 (V : Valuation τ sig (Elt F)) :
    Vf V main_call6_v7 = ((cmpi .sge) : (⟨S16384x32x1x1, .i32⟩ : BufTy).Contents (Elt F) → (⟨S16384x32x1x1, .i32⟩ : BufTy).Contents (Elt F) → (⟨S16384x32x1x1, .i1⟩ : BufTy).Contents (Elt F)) (Vf V main_call6_v5) (Vf V main_call6_v6) := by
  stage_row 139, binary_result

theorem st_main_call6_v8 (V : Valuation τ sig (Elt F)) :
    Vf V main_call6_v8 = ((broadcastInDim S1x1x1x1 ![3] bcast_S1_S1x1x1x1_3) : (⟨S1, .i32⟩ : BufTy).Contents (Elt F) → (⟨S1x1x1x1, .i32⟩ : BufTy).Contents (Elt F)) (Vf V main_call6_c_1) := by
  stage_row 140, unary_result

theorem st_main_call6_v9 (V : Valuation τ sig (Elt F)) :
    Vf V main_call6_v9 = ((broadcastInDim S16384x32x1x1 ![0, 1, 2, 3] bcast_S1x1x1x1_S16384x32x1x1_0_1_2_3) : (⟨S1x1x1x1, .i32⟩ : BufTy).Contents (Elt F) → (⟨S16384x32x1x1, .i32⟩ : BufTy).Contents (Elt F)) (Vf V main_call6_v8) := by
  stage_row 141, unary_result

theorem st_main_call6_v10 (V : Valuation τ sig (Elt F)) :
    Vf V main_call6_v10 = ((cmpi .sle) : (⟨S16384x32x1x1, .i32⟩ : BufTy).Contents (Elt F) → (⟨S16384x32x1x1, .i32⟩ : BufTy).Contents (Elt F) → (⟨S16384x32x1x1, .i1⟩ : BufTy).Contents (Elt F)) (Vf V main_call6_v5) (Vf V main_call6_v9) := by
  stage_row 142, binary_result

theorem st_main_call6_v11 (V : Valuation τ sig (Elt F)) :
    Vf V main_call6_v11 = (andi : (⟨S16384x32x1x1, .i1⟩ : BufTy).Contents (Elt F) → (⟨S16384x32x1x1, .i1⟩ : BufTy).Contents (Elt F) → (⟨S16384x32x1x1, .i1⟩ : BufTy).Contents (Elt F)) (Vf V main_call6_v7) (Vf V main_call6_v10) := by
  stage_row 143, binary_result

theorem st_main_call6_c_3 (V : Valuation τ sig (Elt F)) :
    Vf V main_call6_c_3 = (constantI S_ 1 1#1) := by
  stage_row 144, nullary_result

theorem st_main_call6_v12 (V : Valuation τ sig (Elt F)) :
    Vf V main_call6_v12 = ((fun x v => Host.reduce IntOp.andi x v reducesTo_S16384x32x1x1_S16384x32x1_d3 h_S_) : (⟨S16384x32x1x1, .i1⟩ : BufTy).Contents (Elt F) → (⟨S_, .i1⟩ : BufTy).Contents (Elt F) → (⟨S16384x32x1, .i1⟩ : BufTy).Contents (Elt F)) (Vf V main_call6_v11) (Vf V main_call6_c_3) := by
  stage_row 145, binary_result

theorem st_main_call6_v13 (V : Valuation τ sig (Elt F)) :
    Vf V main_call6_v13 = ((fun x i => Host.gather gather_S16384x32x33_S16384x32x1x1_S16384x32x1_n_2_01_01_2_3_111 x i) : (⟨S16384x32x33, .f32⟩ : BufTy).Contents (Elt F) → (⟨S16384x32x1x1, .i32⟩ : BufTy).Contents (Elt F) → (⟨S16384x32x1, .f32⟩ : BufTy).Contents (Elt F)) (Vf V main_v31) (Vf V main_call6_v5) := by
  stage_row 146, binary_result

theorem st_main_call6_cst (V : Valuation τ sig (Elt F)) :
    Vf V main_call6_cst = (constant S_ .f32 0x7FC00000#32) := by
  stage_row 147, nullary_result

theorem st_main_call6_v14 (V : Valuation τ sig (Elt F)) :
    Vf V main_call6_v14 = ((broadcastInDim S16384x32x1 ![] bcast_S_S16384x32x1) : (⟨S_, .f32⟩ : BufTy).Contents (Elt F) → (⟨S16384x32x1, .f32⟩ : BufTy).Contents (Elt F)) (Vf V main_call6_cst) := by
  stage_row 148, unary_result

theorem st_main_v33 (V : Valuation τ sig (Elt F)) :
    Vf V main_v33 = (select : (⟨S16384x32x1, .i1⟩ : BufTy).Contents (Elt F) → (⟨S16384x32x1, .f32⟩ : BufTy).Contents (Elt F) → (⟨S16384x32x1, .f32⟩ : BufTy).Contents (Elt F) → (⟨S16384x32x1, .f32⟩ : BufTy).Contents (Elt F)) (Vf V main_call6_v12) (Vf V main_call6_v13) (Vf V main_call6_v14) := by
  stage_row 149, ternary_result

theorem st_main_v34 (V : Valuation τ sig (Elt F)) :
    Vf V main_v34 = (Host.negf : (⟨S16384x32x1, .f32⟩ : BufTy).Contents (Elt F) → (⟨S16384x32x1, .f32⟩ : BufTy).Contents (Elt F)) (Vf V main_v33) := by
  stage_row 150, unary_result

theorem st_main_v35 (V : Valuation τ sig (Elt F)) :
    Vf V main_v35 = shapeCast S16384x32 (Vf V main_v34) shapeCasts_S16384x32x1_S16384x32 := by
  stage_row 151, reshape_result

theorem st_main_cst_5 (V : Valuation τ sig (Elt F)) :
    Vf V main_cst_5 = (constant S_ .f32 0x00000000#32) := by
  stage_row 152, nullary_result

theorem st_main_v36 (V : Valuation τ sig (Elt F)) :
    Vf V main_v36 = ((fun x v => Host.reduceAdd x v reducesTo_S16384x32_S32_d0 h_S_) : (⟨S16384x32, .f32⟩ : BufTy).Contents (Elt F) → (⟨S_, .f32⟩ : BufTy).Contents (Elt F) → (⟨S32, .f32⟩ : BufTy).Contents (Elt F)) (Vf V main_v35) (Vf V main_cst_5) := by
  stage_row 153, binary_result

theorem st_main_cst_6 (V : Valuation τ sig (Elt F)) :
    Vf V main_cst_6 = (constant S_ .f32 0x46800000#32) := by
  stage_row 154, nullary_result

theorem st_main_v37 (V : Valuation τ sig (Elt F)) :
    Vf V main_v37 = (broadcastInDim S32 ![] bcast_S_S32 : (⟨S_, .f32⟩ : BufTy).Contents (Elt F) → (⟨S32, .f32⟩ : BufTy).Contents (Elt F)) (Vf V main_cst_6) := by
  stage_row 155, unary_result

theorem st_main_v38 (V : Valuation τ sig (Elt F)) :
    Vf V main_v38 = (Host.divf : (⟨S32, .f32⟩ : BufTy).Contents (Elt F) → (⟨S32, .f32⟩ : BufTy).Contents (Elt F) → (⟨S32, .f32⟩ : BufTy).Contents (Elt F)) (Vf V main_v36) (Vf V main_v37) := by
  stage_row 156, binary_result

theorem st_main_cst_7 (V : Valuation τ sig (Elt F)) :
    Vf V main_cst_7 = (constant S_ .f32 0x00000000#32) := by
  stage_row 157, nullary_result

theorem st_main_v39 (V : Valuation τ sig (Elt F)) :
    Vf V main_v39 = ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)) (Vf V main_v38) (Vf V main_cst_7) := by
  stage_row 158, binary_result

theorem st_main_cst_8 (V : Valuation τ sig (Elt F)) :
    Vf V main_cst_8 = (constant S_ .f32 0x3F800000#32) := by
  stage_row 159, nullary_result

theorem st_main_v40 (V : Valuation τ sig (Elt F)) :
    Vf V main_v40 = (Host.divf : (⟨S_, .f32⟩ : BufTy).Contents (Elt F) → (⟨S_, .f32⟩ : BufTy).Contents (Elt F) → (⟨S_, .f32⟩ : BufTy).Contents (Elt F)) (Vf V main_v20) (Vf V main_cst_8) := by
  stage_row 160, binary_result

theorem st_main_cst_9 (V : Valuation τ sig (Elt F)) :
    Vf V main_cst_9 = (constant S_ .f32 0x40000000#32) := by
  stage_row 161, nullary_result

theorem st_main_v41 (V : Valuation τ sig (Elt F)) :
    Vf V main_v41 = (Host.divf : (⟨S_, .f32⟩ : BufTy).Contents (Elt F) → (⟨S_, .f32⟩ : BufTy).Contents (Elt F) → (⟨S_, .f32⟩ : BufTy).Contents (Elt F)) (Vf V main_v39) (Vf V main_cst_9) := by
  stage_row 162, binary_result

theorem st_main_v42 (V : Valuation τ sig (Elt F)) :
    Vf V main_v42 = (addf : (⟨S_, .f32⟩ : BufTy).Contents (Elt F) → (⟨S_, .f32⟩ : BufTy).Contents (Elt F) → (⟨S_, .f32⟩ : BufTy).Contents (Elt F)) (Vf V main_v40) (Vf V main_v41) := by
  stage_row 163, binary_result

end Cert.ReferenceIdeal.RefRun

end
-- ==== Proof.RLsm.lean ====
/-
  The log-softmax of the reference program, read index by index.

  The reference computes a log-softmax along the last axis of a [16384, 33] array (the root classifier's logits) and of a
  [16384, 32, 33] array (the inner nodes' logits): the row's maximum, folded from minus infinity and compared with minus
  infinity once more; the entries shifted by it; the sum of the exponentials of the shifted entries, from zero; its
  logarithm, subtracted from the shifted entries. Both are written here as functions of the argument array, one line per
  operation of the reference's text, and both are shown to be, at every index, the log-softmax of the row of 33 entries
  through that index.
-/
import proofs.«419181_j50646254354828_1_alg».proof.ReferenceIdeal
import proofs.«419181_j50646254354828_1_alg».proof.Proof.Gen.ReferenceIdeal
import proofs.«419181_j50646254354828_1_alg».proof.Proof.Spec
import Idealize.ShloMosaic.PureOps.Reduce
import Idealize.ShloMosaic.PureOps.Ideal.Laws
import Idealize.ShloMosaic.Lib.ValueIdx
import Idealize.ShloMosaic.Lib.Pipeline.Value

noncomputable section

namespace Cert.ReferenceIdeal.RLsm

open Idealize.ShloMosaic Idealize.ShloMosaic.ValueIdx
open Cert.ReferenceIdeal Cert.ReferenceIdeal.Facts₀ Cert.ReferenceIdeal.Facts
open scoped BigOperators

variable {F : FTy → Type} [FloatOps F]

/-- The log-softmax along the last axis of a [16384, 33] array, operation by operation. -/
def lsm2V (v : FVec F S16384x33 .f32) : FVec F S16384x33 .f32 :=
  have cst : FVec F S_ .f32 := constant S_ .f32 0xFF800000#32
  have v0 : FVec F S16384 .f32 := (fun x v => Host.reduce FloatOps.maximumf x v reducesTo_S16384x33_S16384_d1 h_S_) v cst
  have cst_0 : FVec F S_ .f32 := constant S_ .f32 0xFF800000#32
  have v1 : FVec F S16384 .f32 := (broadcastInDim S16384 ![] bcast_S_S16384) cst_0
  have v2 : FVec F S16384 .f32 := maximumf v1 v0
  have v3 : FVec F S16384x1 .f32 := (broadcastInDim S16384x1 ![0] bcast_S16384_S16384x1_0) v2
  have v4 : FVec F S16384x33 .f32 := (broadcastInDim S16384x33 ![0, 1] bcast_S16384x1_S16384x33_0_1) v3
  have v5 : FVec F S16384x33 .f32 := subf v v4
  have v6 : FVec F S16384x33 .f32 := Host.exp v5
  have cst_1 : FVec F S_ .f32 := constant S_ .f32 0x00000000#32
  have v7 : FVec F S16384 .f32 := (fun x v => Host.reduceAdd x v reducesTo_S16384x33_S16384_d1 h_S_) v6 cst_1
  have v8 : FVec F S16384x1 .f32 := (broadcastInDim S16384x1 ![0] bcast_S16384_S16384x1_0) v7
  have v9 : FVec F S16384x1 .f32 := Host.log v8
  have v10 : FVec F S16384x33 .f32 := (broadcastInDim S16384x33 ![0, 1] bcast_S16384x1_S16384x33_0_1) v9
  have v11 : FVec F S16384x33 .f32 := subf v5 v10
  v11

/-- The log-softmax along the last axis of a [16384, 32, 33] array, operation by operation. -/
def lsm3V (v : FVec F S16384x32x33 .f32) : FVec F S16384x32x33 .f32 :=
  have cst : FVec F S_ .f32 := constant S_ .f32 0xFF800000#32
  have v0 : FVec F S16384x32 .f32 := (fun x v => Host.reduce FloatOps.maximumf x v reducesTo_S16384x32x33_S16384x32_d2 h_S_) v cst
  have cst_0 : FVec F S_ .f32 := constant S_ .f32 0xFF800000#32
  have v1 : FVec F S16384x32 .f32 := (broadcastInDim S16384x32 ![] bcast_S_S16384x32) cst_0
  have v2 : FVec F S16384x32 .f32 := maximumf v1 v0
  have v3 : FVec F S16384x32x1 .f32 := (broadcastInDim S16384x32x1 ![0, 1] bcast_S16384x32_S16384x32x1_0_1) v2
  have v4 : FVec F S16384x32x33 .f32 := (broadcastInDim S16384x32x33 ![0, 1, 2] bcast_S16384x32x1_S16384x32x33_0_1_2) v3
  have v5 : FVec F S16384x32x33 .f32 := subf v v4
  have v6 : FVec F S16384x32x33 .f32 := Host.exp v5
  have cst_1 : FVec F S_ .f32 := constant S_ .f32 0x00000000#32
  have v7 : FVec F S16384x32 .f32 := (fun x v => Host.reduceAdd x v reducesTo_S16384x32x33_S16384x32_d2 h_S_) v6 cst_1
  have v8 : FVec F S16384x32x1 .f32 := (broadcastInDim S16384x32x1 ![0, 1] bcast_S16384x32_S16384x32x1_0_1) v7
  have v9 : FVec F S16384x32x1 .f32 := Host.log v8
  have v10 : FVec F S16384x32x33 .f32 := (broadcastInDim S16384x32x33 ![0, 1, 2] bcast_S16384x32x1_S16384x32x33_0_1_2) v9
  have v11 : FVec F S16384x32x33 .f32 := subf v5 v10
  v11

/-! ## Layout operations and row reductions read at an index -/

section Read

variable {α : Type}

/-- A scalar spread over any shape reads the scalar everywhere. -/
theorem bcast_scalar_apply {t : Shape} (dims : Fin (⟨0, ![]⟩ : Shape).rank → Fin t.rank) (h : (⟨0, ![]⟩ : Shape).BroadcastsInDim t dims)
    (x : (⟨0, ![]⟩ : Shape).Idx → α) (j : t.Idx) (k : (⟨0, ![]⟩ : Shape).Idx) : broadcastInDim t dims h x j = x k :=
  broadcastInDim_apply dims h x j k (fun a => a.elim0)

/-- An `[n]` array given a trailing unit axis reads, at `(r, u)`, the array at `r`. -/
theorem bcast_n_n1_apply {n : ℕ} (h : (⟨1, ![n]⟩ : Shape).BroadcastsInDim ⟨2, ![n, 1]⟩ ![0]) (x : (⟨1, ![n]⟩ : Shape).Idx → α)
    (r : Fin n) (u : Fin 1) : broadcastInDim ⟨2, ![n, 1]⟩ ![0] h x (ix2 r u) = x (ix1 r) := by
  refine broadcastInDim_apply _ h x _ _ (fun a => ?_)
  match a with
  | ⟨0, _⟩ =>
    show r.val = if n = 1 then 0 else r.val
    split
    · have := r.isLt; omega
    · rfl

/-- An `[n, 1]` column spread to `[n, c]` reads, at `(r, k)`, the column at `(r, 0)`. -/
theorem bcast_n1_nc_apply {n c : ℕ} (h : (⟨2, ![n, 1]⟩ : Shape).BroadcastsInDim ⟨2, ![n, c]⟩ ![0, 1]) (x : (⟨2, ![n, 1]⟩ : Shape).Idx → α)
    (r : Fin n) (k : Fin c) : broadcastInDim ⟨2, ![n, c]⟩ ![0, 1] h x (ix2 r k) = x (ix2 r (0 : Fin 1)) := by
  refine broadcastInDim_apply _ h x _ _ (fun a => ?_)
  match a with
  | ⟨0, _⟩ =>
    show r.val = if n = 1 then 0 else r.val
    split
    · have := r.isLt; omega
    · rfl
  | ⟨1, _⟩ => rfl

/-- An `[n, p]` array given a trailing unit axis reads, at `(r, s, u)`, the array at `(r, s)`. -/
theorem bcast_np_np1_apply {n p : ℕ} (h : (⟨2, ![n, p]⟩ : Shape).BroadcastsInDim ⟨3, ![n, p, 1]⟩ ![0, 1]) (x : (⟨2, ![n, p]⟩ : Shape).Idx → α)
    (r : Fin n) (s : Fin p) (u : Fin 1) : broadcastInDim ⟨3, ![n, p, 1]⟩ ![0, 1] h x (ix3 r s u) = x (ix2 r s) := by
  refine broadcastInDim_apply _ h x _ _ (fun a => ?_)
  match a with
  | ⟨0, _⟩ =>
    show r.val = if n = 1 then 0 else r.val
    split
    · have := r.isLt; omega
    · rfl
  | ⟨1, _⟩ =>
    show s.val = if p = 1 then 0 else s.val
    split
    · have := s.isLt; omega
    · rfl

/-- An `[n, p, 1]` array spread along its last axis to `[n, p, c]` reads, at `(r, s, k)`, the array at `(r, s, 0)`. -/
theorem bcast_np1_npc_apply {n p c : ℕ} (h : (⟨3, ![n, p, 1]⟩ : Shape).BroadcastsInDim ⟨3, ![n, p, c]⟩ ![0, 1, 2])
    (x : (⟨3, ![n, p, 1]⟩ : Shape).Idx → α) (r : Fin n) (s : Fin p) (k : Fin c) :
    broadcastInDim ⟨3, ![n, p, c]⟩ ![0, 1, 2] h x (ix3 r s k) = x (ix3 r s (0 : Fin 1)) := by
  refine broadcastInDim_apply _ h x _ _ (fun a => ?_)
  match a with
  | ⟨0, _⟩ =>
    show r.val = if n = 1 then 0 else r.val
    split
    · have := r.isLt; omega
    · rfl
  | ⟨1, _⟩ =>
    show s.val = if p = 1 then 0 else s.val
    split
    · have := s.isLt; omega
    · rfl
  | ⟨2, _⟩ => rfl

end Read

/-- The index `(r)` with `k` put back on the last axis is `(r, k)`. -/
theorem lift_last2 {n c : ℕ} (h : (⟨2, ![n, c]⟩ : Shape).Reduces [1] ⟨1, ![n]⟩) (r : Fin n)
    (k : Fin ((⟨2, ![n, c]⟩ : Shape).size 1)) : h.lift (ix1 r) k = ix2 r (⟨k.val, k.isLt⟩ : Fin c) := by
  funext a; apply Fin.ext
  fin_cases a <;> rfl

/-- The index `(r, s)` with `k` put back on the last axis is `(r, s, k)`. -/
theorem lift_last3 {n p c : ℕ} (h : (⟨3, ![n, p, c]⟩ : Shape).Reduces [2] ⟨2, ![n, p]⟩) (r : Fin n) (s : Fin p)
    (k : Fin ((⟨3, ![n, p, c]⟩ : Shape).size 2)) : h.lift (ix2 r s) k = ix3 r s (⟨k.val, k.isLt⟩ : Fin c) := by
  funext a; apply Fin.ext
  fin_cases a <;> rfl

/-- A reduction by maximum over the last axis of an `[n, c]` array is, at `r`, the fold of `max` over row `r` from the
    initial value. -/
theorem reduce_max_last2 {n c : ℕ} {u : Shape} (x : FVec Ideal ⟨2, ![n, c]⟩ .f32) (init : FVec Ideal u .f32)
    (h' : (⟨2, ![n, c]⟩ : Shape).ReducesTo [1] ⟨1, ![n]⟩) (h : (⟨2, ![n, c]⟩ : Shape).Reduces [1] ⟨1, ![n]⟩) (hu : 0 < u.numel) (r : Fin n) :
    Host.reduce FloatOps.maximumf x init h' hu (ix1 r)
      = (Finset.univ : Finset (Fin c)).fold max (init (Shape.Idx.first hu)) (fun k => x (ix2 r k)) := by
  rw [Host.reduce_eq_fold_single FloatOps.maximumf x init h' h hu]
  have hf : (x ∘ h.lift (ix1 r)) = fun k : Fin c => x (ix2 r k) := funext fun k => congrArg x (lift_last2 h r k)
  exact congrArg (fun f => Finset.fold max (init (Shape.Idx.first hu)) f (Finset.univ : Finset (Fin c))) hf

/-- The same over the last axis of an `[n, p, c]` array, at `(r, s)`. -/
theorem reduce_max_last3 {n p c : ℕ} {u : Shape} (x : FVec Ideal ⟨3, ![n, p, c]⟩ .f32) (init : FVec Ideal u .f32)
    (h' : (⟨3, ![n, p, c]⟩ : Shape).ReducesTo [2] ⟨2, ![n, p]⟩) (h : (⟨3, ![n, p, c]⟩ : Shape).Reduces [2] ⟨2, ![n, p]⟩) (hu : 0 < u.numel)
    (r : Fin n) (s : Fin p) :
    Host.reduce FloatOps.maximumf x init h' hu (ix2 r s)
      = (Finset.univ : Finset (Fin c)).fold max (init (Shape.Idx.first hu)) (fun k => x (ix3 r s k)) := by
  rw [Host.reduce_eq_fold_single FloatOps.maximumf x init h' h hu]
  have hf : (x ∘ h.lift (ix2 r s)) = fun k : Fin c => x (ix3 r s k) := funext fun k => congrArg x (lift_last3 h r s k)
  exact congrArg (fun f => Finset.fold max (init (Shape.Idx.first hu)) f (Finset.univ : Finset (Fin c))) hf

/-- A sum over the last axis of an `[n, c]` array is, at `r`, the initial value plus the sum of row `r`. -/
theorem reduceAdd_last2 {n c : ℕ} {u : Shape} (x : FVec Ideal ⟨2, ![n, c]⟩ .f32) (init : FVec Ideal u .f32)
    (h' : (⟨2, ![n, c]⟩ : Shape).ReducesTo [1] ⟨1, ![n]⟩) (h : (⟨2, ![n, c]⟩ : Shape).Reduces [1] ⟨1, ![n]⟩) (hu : 0 < u.numel) (r : Fin n) :
    Host.reduceAdd x init h' hu (ix1 r) = init (Shape.Idx.first hu) + ∑ k : Fin c, x (ix2 r k) := by
  refine (Ideal.hostReduceAdd_single h' h x (init (Shape.Idx.first hu)) (ix1 r)).trans ?_
  refine congrArg (fun z => init (Shape.Idx.first hu) + z) ?_
  exact Fintype.sum_congr _ _ (fun k => congrArg x (lift_last2 h r k))

/-- The same over the last axis of an `[n, p, c]` array, at `(r, s)`. -/
theorem reduceAdd_last3 {n p c : ℕ} {u : Shape} (x : FVec Ideal ⟨3, ![n, p, c]⟩ .f32) (init : FVec Ideal u .f32)
    (h' : (⟨3, ![n, p, c]⟩ : Shape).ReducesTo [2] ⟨2, ![n, p]⟩) (h : (⟨3, ![n, p, c]⟩ : Shape).Reduces [2] ⟨2, ![n, p]⟩) (hu : 0 < u.numel)
    (r : Fin n) (s : Fin p) :
    Host.reduceAdd x init h' hu (ix2 r s) = init (Shape.Idx.first hu) + ∑ k : Fin c, x (ix3 r s k) := by
  refine (Ideal.hostReduceAdd_single h' h x (init (Shape.Idx.first hu)) (ix2 r s)).trans ?_
  refine congrArg (fun z => init (Shape.Idx.first hu) + z) ?_
  exact Fintype.sum_congr _ _ (fun k => congrArg x (lift_last3 h r s k))

/-- The host's exponential and logarithm act entry by entry. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-! ## The two log-softmaxes at an index -/

theorem lsm2V_apply (v : FVec Ideal S16384x33 .f32) (b : Fin 16384) (k : Fin 33) :
    lsm2V v (ix2 b k) = Cert.HSoft.lsm (fun k' => v (ix2 b k')) k := by
  unfold lsm2V
  dsimp only
  -- the row maxima: the fold from minus infinity, compared with minus infinity once more
  have hm : ∀ b' : Fin 16384,
      (maximumf (broadcastInDim S16384 ![] bcast_S_S16384 (constant S_ .f32 0xFF800000#32))
        (Host.reduce FloatOps.maximumf v (constant S_ .f32 0xFF800000#32) reducesTo_S16384x33_S16384_d1 h_S_)
        : FVec Ideal S16384 .f32) (ix1 b') = Cert.HSoft.rowMax (fun k' => v (ix2 b' k')) := by
    intro b'
    refine (maximumf_apply _ _ _).trans ?_
    unfold Cert.HSoft.rowMax Cert.HSoft.negInf
    refine congrArg₂ max ?_ ?_
    · exact bcast_scalar_apply _ _ _ _ ix0
    · exact reduce_max_last2 v _ _ (by decide) _ b'
  generalize (maximumf (broadcastInDim S16384 ![] bcast_S_S16384 (constant S_ .f32 0xFF800000#32))
        (Host.reduce FloatOps.maximumf v (constant S_ .f32 0xFF800000#32) reducesTo_S16384x33_S16384_d1 h_S_)
        : FVec Ideal S16384 .f32) = m at hm ⊢
  -- the shifted entries
  have hs : ∀ k' : Fin 33,
      (subf v (broadcastInDim S16384x33 ![0, 1] bcast_S16384x1_S16384x33_0_1
        (broadcastInDim S16384x1 ![0] bcast_S16384_S16384x1_0 m)) : FVec Ideal S16384x33 .f32) (ix2 b k')
        = v (ix2 b k') - Cert.HSoft.rowMax (fun k' => v (ix2 b k')) := by
    intro k'
    refine (subf_apply _ _ _).trans ?_
    refine congrArg (fun z => v (ix2 b k') - z) ?_
    exact ((bcast_n1_nc_apply _ _ b k').trans (bcast_n_n1_apply _ _ b 0)).trans (hm b)
  generalize (subf v (broadcastInDim S16384x33 ![0, 1] bcast_S16384x1_S16384x33_0_1
        (broadcastInDim S16384x1 ![0] bcast_S16384_S16384x1_0 m)) : FVec Ideal S16384x33 .f32) = sft at hs ⊢
  -- the result: a shifted entry minus the logarithm of the row's sum of exponentials
  refine (subf_apply _ _ _).trans ?_
  unfold Cert.HSoft.lsm
  refine congrArg₂ (fun x y : EReal => x - y) (hs k) ?_
  refine (bcast_n1_nc_apply _ _ b k).trans ?_
  refine (hostLog_apply _ _).trans ?_
  refine congrArg Ideal.log ?_
  refine (bcast_n_n1_apply _ _ b 0).trans ?_
  refine (reduceAdd_last2 _ _ _ (by decide) _ b).trans ?_
  refine (congrArg (fun z : EReal => z + ∑ k' : Fin 33, Host.exp sft (ix2 b k')) Ideal.ofBits_zero_f32).trans ?_
  refine (zero_add _).trans ?_
  exact Fintype.sum_congr _ _ (fun k' => (hostExp_apply sft (ix2 b k')).trans (congrArg Ideal.exp (hs k')))

theorem lsm3V_apply (v : FVec Ideal S16384x32x33 .f32) (b : Fin 16384) (j : Fin 32) (k : Fin 33) :
    lsm3V v (ix3 b j k) = Cert.HSoft.lsm (fun k' => v (ix3 b j k')) k := by
  unfold lsm3V
  dsimp only
  -- the row maxima: the fold from minus infinity, compared with minus infinity once more
  have hm : ∀ (b' : Fin 16384) (j' : Fin 32),
      (maximumf (broadcastInDim S16384x32 ![] bcast_S_S16384x32 (constant S_ .f32 0xFF800000#32))
        (Host.reduce FloatOps.maximumf v (constant S_ .f32 0xFF800000#32) reducesTo_S16384x32x33_S16384x32_d2 h_S_)
        : FVec Ideal S16384x32 .f32) (ix2 b' j') = Cert.HSoft.rowMax (fun k' => v (ix3 b' j' k')) := by
    intro b' j'
    refine (maximumf_apply _ _ _).trans ?_
    unfold Cert.HSoft.rowMax Cert.HSoft.negInf
    refine congrArg₂ max ?_ ?_
    · exact bcast_scalar_apply _ _ _ _ ix0
    · exact reduce_max_last3 v _ _ (by decide) _ b' j'
  generalize (maximumf (broadcastInDim S16384x32 ![] bcast_S_S16384x32 (constant S_ .f32 0xFF800000#32))
        (Host.reduce FloatOps.maximumf v (constant S_ .f32 0xFF800000#32) reducesTo_S16384x32x33_S16384x32_d2 h_S_)
        : FVec Ideal S16384x32 .f32) = m at hm ⊢
  -- the shifted entries
  have hs : ∀ k' : Fin 33,
      (subf v (broadcastInDim S16384x32x33 ![0, 1, 2] bcast_S16384x32x1_S16384x32x33_0_1_2
        (broadcastInDim S16384x32x1 ![0, 1] bcast_S16384x32_S16384x32x1_0_1 m)) : FVec Ideal S16384x32x33 .f32) (ix3 b j k')
        = v (ix3 b j k') - Cert.HSoft.rowMax (fun k' => v (ix3 b j k')) := by
    intro k'
    refine (subf_apply _ _ _).trans ?_
    refine congrArg (fun z => v (ix3 b j k') - z) ?_
    exact ((bcast_np1_npc_apply _ _ b j k').trans (bcast_np_np1_apply _ _ b j 0)).trans (hm b j)
  generalize (subf v (broadcastInDim S16384x32x33 ![0, 1, 2] bcast_S16384x32x1_S16384x32x33_0_1_2
        (broadcastInDim S16384x32x1 ![0, 1] bcast_S16384x32_S16384x32x1_0_1 m)) : FVec Ideal S16384x32x33 .f32) = sft at hs ⊢
  -- the result: a shifted entry minus the logarithm of the row's sum of exponentials
  refine (subf_apply _ _ _).trans ?_
  unfold Cert.HSoft.lsm
  refine congrArg₂ (fun x y : EReal => x - y) (hs k) ?_
  refine (bcast_np1_npc_apply _ _ b j k).trans ?_
  refine (hostLog_apply _ _).trans ?_
  refine congrArg Ideal.log ?_
  refine (bcast_np_np1_apply _ _ b j 0).trans ?_
  refine (reduceAdd_last3 _ _ _ (by decide) _ b j).trans ?_
  refine (congrArg (fun z : EReal => z + ∑ k' : Fin 33, Host.exp sft (ix3 b j k')) Ideal.ofBits_zero_f32).trans ?_
  refine (zero_add _).trans ?_
  exact Fintype.sum_congr _ _ (fun k' => (hostExp_apply sft (ix3 b j k')).trans (congrArg Ideal.exp (hs k')))

end Cert.ReferenceIdeal.RLsm

end
-- ==== Proof.LibHostRead.lean ====
/-
  Host operations read at an index.

  A `stablehlo.reduce` by `and` from 1 is 1 where every operand entry reducing into the result is 1; over a unit last
  axis that is one entry. A broadcast of an `[n, p]` array along a new last axis reads the operand at `(r, s)`. A reshape
  of `[n, a, b]` to `[n, a * b]` reads, at `(r, q)`, the operand at `(r, q / b, q % b)`.
-/
import Idealize.ShloMosaic.PureOps.Reduce
import Idealize.ShloMosaic.Lib.ReduceAll
import Idealize.ShloMosaic.Lib.ValueIdx
import Idealize.ShloMosaic.Lib.Pipeline.Value

namespace Cert.LibHostRead

open Idealize.ShloMosaic Idealize.ShloMosaic.ValueIdx

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have ha : f a = 1#1 := h a (List.mem_cons_self ..)
    have e : IntOp.andi 1#1 (f a) = 1#1 := by rw [ha]; decide
    rw [List.foldl_cons, e]
    exact foldl_andi_one f l (fun n hn => h n (List.mem_cons_of_mem _ hn))

/-- A `stablehlo.reduce` by `and` from 1 is 1 at `j` when every operand entry that reduces into `j` is 1. -/
theorem reduce_andi_of_forall {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl, hinit]
  refine foldl_andi_one x _ (fun i hi => ?_)
  rw [List.mem_filter] at hi
  exact hx i (by simpa using hi.2)

/-- Over a unit last axis the entries reducing into `(r, s)` are the one at `(r, s, 0)`. -/
theorem drop_unit_last {n p : Nat} (h : (⟨3, ![n, p, 1]⟩ : Shape).ReducesTo [2] ⟨2, ![n, p]⟩)
    (i : (⟨3, ![n, p, 1]⟩ : Shape).Idx) (r : Fin n) (s : Fin p) (hi : h.drop i = ix2 r s) : i = ix3 r s (0 : Fin 1) := by
  have h0 : (h.drop i 0).val = r.val := congrArg (fun k => (k 0).val) hi
  have h1 : (h.drop i 1).val = s.val := congrArg (fun k => (k 1).val) hi
  refine (eq_ix3 i).trans ?_
  have e0 : i 0 = r := Fin.ext h0
  have e1 : i 1 = s := Fin.ext h1
  have h2 : (i 2).val < 1 := (i 2).isLt
  have e2 : i 2 = (0 : Fin 1) := Fin.ext (by show (i 2).val = 0; omega)
  rw [e0, e1, e2]
  exact rfl

/-- The reduce by `and` from 1 over a unit last axis is 1 at `(r, s)` when the entry at `(r, s, 0)` is. -/
theorem reduce_andi_unit_last {n p : Nat} {u : Shape} (x : (⟨3, ![n, p, 1]⟩ : Shape).Idx → BitVec 1) (init : u.Idx → BitVec 1)
    (h : (⟨3, ![n, p, 1]⟩ : Shape).ReducesTo [2] ⟨2, ![n, p]⟩) (hu : 0 < u.numel) (r : Fin n) (s : Fin p)
    (hinit : init (Shape.Idx.first hu) = 1#1) (hx : x (ix3 r s (0 : Fin 1)) = 1#1) :
    Host.reduce IntOp.andi x init h hu (ix2 r s) = 1#1 :=
  reduce_andi_of_forall x init h hu _ hinit (fun i hi => by rw [drop_unit_last h i r s hi]; exact hx)

/-- An `[n, p]` array broadcast along a new last axis reads, at `(r, s, j)`, the operand at `(r, s)`. -/
theorem bcast_pairs_apply {α : Type} {n p c : Nat} (h : (⟨2, ![n, p]⟩ : Shape).BroadcastsInDim ⟨3, ![n, p, c]⟩ ![0, 1])
    (x : (⟨2, ![n, p]⟩ : Shape).Idx → α) (r : Fin n) (s : Fin p) (j : Fin c) :
    broadcastInDim ⟨3, ![n, p, c]⟩ ![0, 1] h x (ix3 r s j) = x (ix2 r s) := by
  refine broadcastInDim_apply _ h x _ _ (fun a => ?_)
  match a with
  | ⟨0, _⟩ =>
    show r.val = if n = 1 then 0 else r.val
    split
    · have := r.isLt; omega
    · rfl
  | ⟨1, _⟩ =>
    show s.val = if p = 1 then 0 else s.val
    split
    · have := s.isLt; omega
    · rfl

/-- An `[n, a, b]` array reshaped to `[n, a * b]` reads, at `(r, q)`, the operand at `(r, q / b, q % b)`. -/
theorem reshape_pairs_apply {α : Type} {n a b c : Nat} (hc : c = a * b) (hb : 0 < b)
    (x : (⟨3, ![n, a, b]⟩ : Shape).Idx → α) (h : (⟨3, ![n, a, b]⟩ : Shape).ShapeCasts ⟨2, ![n, c]⟩) (r : Fin n) (q : Fin c) :
    shapeCast ⟨2, ![n, c]⟩ x h (ix2 r q)
      = x (ix3 r ⟨q.val / b, by subst hc; exact Nat.div_lt_of_lt_mul (lt_of_lt_of_eq q.isLt (Nat.mul_comm a b))⟩ ⟨q.val % b, Nat.mod_lt _ hb⟩) := by
  subst hc
  refine shapeCast_apply x h _ _ ?_
  rw [Shape.rowMajor_val_three, Shape.rowMajor_val_two]
  show (r.val * a + q.val / b) * b + q.val % b = r.val * (a * b) + q.val
  rw [Nat.add_mul, Nat.mul_assoc, Nat.add_assoc, Nat.div_add_mod']

end Cert.LibHostRead
-- ==== Proof.RTake.lean ====
/-
  Reading an array along its last axis at one index per row.

  The host reads `a[b, i[b]]` (and, with one more leading axis, `a[b, j, i[b, j]]`) in five steps: an index below zero
  is moved up by the axis length 33; the index gets one more unit axis; a mask says where the moved index lies in
  `0 … 32` (the two comparisons, joined, and reduced by `and` over the unit axis); a gather reads the operand at the
  index clamped into the axis; and where the mask is off the result is a not-a-number fill instead of the gathered
  value. When the index word names one of the 33 slots it is not negative, so it is kept; it lies in range, so the mask
  is on; and the clamp leaves it alone: the result is the operand at that slot.
-/
import proofs.«419181_j50646254354828_1_alg».proof.ReferenceIdeal
import proofs.«419181_j50646254354828_1_alg».proof.Proof.Gen.ReferenceIdeal
import proofs.«419181_j50646254354828_1_alg».proof.Proof.Spec
import proofs.«419181_j50646254354828_1_alg».proof.Proof.LibHostRead
import Idealize.ShloMosaic.Lib.ValueIdx
import Idealize.ShloMosaic.Lib.Pipeline.Value

noncomputable section

namespace Cert.ReferenceIdeal.RTake

open Idealize.ShloMosaic Idealize.ShloMosaic.ValueIdx
open Cert.ReferenceIdeal Cert.ReferenceIdeal.Facts₀ Cert.ReferenceIdeal.Facts

variable {F : FTy → Type} [FloatOps F]

/-! ## The two functions, operation by operation -/

/-- `a[b, i[b, 0]]` for every row `b`, as the host computes it. -/
def take2V (a : FVec F S16384x33 .f32) (i : IVec S16384x1 32) : FVec F S16384x1 .f32 :=
  have c : IVec S_ 32 := constantI S_ 32 0#32
  have v0 : IVec S16384x1 32 := broadcastInDim S16384x1 ![] bcast_S_S16384x1 c
  have v1 : IVec S16384x1 1 := cmpi .slt i v0
  have c_0 : IVec S_ 32 := constantI S_ 32 33#32
  have v2 : IVec S16384x1 32 := broadcastInDim S16384x1 ![] bcast_S_S16384x1 c_0
  have v3 : IVec S16384x1 32 := addi i v2
  have v4 : IVec S16384x1 32 := select v1 v3 i
  have v5 : IVec S16384x1x1 32 := shapeCast S16384x1x1 v4 shapeCasts_S16384x1_S16384x1x1
  have c_1 : IVec S1 32 := constantI S1 32 32#32
  have c_2 : IVec S_ 32 := constantI S_ 32 0#32
  have v6 : IVec S16384x1x1 32 := broadcastInDim S16384x1x1 ![] bcast_S_S16384x1x1 c_2
  have v7 : IVec S16384x1x1 1 := cmpi .sge v5 v6
  have v8 : IVec S1x1x1 32 := broadcastInDim S1x1x1 ![2] bcast_S1_S1x1x1_2 c_1
  have v9 : IVec S16384x1x1 32 := broadcastInDim S16384x1x1 ![0, 1, 2] bcast_S1x1x1_S16384x1x1_0_1_2 v8
  have v10 : IVec S16384x1x1 1 := cmpi .sle v5 v9
  have v11 : IVec S16384x1x1 1 := andi v7 v10
  have c_3 : IVec S_ 1 := constantI S_ 1 1#1
  have v12 : IVec S16384x1 1 := Host.reduce IntOp.andi v11 c_3 reducesTo_S16384x1x1_S16384x1_d2 h_S_
  have v13 : FVec F S16384x1 .f32 := Host.gather gather_S16384x33_S16384x1x1_S16384x1_n_1_0_0_1_2_11 a v5
  have cst : FVec F S_ .f32 := constant S_ .f32 0x7FC00000#32
  have v14 : FVec F S16384x1 .f32 := broadcastInDim S16384x1 ![] bcast_S_S16384x1 cst
  have v15 : FVec F S16384x1 .f32 := select v12 v13 v14
  v15

/-- `a[b, j, i[b, j, 0]]` for every row `b` and inner node `j`, as the host computes it. -/
def take3V (a : FVec F S16384x32x33 .f32) (i : IVec S16384x32x1 32) : FVec F S16384x32x1 .f32 :=
  have c : IVec S_ 32 := constantI S_ 32 0#32
  have v0 : IVec S16384x32x1 32 := broadcastInDim S16384x32x1 ![] bcast_S_S16384x32x1 c
  have v1 : IVec S16384x32x1 1 := cmpi .slt i v0
  have c_0 : IVec S_ 32 := constantI S_ 32 33#32
  have v2 : IVec S16384x32x1 32 := broadcastInDim S16384x32x1 ![] bcast_S_S16384x32x1 c_0
  have v3 : IVec S16384x32x1 32 := addi i v2
  have v4 : IVec S16384x32x1 32 := select v1 v3 i
  have v5 : IVec S16384x32x1x1 32 := shapeCast S16384x32x1x1 v4 shapeCasts_S16384x32x1_S16384x32x1x1
  have c_1 : IVec S1 32 := constantI S1 32 32#32
  have c_2 : IVec S_ 32 := constantI S_ 32 0#32
  have v6 : IVec S16384x32x1x1 32 := broadcastInDim S16384x32x1x1 ![] bcast_S_S16384x32x1x1 c_2
  have v7 : IVec S16384x32x1x1 1 := cmpi .sge v5 v6
  have v8 : IVec S1x1x1x1 32 := broadcastInDim S1x1x1x1 ![3] bcast_S1_S1x1x1x1_3 c_1
  have v9 : IVec S16384x32x1x1 32 := broadcastInDim S16384x32x1x1 ![0, 1, 2, 3] bcast_S1x1x1x1_S16384x32x1x1_0_1_2_3 v8
  have v10 : IVec S16384x32x1x1 1 := cmpi .sle v5 v9
  have v11 : IVec S16384x32x1x1 1 := andi v7 v10
  have c_3 : IVec S_ 1 := constantI S_ 1 1#1
  have v12 : IVec S16384x32x1 1 := Host.reduce IntOp.andi v11 c_3 reducesTo_S16384x32x1x1_S16384x32x1_d3 h_S_
  have v13 : FVec F S16384x32x1 .f32 := Host.gather gather_S16384x32x33_S16384x32x1x1_S16384x32x1_n_2_01_01_2_3_111 a v5
  have cst : FVec F S_ .f32 := constant S_ .f32 0x7FC00000#32
  have v14 : FVec F S16384x32x1 .f32 := broadcastInDim S16384x32x1 ![] bcast_S_S16384x32x1 cst
  have v15 : FVec F S16384x32x1 .f32 := select v12 v13 v14
  v15

/-! ## The index words -/

/-- A word naming one of the 33 slots is not negative, lies in `0 … 32`, and is left alone by the clamp into the axis. -/
theorem slot_word : ∀ n : Fin 33,
    IntOp.cmpi .slt (BitVec.ofNat 32 n.val) 0#32 = 0#1 ∧ IntOp.cmpi .sge (BitVec.ofNat 32 n.val) 0#32 = 1#1 ∧
    IntOp.cmpi .sle (BitVec.ofNat 32 n.val) 32#32 = 1#1 ∧ min (BitVec.ofNat 32 n.val).toInt.toNat 32 = n.val := by
  decide

/-! ## The two gathers read at an index -/

/-- The gather of the 2-axis read: row `b` of the operand at the row's start index, clamped into `0 … 32`. -/
theorem gather2_apply {α : Type} {w : Nat} (x : S16384x33.Idx → α) (idx : IVec S16384x1x1 w) (b : Fin 16384) :
    Host.gather gather_S16384x33_S16384x1x1_S16384x1_n_1_0_0_1_2_11 x idx (ix2 b (0 : Fin 1))
      = x (ix2 b ⟨min (idx (ix3 b (0 : Fin 1) (0 : Fin 1))).toInt.toNat 32, by omega⟩) := by
  -- the gather reads the operand at the operand index; compare the two indices axis by axis
  have n10 : (1 : Fin 2) ∉ ([0] : List (Fin 2)) := by decide
  unfold Host.gather
  congr 1
  funext a
  refine Fin.ext ?_
  match a with
  | ⟨0, _⟩ =>
    -- the batching axis: no start, no offset; the batch coordinate is the result's leading coordinate
    show gather_S16384x33_S16384x1x1_S16384x1_n_1_0_0_1_2_11.start (ix2 b 0) idx 0
      + gather_S16384x33_S16384x1x1_S16384x1_n_1_0_0_1_2_11.batchCoord (ix2 b 0) 0
      + gather_S16384x33_S16384x1x1_S16384x1_n_1_0_0_1_2_11.offCoord (ix2 b 0) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16384x33_S16384x1x1_S16384x1_n_1_0_0_1_2_11.operandBatchingDims
      from List.mem_singleton.mpr rfl)]
    rfl
  | ⟨1, _⟩ =>
    -- the axis the start index names: collapsed and not batching, so only the clamped start, read at (b, 0, 0)
    show gather_S16384x33_S16384x1x1_S16384x1_n_1_0_0_1_2_11.start (ix2 b 0) idx 1
      + gather_S16384x33_S16384x1x1_S16384x1_n_1_0_0_1_2_11.batchCoord (ix2 b 0) 1
      + gather_S16384x33_S16384x1x1_S16384x1_n_1_0_0_1_2_11.offCoord (ix2 b 0) 1
      = min (idx (ix3 b (0 : Fin 1) (0 : Fin 1))).toInt.toNat 32
    rw [GatherDims.batchCoord_eq_zero _ _ _ n10,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x33_S16384x1x1_S16384x1_n_1_0_0_1_2_11.startIndexMap
      from List.mem_singleton.mpr rfl)]
    have hsi : gather_S16384x33_S16384x1x1_S16384x1_n_1_0_0_1_2_11.siIdx (ix2 b 0)
        ⟨List.idxOf (1 : Fin 2) gather_S16384x33_S16384x1x1_S16384x1_n_1_0_0_1_2_11.startIndexMap,
          List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-- The gather of the 3-axis read: row `(b, j)` of the operand at that row's start index, clamped into `0 … 32`. -/
theorem gather3_apply {α : Type} {w : Nat} (x : S16384x32x33.Idx → α) (idx : IVec S16384x32x1x1 w) (b : Fin 16384) (j : Fin 32) :
    Host.gather gather_S16384x32x33_S16384x32x1x1_S16384x32x1_n_2_01_01_2_3_111 x idx (ix3 b j (0 : Fin 1))
      = x (ix3 b j ⟨min (idx (ix4 b j (0 : Fin 1) (0 : Fin 1))).toInt.toNat 32, by omega⟩) := by
  have m0 : (0 : Fin 3) ∈ ([0, 1] : List (Fin 3)) := by decide
  have m1 : (1 : Fin 3) ∈ ([0, 1] : List (Fin 3)) := by decide
  have n2 : (2 : Fin 3) ∉ ([0, 1] : List (Fin 3)) := by decide
  unfold Host.gather
  congr 1
  funext a
  refine Fin.ext ?_
  match a with
  | ⟨0, _⟩ =>
    -- the first batching axis: the result's leading coordinate
    show gather_S16384x32x33_S16384x32x1x1_S16384x32x1_n_2_01_01_2_3_111.start (ix3 b j 0) idx 0
      + gather_S16384x32x33_S16384x32x1x1_S16384x32x1_n_2_01_01_2_3_111.batchCoord (ix3 b j 0) 0
      + gather_S16384x32x33_S16384x32x1x1_S16384x32x1_n_2_01_01_2_3_111.offCoord (ix3 b j 0) 0 = b.val
    rw [GatherDims.start_batching _ _ _ _ m0,
      GatherDims.offCoord_eq_zero _ _ _ (fun h => ((GatherDims.mem_sKept _ _).mp h).2 m0)]
    simp only [Nat.zero_add, Nat.add_zero]
    unfold GatherDims.batchCoord
    rw [dif_pos (show (0 : Fin 3) ∈ gather_S16384x32x33_S16384x32x1x1_S16384x32x1_n_2_01_01_2_3_111.operandBatchingDims from m0)]
    rfl
  | ⟨1, _⟩ =>
    -- the second batching axis: the result's middle coordinate
    show gather_S16384x32x33_S16384x32x1x1_S16384x32x1_n_2_01_01_2_3_111.start (ix3 b j 0) idx 1
      + gather_S16384x32x33_S16384x32x1x1_S16384x32x1_n_2_01_01_2_3_111.batchCoord (ix3 b j 0) 1
      + gather_S16384x32x33_S16384x32x1x1_S16384x32x1_n_2_01_01_2_3_111.offCoord (ix3 b j 0) 1 = j.val
    rw [GatherDims.start_batching _ _ _ _ m1,
      GatherDims.offCoord_eq_zero _ _ _ (fun h => ((GatherDims.mem_sKept _ _).mp h).2 m1)]
    simp only [Nat.zero_add, Nat.add_zero]
    unfold GatherDims.batchCoord
    rw [dif_pos (show (1 : Fin 3) ∈ gather_S16384x32x33_S16384x32x1x1_S16384x32x1_n_2_01_01_2_3_111.operandBatchingDims from m1)]
    rfl
  | ⟨2, _⟩ =>
    -- the axis the start index names: collapsed and not batching, so only the clamped start, read at (b, j, 0, 0)
    show gather_S16384x32x33_S16384x32x1x1_S16384x32x1_n_2_01_01_2_3_111.start (ix3 b j 0) idx 2
      + gather_S16384x32x33_S16384x32x1x1_S16384x32x1_n_2_01_01_2_3_111.batchCoord (ix3 b j 0) 2
      + gather_S16384x32x33_S16384x32x1x1_S16384x32x1_n_2_01_01_2_3_111.offCoord (ix3 b j 0) 2
      = min (idx (ix4 b j (0 : Fin 1) (0 : Fin 1))).toInt.toNat 32
    rw [GatherDims.batchCoord_eq_zero _ _ _ n2,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S16384x32x33_S16384x32x1x1_S16384x32x1_n_2_01_01_2_3_111.startIndexMap
      from List.mem_singleton.mpr rfl)]
    have hsi : gather_S16384x32x33_S16384x32x1x1_S16384x32x1_n_2_01_01_2_3_111.siIdx (ix3 b j 0)
        ⟨List.idxOf (2 : Fin 3) gather_S16384x32x33_S16384x32x1x1_S16384x32x1_n_2_01_01_2_3_111.startIndexMap,
          List.idxOf_lt_length_iff.2 (List.mem_singleton.mpr rfl)⟩ = ix4 b j (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-! ## The mask over a unit last axis of a 4-axis array -/

/-- Over a unit last axis of a 4-axis array the entries reducing into `(r, s, t)` are the one at `(r, s, t, 0)`. -/
theorem drop_unit_last4 {n p q : Nat} (h : (⟨4, ![n, p, q, 1]⟩ : Shape).ReducesTo [3] ⟨3, ![n, p, q]⟩)
    (i : (⟨4, ![n, p, q, 1]⟩ : Shape).Idx) (r : Fin n) (s : Fin p) (t : Fin q) (hi : h.drop i = ix3 r s t) :
    i = ix4 r s t (0 : Fin 1) := by
  have h0 : (h.drop i 0).val = r.val := congrArg (fun k => (k 0).val) hi
  have h1 : (h.drop i 1).val = s.val := congrArg (fun k => (k 1).val) hi
  have h2 : (h.drop i 2).val = t.val := congrArg (fun k => (k 2).val) hi
  refine (eq_ix4 i).trans ?_
  have e0 : i 0 = r := Fin.ext h0
  have e1 : i 1 = s := Fin.ext h1
  have e2 : i 2 = t := Fin.ext h2
  have h3 : (i 3).val < 1 := (i 3).isLt
  have e3 : i 3 = (0 : Fin 1) := Fin.ext (by show (i 3).val = 0; omega)
  rw [e0, e1, e2, e3]
  exact rfl

/-- The reduce by `and` from 1 over that unit last axis is 1 at `(r, s, t)` when the entry at `(r, s, t, 0)` is. -/
theorem reduce_andi_unit_last4 {n p q : Nat} {u : Shape} (x : (⟨4, ![n, p, q, 1]⟩ : Shape).Idx → BitVec 1)
    (init : u.Idx → BitVec 1) (h : (⟨4, ![n, p, q, 1]⟩ : Shape).ReducesTo [3] ⟨3, ![n, p, q]⟩) (hu : 0 < u.numel)
    (r : Fin n) (s : Fin p) (t : Fin q) (hinit : init (Shape.Idx.first hu) = 1#1)
    (hx : x (ix4 r s t (0 : Fin 1)) = 1#1) : Host.reduce IntOp.andi x init h hu (ix3 r s t) = 1#1 :=
  Cert.LibHostRead.reduce_andi_of_forall x init h hu _ hinit
    (fun i hi => by rw [drop_unit_last4 h i r s t hi]; exact hx)

/-! ## Mask, gather and select over an index array that names a slot -/

/-- The 2-axis read over an index array (already carrying its unit axis) whose entry at `(b, 0, 0)` names slot `n`:
    the mask is on there, the gather reads slot `n`, and the select keeps it. -/
theorem core2 (a : FVec Ideal S16384x33 .f32) (v5 : IVec S16384x1x1 32) (b : Fin 16384) (n : Fin 33)
    (h5 : v5 (ix3 b (0 : Fin 1) (0 : Fin 1)) = BitVec.ofNat 32 n.val) :
    select
      (Host.reduce IntOp.andi
        (andi (cmpi .sge v5 (broadcastInDim S16384x1x1 ![] bcast_S_S16384x1x1 (constantI S_ 32 0#32)))
          (cmpi .sle v5 (broadcastInDim S16384x1x1 ![0, 1, 2] bcast_S1x1x1_S16384x1x1_0_1_2
            (broadcastInDim S1x1x1 ![2] bcast_S1_S1x1x1_2 (constantI S1 32 32#32)))))
        (constantI S_ 1 1#1) reducesTo_S16384x1x1_S16384x1_d2 h_S_)
      (Host.gather gather_S16384x33_S16384x1x1_S16384x1_n_1_0_0_1_2_11 a v5)
      (broadcastInDim S16384x1 ![] bcast_S_S16384x1 (constant (F := Ideal) S_ .f32 0x7FC00000#32))
      (ix2 b (0 : Fin 1)) = a (ix2 b n) := by
  obtain ⟨_, hge, hle, hmin⟩ := slot_word n
  rw [select_apply]
  have hm : Host.reduce IntOp.andi
      (andi (cmpi .sge v5 (broadcastInDim S16384x1x1 ![] bcast_S_S16384x1x1 (constantI S_ 32 0#32)))
        (cmpi .sle v5 (broadcastInDim S16384x1x1 ![0, 1, 2] bcast_S1x1x1_S16384x1x1_0_1_2
          (broadcastInDim S1x1x1 ![2] bcast_S1_S1x1x1_2 (constantI S1 32 32#32)))))
      (constantI S_ 1 1#1) reducesTo_S16384x1x1_S16384x1_d2 h_S_ (ix2 b (0 : Fin 1)) = 1#1 := by
    refine Cert.LibHostRead.reduce_andi_unit_last _ _ _ _ b (0 : Fin 1) rfl ?_
    show IntOp.andi (IntOp.cmpi .sge (v5 (ix3 b (0 : Fin 1) (0 : Fin 1))) 0#32)
      (IntOp.cmpi .sle (v5 (ix3 b (0 : Fin 1) (0 : Fin 1))) 32#32) = 1#1
    rw [h5, hge, hle]
    rfl
  rw [hm, select_one, gather2_apply]
  refine congrArg (fun k => a (ix2 b k)) (Fin.ext ?_)
  show min (v5 (ix3 b (0 : Fin 1) (0 : Fin 1))).toInt.toNat 32 = n.val
  rw [h5]
  exact hmin

/-- The 3-axis read likewise, over an index array whose entry at `(b, j, 0, 0)` names slot `n`. -/
theorem core3 (a : FVec Ideal S16384x32x33 .f32) (v5 : IVec S16384x32x1x1 32) (b : Fin 16384) (j : Fin 32) (n : Fin 33)
    (h5 : v5 (ix4 b j (0 : Fin 1) (0 : Fin 1)) = BitVec.ofNat 32 n.val) :
    select
      (Host.reduce IntOp.andi
        (andi (cmpi .sge v5 (broadcastInDim S16384x32x1x1 ![] bcast_S_S16384x32x1x1 (constantI S_ 32 0#32)))
          (cmpi .sle v5 (broadcastInDim S16384x32x1x1 ![0, 1, 2, 3] bcast_S1x1x1x1_S16384x32x1x1_0_1_2_3
            (broadcastInDim S1x1x1x1 ![3] bcast_S1_S1x1x1x1_3 (constantI S1 32 32#32)))))
        (constantI S_ 1 1#1) reducesTo_S16384x32x1x1_S16384x32x1_d3 h_S_)
      (Host.gather gather_S16384x32x33_S16384x32x1x1_S16384x32x1_n_2_01_01_2_3_111 a v5)
      (broadcastInDim S16384x32x1 ![] bcast_S_S16384x32x1 (constant (F := Ideal) S_ .f32 0x7FC00000#32))
      (ix3 b j (0 : Fin 1)) = a (ix3 b j n) := by
  obtain ⟨_, hge, hle, hmin⟩ := slot_word n
  rw [select_apply]
  have hm : Host.reduce IntOp.andi
      (andi (cmpi .sge v5 (broadcastInDim S16384x32x1x1 ![] bcast_S_S16384x32x1x1 (constantI S_ 32 0#32)))
        (cmpi .sle v5 (broadcastInDim S16384x32x1x1 ![0, 1, 2, 3] bcast_S1x1x1x1_S16384x32x1x1_0_1_2_3
          (broadcastInDim S1x1x1x1 ![3] bcast_S1_S1x1x1x1_3 (constantI S1 32 32#32)))))
      (constantI S_ 1 1#1) reducesTo_S16384x32x1x1_S16384x32x1_d3 h_S_ (ix3 b j (0 : Fin 1)) = 1#1 := by
    refine reduce_andi_unit_last4 _ _ _ _ b j (0 : Fin 1) rfl ?_
    show IntOp.andi (IntOp.cmpi .sge (v5 (ix4 b j (0 : Fin 1) (0 : Fin 1))) 0#32)
      (IntOp.cmpi .sle (v5 (ix4 b j (0 : Fin 1) (0 : Fin 1))) 32#32) = 1#1
    rw [h5, hge, hle]
    rfl
  rw [hm, select_one, gather3_apply]
  refine congrArg (fun k => a (ix3 b j k)) (Fin.ext ?_)
  show min (v5 (ix4 b j (0 : Fin 1) (0 : Fin 1))).toInt.toNat 32 = n.val
  rw [h5]
  exact hmin

/-! ## Read at a slot -/

/-- THE 2-AXIS READ: where the index word of row `b` names slot `n`, the result at `(b, 0)` is the operand at `(b, n)`. -/
theorem take2V_apply (a : FVec Ideal S16384x33 .f32) (i : IVec S16384x1 32) (b : Fin 16384) (n : Fin 33)
    (h : i (ix2 b (0 : Fin 1)) = BitVec.ofNat 32 n.val) : take2V a i (ix2 b (0 : Fin 1)) = a (ix2 b n) := by
  obtain ⟨hneg, _, _, _⟩ := slot_word n
  unfold take2V
  refine core2 a _ b n ?_
  -- the index with its unit axis, at (b, 0, 0), is the index at (b, 0): the same row-major position
  refine (shapeCast_apply _ _ _ (ix2 b (0 : Fin 1)) ?_).trans ?_
  · rw [Shape.rowMajor_val_two, Shape.rowMajor_val_three]
    show b.val * 1 + 0 = (b.val * 1 + 0) * 1 + 0
    omega
  -- the word is not negative, so the select keeps it
  · rw [select_apply]
    show Scalar.select (IntOp.cmpi .slt (i (ix2 b (0 : Fin 1))) 0#32) _ (i (ix2 b (0 : Fin 1))) = _
    rw [h, hneg, select_zero]

/-- THE 3-AXIS READ: where the index word of row `(b, j)` names slot `n`, the result at `(b, j, 0)` is the operand at
    `(b, j, n)`. -/
theorem take3V_apply (a : FVec Ideal S16384x32x33 .f32) (i : IVec S16384x32x1 32) (b : Fin 16384) (j : Fin 32) (n : Fin 33)
    (h : i (ix3 b j (0 : Fin 1)) = BitVec.ofNat 32 n.val) : take3V a i (ix3 b j (0 : Fin 1)) = a (ix3 b j n) := by
  obtain ⟨hneg, _, _, _⟩ := slot_word n
  unfold take3V
  refine core3 a _ b j n ?_
  refine (shapeCast_apply _ _ _ (ix3 b j (0 : Fin 1)) ?_).trans ?_
  · rw [Shape.rowMajor_val_three, Shape.rowMajor_val_four]
    show (b.val * 32 + j.val) * 1 + 0 = ((b.val * 32 + j.val) * 1 + 0) * 1 + 0
    omega
  · rw [select_apply]
    show Scalar.select (IntOp.cmpi .slt (i (ix3 b j (0 : Fin 1))) 0#32) _ (i (ix3 b j (0 : Fin 1))) = _
    rw [h, hneg, select_zero]

end Cert.ReferenceIdeal.RTake

end
-- ==== Proof.RefDefs.lean ====
/-
  The reference program's two results as functions of its six argument arrays.

  The reference computes, from the samples, the labels and the two classifiers' weights and biases: the root logits (the
  samples against the transposed root weights, plus the biases spread over the samples); the inner nodes' logits (the
  samples' feature axis contracted with the inner weights' feature axis, plus the biases spread over the samples); the
  first result, the inner logits without slot 0, laid out as 1024 classes per sample; the root term of the penalty (the
  log-softmax of the root logits read at slot `label / 32 + 1`, summed over the samples, divided by their number and
  negated); the inner nodes' targets (`label mod 32 + 1` where the node is the sample's node, slot 0 elsewhere); the
  inner term (the log-softmax of the inner logits read at the targets, negated, summed over the samples and divided by
  their number node by node, then summed over the nodes); and the second result, the root term over one plus the inner
  term over two. Each stage below is the reference's text for it, one line per operation, in the order of the text.
-/
import proofs.«419181_j50646254354828_1_alg».proof.ReferenceIdeal
import proofs.«419181_j50646254354828_1_alg».proof.Proof.Gen.ReferenceIdeal
import proofs.«419181_j50646254354828_1_alg».proof.Proof.Spec
import proofs.«419181_j50646254354828_1_alg».proof.Proof.LabelWords
import proofs.«419181_j50646254354828_1_alg».proof.Proof.RLsm
import proofs.«419181_j50646254354828_1_alg».proof.Proof.RTake

noncomputable section

namespace Cert.ReferenceIdeal.RefDefs

open Idealize.ShloMosaic Idealize.ShloMosaic.ValueIdx
open Cert.ReferenceIdeal Cert.ReferenceIdeal.Facts₀ Cert.ReferenceIdeal.Facts

variable {F : FTy → Type} [FloatOps F]

/-- The root classifier's logits: the samples against the transposed weights, plus the biases spread over the samples. -/
def logits1V (x : FVec F S16384x2048 .f32) (W1 : FVec F S33x2048 .f32) (b1 : FVec F S33 .f32) : FVec F S16384x33 .f32 :=
  have v2 : FVec F S2048x33 .f32 := (transpose S2048x33 [1, 0] · transposes_S33x2048_S2048x33_1_0) W1
  have v3 : FVec F S16384x33 .f32 := (fun l r => Host.dotGeneral dot_S16384x2048_S2048x33_S16384x33_1_0_0_1_n_n none l r) x v2
  have v4 : FVec F S1x33 .f32 := (broadcastInDim S1x33 ![1] bcast_S33_S1x33_1) b1
  have v5 : FVec F S16384x33 .f32 := (broadcastInDim S16384x33 ![0, 1] bcast_S1x33_S16384x33_0_1) v4
  have v6 : FVec F S16384x33 .f32 := addf v3 v5
  v6

/-- The inner nodes' logits: the samples' feature axis contracted with the weights' feature axis, plus the biases spread
    over the samples. -/
def logits2V (x : FVec F S16384x2048 .f32) (W2 : FVec F S32x33x2048 .f32) (b2 : FVec F S32x33 .f32) : FVec F S16384x32x33 .f32 :=
  have v7 : FVec F S16384x32x33 .f32 := (fun l r => Host.dotGeneral dot_S16384x2048_S32x33x2048_S16384x32x33_1_2_0_01_n_n none l r) x W2
  have v8 : FVec F S1x32x33 .f32 := (broadcastInDim S1x32x33 ![1, 2] bcast_S32x33_S1x32x33_1_2) b2
  have v9 : FVec F S16384x32x33 .f32 := (broadcastInDim S16384x32x33 ![0, 1, 2] bcast_S1x32x33_S16384x32x33_0_1_2) v8
  have v10 : FVec F S16384x32x33 .f32 := addf v7 v9
  v10

/-- THE FIRST RESULT: the inner logits without slot 0, 32 nodes of 32 leaves laid out as 1024 classes per sample. -/
def outV (x : FVec F S16384x2048 .f32) (W2 : FVec F S32x33x2048 .f32) (b2 : FVec F S32x33 .f32) : FVec F S16384x1024 .f32 :=
  have v10 : FVec F S16384x32x33 .f32 := logits2V x W2 b2
  have v11 : FVec F S16384x32x32 .f32 := (extractStridedSlice S16384x32x32 ![0, 0, 1] · slices_S16384x32x33_S16384x32x32_0_0_1) v10
  have v12 : FVec F S16384x1024 .f32 := shapeCast S16384x1024 v11 shapeCasts_S16384x32x32_S16384x1024
  v12

/-- The root target column: `label / 32 + 1` for every sample, with a unit axis behind. -/
def rootIdxV (lab : IVec S16384 32) : IVec S16384x1 32 :=
  have v0 : IVec S16384 32 := Cert.HSoft.gVec lab
  have c_1 : IVec S_ 32 := constantI S_ 32 1#32
  have v14 : IVec S16384 32 := (broadcastInDim S16384 ![] bcast_S_S16384) c_1
  have v15 : IVec S16384 32 := addi v0 v14
  have v16 : IVec S16384x1 32 := (broadcastInDim S16384x1 ![0] bcast_S16384_S16384x1_0) v15
  v16

/-- The root log-probabilities of the targets, one per sample. -/
def rootSelV (x : FVec F S16384x2048 .f32) (lab : IVec S16384 32) (W1 : FVec F S33x2048 .f32) (b1 : FVec F S33 .f32) :
    FVec F S16384x1 .f32 :=
  have v6 : FVec F S16384x33 .f32 := logits1V x W1 b1
  have v13 : FVec F S16384x33 .f32 := RLsm.lsm2V v6
  have v16 : IVec S16384x1 32 := rootIdxV lab
  have v17 : FVec F S16384x1 .f32 := RTake.take2V v13 v16
  v17

/-- The root term: minus the mean over the samples of the root log-probabilities of the targets. -/
def rootTermV (x : FVec F S16384x2048 .f32) (lab : IVec S16384 32) (W1 : FVec F S33x2048 .f32) (b1 : FVec F S33 .f32) :
    FVec F S_ .f32 :=
  have v17 : FVec F S16384x1 .f32 := rootSelV x lab W1 b1
  have cst : FVec F S_ .f32 := constant S_ .f32 0x00000000#32
  have v18 : FVec F S_ .f32 := (fun x v => Host.reduceAdd x v reducesTo_S16384x1_S_d0_1 h_S_) v17 cst
  have cst_2 : FVec F S_ .f32 := constant S_ .f32 0x46800000#32
  have v19 : FVec F S_ .f32 := Host.divf v18 cst_2
  have v20 : FVec F S_ .f32 := Host.negf v19
  v20

/-- The inner nodes' targets: at sample `b` and node `j`, `label mod 32 + 1` where `label / 32 = j`, else 0; with a unit
    axis behind. -/
def nodeIdxV (lab : IVec S16384 32) : IVec S16384x32x1 32 :=
  have v0 : IVec S16384 32 := Cert.HSoft.gVec lab
  have v1 : IVec S16384 32 := Cert.HSoft.wVec lab
  have v21 : IVec S16384x1 32 := (broadcastInDim S16384x1 ![0] bcast_S16384_S16384x1_0) v0
  have v22 : IVec S32 32 := iotaInDim S32 32 0
  have v23 : IVec S1x32 32 := (broadcastInDim S1x32 ![1] bcast_S32_S1x32_1) v22
  have v24 : IVec S16384x32 32 := (broadcastInDim S16384x32 ![0, 1] bcast_S16384x1_S16384x32_0_1) v21
  have v25 : IVec S16384x32 32 := (broadcastInDim S16384x32 ![0, 1] bcast_S1x32_S16384x32_0_1) v23
  have v26 : IVec S16384x32 1 := cmpi .eq v24 v25
  have c_3 : IVec S_ 32 := constantI S_ 32 1#32
  have v27 : IVec S16384 32 := (broadcastInDim S16384 ![] bcast_S_S16384) c_3
  have v28 : IVec S16384 32 := addi v1 v27
  have v29 : IVec S16384x1 32 := (broadcastInDim S16384x1 ![0] bcast_S16384_S16384x1_0) v28
  have c_4 : IVec S_ 32 := constantI S_ 32 0#32
  have w0 : IVec S_ 32 := id c_4
  have w1 : IVec S16384x32 32 := (broadcastInDim S16384x32 ![0, 1] bcast_S16384x1_S16384x32_0_1) v29
  have w2 : IVec S16384x32 32 := (broadcastInDim S16384x32 ![] bcast_S_S16384x32) w0
  have v30 : IVec S16384x32 32 := select v26 w1 w2
  have v32 : IVec S16384x32x1 32 := (broadcastInDim S16384x32x1 ![0, 1] bcast_S16384x32_S16384x32x1_0_1) v30
  v32

/-- The inner nodes' log-probabilities of their targets, one per sample and node. -/
def nodeSelV (x : FVec F S16384x2048 .f32) (lab : IVec S16384 32) (W2 : FVec F S32x33x2048 .f32) (b2 : FVec F S32x33 .f32) :
    FVec F S16384x32x1 .f32 :=
  have v10 : FVec F S16384x32x33 .f32 := logits2V x W2 b2
  have v31 : FVec F S16384x32x33 .f32 := RLsm.lsm3V v10
  have v32 : IVec S16384x32x1 32 := nodeIdxV lab
  have v33 : FVec F S16384x32x1 .f32 := RTake.take3V v31 v32
  v33

/-- The inner term: the sum over the nodes of the mean over the samples of the negated log-probabilities. -/
def nodeTermV (x : FVec F S16384x2048 .f32) (lab : IVec S16384 32) (W2 : FVec F S32x33x2048 .f32) (b2 : FVec F S32x33 .f32) :
    FVec F S_ .f32 :=
  have v33 : FVec F S16384x32x1 .f32 := nodeSelV x lab W2 b2
  have v34 : FVec F S16384x32x1 .f32 := Host.negf v33
  have v35 : FVec F S16384x32 .f32 := shapeCast S16384x32 v34 shapeCasts_S16384x32x1_S16384x32
  have cst_5 : FVec F S_ .f32 := constant S_ .f32 0x00000000#32
  have v36 : FVec F S32 .f32 := (fun x v => Host.reduceAdd x v reducesTo_S16384x32_S32_d0 h_S_) v35 cst_5
  have cst_6 : FVec F S_ .f32 := constant S_ .f32 0x46800000#32
  have v37 : FVec F S32 .f32 := (broadcastInDim S32 ![] bcast_S_S32) cst_6
  have v38 : FVec F S32 .f32 := Host.divf v36 v37
  have cst_7 : FVec F S_ .f32 := constant S_ .f32 0x00000000#32
  have v39 : FVec F S_ .f32 := (fun x v => Host.reduceAdd x v reducesTo_S32_S_d0 h_S_) v38 cst_7
  v39

/-- THE SECOND RESULT: the root term over one plus the inner term over two. -/
def penV (x : FVec F S16384x2048 .f32) (lab : IVec S16384 32) (W1 : FVec F S33x2048 .f32) (b1 : FVec F S33 .f32)
    (W2 : FVec F S32x33x2048 .f32) (b2 : FVec F S32x33 .f32) : FVec F S_ .f32 :=
  have v20 : FVec F S_ .f32 := rootTermV x lab W1 b1
  have v39 : FVec F S_ .f32 := nodeTermV x lab W2 b2
  have cst_8 : FVec F S_ .f32 := constant S_ .f32 0x3F800000#32
  have v40 : FVec F S_ .f32 := Host.divf v20 cst_8
  have cst_9 : FVec F S_ .f32 := constant S_ .f32 0x40000000#32
  have v41 : FVec F S_ .f32 := Host.divf v39 cst_9
  have v42 : FVec F S_ .f32 := addf v40 v41
  v42

end Cert.ReferenceIdeal.RefDefs

end
-- ==== Proof.RefRun.lean ====
/-
  The reference program's run, read back as the two results' composed terms of the six argument arrays.

  Every operation's equation holds between the final contents (the stage equations). Rewriting with them from a
  result buffer back towards the arguments, each buffer after every operation that reads it, expresses the
  result as the composition of the operations' functions applied to the arguments' launch contents. The
  composition is read off in the stretches the definitions of the results are written in: the label's two
  words (the unfolded floor-division and remainder), the two classifiers' logits, the first result, the two
  log-softmaxes, the two targets' columns, the two reads along the last axis, the two terms, the second result.
  Within a stretch the rewritten side and the definition's text are the same operations in the same order, so
  they agree by unfolding the definition; across stretches only the proved equations are used, never a
  comparison of whole composed terms.
-/
import proofs.«419181_j50646254354828_1_alg».proof.Proof.RefOpsEqs1
import proofs.«419181_j50646254354828_1_alg».proof.Proof.RefOpsEqs2
import proofs.«419181_j50646254354828_1_alg».proof.Proof.RefDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The label's two words -/

/-- The unfolded floor-division by 32: the truncating quotient, corrected by one where the signs differ and the
    remainder is not zero. -/
theorem v0_eq (V : Valuation τ sig (Elt F)) : Vf V main_v0 = Cert.HSoft.gVec (V (Proc.devRef .tc main_arg1)) := by
  rw [st_main_v0, st_main_call0_v13, st_main_call0_v12, st_main_call0_c_0, st_main_call0_v11,
    st_main_call0_v10, st_main_call0_v9, st_main_call0_c, st_main_call0_v8, st_main_call0_v7,
    st_main_call0_v6, st_main_call0_v5, st_main_call0_v4, st_main_call0_v3, st_main_call0_v2,
    st_main_call0_v1, st_main_call0_v0, st_main_c, st_main_arg1]
  rfl

/-- The unfolded remainder by 32 (the divisor guarded against zero): the truncating remainder, corrected by the
    divisor where it is not zero and its sign differs from the divisor's. -/
theorem v1_eq (V : Valuation τ sig (Elt F)) : Vf V main_v1 = Cert.HSoft.wVec (V (Proc.devRef .tc main_arg1)) := by
  rw [st_main_v1, st_main_call1_v14, st_main_call1_v13, st_main_call1_v12, st_main_call1_v11,
    st_main_call1_v10, st_main_call1_v9, st_main_call1_c_3, st_main_call1_v8, st_main_call1_v7,
    st_main_call1_c_2, st_main_call1_v6, st_main_call1_v5, st_main_call1_c_1, st_main_call1_v4,
    st_main_call1_v3, st_main_call1_v2, st_main_call1_c_0, st_main_call1_v1, st_main_call1_c,
    st_main_call1_v0, st_main_c_0, st_main_arg1]
  rfl

/-! ## The logits and the first result -/

theorem v6_eq (V : Valuation τ sig (Elt F)) :
    Vf V main_v6 = RefDefs.logits1V (V (Proc.devRef .tc main_arg0)) (V (Proc.devRef .tc main_arg2)) (V (Proc.devRef .tc main_arg3)) := by
  rw [st_main_v6, st_main_v5, st_main_v4, st_main_v3, st_main_v2, st_main_arg0, st_main_arg2, st_main_arg3]
  rfl

theorem v10_eq (V : Valuation τ sig (Elt F)) :
    Vf V main_v10 = RefDefs.logits2V (V (Proc.devRef .tc main_arg0)) (V (Proc.devRef .tc main_arg4)) (V (Proc.devRef .tc main_arg5)) := by
  rw [st_main_v10, st_main_v9, st_main_v8, st_main_v7, st_main_arg0, st_main_arg4, st_main_arg5]
  rfl

/-- THE FIRST RESULT. -/
theorem v12_eq (V : Valuation τ sig (Elt F)) :
    Vf V main_v12 = RefDefs.outV (V (Proc.devRef .tc main_arg0)) (V (Proc.devRef .tc main_arg4)) (V (Proc.devRef .tc main_arg5)) := by
  rw [st_main_v12, st_main_v11, v10_eq]
  rfl

/-! ## The root term -/

/-- The unfolded log-softmax of the root logits, over whatever the logits' buffer holds. -/
theorem v13_eq (V : Valuation τ sig (Elt F)) : Vf V main_v13 = RLsm.lsm2V (Vf V main_v6) := by
  rw [st_main_v13, st_main_call2_v10, st_main_call2_v9, st_main_call2_v8, st_main_call2_v7,
    st_main_call2_cst_1, st_main_call2_v6, st_main_call2_v5, st_main_call2_v4, st_main_call2_v3,
    st_main_call2_v2, st_main_call2_v1, st_main_call2_cst_0, st_main_call2_v0, st_main_call2_cst]
  rfl

theorem v16_eq (V : Valuation τ sig (Elt F)) : Vf V main_v16 = RefDefs.rootIdxV (V (Proc.devRef .tc main_arg1)) := by
  rw [st_main_v16, st_main_v15, st_main_v14, st_main_c_1, v0_eq]
  rfl

/-- The unfolded read along the last axis, over whatever the two operand buffers hold. -/
theorem v17_eq' (V : Valuation τ sig (Elt F)) :
    Vf V main_v17 = RTake.take2V (Vf V main_v13) (Vf V main_v16) := by
  rw [st_main_v17, st_main_call3_v14, st_main_call3_cst, st_main_call3_v13, st_main_call3_v12,
    st_main_call3_c_3, st_main_call3_v11, st_main_call3_v10, st_main_call3_v9, st_main_call3_v8,
    st_main_call3_v7, st_main_call3_v6, st_main_call3_c_2, st_main_call3_c_1, st_main_call3_v5,
    st_main_call3_v4, st_main_call3_v3, st_main_call3_v2, st_main_call3_c_0, st_main_call3_v1,
    st_main_call3_v0, st_main_call3_c]
  rfl

theorem v17_eq (V : Valuation τ sig (Elt F)) :
    Vf V main_v17 = RefDefs.rootSelV (V (Proc.devRef .tc main_arg0)) (V (Proc.devRef .tc main_arg1)) (V (Proc.devRef .tc main_arg2)) (V (Proc.devRef .tc main_arg3)) := by
  rw [v17_eq', v13_eq, v6_eq, v16_eq]
  rfl

theorem v20_eq (V : Valuation τ sig (Elt F)) :
    Vf V main_v20 = RefDefs.rootTermV (V (Proc.devRef .tc main_arg0)) (V (Proc.devRef .tc main_arg1)) (V (Proc.devRef .tc main_arg2)) (V (Proc.devRef .tc main_arg3)) := by
  rw [st_main_v20, st_main_v19, st_main_cst_2, st_main_v18, st_main_cst, v17_eq]
  rfl

/-! ## The inner term -/

theorem v32_eq (V : Valuation τ sig (Elt F)) : Vf V main_v32 = RefDefs.nodeIdxV (V (Proc.devRef .tc main_arg1)) := by
  rw [st_main_v32, st_main_v30, st_main_call4_v2, st_main_call4_v1, st_main_call4_v0, st_main_c_4,
    st_main_v29, st_main_v28, st_main_v27, st_main_c_3, st_main_v26, st_main_v25, st_main_v24,
    st_main_v23, st_main_v22, st_main_v21, v0_eq, v1_eq]
  rfl

/-- The unfolded log-softmax of the inner logits, over whatever the logits' buffer holds. -/
theorem v31_eq (V : Valuation τ sig (Elt F)) : Vf V main_v31 = RLsm.lsm3V (Vf V main_v10) := by
  rw [st_main_v31, st_main_call5_v10, st_main_call5_v9, st_main_call5_v8, st_main_call5_v7,
    st_main_call5_cst_1, st_main_call5_v6, st_main_call5_v5, st_main_call5_v4, st_main_call5_v3,
    st_main_call5_v2, st_main_call5_v1, st_main_call5_cst_0, st_main_call5_v0, st_main_call5_cst]
  rfl

/-- The unfolded read along the last axis, over whatever the two operand buffers hold. -/
theorem v33_eq' (V : Valuation τ sig (Elt F)) :
    Vf V main_v33 = RTake.take3V (Vf V main_v31) (Vf V main_v32) := by
  rw [st_main_v33, st_main_call6_v14, st_main_call6_cst, st_main_call6_v13, st_main_call6_v12,
    st_main_call6_c_3, st_main_call6_v11, st_main_call6_v10, st_main_call6_v9, st_main_call6_v8,
    st_main_call6_v7, st_main_call6_v6, st_main_call6_c_2, st_main_call6_c_1, st_main_call6_v5,
    st_main_call6_v4, st_main_call6_v3, st_main_call6_v2, st_main_call6_c_0, st_main_call6_v1,
    st_main_call6_v0, st_main_call6_c]
  rfl

theorem v33_eq (V : Valuation τ sig (Elt F)) :
    Vf V main_v33 = RefDefs.nodeSelV (V (Proc.devRef .tc main_arg0)) (V (Proc.devRef .tc main_arg1)) (V (Proc.devRef .tc main_arg4)) (V (Proc.devRef .tc main_arg5)) := by
  rw [v33_eq', v31_eq, v10_eq, v32_eq]
  rfl

theorem v39_eq (V : Valuation τ sig (Elt F)) :
    Vf V main_v39 = RefDefs.nodeTermV (V (Proc.devRef .tc main_arg0)) (V (Proc.devRef .tc main_arg1)) (V (Proc.devRef .tc main_arg4)) (V (Proc.devRef .tc main_arg5)) := by
  rw [st_main_v39, st_main_cst_7, st_main_v38, st_main_v37, st_main_cst_6, st_main_v36, st_main_cst_5,
    st_main_v35, st_main_v34, v33_eq]
  rfl

/-- THE SECOND RESULT. -/
theorem v42_eq (V : Valuation τ sig (Elt F)) :
    Vf V main_v42 = RefDefs.penV (V (Proc.devRef .tc main_arg0)) (V (Proc.devRef .tc main_arg1)) (V (Proc.devRef .tc main_arg2)) (V (Proc.devRef .tc main_arg3))
      (V (Proc.devRef .tc main_arg4)) (V (Proc.devRef .tc main_arg5)) := by
  rw [st_main_v42, st_main_v41, st_main_cst_9, st_main_v40, st_main_cst_8, v20_eq, v39_eq]
  rfl

/-! ## The run -/

/-- For any float values, from any memory with zero counters: every weakly fair execution of the reference
    terminates with its two results at the composed terms of the arguments' launch contents, and the six
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v12)
          = RefDefs.outV (F := F) (m ((c.tc : Thread nD τ).loc main_arg0)) (m ((c.tc : Thread nD τ).loc main_arg4))
              (m ((c.tc : Thread nD τ).loc main_arg5))
      ∧ r.2.mem ((c.tc : Thread nD τ).loc main_v42)
          = RefDefs.penV (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v12).trans (v12_eq (launchContents m c)), (h c main_v42).trans (v42_eq (launchContents m c)),
        (h c main_arg0).trans (st_main_arg0 _), (h c main_arg1).trans (st_main_arg1 _),
        (h c main_arg2).trans (st_main_arg2 _), (h c main_arg3).trans (st_main_arg3 _),
        (h c main_arg4).trans (st_main_arg4 _), (h c main_arg5).trans (st_main_arg5 _)⟩)
    (run_raw m ρ)

end Cert.ReferenceIdeal.RefRun

end
-- ==== Proof.RefLogits.lean ====
/-
  The reference's logits read at an index.

  The root logits are the samples against the transposed root weights plus the biases spread over the samples: at
  `(b, k)` the sum over the 2048 features of `x (b, d) · W1 (k, d)`, plus `b1 k`. The inner nodes' logits contract the
  samples' feature axis with the inner weights' feature axis: at `(b, j, k)` the sum over the features of
  `x (b, d) · W2 (j, k, d)`, plus `b2 (j, k)`. The first result drops slot 0 of every inner node and lays the remaining
  32 × 32 logits out as 1024 classes: entry `(b, c)` is node `c / 32`'s logit of slot `c mod 32 + 1`.
-/
import proofs.«419181_j50646254354828_1_alg».proof.Proof.RefDefs
import proofs.«419181_j50646254354828_1_alg».proof.Proof.LibPlainDot
import proofs.«419181_j50646254354828_1_alg».proof.Proof.LibHostRead
import Idealize.ShloMosaic.PureOps.Ideal.Laws
import Idealize.ShloMosaic.Lib.ValueIdx
import Idealize.ShloMosaic.Lib.Pipeline.Value

noncomputable section

namespace Cert.ReferenceIdeal.RefLogits

open Idealize.ShloMosaic Idealize.ShloMosaic.ValueIdx
open Cert.ReferenceIdeal Cert.ReferenceIdeal.Facts₀ Cert.ReferenceIdeal.Facts
open Cert.HSoft Cert.ReferenceIdeal.RefDefs
open scoped BigOperators

/-! ## The root logits -/

/-- The transposed root weights at `(d, k)` are the weights at `(k, d)`. -/
theorem w1T_apply (W1 : FVec Ideal S33x2048 .f32) (d : Fin 2048) (k : Fin 33) :
    transpose S2048x33 [1, 0] W1 transposes_S33x2048_S2048x33_1_0 (ix2 d k) = W1 (ix2 k d) := by
  refine transpose_apply _ W1 _ _ _ (fun a => ?_)
  match a with
  | ⟨0, _⟩ => rfl
  | ⟨1, _⟩ => rfl

/-- The root biases spread over the samples: at `(b, k)` the bias of slot `k`. -/
theorem b1_spread_apply (b1 : FVec Ideal S33 .f32) (b : Fin 16384) (k : Fin 33) :
    broadcastInDim S16384x33 ![0, 1] bcast_S1x33_S16384x33_0_1 (broadcastInDim S1x33 ![1] bcast_S33_S1x33_1 b1) (ix2 b k)
      = b1 (ix1 k) := by
  refine (broadcastInDim_apply _ _ _ _ (ix2 (0 : Fin 1) k) (fun a => ?_)).trans ?_
  · match a with
    | ⟨0, _⟩ => rfl
    | ⟨1, _⟩ => rfl
  · refine broadcastInDim_apply _ _ _ _ (ix1 k) (fun a => ?_)
    match a with
    | ⟨0, _⟩ => rfl

/-- THE ROOT LOGITS at `(b, k)`. -/
theorem logits1V_apply (x : FVec Ideal S16384x2048 .f32) (W1 : FVec Ideal S33x2048 .f32) (b1 : FVec Ideal S33 .f32)
    (b : Fin 16384) (k : Fin 33) : logits1V x W1 b1 (ix2 b k) = logit1 x W1 b1 b k := by
  unfold logits1V logit1
  rw [addf_apply, b1_spread_apply]
  refine congrArg (· + b1 (ix1 k)) ?_
  refine (Cert.LibPlainDot.dotGeneral_apply dot_S16384x2048_S2048x33_S16384x33_1_0_0_1_n_n rfl rfl rfl rfl rfl rfl
    none .single x _ b k).trans ?_
  exact Finset.sum_congr rfl fun d _ => congrArg (x (ix2 b d) * ·) (w1T_apply W1 d k)

/-! ## The inner nodes' logits -/

/-- The contraction of the inner product has one axis … -/
theorem dot2_rank : dot_S16384x2048_S32x33x2048_S16384x32x33_1_2_0_01_n_n.contr.rank = 1 := rfl
/-- … the 2048 features. -/
theorem dot2_size :
    dot_S16384x2048_S32x33x2048_S16384x32x33_1_2_0_01_n_n.contr.size ⟨0, by rw [dot2_rank]; exact Nat.one_pos⟩ = 2048 := rfl

/-- At result index `(b, j, k)` and feature `d` the samples are read at `(b, d)`. -/
theorem dot2_lhs (b : Fin 16384) (j : Fin 32) (k : Fin 33) (d : Fin 2048) :
    dot_S16384x2048_S32x33x2048_S16384x32x33_1_2_0_01_n_n.lhsIdx (ix3 b j k)
      ((contrEquiv1 dot_S16384x2048_S32x33x2048_S16384x32x33_1_2_0_01_n_n 2048 dot2_rank dot2_size).symm d) = ix2 b d := by
  funext a
  apply Fin.ext
  match a with
  | ⟨0, _⟩ => rfl
  | ⟨1, _⟩ => rfl

/-- At result index `(b, j, k)` and feature `d` the inner weights are read at `(j, k, d)`. -/
theorem dot2_rhs (b : Fin 16384) (j : Fin 32) (k : Fin 33) (d : Fin 2048) :
    dot_S16384x2048_S32x33x2048_S16384x32x33_1_2_0_01_n_n.rhsIdx (ix3 b j k)
      ((contrEquiv1 dot_S16384x2048_S32x33x2048_S16384x32x33_1_2_0_01_n_n 2048 dot2_rank dot2_size).symm d) = ix3 j k d := by
  funext a
  apply Fin.ext
  match a with
  | ⟨0, _⟩ => rfl
  | ⟨1, _⟩ => rfl
  | ⟨2, _⟩ => rfl

/-- The inner biases spread over the samples: at `(b, j, k)` the bias of node `j`, slot `k`. -/
theorem b2_spread_apply (b2 : FVec Ideal S32x33 .f32) (b : Fin 16384) (j : Fin 32) (k : Fin 33) :
    broadcastInDim S16384x32x33 ![0, 1, 2] bcast_S1x32x33_S16384x32x33_0_1_2
      (broadcastInDim S1x32x33 ![1, 2] bcast_S32x33_S1x32x33_1_2 b2) (ix3 b j k) = b2 (ix2 j k) := by
  refine (broadcastInDim_apply _ _ _ _ (ix3 (0 : Fin 1) j k) (fun a => ?_)).trans ?_
  · match a with
    | ⟨0, _⟩ => rfl
    | ⟨1, _⟩ => rfl
    | ⟨2, _⟩ => rfl
  · refine broadcastInDim_apply _ _ _ _ (ix2 j k) (fun a => ?_)
    match a with
    | ⟨0, _⟩ => rfl
    | ⟨1, _⟩ => rfl

/-- THE INNER NODES' LOGITS at `(b, j, k)`. -/
theorem logits2V_apply (x : FVec Ideal S16384x2048 .f32) (W2 : FVec Ideal S32x33x2048 .f32) (b2 : FVec Ideal S32x33 .f32)
    (b : Fin 16384) (j : Fin 32) (k : Fin 33) : logits2V x W2 b2 (ix3 b j k) = logit2 x W2 b2 b j k := by
  unfold logits2V logit2
  rw [addf_apply, b2_spread_apply]
  refine congrArg (· + b2 (ix2 j k)) ?_
  refine (Ideal.dotGeneral_apply dot_S16384x2048_S32x33x2048_S16384x32x33_1_2_0_01_n_n none .single x W2 (ix3 b j k)).trans ?_
  rw [← Equiv.sum_comp (contrEquiv1 dot_S16384x2048_S32x33x2048_S16384x32x33_1_2_0_01_n_n 2048 dot2_rank dot2_size).symm]
  exact Finset.sum_congr rfl fun d _ => by rw [dot2_lhs, dot2_rhs]

/-! ## The first result -/

/-- The inner logits without slot 0: at `(b, j, w)` the logit of slot `w + 1`. -/
theorem slice_apply {α : Type} (v : S16384x32x33.Idx → α) (b : Fin 16384) (j : Fin 32) (w : Fin 32) :
    extractStridedSlice S16384x32x32 ![0, 0, 1] v slices_S16384x32x33_S16384x32x32_0_0_1 (ix3 b j w)
      = v (ix3 b j ⟨w.val + 1, by omega⟩) := by
  unfold extractStridedSlice
  refine congrArg v (funext fun a => Fin.ext ?_)
  match a with
  | ⟨0, _⟩ =>
    show 0 + b.val = b.val
    exact Nat.zero_add _
  | ⟨1, _⟩ =>
    show 0 + j.val = j.val
    exact Nat.zero_add _
  | ⟨2, _⟩ =>
    show 1 + w.val = w.val + 1
    exact Nat.add_comm _ _

/-- THE FIRST RESULT: entry `(b, c)` is inner node `c / 32`'s logit of slot `c mod 32 + 1` on sample `b`. -/
theorem outV_eq (x : FVec Ideal S16384x2048 .f32) (W2 : FVec Ideal S32x33x2048 .f32) (b2 : FVec Ideal S32x33 .f32) :
    outV x W2 b2 = fun i => outSpec x W2 b2 i := by
  funext i
  obtain ⟨r, q, rfl⟩ : ∃ (r : Fin 16384) (q : Fin 1024), i = ix2 r q := ⟨i 0, i 1, eq_ix2 i⟩
  unfold outV outSpec
  -- the 1024 classes of a sample are its 32 nodes of 32 leaves in row-major order
  refine (Cert.LibHostRead.reshape_pairs_apply (n := 16384) (a := 32) (b := 32) (c := 1024) rfl (by decide) _ _ r q).trans ?_
  refine ((slice_apply (logits2V x W2 b2) r _ _).trans (logits2V_apply x W2 b2 r _ _)).trans ?_
  rfl

end Cert.ReferenceIdeal.RefLogits

end
-- ==== Proof.RefReadRoot.lean ====
/-
  The root term of the penalty, read off the reference's text.

  For labels whose root target `label / 32 + 1` is one of the 33 slots, the reference's root term is minus the mean over
  the 16384 samples of the root classifier's log-probability of the sample's target: the target column holds the word
  `label / 32 + 1`; reading the log-softmax of the root logits along its last axis at that word gives the log-softmax of
  the sample's 33 logits at the slot; the sum over both axes of the resulting one-column array, from zero, is the sum over
  the samples; and the quotient by 16384 and the negation are the host's, entry by entry.
-/
import proofs.«419181_j50646254354828_1_alg».proof.Proof.RefDefs
import Idealize.ShloMosaic.PureOps.Ideal.Laws
import Idealize.ShloMosaic.Lib.ValueIdx
import Mathlib.Algebra.BigOperators.Fin

noncomputable section

namespace Cert.ReferenceIdeal.RefReadRoot

open Idealize.ShloMosaic Idealize.ShloMosaic.ValueIdx
open Cert.HSoft Cert.ReferenceIdeal.RefDefs
open Cert.ReferenceIdeal Cert.ReferenceIdeal.Facts₀ Cert.ReferenceIdeal.Facts
open scoped BigOperators

/-! ## Entry by entry -/

/-- The host's negation and quotient act entry by entry. -/
theorem hostNegf_apply {s : Shape} (x : FVec Ideal s .f32) (i : s.Idx) : Host.negf x i = -(x i) := rfl
theorem hostDivf_apply {s : Shape} (x y : FVec Ideal s .f32) (i : s.Idx) : Host.divf x y i = Ideal.div (x i) (y i) := rfl

/-- The log-softmax at the word of a slot is the log-softmax at the slot. -/
theorem lsmAt_slot (v : Fin 33 → EReal) (n : Fin 33) : lsmAt v (BitVec.ofNat 32 n.val) = lsm v n := by
  have hval : (BitVec.ofNat 32 n.val).toNat = n.val := by
    rw [BitVec.toNat_ofNat]
    exact Nat.mod_eq_of_lt (by have := n.isLt; omega)
  unfold lsmAt
  rw [dif_pos (by rw [hval]; exact n.isLt)]
  exact congrArg (lsm v) (Fin.ext hval)

/-- The root target column holds, for sample `b`, the word `label / 32 + 1`. -/
theorem rootIdxV_apply (lab : IVec S16384 32) (b : Fin 16384) : rootIdxV lab (ix2 b (0 : Fin 1)) = gW lab b + 1#32 := by
  unfold rootIdxV
  refine (RLsm.bcast_n_n1_apply _ _ b 0).trans ?_
  rfl

/-- The root log-probability read for sample `b` is the log-softmax of the sample's 33 root logits at its target. -/
theorem rootSelV_apply (x : FVec Ideal S16384x2048 .f32) (lab : IVec S16384 32) (W1 : FVec Ideal S33x2048 .f32)
    (b1 : FVec Ideal S33 .f32) (hr : InRange lab)
    (hlog : ∀ (b : Fin 16384) (k : Fin 33), logits1V x W1 b1 (ix2 b k) = logit1 x W1 b1 b k) (b : Fin 16384) :
    rootSelV x lab W1 b1 (ix2 b (0 : Fin 1)) = sel1 x W1 b1 (gW lab) b := by
  obtain ⟨n, hn⟩ := hr.root b
  unfold rootSelV
  refine (RTake.take2V_apply _ _ b n ((rootIdxV_apply lab b).trans hn)).trans ?_
  refine (RLsm.lsm2V_apply _ b n).trans ?_
  have hrow : (fun k' => logits1V x W1 b1 (ix2 b k')) = logit1 x W1 b1 b := funext (fun k' => hlog b k')
  rw [hrow]
  unfold sel1
  rw [hn]
  exact (lsmAt_slot _ n).symm

/-! ## The root term -/

/-- The root term, given the root logits entry by entry. -/
theorem rootTermV_eq_of (x : FVec Ideal S16384x2048 .f32) (lab : IVec S16384 32) (W1 : FVec Ideal S33x2048 .f32)
    (b1 : FVec Ideal S33 .f32) (hr : InRange lab)
    (hlog : ∀ (b : Fin 16384) (k : Fin 33), logits1V x W1 b1 (ix2 b k) = logit1 x W1 b1 b k) :
    rootTermV x lab W1 b1 = fun _ => -(Ideal.div (∑ b : Fin 16384, sel1 x W1 b1 (gW lab) b) c16384) := by
  funext i
  unfold rootTermV
  dsimp only
  refine (hostNegf_apply _ _).trans ?_
  refine congrArg (fun z : EReal => -z) ?_
  refine (hostDivf_apply _ _ _).trans ?_
  unfold c16384
  refine congrArg (fun z : EReal => Ideal.div z (Ideal.ofBits .f32 0x46800000#32)) ?_
  -- the sum over both axes of the one-column array, from zero, is the sum over the samples
  refine (Ideal.hostReduceAdd_total reducesTo_S16384x1_S_d0_1 (fun a => a.elim0) _ _ i).trans ?_
  refine (congrArg (fun z : EReal => z + ∑ i' : S16384x1.Idx, rootSelV x lab W1 b1 i') Ideal.ofBits_zero_f32).trans ?_
  refine (zero_add _).trans ?_
  refine (sum_idx2 _).trans ?_
  refine Fintype.sum_congr _ _ (fun b => ?_)
  refine (Fin.sum_univ_one _).trans ?_
  exact rootSelV_apply x lab W1 b1 hr hlog b

end Cert.ReferenceIdeal.RefReadRoot

end
-- ==== Proof.RefReadNodes.lean ====
/-
  The inner term of the reference's penalty, read index by index.

  The reference builds, for every sample `b` and inner node `j`, a target slot: it compares the sample's node word
  `label / 32` with `j` and takes `label mod 32 + 1` where they agree and slot 0 elsewhere. It reads the log-softmax of
  node `j`'s 33 logits at that slot, negates it, sums over the samples node by node, divides each node's total by the
  number of samples, and sums the 32 quotients. Here each of those steps is read at an index: the target is the spec's
  `subLabel`; the value read is the spec's `sel2` whenever the target names one of the 33 slots; and the two sums are
  finite sums over the samples and over the nodes, the zeros they start from dropping out.
-/
import proofs.«419181_j50646254354828_1_alg».proof.ReferenceIdeal
import proofs.«419181_j50646254354828_1_alg».proof.Proof.Gen.ReferenceIdeal
import proofs.«419181_j50646254354828_1_alg».proof.Proof.Spec
import proofs.«419181_j50646254354828_1_alg».proof.Proof.LabelWords
import proofs.«419181_j50646254354828_1_alg».proof.Proof.RLsm
import proofs.«419181_j50646254354828_1_alg».proof.Proof.RTake
import proofs.«419181_j50646254354828_1_alg».proof.Proof.RefDefs
import proofs.«419181_j50646254354828_1_alg».proof.Proof.RefLogits
import proofs.«419181_j50646254354828_1_alg».proof.Proof.LibHostRead
import Idealize.ShloMosaic.PureOps.Reduce
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

namespace Cert.ReferenceIdeal.RefReadNodes

open Idealize.ShloMosaic Idealize.ShloMosaic.ValueIdx
open Cert.ReferenceIdeal Cert.ReferenceIdeal.Facts₀ Cert.ReferenceIdeal.Facts
open Cert.HSoft Cert.ReferenceIdeal.RefDefs
open scoped BigOperators

/-! ## Broadcasts read at an index -/

/-- A column: an `[n]` array spread along a new unit last axis reads, at `(b, u)`, the operand at `b`. -/
theorem bcast_col_apply {α : Type} (v : S16384.Idx → α) (b : Fin 16384) (u : Fin 1) :
    broadcastInDim S16384x1 ![0] bcast_S16384_S16384x1_0 v (ix2 b u) = v (ix1 b) := by
  refine broadcastInDim_apply _ _ v _ _ (fun a => ?_)
  match a with
  | ⟨0, _⟩ => rfl

/-- A column spread over 32 nodes reads, at `(b, j)`, the column at `(b, 0)`. -/
theorem bcast_col32_apply {α : Type} (v : S16384x1.Idx → α) (b : Fin 16384) (j : Fin 32) :
    broadcastInDim S16384x32 ![0, 1] bcast_S16384x1_S16384x32_0_1 v (ix2 b j) = v (ix2 b (0 : Fin 1)) := by
  refine broadcastInDim_apply _ _ v _ _ (fun a => ?_)
  match a with
  | ⟨0, _⟩ => rfl
  | ⟨1, _⟩ => rfl

/-- A row of 32 given a unit leading axis reads, at `(u, j)`, the row at `j`. -/
theorem bcast_row_apply {α : Type} (v : S32.Idx → α) (u : Fin 1) (j : Fin 32) :
    broadcastInDim S1x32 ![1] bcast_S32_S1x32_1 v (ix2 u j) = v (ix1 j) := by
  refine broadcastInDim_apply _ _ v _ _ (fun a => ?_)
  match a with
  | ⟨0, _⟩ => rfl

/-- A one-row array spread over the samples reads, at `(b, j)`, the row at `(0, j)`. -/
theorem bcast_row16384_apply {α : Type} (v : S1x32.Idx → α) (b : Fin 16384) (j : Fin 32) :
    broadcastInDim S16384x32 ![0, 1] bcast_S1x32_S16384x32_0_1 v (ix2 b j) = v (ix2 (0 : Fin 1) j) := by
  refine broadcastInDim_apply _ _ v _ _ (fun a => ?_)
  match a with
  | ⟨0, _⟩ => rfl
  | ⟨1, _⟩ => rfl

/-- A comparison of two arrays of words, at an index. -/
theorem cmpi_at {s : Shape} {w : Nat} (p : CmpIPredicate) (x y : IVec s w) (i : s.Idx) :
    cmpi p x y i = IntOp.cmpi p (x i) (y i) := rfl

/-- A sum of two arrays of words, at an index. -/
theorem addi_at {s : Shape} {w : Nat} (x y : IVec s w) (i : s.Idx) : addi x y i = x i + y i := rfl

/-- The inner nodes' targets at sample `b`, node `j`: the leaf word plus one where the sample's node word is `j`,
    zero elsewhere. -/
theorem nodeIdxV_apply (lab : IVec S16384 32) (b : Fin 16384) (j : Fin 32) :
    nodeIdxV lab (ix3 b j (0 : Fin 1)) = subLabel (gW lab b) (wW lab b) j := by
  unfold nodeIdxV
  dsimp only
  rw [LibHostRead.bcast_pairs_apply, select_apply, bcast_col32_apply, bcast_col_apply, broadcastInDim_scalar_apply,
    cmpi_at, bcast_col32_apply, bcast_col_apply, bcast_row16384_apply, bcast_row_apply, iotaInDim_apply, addi_at,
    broadcastInDim_scalar_apply]
  rfl

/-! ## The log-probabilities of the targets -/

/-- The log-softmax at the slot a word names, when the word is the slot `n`. -/
theorem lsmAt_ofNat (v : Fin 33 → EReal) (n : Fin 33) : lsmAt v (BitVec.ofNat 32 n.val) = lsm v n := by
  have hn : (BitVec.ofNat 32 n.val).toNat = n.val := by
    rw [BitVec.toNat_ofNat]
    exact Nat.mod_eq_of_lt (by have := n.isLt; omega)
  unfold lsmAt
  rw [dif_pos (by rw [hn]; exact n.isLt)]
  exact congrArg (lsm v) (Fin.ext hn)

/-- Node `j`'s log-probability of its target for sample `b`, as the reference reads it: the log-softmax of the node's 33
    logits at the target slot. -/
theorem nodeSelV_apply (x : FVec Ideal S16384x2048 .f32) (lab : IVec S16384 32) (W2 : FVec Ideal S32x33x2048 .f32)
    (b2 : FVec Ideal S32x33 .f32) (hr : InRange lab)
    (hlog : ∀ (b : Fin 16384) (j : Fin 32) (k : Fin 33), logits2V x W2 b2 (ix3 b j k) = logit2 x W2 b2 b j k)
    (b : Fin 16384) (j : Fin 32) :
    nodeSelV x lab W2 b2 (ix3 b j (0 : Fin 1)) = sel2 x W2 b2 (gW lab) (wW lab) b j := by
  obtain ⟨n, hn⟩ := hr.node b j
  unfold nodeSelV
  refine (RTake.take3V_apply _ _ b j n ((nodeIdxV_apply lab b j).trans hn)).trans ?_
  refine (RLsm.lsm3V_apply _ b j n).trans ?_
  unfold sel2
  rewrite [hn, lsmAt_ofNat]
  exact congrArg (fun v => lsm v n) (funext fun k' => hlog b j k')

/-! ## The sums -/

/-- An `[n, 32, 1]` array laid out as `[n, 32]` reads, at `(b, j)`, the operand at `(b, j, 0)`. -/
theorem dropUnit_apply {α : Type} (v : S16384x32x1.Idx → α) (b : Fin 16384) (j : Fin 32) :
    shapeCast S16384x32 v shapeCasts_S16384x32x1_S16384x32 (ix2 b j) = v (ix3 b j (0 : Fin 1)) :=
  shapeCast_apply v _ _ _ (by
    rw [Shape.rowMajor_val_three, Shape.rowMajor_val_two]
    show (b.val * 32 + j.val) * 1 + 0 = b.val * 32 + j.val
    omega)

/-- Over node `j`, the index with sample `b` put back on the summed axis is `(b, j)`. -/
theorem lift_d0 (h : S16384x32.Reduces [0] S32) (j : Fin 32) (b : Fin 16384) : h.lift (ix1 j) b = ix2 b j := by
  funext c
  apply Fin.ext
  match c with
  | ⟨0, _⟩ => rfl
  | ⟨1, _⟩ => rfl

/-- The sum over the samples, node by node: at node `j`, the initial value plus the sum over `b` of the array at `(b, j)`. -/
theorem sum_d0_apply (v : FVec Ideal S16384x32 .f32) (init : FVec Ideal S_ .f32) (j : Fin 32) :
    Host.reduceAdd v init reducesTo_S16384x32_S32_d0 h_S_ (ix1 j) = init ix0 + ∑ b : Fin 16384, v (ix2 b j) := by
  have h : S16384x32.Reduces [0] S32 := by decide
  refine (hostReduceAdd_apply v init _ _ _).trans ?_
  refine (Ideal.hostReduceAdd_single reducesTo_S16384x32_S32_d0 h v _ (ix1 j)).trans ?_
  exact congrArg₂ (· + ·) (congrArg init (eq_ix0 _)) (Finset.sum_congr rfl (fun b _ => congrArg v (lift_d0 h j b)))

/-- The sum over the 32 nodes: the initial value plus the sum over `j` of the array at `j`. -/
theorem sum_nodes_apply (v : FVec Ideal S32 .f32) (init : FVec Ideal S_ .f32) (i : S_.Idx) :
    Host.reduceAdd v init reducesTo_S32_S_d0 h_S_ i = init ix0 + ∑ j : Fin 32, v (ix1 j) := by
  refine (hostReduceAdd_apply v init _ _ _).trans ?_
  refine (Ideal.hostReduceAdd_total reducesTo_S32_S_d0 (fun b => b.elim0) v _ i).trans ?_
  exact congrArg₂ (· + ·) (congrArg init (eq_ix0 _)) (Equiv.sum_comp (idxEquiv1 (n := 32)).symm v).symm

/-- The inner term, given the inner logits entry by entry. -/
theorem nodeTermV_eq_of (x : FVec Ideal S16384x2048 .f32) (lab : IVec S16384 32) (W2 : FVec Ideal S32x33x2048 .f32)
    (b2 : FVec Ideal S32x33 .f32) (hr : InRange lab)
    (hlog : ∀ (b : Fin 16384) (j : Fin 32) (k : Fin 33), logits2V x W2 b2 (ix3 b j k) = logit2 x W2 b2 b j k) :
    nodeTermV x lab W2 b2
      = fun _ => ∑ j : Fin 32, Ideal.div (∑ b : Fin 16384, -(sel2 x W2 b2 (gW lab) (wW lab) b j)) c16384 := by
  funext i
  unfold nodeTermV
  refine (sum_nodes_apply _ _ i).trans ?_
  rewrite [constant_apply, Ideal.ofBits_zero_f32, zero_add]
  refine Finset.sum_congr rfl (fun j _ => ?_)
  refine (hostDivf_apply _ _ (ix1 j)).trans ?_
  beta_reduce
  rewrite [sum_d0_apply, constant_apply, Ideal.ofBits_zero_f32, zero_add, broadcastInDim_scalar_apply, constant_apply]
  unfold c16384
  refine congrArg₂ Ideal.div (Finset.sum_congr rfl (fun b _ => ?_)) rfl
  rewrite [dropUnit_apply]
  exact congrArg Neg.neg (nodeSelV_apply x lab W2 b2 hr hlog b j)

/-- THE INNER TERM: the sum over the nodes of the mean over the samples of the negated log-probabilities of the targets. -/
theorem nodeTermV_eq (x : FVec Ideal S16384x2048 .f32) (lab : IVec S16384 32) (W2 : FVec Ideal S32x33x2048 .f32)
    (b2 : FVec Ideal S32x33 .f32) (hr : InRange lab) :
    nodeTermV x lab W2 b2
      = fun _ => ∑ j : Fin 32, Ideal.div (∑ b : Fin 16384, -(sel2 x W2 b2 (gW lab) (wW lab) b j)) c16384 :=
  nodeTermV_eq_of x lab W2 b2 hr (RefLogits.logits2V_apply x W2 b2)

end Cert.ReferenceIdeal.RefReadNodes

end
-- ==== Proof.RefRead.lean ====
/-
  The reference's two results against the mathematics.

  The first result is the inner logits without slot 0, 1024 classes per sample: the spec's `outSpec`. The second is the
  root term over one plus the inner term over two; with the root term minus the mean of the root log-probabilities of
  the targets and the inner term the sum over the nodes of the mean negated log-probabilities of the targets, that is
  the spec's penalty by means, `penMeans`, of the selected log-probabilities `sel1` and `sel2`.
-/
import proofs.«419181_j50646254354828_1_alg».proof.ReferenceIdeal
import proofs.«419181_j50646254354828_1_alg».proof.Proof.Gen.ReferenceIdeal
import proofs.«419181_j50646254354828_1_alg».proof.Proof.Spec
import proofs.«419181_j50646254354828_1_alg».proof.Proof.LabelWords
import proofs.«419181_j50646254354828_1_alg».proof.Proof.RefDefs
import proofs.«419181_j50646254354828_1_alg».proof.Proof.RefLogits
import proofs.«419181_j50646254354828_1_alg».proof.Proof.RefReadRoot
import proofs.«419181_j50646254354828_1_alg».proof.Proof.RefReadNodes
import Idealize.ShloMosaic.PureOps.Ideal.Laws
import Idealize.ShloMosaic.Lib.ValueIdx
import Idealize.ShloMosaic.Lib.IdealHost

noncomputable section

namespace Cert.ReferenceIdeal.RefRead

open Idealize.ShloMosaic Idealize.ShloMosaic.ValueIdx
open Cert.ReferenceIdeal Cert.ReferenceIdeal.Facts₀ Cert.ReferenceIdeal.Facts
open Cert.HSoft Cert.ReferenceIdeal.RefDefs
open scoped BigOperators

/-- THE FIRST RESULT is the spec's: entry `(b, c)` is inner node `c / 32`'s logit of slot `c mod 32 + 1` on sample `b`. -/
theorem outV_eq (x : FVec Ideal S16384x2048 .f32) (W2 : FVec Ideal S32x33x2048 .f32) (b2 : FVec Ideal S32x33 .f32) :
    RefDefs.outV x W2 b2 = fun i => Cert.HSoft.outSpec x W2 b2 i :=
  RefLogits.outV_eq x W2 b2

/-- THE SECOND RESULT is the spec's penalty by means of the selected log-probabilities, for labels whose every target
    slot exists. -/
theorem penV_eq (x : FVec Ideal S16384x2048 .f32) (lab : IVec S16384 32) (W1 : FVec Ideal S33x2048 .f32)
    (b1 : FVec Ideal S33 .f32) (W2 : FVec Ideal S32x33x2048 .f32) (b2 : FVec Ideal S32x33 .f32)
    (hr : Cert.HSoft.InRange lab) :
    RefDefs.penV x lab W1 b1 W2 b2
      = fun _ => Cert.HSoft.penMeans (Cert.HSoft.sel1 x W1 b1 (Cert.HSoft.gW lab))
          (Cert.HSoft.sel2 x W2 b2 (Cert.HSoft.gW lab) (Cert.HSoft.wW lab)) := by
  funext i
  unfold penV
  refine (addf_apply _ _ i).trans ?_
  unfold penMeans
  refine congrArg₂ (· + ·) ?_ ?_
  · refine (hostDivf_apply _ _ i).trans ?_
    exact congrArg₂ Ideal.div
      (congrFun (RefReadRoot.rootTermV_eq_of x lab W1 b1 hr (RefLogits.logits1V_apply x W1 b1)) i) rfl
  · refine (hostDivf_apply _ _ i).trans ?_
    exact congrArg₂ Ideal.div (congrFun (RefReadNodes.nodeTermV_eq x lab W2 b2 hr) i) rfl

end Cert.ReferenceIdeal.RefRead

end
-- ==== Proof.lean ====
/-
  A two-layer hierarchical softmax over 16384 samples: the kernel streams the samples through 16 grid points of 1024
  rows, writes each point's block of raw leaf logits, and keeps two running totals of cross-entropies (the root
  classifier's and the 32 inner-node classifiers') that the last point scales by 2^-14 — and the inner-node total by
  one half — into a penalty. The reference computes the same leaf logits with one batched product and the penalty as
  a mean over the samples of gathered log-probabilities.

  On the extended reals the leaf logits agree entry by entry for every input. The penalties agree where every
  float input is a real number and every label is a class number 0 … 1023: the kernel picks a log-probability with a
  one-hot row (zero when the target slot does not exist) while the reference gathers it (not a number when the slot
  does not exist), and for a label in range both are the log-probability at the slot; summing 16 blocks of 1024 real
  numbers and scaling by 2^-14 is taking the mean over the 16384.

  The three frames: the two kernel programs' are the frame certificate's; the reference's is its run with the
  results dropped. No operation was rewritten between the kernel and its idealization.
-/
import proofs.«419181_j50646254354828_1_alg».proof.Defs
import proofs.«419181_j50646254354828_1_alg».proof.Proof.Gen.Kernel
import proofs.«419181_j50646254354828_1_alg».proof.Proof.Gen.Kernel.Frame
import proofs.«419181_j50646254354828_1_alg».proof.Proof.Gen.KernelIdeal
import proofs.«419181_j50646254354828_1_alg».proof.Proof.Gen.KernelIdeal.Frame
import proofs.«419181_j50646254354828_1_alg».proof.Proof.Gen.ReferenceIdeal
import proofs.«419181_j50646254354828_1_alg».proof.Proof.Gen.Pre_finite_inputs
import proofs.«419181_j50646254354828_1_alg».proof.Proof.Spec
import proofs.«419181_j50646254354828_1_alg».proof.Proof.LabelWords
import proofs.«419181_j50646254354828_1_alg».proof.Proof.Bridge
import proofs.«419181_j50646254354828_1_alg».proof.Proof.PreFacts
import proofs.«419181_j50646254354828_1_alg».proof.Proof.KValue
import proofs.«419181_j50646254354828_1_alg».proof.Proof.RefRun
import proofs.«419181_j50646254354828_1_alg».proof.Proof.RefRead
import Idealize.ShloMosaic.Adequacy
import Idealize.ShloMosaic.Init

noncomputable section

namespace Cert.Proof

open Idealize.ShloMosaic Idealize.SL.Sem

/-- The word-level kernel runs and keeps its arguments: the frame certificate. -/
theorem frame_k : Cert.frame_Kernel := fun m ρ _ => Cert.Kernel.Gen.frame m ρ

/-- The idealized kernel runs and keeps its arguments: the frame certificate. -/
theorem frame_ki : Cert.frame_KernelIdeal := fun m ρ _ => Cert.KernelIdeal.Gen.frame m ρ

/-- The reference runs and keeps its arguments: its run, the two results dropped. -/
theorem frame_ri : Cert.frame_ReferenceIdeal := fun m ρ _ =>
  (θ_run Cert.ReferenceIdeal.defs _ _).mono (fun _ h c => (h c).2.2) (Cert.ReferenceIdeal.RefRun.run m ρ)

/-- The idealization rewrote nothing. -/
theorem preserves : Cert.preserves_Kernel_KernelIdeal := trivial

/-- From memories that agree on the arguments, under the precondition, both idealized programs end with the
    specification's leaf logits and with one penalty: the kernel's block-by-block arrangement is the reference's
    arrangement by means because every selected log-probability is a real number, and the reference's gathers hit
    existing slots because every label is a class number. -/
theorem algebraic : Cert.algebraic_KernelIdeal_ReferenceIdeal := by
  intro m ρ m' ρ' hpre hagree
  refine ⟨fun c i => Cert.HSoft.outSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) i,
    fun c _ => Cert.HSoft.penBlocks
      (Cert.HSoft.sel1 (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (Cert.HSoft.gW (m ((c.tc : Thread Cert.KernelIdeal.nD Cert.KernelIdeal.τ).loc Cert.KernelIdeal.main_arg1))))
      (Cert.HSoft.sel2 (m ((c.tc : Thread Cert.KernelIdeal.nD Cert.KernelIdeal.τ).loc Cert.KernelIdeal.main_arg0))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (Cert.HSoft.gW (m ((c.tc : Thread Cert.KernelIdeal.nD Cert.KernelIdeal.τ).loc Cert.KernelIdeal.main_arg1)))
        (Cert.HSoft.wW (m ((c.tc : Thread Cert.KernelIdeal.nD Cert.KernelIdeal.τ).loc Cert.KernelIdeal.main_arg1)))),
    Cert.KernelIdeal.KV.run m ρ, ?_⟩
  refine (θ_run Cert.ReferenceIdeal.defs _ _).mono (fun r h c => ⟨(h c).1.trans ?_, (h c).2.1.trans ?_, (h c).2.2⟩)
    (Cert.ReferenceIdeal.RefRun.run m' ρ')
  · -- the leaf logits: the reference's term is the specification's, at arguments that agree
    rw [(hagree c).1, (hagree c).2.2.2.2.1, (hagree c).2.2.2.2.2]
    exact Cert.ReferenceIdeal.RefRead.outV_eq _ _ _
  · -- the penalty: the labels are class numbers, so the gathers hit slots; the inputs are reals, so the two
    -- arrangements of the sums agree
    rw [(hagree c).1, (hagree c).2.1, (hagree c).2.2.1, (hagree c).2.2.2.1, (hagree c).2.2.2.2.1, (hagree c).2.2.2.2.2]
    have hR := Cert.HSoft.reals_of_pre _ _ _ _ _ _ (hpre c)
    rw [Cert.ReferenceIdeal.RefRead.penV_eq _ _ _ _ _ _ (Cert.HSoft.inRange_of_pre _ _ _ _ _ _ (hpre c))]
    funext _
    exact (Cert.HSoft.penalty_eq _ _ _ _ _ _ _ hR.1 hR.2.1 hR.2.2.1 hR.2.2.2.1 hR.2.2.2.2).symm

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
